-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S3072x8192 : Shape := ⟨2, ![3072, 8192]⟩
abbrev S8192 : Shape := ⟨1, ![8192]⟩
abbrev S8192x8192 : Shape := ⟨2, ![8192, 8192]⟩
abbrev S8192x10 : Shape := ⟨2, ![8192, 10]⟩
abbrev S10 : Shape := ⟨1, ![10]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S3072x8192 : S_.BroadcastsInDim S3072x8192 (![] : Fin 0 → Fin S3072x8192.rank)
  reducesTo_S3072x8192_S_d0_1 : S3072x8192.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192x10 : S_.BroadcastsInDim S8192x10 (![] : Fin 0 → Fin S8192x10.rank)
  reducesTo_S8192x10_S_d0_1 : S8192x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8192x10 .f32) (main_arg12 : FVec F S10 .f32) (main_arg13 : FVec F S10 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192x10 .f32 := Host.absf main_arg11
  let main_cst_20 : FVec F S_ .f32 := constant S_ .f32 0x7F800000#32
  let main_v55 : FVec F S8192x10 .f32 := broadcastInDim S8192x10 ![] bcast_S_S8192x10 main_cst_20
  let main_v56 : IVec S8192x10 1 := cmpf .olt main_v54 main_v55
  let main_c_21 : IVec S_ 1 := constantI S_ 1 1#1
  let main_v57 : IVec S_ 1 := (fun x v => Host.reduce IntOp.andi x v reducesTo_S8192x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg7 : FVec F S8192 .f32) (main_arg8 : FVec F S8192 .f32) (main_arg9 : FVec F S8192 .f32) (main_arg10 : FVec F S8192 .f32) (main_arg11 : FVec F S8192x10 .f32) (main_arg12 : FVec F S10 .f32) (main_arg13 : FVec F S10 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_arg12 main_arg13 main_v48 main_v49 main_v50

def fn_part1 {F : FTy → Type} [FloatOps F] (main_arg4 : FVec F S8192 .f32) (main_arg5 : FVec F S8192 .f32) (main_arg6 : FVec F S8192x8192 .f32) (main_arg7 : FVec F S8192 .f32) (main_arg8 : FVec F S8192 .f32) (main_arg9 : FVec F S8192 .f32) (main_arg10 : FVec F S8192 .f32) (main_arg11 : FVec F S8192x10 .f32) (main_arg12 : FVec F S10 .f32) (main_arg13 : FVec F S10 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x3072 .f32) (main_arg1 : FVec F S3072x8192 .f32) (main_arg2 : FVec F S8192 .f32) (main_arg3 : FVec F S8192 .f32) (main_arg4 : FVec F S8192 .f32) (main_arg5 : FVec F S8192 .f32) (main_arg6 : FVec F S8192x8192 .f32) (main_arg7 : FVec F S8192 .f32) (main_arg8 : FVec F S8192 .f32) (main_arg9 : FVec F S8192 .f32) (main_arg10 : FVec F S8192 .f32) (main_arg11 : FVec F S8192x10 .f32) (main_arg12 : FVec F S10 .f32) (main_arg13 : FVec F S10 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S3072x8192 .f32 := Host.absf main_arg1
  let main_cst_0 : FVec F S_ .f32 := constant S_ .f32 0x7F800000#32
  let main_v5 : FVec F S3072x8192 .f32 := broadcastInDim S3072x8192 ![] bcast_S_S3072x8192 main_cst_0
  let main_v6 : IVec S3072x8192 1 := cmpf .olt main_v4 main_v5
  let main_c_1 : IVec S_ 1 := constantI S_ 1 1#1
  let main_v7 : IVec S_ 1 := (fun x v => Host.reduce IntOp.andi x v reducesTo_S3072x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x3072 : Shape := ⟨2, ![8192, 3072]⟩
abbrev S3072x8192 : Shape := ⟨2, ![3072, 8192]⟩
abbrev S8192 : Shape := ⟨1, ![8192]⟩
abbrev S8192x8192 : Shape := ⟨2, ![8192, 8192]⟩
abbrev S8192x10 : Shape := ⟨2, ![8192, 10]⟩
abbrev S10 : Shape := ⟨1, ![10]⟩
abbrev S1x8192 : Shape := ⟨2, ![1, 8192]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S128x8192 : Shape := ⟨2, ![128, 8192]⟩
abbrev S128 : Shape := ⟨1, ![128]⟩
abbrev S128x1 : Shape := ⟨2, ![128, 1]⟩
abbrev S1x10 : Shape := ⟨2, ![1, 10]⟩
abbrev S512x10 : Shape := ⟨2, ![512, 10]⟩
abbrev S1024x10 : Shape := ⟨2, ![1024, 10]⟩

abbrev nBuf : Space → Nat
  | .hbm => 29
  | .vmem => 45
  | .smem => 0
  | _ => 0

abbrev bufTy : (tb : Table) → Fin (tcTables nBuf tb) → BufTy
  | .hbm, ⟨0, _⟩ => ⟨S8192x3072, .f32⟩
  | .hbm, ⟨1, _⟩ => ⟨S3072x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192x8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x10, .f32⟩
  | .hbm, ⟨12, _⟩ => ⟨S10, .f32⟩
  | .hbm, ⟨13, _⟩ => ⟨S10, .f32⟩
  | .hbm, ⟨14, _⟩ => ⟨S1x8192, .f32⟩
  | .hbm, ⟨15, _⟩ => ⟨S1x8192, .f32⟩
  | .hbm, ⟨16, _⟩ => ⟨S8192x8192, .f32⟩
  | .hbm, ⟨17, _⟩ => ⟨S1x8192, .f32⟩
  | .hbm, ⟨18, _⟩ => ⟨S1x8192, .f32⟩
  | .hbm, ⟨19, _⟩ => ⟨S8192x8192, .bf16⟩
  | .hbm, ⟨20, _⟩ => ⟨S1x8192, .f32⟩
  | .hbm, ⟨21, _⟩ => ⟨S1x8192, .f32⟩
  | .hbm, ⟨22, _⟩ => ⟨S8192x8192, .f32⟩
  | .hbm, ⟨23, _⟩ => ⟨S1x8192, .f32⟩
  | .hbm, ⟨24, _⟩ => ⟨S1x8192, .f32⟩
  | .hbm, ⟨25, _⟩ => ⟨S8192x8192, .bf16⟩
  | .hbm, ⟨26, _⟩ => ⟨S1x10, .f32⟩
  | .hbm, ⟨27, _⟩ => ⟨S1x10, .f32⟩
  | .hbm, ⟨28, _⟩ => ⟨S8192x10, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S128x8192, .f32⟩
  | .local _ .vmem, ⟨12, _⟩ => ⟨S128x8192, .f32⟩
  | .local _ .vmem, ⟨13, _⟩ => ⟨S1x8192, .f32⟩
  | .local _ .vmem, ⟨14, _⟩ => ⟨S1x8192, .f32⟩
  | .local _ .vmem, ⟨15, _⟩ => ⟨S128x8192, .bf16⟩
  | .local _ .vmem, ⟨16, _⟩ => ⟨S128x8192, .bf16⟩
  | .local _ .vmem, ⟨17, _⟩ => ⟨S1024x512, .bf16⟩
  | .local _ .vmem, ⟨18, _⟩ => ⟨S1024x512, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S128x8192, .f32⟩
  | .local _ .vmem, ⟨31, _⟩ => ⟨S128x8192, .f32⟩
  | .local _ .vmem, ⟨32, _⟩ => ⟨S1x8192, .f32⟩
  | .local _ .vmem, ⟨33, _⟩ => ⟨S1x8192, .f32⟩
  | .local _ .vmem, ⟨34, _⟩ => ⟨S128x8192, .bf16⟩
  | .local _ .vmem, ⟨35, _⟩ => ⟨S128x8192, .bf16⟩
  | .local _ .vmem, ⟨36, _⟩ => ⟨S1024x512, .bf16⟩
  | .local _ .vmem, ⟨37, _⟩ => ⟨S1024x512, .bf16⟩
  | .local _ .vmem, ⟨38, _⟩ => ⟨S512x10, .f32⟩
  | .local _ .vmem, ⟨39, _⟩ => ⟨S512x10, .f32⟩
  | .local _ .vmem, ⟨40, _⟩ => ⟨S1x10, .f32⟩
  | .local _ .vmem, ⟨41, _⟩ => ⟨S1x10, .f32⟩
  | .local _ .vmem, ⟨42, _⟩ => ⟨S1024x10, .f32⟩
  | .local _ .vmem, ⟨43, _⟩ => ⟨S1024x10, .f32⟩
  | .local _ .vmem, ⟨44, _⟩ => ⟨S1024x10, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41

abbrev nD : Nat := 1
abbrev τ : Topo := Topo.v7x

variable {F : FTy → Type} [FloatOps F]

abbrev grid0 : Pipeline.Grid := ⟨3, ![8, 8, 6], ![false, false, false]⟩

def k0_cond2 (i : grid0.Coords) : BitVec 1 :=
  let arg2 : BitVec 32 := BitVec.ofNat 32 (i 2).val
  let c5_i32 : BitVec 32 := 5#32
  let v27 : BitVec 1 := Scalar.cmpi .eq arg2 c5_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 8, 16], ![false, false, false]⟩

def k2_cond2 (i : grid2.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_12 : BitVec 32 := 0#32
  let v25 : BitVec 1 := Scalar.cmpi .ne v24 c0_i32_12
  v25

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S128x8192 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 16], ![false, false]⟩

def k4_cond2 (i : grid4.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1024x10 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  packedbf16_S128x8192_S128x8192_0_0 : (Rect.unit (s := S128x8192) ![0, 0] S128x8192.size inb_S128x8192_S128x8192_0_0).PackedRows (EltTy.packing .bf16)
  shapeCasts_S1024x512_S1024x512 : S1024x512.ShapeCasts S1024x512
  shapeCasts_S10_S1x10 : S10.ShapeCasts S1x10
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S512x10_S512x10_0_0 : ∀ a, (![0, 0] : Fin 2 → Nat) a + S512x10.size a ≤ S512x10.size a
  h_S512x10 : 0 < S512x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  dot_S1024x512_S512x1024_S1024x1024_1_0_0_1_n_n_wf : DotDims.WF S1024x512 S512x1024 S1024x1024 [1] [0] [0] [1] [] []
  dot_S1024x512_S512x10_S1024x10_1_0_0_1_n_n_wf : DotDims.WF S1024x512 S512x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x3072.size a
  hwx0_0 : ∀ i : grid0.Coords, EltTy.bits .f32 = 32 ∨ (Rect.block (s := S8192x3072) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x8192.size a
  hwx0_1 : ∀ i : grid0.Coords, EltTy.bits .f32 = 32 ∨ (Rect.block (s := S3072x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S8192x8192.size a
  hwx1_0 : ∀ i : grid1.Coords, EltTy.bits .f32 = 32 ∨ (Rect.block (s := S8192x8192) S128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S8192x8192.size a
  hwx1_3 : ∀ i : grid1.Coords, EltTy.bits .bf16 = 32 ∨ (Rect.block (s := S8192x8192) S128x8192.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x8192.size a
  hwx2_0 : ∀ i : grid2.Coords, EltTy.bits .bf16 = 32 ∨ (Rect.block (s := S8192x8192) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S8192x8192.size a
  hwx2_1 : ∀ i : grid2.Coords, EltTy.bits .f32 = 32 ∨ (Rect.block (s := S8192x8192) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x8192.size a
  hwx2_4 : ∀ i : grid2.Coords, EltTy.bits .bf16 = 32 ∨ (Rect.block (s := S8192x8192) S1024x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x8192.size a
  hwx2_5 : ∀ i : grid2.Coords, EltTy.bits .f32 = 32 ∨ (Rect.block (s := S8192x8192) S1024x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x8192.size a ≤ S8192x8192.size a
  hwx3_0 : ∀ i : grid3.Coords, EltTy.bits .f32 = 32 ∨ (Rect.block (s := S8192x8192) S128x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8192.size a ≤ S1x8192.size a
  hwx3_1 : ∀ i : grid3.Coords, EltTy.bits .f32 = 32 ∨ (Rect.block (s := S1x8192) S1x8192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8192.size a ≤ S1x8192.size a
  hwx3_2 : ∀ i : grid3.Coords, EltTy.bits .f32 = 32 ∨ (Rect.block (s := S1x8192) S1x8192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x8192.size a ≤ S8192x8192.size a
  hwx3_3 : ∀ i : grid3.Coords, EltTy.bits .bf16 = 32 ∨ (Rect.block (s := S8192x8192) S128x8192.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x8192.size a
  hwx4_0 : ∀ i : grid4.Coords, EltTy.bits .bf16 = 32 ∨ (Rect.block (s := S8192x8192) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x10.size a ≤ S8192x10.size a
  hwx4_1 : ∀ i : grid4.Coords, EltTy.bits .f32 = 32 ∨ (Rect.block (s := S8192x10) S512x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x10.size a ≤ S8192x10.size a
  hwx4_4 : ∀ i : grid4.Coords, EltTy.bits .f32 = 32 ∨ (Rect.block (s := S8192x10) S1024x10.size (cc4_transform_4 i) (hinb4_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v8) S128x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x8192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x8192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S128x8192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v11) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S512x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v14) S1024x10.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8192x3072 : Shape := ⟨2, ![8192, 3072]⟩
abbrev S3072x8192 : Shape := ⟨2, ![3072, 8192]⟩
abbrev S8192 : Shape := ⟨1, ![8192]⟩
abbrev S8192x8192 : Shape := ⟨2, ![8192, 8192]⟩
abbrev S8192x10 : Shape := ⟨2, ![8192, 10]⟩
abbrev S10 : Shape := ⟨1, ![10]⟩
abbrev S_ : Shape := ⟨0, ![]⟩
abbrev S1x8192 : Shape := ⟨2, ![1, 8192]⟩
abbrev S8192x1 : Shape := ⟨2, ![8192, 1]⟩
abbrev S1x10 : Shape := ⟨2, ![1, 10]⟩

abbrev nBuf : Space → Nat
  | .hbm => 169
  | .vmem => 0
  | .smem => 0
  | _ => 0

abbrev hbmTy0_0 (i : Nat) : BufTy := match i % 128 with
  | 0 => ⟨S8192x3072, .f32⟩
  | 1 => ⟨S3072x8192, .f32⟩
  | 2 => ⟨S8192, .f32⟩
  | 3 => ⟨S8192, .f32⟩
  | 4 => ⟨S8192, .f32⟩
  | 5 => ⟨S8192, .f32⟩
  | 6 => ⟨S8192x8192, .f32⟩
  | 7 => ⟨S8192, .f32⟩
  | 8 => ⟨S8192, .f32⟩
  | 9 => ⟨S8192, .f32⟩
  | 10 => ⟨S8192, .f32⟩
  | 11 => ⟨S8192x10, .f32⟩
  | 12 => ⟨S10, .f32⟩
  | 13 => ⟨S10, .f32⟩
  | 14 => ⟨S_, .f32⟩
  | 15 => ⟨S3072x8192, .f32⟩
  | 16 => ⟨S3072x8192, .f32⟩
  | 17 => ⟨S_, .f32⟩
  | 18 => ⟨S3072x8192, .f32⟩
  | 19 => ⟨S3072x8192, .f32⟩
  | 20 => ⟨S_, .f32⟩
  | 21 => ⟨S3072x8192, .f32⟩
  | 22 => ⟨S3072x8192, .f32⟩
  | 23 => ⟨S3072x8192, .f32⟩
  | 24 => ⟨S3072x8192, .f32⟩
  | 25 => ⟨S_, .f32⟩
  | 26 => ⟨S3072x8192, .f32⟩
  | 27 => ⟨S3072x8192, .f32⟩
  | 28 => ⟨S_, .f32⟩
  | 29 => ⟨S3072x8192, .f32⟩
  | 30 => ⟨S3072x8192, .f32⟩
  | 31 => ⟨S_, .f32⟩
  | 32 => ⟨S3072x8192, .f32⟩
  | 33 => ⟨S3072x8192, .f32⟩
  | 34 => ⟨S_, .f32⟩
  | 35 => ⟨S3072x8192, .f32⟩
  | 36 => ⟨S3072x8192, .f32⟩
  | 37 => ⟨S_, .f32⟩
  | 38 => ⟨S3072x8192, .f32⟩
  | 39 => ⟨S3072x8192, .f32⟩
  | 40 => ⟨S3072x8192, .f32⟩
  | 41 => ⟨S8192x8192, .f32⟩
  | 42 => ⟨S1x8192, .f32⟩
  | 43 => ⟨S8192x8192, .f32⟩
  | 44 => ⟨S8192x8192, .f32⟩
  | 45 => ⟨S1x8192, .f32⟩
  | 46 => ⟨S8192x8192, .f32⟩
  | 47 => ⟨S8192x8192, .f32⟩
  | 48 => ⟨S_, .f32⟩
  | 49 => ⟨S8192x8192, .f32⟩
  | 50 => ⟨S8192x8192, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x8192, .f32⟩
  | 58 => ⟨S8192x8192, .f32⟩
  | 59 => ⟨S8192x8192, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x8192, .f32⟩
  | 67 => ⟨S8192x8192, .f32⟩
  | 68 => ⟨S_, .f32⟩
  | 69 => ⟨S8192x1, .f32⟩
  | 70 => ⟨S8192x1, .f32⟩
  | 71 => ⟨S8192x1, .f32⟩
  | 72 => ⟨S8192x8192, .f32⟩
  | 73 => ⟨S8192x8192, .f32⟩
  | 74 => ⟨S1x8192, .f32⟩
  | 75 => ⟨S8192x8192, .f32⟩
  | 76 => ⟨S8192x8192, .f32⟩
  | 77 => ⟨S1x8192, .f32⟩
  | 78 => ⟨S8192x8192, .f32⟩
  | 79 => ⟨S8192x8192, .f32⟩
  | 80 => ⟨S_, .f32⟩
  | 81 => ⟨S8192x8192, .f32⟩
  | 82 => ⟨S8192x8192, .f32⟩
  | 83 => ⟨S_, .f32⟩
  | 84 => ⟨S8192x8192, .f32⟩
  | 85 => ⟨S8192x8192, .f32⟩
  | 86 => ⟨S_, .f32⟩
  | 87 => ⟨S8192x8192, .f32⟩
  | 88 => ⟨S8192x8192, .f32⟩
  | 89 => ⟨S8192x8192, .f32⟩
  | 90 => ⟨S8192x8192, .f32⟩
  | 91 => ⟨S_, .f32⟩
  | 92 => ⟨S8192x8192, .f32⟩
  | 93 => ⟨S8192x8192, .f32⟩
  | 94 => ⟨S_, .f32⟩
  | 95 => ⟨S8192x8192, .f32⟩
  | 96 => ⟨S8192x8192, .f32⟩
  | 97 => ⟨S_, .f32⟩
  | 98 => ⟨S8192x8192, .f32⟩
  | 99 => ⟨S8192x8192, .f32⟩
  | 100 => ⟨S8192x8192, .f32⟩
  | 101 => ⟨S8192x8192, .f32⟩
  | 102 => ⟨S1x8192, .f32⟩
  | 103 => ⟨S8192x8192, .f32⟩
  | 104 => ⟨S8192x8192, .f32⟩
  | 105 => ⟨S1x8192, .f32⟩
  | 106 => ⟨S8192x8192, .f32⟩
  | 107 => ⟨S8192x8192, .f32⟩
  | 108 => ⟨S_, .f32⟩
  | 109 => ⟨S8192x8192, .f32⟩
  | 110 => ⟨S8192x8192, .f32⟩
  | 111 => ⟨S8192x8192, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x8192, .f32⟩
  | 119 => ⟨S8192x8192, .f32⟩
  | 120 => ⟨S8192x8192, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S8192x8192, .f32⟩
  | _ => ⟨S8192x3072, .f32⟩

abbrev hbmTy0_1 (i : Nat) : BufTy := match i % 128 with
  | 0 => ⟨S8192x8192, .f32⟩
  | 1 => ⟨S_, .f32⟩
  | 2 => ⟨S8192x1, .f32⟩
  | 3 => ⟨S8192x1, .f32⟩
  | 4 => ⟨S8192x1, .f32⟩
  | 5 => ⟨S8192x8192, .f32⟩
  | 6 => ⟨S8192x8192, .f32⟩
  | 7 => ⟨S1x8192, .f32⟩
  | 8 => ⟨S8192x8192, .f32⟩
  | 9 => ⟨S8192x8192, .f32⟩
  | 10 => ⟨S1x8192, .f32⟩
  | 11 => ⟨S8192x8192, .f32⟩
  | 12 => ⟨S8192x8192, .f32⟩
  | 13 => ⟨S_, .f32⟩
  | 14 => ⟨S8192x10, .f32⟩
  | 15 => ⟨S8192x10, .f32⟩
  | 16 => ⟨S_, .f32⟩
  | 17 => ⟨S8192x10, .f32⟩
  | 18 => ⟨S8192x10, .f32⟩
  | 19 => ⟨S_, .f32⟩
  | 20 => ⟨S8192x10, .f32⟩
  | 21 => ⟨S8192x10, .f32⟩
  | 22 => ⟨S8192x10, .f32⟩
  | 23 => ⟨S8192x10, .f32⟩
  | 24 => ⟨S_, .f32⟩
  | 25 => ⟨S8192x10, .f32⟩
  | 26 => ⟨S8192x10, .f32⟩
  | 27 => ⟨S_, .f32⟩
  | 28 => ⟨S8192x10, .f32⟩
  | 29 => ⟨S8192x10, .f32⟩
  | 30 => ⟨S_, .f32⟩
  | 31 => ⟨S8192x10, .f32⟩
  | 32 => ⟨S8192x10, .f32⟩
  | 33 => ⟨S8192x10, .f32⟩
  | 34 => ⟨S8192x10, .f32⟩
  | 35 => ⟨S1x10, .f32⟩
  | 36 => ⟨S8192x10, .f32⟩
  | 37 => ⟨S8192x10, .f32⟩
  | 38 => ⟨S1x10, .f32⟩
  | 39 => ⟨S8192x10, .f32⟩
  | 40 => ⟨S8192x10, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_cst_14 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_15 : Ref sig .tc := ⟨.hbm, 91, rfl⟩
abbrev main_v59 : Ref sig .tc := ⟨.hbm, 92, rfl⟩
abbrev main_v60 : Ref sig .tc := ⟨.hbm, 93, rfl⟩
abbrev main_cst_16 : Ref sig .tc := ⟨.hbm, 94, rfl⟩
abbrev main_v61 : Ref sig .tc := ⟨.hbm, 95, rfl⟩
abbrev main_v62 : Ref sig .tc := ⟨.hbm, 96, rfl⟩
abbrev main_cst_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call1_cst : Ref sig .tc := ⟨.hbm, 108, rfl⟩
abbrev main_call1_v0 : Ref sig .tc := ⟨.hbm, 109, rfl⟩
abbrev main_v73 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_cst_19 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_20 : Ref sig .tc := ⟨.hbm, 121, rfl⟩
abbrev main_v82 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_22 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_cst_24 : Ref sig .tc := ⟨.hbm, 144, rfl⟩
abbrev main_v101 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_26 : Ref sig .tc := ⟨.hbm, 152, rfl⟩
abbrev main_v107 : Ref sig .tc := ⟨.hbm, 153, rfl⟩
abbrev main_v108 : Ref sig .tc := ⟨.hbm, 154, rfl⟩
abbrev main_cst_27 : Ref sig .tc := ⟨.hbm, 155, rfl⟩
abbrev main_v109 : Ref sig .tc := ⟨.hbm, 156, rfl⟩
abbrev main_v110 : Ref sig .tc := ⟨.hbm, 157, rfl⟩
abbrev main_cst_28 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  bcast_S_S3072x8192 : S_.BroadcastsInDim S3072x8192 (![] : Fin 0 → Fin S3072x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S_S8192x10 : S_.BroadcastsInDim S8192x10 (![] : Fin 0 → Fin S8192x10.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x3072_S3072x8192_S8192x8192_1_0_0_1_n_n_wf : DotDims.WF S8192x3072 S3072x8192 S8192x8192 [1] [0] [0] [1] [] []
  dot_S8192x8192_S8192x8192_S8192x8192_1_0_0_1_n_n_wf : DotDims.WF S8192x8192 S8192x8192 S8192x8192 [1] [0] [0] [1] [] []
  dot_S8192x8192_S8192x10_S8192x10_1_0_0_1_n_n_wf : DotDims.WF S8192x8192 S8192x10 S8192x10 [1] [0] [0] [1] [] []

variable [Facts₀]

def dot_S8192x3072_S3072x8192_S8192x8192_1_0_0_1_n_n : DotDims S8192x3072 S3072x8192 S8192x8192 where
  lhsContracting := [1]
  rhsContracting := [0]
  lhsNonContracting := [0]
  rhsNonContracting := [1]
  lhsBatch := []
  rhsBatch := []
  wf := dot_S8192x3072_S3072x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x10_S8192x10_1_0_0_1_n_n : DotDims S8192x8192 S8192x10 S8192x10 where
  lhsContracting := [1]
  rhsContracting := [0]
  lhsNonContracting := [0]
  rhsNonContracting := [1]
  lhsBatch := []
  rhsBatch := []
  wf := dot_S8192x8192_S8192x10_S8192x10_1_0_0_1_n_n_wf

class Facts : Prop extends Facts₀ where

variable [Facts]
-- ==== Proof.KI.Dats.lean ====
/- The proof data of the program's five kernel regions, as definitions: for every region and grid point, what each
   window's staging buffer holds after the body, and (for the three matrix products, which keep a running sum in a
   scratch buffer across the points of the contraction axis) what that scratch holds between points. Stated at the
   region's entry contents `V`, a parameter: the run instantiates it region by region. The frame modules prove that
   the bodies do leave this; the value modules read the final arrays off it. -/
import proofs.«168041_j41042707481000_1_alg».proof.Proof.Gen.KernelIdeal.Launch
import proofs.«168041_j41042707481000_1_alg».proof.Proof.Gen.KernelIdeal.Skeleton
import proofs.«168041_j41042707481000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: x · soft_sign(W1), scaled, shifted, clamped below at zero -/

/-- Window `w`'s block of its array at grid point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at point `n`: along the contraction axis (the grid's last, so the points of one
    output block are consecutive) the partial products are added up, starting again from zero wherever that axis's
    coordinate is `0`. -/
def acc0 (c : Dev nD) : (n : ℕ) → n < cfg0.N → Vec F S1024x1024 .f32
  | 0, hn => k0_pay2 (iblk0 V c 1 ⟨0, hn⟩) (iblk0 V c 0 ⟨0, hn⟩) (k0_pay1 (F := F))
  | n + 1, hn =>
    if (n + 1) % 6 = 0 then k0_pay2 (iblk0 V c 1 ⟨n + 1, hn⟩) (iblk0 V c 0 ⟨n + 1, hn⟩) (k0_pay1 (F := F))
    else k0_pay2 (iblk0 V c 1 ⟨n + 1, hn⟩) (iblk0 V c 0 ⟨n + 1, hn⟩) (acc0 c n (Nat.lt_of_succ_lt hn))

/-- What the body stores into the output block at a point where the contraction is complete: the epilogue of the
    accumulator. -/
def out0 (c : Dev nD) (t : Fin cfg0.N) : Vec F S1024x1024 .f32 :=
  k0_pay3 (acc0 V c t.val t.isLt) (iblk0 V c 2 t) (iblk0 V c 3 t)

/-- The region's invariant before position `n`: before the first point the scratch holds anything; afterwards it holds
    the accumulator the point before left. The other scoped buffers and the generator register ride along. -/
def PhiS0 (c : Dev nD) : (n : ℕ) → n ≤ cfg0.N → sProp 𝕄
  | 0, _ => Pipeline.ΦA spec0 c
  | n + 1, hn => iprop(owns (c : Thread nD τ) (Memref.whole cc0_scratch0 : Memref sig .tc .vmem S1024x1024 .f32) fullShare (acc0 V c n hn)
      ∗ Pipeline.scopedRestBut (Ix := Unit) (Name := ℕ) (U := UR sig nD τ) (Lvl := ℕ) (Val := Elt F) spec0 c [cc0_scratch0]
      ∗ (∃ r, prngReg c r))

/-- The proof data: each input's staging buffer keeps its block; the output's holds the epilogue (consulted only
    where the block is written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q w := fullShare
  owed _ := 0

/-! ## Region 1: a row-wise normalisation, one block of rows per grid point -/

/-- Window `w`'s block of its array at grid point `t`, the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: each input's staging buffer keeps its block; the output's holds the normalised rows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

/-! ## Region 2: x1 · soft_bin(W2), scaled, shifted, clamped, plus x1 (the one array read through two windows) -/

/-- Window `w`'s block of its array at grid point `t`, the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `n`: along the contraction axis (the grid's last, so the points of one
    output block are consecutive) the partial products are added up, starting again from zero wherever that axis's
    coordinate is `0`. -/
def acc2 (c : Dev nD) : (n : ℕ) → n < cfg2.N → Vec F S1024x1024 .f32
  | 0, hn => k2_pay2 (iblk2 V c 1 ⟨0, hn⟩) (iblk2 V c 0 ⟨0, hn⟩) (k2_pay1 (F := F))
  | n + 1, hn =>
    if (n + 1) % 16 = 0 then k2_pay2 (iblk2 V c 1 ⟨n + 1, hn⟩) (iblk2 V c 0 ⟨n + 1, hn⟩) (k2_pay1 (F := F))
    else k2_pay2 (iblk2 V c 1 ⟨n + 1, hn⟩) (iblk2 V c 0 ⟨n + 1, hn⟩) (acc2 c n (Nat.lt_of_succ_lt hn))

/-- What the body stores into the output block at a point where the contraction is complete: the epilogue of the
    accumulator. -/
def out2 (c : Dev nD) (t : Fin cfg2.N) : Vec F S1024x1024 .f32 :=
  k2_pay3 (acc2 V c t.val t.isLt) (iblk2 V c 2 t) (iblk2 V c 3 t) (iblk2 V c 4 t)

/-- The region's invariant before position `n`: before the first point the scratch holds anything; afterwards it holds
    the accumulator the point before left. The other scoped buffers and the generator register ride along. -/
def PhiS2 (c : Dev nD) : (n : ℕ) → n ≤ cfg2.N → sProp 𝕄
  | 0, _ => Pipeline.ΦA spec2 c
  | n + 1, hn => iprop(owns (c : Thread nD τ) (Memref.whole cc2_scratch0 : Memref sig .tc .vmem S1024x1024 .f32) fullShare (acc2 V c n hn)
      ∗ Pipeline.scopedRestBut (Ix := Unit) (Name := ℕ) (U := UR sig nD τ) (Lvl := ℕ) (Val := Elt F) spec2 c [cc2_scratch0]
      ∗ (∃ r, prngReg c r))

/-- The proof data: each input's staging buffer keeps its block; the output's holds the epilogue (consulted only
    where the block is written back). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := PhiS2 V c t.val (Nat.le_of_lt_succ t.isLt)
  q w := match w with
    | ⟨0, _⟩ => (fullShare : PosShare TreeShare).left
    | ⟨1, _⟩ => fullShare
    | ⟨2, _⟩ => fullShare
    | ⟨3, _⟩ => fullShare
    | ⟨4, _⟩ => (fullShare : PosShare TreeShare).right
    | ⟨5, _⟩ => fullShare
  owed _ := 0

/-! ## Region 3: a row-wise normalisation, one block of rows per grid point -/

/-- Window `w`'s block of its array at grid point `t`, the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: each input's staging buffer keeps its block; the output's holds the normalised rows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

/-! ## Region 4: x2 · soft_bin(W3), scaled and shifted -/

/-- Window `w`'s block of its array at grid point `t`, the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at point `n`: along the contraction axis (the grid's last, so the points of one
    output block are consecutive) the partial products are added up, starting again from zero wherever that axis's
    coordinate is `0`. -/
def acc4 (c : Dev nD) : (n : ℕ) → n < cfg4.N → Vec F S1024x10 .f32
  | 0, hn => k4_pay2 (iblk4 V c 1 ⟨0, hn⟩) (iblk4 V c 0 ⟨0, hn⟩) (k4_pay1 (F := F))
  | n + 1, hn =>
    if (n + 1) % 16 = 0 then k4_pay2 (iblk4 V c 1 ⟨n + 1, hn⟩) (iblk4 V c 0 ⟨n + 1, hn⟩) (k4_pay1 (F := F))
    else k4_pay2 (iblk4 V c 1 ⟨n + 1, hn⟩) (iblk4 V c 0 ⟨n + 1, hn⟩) (acc4 c n (Nat.lt_of_succ_lt hn))

/-- What the body stores into the output block at a point where the contraction is complete: the epilogue of the
    accumulator. -/
def out4 (c : Dev nD) (t : Fin cfg4.N) : Vec F S1024x10 .f32 :=
  k4_pay3 (acc4 V c t.val t.isLt) (iblk4 V c 2 t) (iblk4 V c 3 t)

/-- The region's invariant before position `n`: before the first point the scratch holds anything; afterwards it holds
    the accumulator the point before left. The other scoped buffers and the generator register ride along. -/
def PhiS4 (c : Dev nD) : (n : ℕ) → n ≤ cfg4.N → sProp 𝕄
  | 0, _ => Pipeline.ΦA spec4 c
  | n + 1, hn => iprop(owns (c : Thread nD τ) (Memref.whole cc4_scratch0 : Memref sig .tc .vmem S1024x10 .f32) fullShare (acc4 V c n hn)
      ∗ Pipeline.scopedRestBut (Ix := Unit) (Name := ℕ) (U := UR sig nD τ) (Lvl := ℕ) (Val := Elt F) spec4 c [cc4_scratch0]
      ∗ (∃ r, prngReg c r))

/-- The proof data: each input's staging buffer keeps its block; the output's holds the epilogue (consulted only
    where the block is written back). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c t
  Φ t := PhiS4 V c t.val (Nat.le_of_lt_succ t.isLt)
  q w := fullShare
  owed _ := 0

end Cert.KernelIdeal.Hand

end
-- ==== Proof.KI.Vals.lean ====
/- The contents of every unscoped buffer of the TensorCore between two items of @main, as named valuations: the launch
   memory, then each host stretch applied, then each region's output array replaced by what the region's write-backs
   leave. With them: that no item writes an argument array, the family of the five regions' proof data at their own
   entry contents, and the five body obligations gathered as one hypothesis. -/
import proofs.«168041_j41042707481000_1_alg».proof.Proof.Gen.KernelIdeal.Launch
import proofs.«168041_j41042707481000_1_alg».proof.Proof.Gen.KernelIdeal.Skeleton
import proofs.«168041_j41042707481000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168041_j41042707481000_1_alg».proof.Proof.Gen.KernelIdeal.Regions
import proofs.«168041_j41042707481000_1_alg».proof.Proof.KI.Dats
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The five regions' body obligations (and, for the three with a carried accumulator, that the region's invariant
    starts from and ends in the plain one), at any entry contents. -/
structure Bodies (F : FTy → Type) [FloatOps F] : Prop where
  hb0 : ∀ (V : (c : Dev nD) → (b : Ref sig .tc) → Buf (Elt F) ((c : Thread nD τ).loc b)) (c : Dev nD), BodyObligation (dat0 (F := F) V c) (defs₀ (F := F)) Variants.none () Set.univ
  hi0 : ∀ (V : (c : Dev nD) → (b : Ref sig .tc) → Buf (Elt F) ((c : Thread nD τ).loc b)) (c : Dev nD), Pipeline.ΦA spec0 c ⊢ (dat0 (F := F) V c).Φ 0
  ho0 : ∀ (V : (c : Dev nD) → (b : Ref sig .tc) → Buf (Elt F) ((c : Thread nD τ).loc b)) (c : Dev nD), (dat0 (F := F) V c).Φ (Fin.last cfg0.N) ⊢ Pipeline.ΦA spec0 c
  hb1 : ∀ (V : (c : Dev nD) → (b : Ref sig .tc) → Buf (Elt F) ((c : Thread nD τ).loc b)) (c : Dev nD), BodyObligation (dat1 (F := F) V c) (defs₀ (F := F)) Variants.none () Set.univ
  hb2 : ∀ (V : (c : Dev nD) → (b : Ref sig .tc) → Buf (Elt F) ((c : Thread nD τ).loc b)) (c : Dev nD), BodyObligation (dat2 (F := F) V c) (defs₀ (F := F)) Variants.none () Set.univ
  hi2 : ∀ (V : (c : Dev nD) → (b : Ref sig .tc) → Buf (Elt F) ((c : Thread nD τ).loc b)) (c : Dev nD), Pipeline.ΦA spec2 c ⊢ (dat2 (F := F) V c).Φ 0
  ho2 : ∀ (V : (c : Dev nD) → (b : Ref sig .tc) → Buf (Elt F) ((c : Thread nD τ).loc b)) (c : Dev nD), (dat2 (F := F) V c).Φ (Fin.last cfg2.N) ⊢ Pipeline.ΦA spec2 c
  hb3 : ∀ (V : (c : Dev nD) → (b : Ref sig .tc) → Buf (Elt F) ((c : Thread nD τ).loc b)) (c : Dev nD), BodyObligation (dat3 (F := F) V c) (defs₀ (F := F)) Variants.none () Set.univ
  hb4 : ∀ (V : (c : Dev nD) → (b : Ref sig .tc) → Buf (Elt F) ((c : Thread nD τ).loc b)) (c : Dev nD), BodyObligation (dat4 (F := F) V c) (defs₀ (F := F)) Variants.none () Set.univ
  hi4 : ∀ (V : (c : Dev nD) → (b : Ref sig .tc) → Buf (Elt F) ((c : Thread nD τ).loc b)) (c : Dev nD), Pipeline.ΦA spec4 c ⊢ (dat4 (F := F) V c).Φ 0
  ho4 : ∀ (V : (c : Dev nD) → (b : Ref sig .tc) → Buf (Elt F) ((c : Thread nD τ).loc b)) (c : Dev nD), (dat4 (F := F) V c).Φ (Fin.last cfg4.N) ⊢ Pipeline.ΦA spec4 c

variable (m : (ℓ : Loc nD τ sig) → Buf (Elt F) ℓ) (ρ : Dev nD → PrngReg)

/-! ## The buffers' contents between @main's items -/

/-- Core `c`'s unscoped buffers at launch. -/
abbrev B0 : Dev nD → Valuation τ sig (Elt F) := fun c b => m (c, b)

/-- After the host stretch before region 0 (the region's entry). -/
abbrev B1 : Dev nD → Valuation τ sig (Elt F) := fun c => StableHlo.after hostOps0 (B0 m c)
/-- The same, read at the TensorCore's references: what region 0's proof data take. -/
abbrev E1 : (c : Dev nD) → (b : Ref sig .tc) → Buf (Elt F) ((c : Thread nD τ).loc b) := fun c b => B1 m c b
/-- At region 0's exit: its output array `main_v2` at what the write-backs leave, every other buffer as entered. -/
def B2 (c : Dev nD) : Valuation τ sig (Elt F) :=
  Function.update (B1 m c) (Proc.devRef .tc main_v2) ((dat0 (E1 m) c).arrAt 4 cfg0.N : Buf (Elt F) ((c : Thread nD τ).loc main_v2))
abbrev E2 : (c : Dev nD) → (b : Ref sig .tc) → Buf (Elt F) ((c : Thread nD τ).loc b) := fun c b => B2 m c b
theorem B2_out (c : Dev nD) : B2 m c (Proc.devRef .tc main_v2) = (dat0 (E1 m) c).arrAt 4 cfg0.N := by
  unfold B2; exact Function.update_self ..
theorem B2_of_ne (c : Dev nD) (b : Ref sig .tc) (hb : b ≠ main_v2) : B2 m c (Proc.devRef .tc b) = B1 m c (Proc.devRef .tc b) := by
  unfold B2; exact Function.update_of_ne (StableHlo.devRef_ne_of_ne hb) ..
/-- Each of region 0's arrays at its exit: an input as entered, the output as written back. -/
theorem hF0 (c : Dev nD) (w : Fin cfg0.W) : (dat0 (E1 m) c).arrAt w cfg0.N = E2 m c (Pipeline.arrRef spec0 w) :=
  match w with
  | ⟨0, _⟩ => ((dat0 (E1 m) c).arrAt_in 0 rfl _).trans (B2_of_ne m c main_arg0 (by decide)).symm
  | ⟨1, _⟩ => ((dat0 (E1 m) c).arrAt_in 1 rfl _).trans (B2_of_ne m c main_arg1 (by decide)).symm
  | ⟨2, _⟩ => ((dat0 (E1 m) c).arrAt_in 2 rfl _).trans (B2_of_ne m c main_v0 (by decide)).symm
  | ⟨3, _⟩ => ((dat0 (E1 m) c).arrAt_in 3 rfl _).trans (B2_of_ne m c main_v1 (by decide)).symm
  | ⟨4, _⟩ => (B2_out m c).symm
theorem hrest0 (c : Dev nD) : ∀ b, b ∉ Finset.univ.image (Pipeline.arrRef spec0) → E2 m c b = E1 m c b :=
  fun b hb => B2_of_ne m c b fun e => hb (Finset.mem_image.mpr ⟨4, Finset.mem_univ _, e.symm⟩)

/-- After the host stretch before region 1 (the region's entry). -/
abbrev B3 : Dev nD → Valuation τ sig (Elt F) := fun c => StableHlo.after hostOps1 (B2 m c)
/-- The same, read at the TensorCore's references: what region 1's proof data take. -/
abbrev E3 : (c : Dev nD) → (b : Ref sig .tc) → Buf (Elt F) ((c : Thread nD τ).loc b) := fun c b => B3 m c b
/-- At region 1's exit: its output array `main_v5` at what the write-backs leave, every other buffer as entered. -/
def B4 (c : Dev nD) : Valuation τ sig (Elt F) :=
  Function.update (B3 m c) (Proc.devRef .tc main_v5) ((dat1 (E3 m) c).arrAt 3 cfg1.N : Buf (Elt F) ((c : Thread nD τ).loc main_v5))
abbrev E4 : (c : Dev nD) → (b : Ref sig .tc) → Buf (Elt F) ((c : Thread nD τ).loc b) := fun c b => B4 m c b
theorem B4_out (c : Dev nD) : B4 m c (Proc.devRef .tc main_v5) = (dat1 (E3 m) c).arrAt 3 cfg1.N := by
  unfold B4; exact Function.update_self ..
theorem B4_of_ne (c : Dev nD) (b : Ref sig .tc) (hb : b ≠ main_v5) : B4 m c (Proc.devRef .tc b) = B3 m c (Proc.devRef .tc b) := by
  unfold B4; exact Function.update_of_ne (StableHlo.devRef_ne_of_ne hb) ..
/-- Each of region 1's arrays at its exit: an input as entered, the output as written back. -/
theorem hF1 (c : Dev nD) (w : Fin cfg1.W) : (dat1 (E3 m) c).arrAt w cfg1.N = E4 m c (Pipeline.arrRef spec1 w) :=
  match w with
  | ⟨0, _⟩ => ((dat1 (E3 m) c).arrAt_in 0 rfl _).trans (B4_of_ne m c main_v2 (by decide)).symm
  | ⟨1, _⟩ => ((dat1 (E3 m) c).arrAt_in 1 rfl _).trans (B4_of_ne m c main_v3 (by decide)).symm
  | ⟨2, _⟩ => ((dat1 (E3 m) c).arrAt_in 2 rfl _).trans (B4_of_ne m c main_v4 (by decide)).symm
  | ⟨3, _⟩ => (B4_out m c).symm
theorem hrest1 (c : Dev nD) : ∀ b, b ∉ Finset.univ.image (Pipeline.arrRef spec1) → E4 m c b = E3 m c b :=
  fun b hb => B4_of_ne m c b fun e => hb (Finset.mem_image.mpr ⟨3, Finset.mem_univ _, e.symm⟩)

/-- After the host stretch before region 2 (the region's entry). -/
abbrev B5 : Dev nD → Valuation τ sig (Elt F) := fun c => StableHlo.after hostOps2 (B4 m c)
/-- The same, read at the TensorCore's references: what region 2's proof data take. -/
abbrev E5 : (c : Dev nD) → (b : Ref sig .tc) → Buf (Elt F) ((c : Thread nD τ).loc b) := fun c b => B5 m c b
/-- At region 2's exit: its output array `main_v8` at what the write-backs leave, every other buffer as entered. -/
def B6 (c : Dev nD) : Valuation τ sig (Elt F) :=
  Function.update (B5 m c) (Proc.devRef .tc main_v8) ((dat2 (E5 m) c).arrAt 5 cfg2.N : Buf (Elt F) ((c : Thread nD τ).loc main_v8))
abbrev E6 : (c : Dev nD) → (b : Ref sig .tc) → Buf (Elt F) ((c : Thread nD τ).loc b) := fun c b => B6 m c b
theorem B6_out (c : Dev nD) : B6 m c (Proc.devRef .tc main_v8) = (dat2 (E5 m) c).arrAt 5 cfg2.N := by
  unfold B6; exact Function.update_self ..
theorem B6_of_ne (c : Dev nD) (b : Ref sig .tc) (hb : b ≠ main_v8) : B6 m c (Proc.devRef .tc b) = B5 m c (Proc.devRef .tc b) := by
  unfold B6; exact Function.update_of_ne (StableHlo.devRef_ne_of_ne hb) ..
/-- Each of region 2's arrays at its exit: an input as entered, the output as written back. -/
theorem hF2 (c : Dev nD) (w : Fin cfg2.W) : (dat2 (E5 m) c).arrAt w cfg2.N = E6 m c (Pipeline.arrRef spec2 w) :=
  match w with
  | ⟨0, _⟩ => ((dat2 (E5 m) c).arrAt_in 0 rfl _).trans (B6_of_ne m c main_v5 (by decide)).symm
  | ⟨1, _⟩ => ((dat2 (E5 m) c).arrAt_in 1 rfl _).trans (B6_of_ne m c main_arg6 (by decide)).symm
  | ⟨2, _⟩ => ((dat2 (E5 m) c).arrAt_in 2 rfl _).trans (B6_of_ne m c main_v6 (by decide)).symm
  | ⟨3, _⟩ => ((dat2 (E5 m) c).arrAt_in 3 rfl _).trans (B6_of_ne m c main_v7 (by decide)).symm
  | ⟨4, _⟩ => ((dat2 (E5 m) c).arrAt_in 4 rfl _).trans (B6_of_ne m c main_v5 (by decide)).symm
  | ⟨5, _⟩ => (B6_out m c).symm
theorem hrest2 (c : Dev nD) : ∀ b, b ∉ Finset.univ.image (Pipeline.arrRef spec2) → E6 m c b = E5 m c b :=
  fun b hb => B6_of_ne m c b fun e => hb (Finset.mem_image.mpr ⟨5, Finset.mem_univ _, e.symm⟩)

/-- After the host stretch before region 3 (the region's entry). -/
abbrev B7 : Dev nD → Valuation τ sig (Elt F) := fun c => StableHlo.after hostOps3 (B6 m c)
/-- The same, read at the TensorCore's references: what region 3's proof data take. -/
abbrev E7 : (c : Dev nD) → (b : Ref sig .tc) → Buf (Elt F) ((c : Thread nD τ).loc b) := fun c b => B7 m c b
/-- At region 3's exit: its output array `main_v11` at what the write-backs leave, every other buffer as entered. -/
def B8 (c : Dev nD) : Valuation τ sig (Elt F) :=
  Function.update (B7 m c) (Proc.devRef .tc main_v11) ((dat3 (E7 m) c).arrAt 3 cfg3.N : Buf (Elt F) ((c : Thread nD τ).loc main_v11))
abbrev E8 : (c : Dev nD) → (b : Ref sig .tc) → Buf (Elt F) ((c : Thread nD τ).loc b) := fun c b => B8 m c b
theorem B8_out (c : Dev nD) : B8 m c (Proc.devRef .tc main_v11) = (dat3 (E7 m) c).arrAt 3 cfg3.N := by
  unfold B8; exact Function.update_self ..
theorem B8_of_ne (c : Dev nD) (b : Ref sig .tc) (hb : b ≠ main_v11) : B8 m c (Proc.devRef .tc b) = B7 m c (Proc.devRef .tc b) := by
  unfold B8; exact Function.update_of_ne (StableHlo.devRef_ne_of_ne hb) ..
/-- Each of region 3's arrays at its exit: an input as entered, the output as written back. -/
theorem hF3 (c : Dev nD) (w : Fin cfg3.W) : (dat3 (E7 m) c).arrAt w cfg3.N = E8 m c (Pipeline.arrRef spec3 w) :=
  match w with
  | ⟨0, _⟩ => ((dat3 (E7 m) c).arrAt_in 0 rfl _).trans (B8_of_ne m c main_v8 (by decide)).symm
  | ⟨1, _⟩ => ((dat3 (E7 m) c).arrAt_in 1 rfl _).trans (B8_of_ne m c main_v9 (by decide)).symm
  | ⟨2, _⟩ => ((dat3 (E7 m) c).arrAt_in 2 rfl _).trans (B8_of_ne m c main_v10 (by decide)).symm
  | ⟨3, _⟩ => (B8_out m c).symm
theorem hrest3 (c : Dev nD) : ∀ b, b ∉ Finset.univ.image (Pipeline.arrRef spec3) → E8 m c b = E7 m c b :=
  fun b hb => B8_of_ne m c b fun e => hb (Finset.mem_image.mpr ⟨3, Finset.mem_univ _, e.symm⟩)

/-- After the host stretch before region 4 (the region's entry). -/
abbrev B9 : Dev nD → Valuation τ sig (Elt F) := fun c => StableHlo.after hostOps4 (B8 m c)
/-- The same, read at the TensorCore's references: what region 4's proof data take. -/
abbrev E9 : (c : Dev nD) → (b : Ref sig .tc) → Buf (Elt F) ((c : Thread nD τ).loc b) := fun c b => B9 m c b
/-- At region 4's exit: its output array `main_v14` at what the write-backs leave, every other buffer as entered. -/
def B10 (c : Dev nD) : Valuation τ sig (Elt F) :=
  Function.update (B9 m c) (Proc.devRef .tc main_v14) ((dat4 (E9 m) c).arrAt 4 cfg4.N : Buf (Elt F) ((c : Thread nD τ).loc main_v14))
abbrev E10 : (c : Dev nD) → (b : Ref sig .tc) → Buf (Elt F) ((c : Thread nD τ).loc b) := fun c b => B10 m c b
theorem B10_out (c : Dev nD) : B10 m c (Proc.devRef .tc main_v14) = (dat4 (E9 m) c).arrAt 4 cfg4.N := by
  unfold B10; exact Function.update_self ..
theorem B10_of_ne (c : Dev nD) (b : Ref sig .tc) (hb : b ≠ main_v14) : B10 m c (Proc.devRef .tc b) = B9 m c (Proc.devRef .tc b) := by
  unfold B10; exact Function.update_of_ne (StableHlo.devRef_ne_of_ne hb) ..
/-- Each of region 4's arrays at its exit: an input as entered, the output as written back. -/
theorem hF4 (c : Dev nD) (w : Fin cfg4.W) : (dat4 (E9 m) c).arrAt w cfg4.N = E10 m c (Pipeline.arrRef spec4 w) :=
  match w with
  | ⟨0, _⟩ => ((dat4 (E9 m) c).arrAt_in 0 rfl _).trans (B10_of_ne m c main_v11 (by decide)).symm
  | ⟨1, _⟩ => ((dat4 (E9 m) c).arrAt_in 1 rfl _).trans (B10_of_ne m c main_arg11 (by decide)).symm
  | ⟨2, _⟩ => ((dat4 (E9 m) c).arrAt_in 2 rfl _).trans (B10_of_ne m c main_v12 (by decide)).symm
  | ⟨3, _⟩ => ((dat4 (E9 m) c).arrAt_in 3 rfl _).trans (B10_of_ne m c main_v13 (by decide)).symm
  | ⟨4, _⟩ => (B10_out m c).symm
theorem hrest4 (c : Dev nD) : ∀ b, b ∉ Finset.univ.image (Pipeline.arrRef spec4) → E10 m c b = E9 m c b :=
  fun b hb => B10_of_ne m c b fun e => hb (Finset.mem_image.mpr ⟨4, Finset.mem_univ _, e.symm⟩)

/-! ## No item writes an argument -/

theorem B10_main_arg0 (c : Dev nD) : B10 m c (Proc.devRef .tc main_arg0) = m ((c : Thread nD τ).loc main_arg0) :=
  (B10_of_ne m c main_arg0 (by decide)).trans <| (StableHlo.after_of_writes_sub hostOps4 _ hostOps4_writes (r := main_arg0) (by decide)).trans <|
  (B8_of_ne m c main_arg0 (by decide)).trans <| (StableHlo.after_of_writes_sub hostOps3 _ hostOps3_writes (r := main_arg0) (by decide)).trans <|
  (B6_of_ne m c main_arg0 (by decide)).trans <| (StableHlo.after_of_writes_sub hostOps2 _ hostOps2_writes (r := main_arg0) (by decide)).trans <|
  (B4_of_ne m c main_arg0 (by decide)).trans <| (StableHlo.after_of_writes_sub hostOps1 _ hostOps1_writes (r := main_arg0) (by decide)).trans <|
  (B2_of_ne m c main_arg0 (by decide)).trans <| (StableHlo.after_of_writes_sub hostOps0 _ hostOps0_writes (r := main_arg0) (by decide)).trans rfl
theorem B10_main_arg1 (c : Dev nD) : B10 m c (Proc.devRef .tc main_arg1) = m ((c : Thread nD τ).loc main_arg1) :=
  (B10_of_ne m c main_arg1 (by decide)).trans <| (StableHlo.after_of_writes_sub hostOps4 _ hostOps4_writes (r := main_arg1) (by decide)).trans <|
  (B8_of_ne m c main_arg1 (by decide)).trans <| (StableHlo.after_of_writes_sub hostOps3 _ hostOps3_writes (r := main_arg1) (by decide)).trans <|
  (B6_of_ne m c main_arg1 (by decide)).trans <| (StableHlo.after_of_writes_sub hostOps2 _ hostOps2_writes (r := main_arg1) (by decide)).trans <|
  (B4_of_ne m c main_arg1 (by decide)).trans <| (StableHlo.after_of_writes_sub hostOps1 _ hostOps1_writes (r := main_arg1) (by decide)).trans <|
  (B2_of_ne m c main_arg1 (by decide)).trans <| (StableHlo.after_of_writes_sub hostOps0 _ hostOps0_writes (r := main_arg1) (by decide)).trans rfl
theorem B10_main_arg2 (c : Dev nD) : B10 m c (Proc.devRef .tc main_arg2) = m ((c : Thread nD τ).loc main_arg2) :=
  (B10_of_ne m c main_arg2 (by decide)).trans <| (StableHlo.after_of_writes_sub hostOps4 _ hostOps4_writes (r := main_arg2) (by decide)).trans <|
  (B8_of_ne m c main_arg2 (by decide)).trans <| (StableHlo.after_of_writes_sub hostOps3 _ hostOps3_writes (r := main_arg2) (by decide)).trans <|
  (B6_of_ne m c main_arg2 (by decide)).trans <| (StableHlo.after_of_writes_sub hostOps2 _ hostOps2_writes (r := main_arg2) (by decide)).trans <|
  (B4_of_ne m c main_arg2 (by decide)).trans <| (StableHlo.after_of_writes_sub hostOps1 _ hostOps1_writes (r := main_arg2) (by decide)).trans <|
  (B2_of_ne m c main_arg2 (by decide)).trans <| (StableHlo.after_of_writes_sub hostOps0 _ hostOps0_writes (r := main_arg2) (by decide)).trans rfl
theorem B10_main_arg3 (c : Dev nD) : B10 m c (Proc.devRef .tc main_arg3) = m ((c : Thread nD τ).loc main_arg3) :=
  (B10_of_ne m c main_arg3 (by decide)).trans <| (StableHlo.after_of_writes_sub hostOps4 _ hostOps4_writes (r := main_arg3) (by decide)).trans <|
  (B8_of_ne m c main_arg3 (by decide)).trans <| (StableHlo.after_of_writes_sub hostOps3 _ hostOps3_writes (r := main_arg3) (by decide)).trans <|
  (B6_of_ne m c main_arg3 (by decide)).trans <| (StableHlo.after_of_writes_sub hostOps2 _ hostOps2_writes (r := main_arg3) (by decide)).trans <|
  (B4_of_ne m c main_arg3 (by decide)).trans <| (StableHlo.after_of_writes_sub hostOps1 _ hostOps1_writes (r := main_arg3) (by decide)).trans <|
  (B2_of_ne m c main_arg3 (by decide)).trans <| (StableHlo.after_of_writes_sub hostOps0 _ hostOps0_writes (r := main_arg3) (by decide)).trans rfl
theorem B10_main_arg4 (c : Dev nD) : B10 m c (Proc.devRef .tc main_arg4) = m ((c : Thread nD τ).loc main_arg4) :=
  (B10_of_ne m c main_arg4 (by decide)).trans <| (StableHlo.after_of_writes_sub hostOps4 _ hostOps4_writes (r := main_arg4) (by decide)).trans <|
  (B8_of_ne m c main_arg4 (by decide)).trans <| (StableHlo.after_of_writes_sub hostOps3 _ hostOps3_writes (r := main_arg4) (by decide)).trans <|
  (B6_of_ne m c main_arg4 (by decide)).trans <| (StableHlo.after_of_writes_sub hostOps2 _ hostOps2_writes (r := main_arg4) (by decide)).trans <|
  (B4_of_ne m c main_arg4 (by decide)).trans <| (StableHlo.after_of_writes_sub hostOps1 _ hostOps1_writes (r := main_arg4) (by decide)).trans <|
  (B2_of_ne m c main_arg4 (by decide)).trans <| (StableHlo.after_of_writes_sub hostOps0 _ hostOps0_writes (r := main_arg4) (by decide)).trans rfl
theorem B10_main_arg5 (c : Dev nD) : B10 m c (Proc.devRef .tc main_arg5) = m ((c : Thread nD τ).loc main_arg5) :=
  (B10_of_ne m c main_arg5 (by decide)).trans <| (StableHlo.after_of_writes_sub hostOps4 _ hostOps4_writes (r := main_arg5) (by decide)).trans <|
  (B8_of_ne m c main_arg5 (by decide)).trans <| (StableHlo.after_of_writes_sub hostOps3 _ hostOps3_writes (r := main_arg5) (by decide)).trans <|
  (B6_of_ne m c main_arg5 (by decide)).trans <| (StableHlo.after_of_writes_sub hostOps2 _ hostOps2_writes (r := main_arg5) (by decide)).trans <|
  (B4_of_ne m c main_arg5 (by decide)).trans <| (StableHlo.after_of_writes_sub hostOps1 _ hostOps1_writes (r := main_arg5) (by decide)).trans <|
  (B2_of_ne m c main_arg5 (by decide)).trans <| (StableHlo.after_of_writes_sub hostOps0 _ hostOps0_writes (r := main_arg5) (by decide)).trans rfl
theorem B10_main_arg6 (c : Dev nD) : B10 m c (Proc.devRef .tc main_arg6) = m ((c : Thread nD τ).loc main_arg6) :=
  (B10_of_ne m c main_arg6 (by decide)).trans <| (StableHlo.after_of_writes_sub hostOps4 _ hostOps4_writes (r := main_arg6) (by decide)).trans <|
  (B8_of_ne m c main_arg6 (by decide)).trans <| (StableHlo.after_of_writes_sub hostOps3 _ hostOps3_writes (r := main_arg6) (by decide)).trans <|
  (B6_of_ne m c main_arg6 (by decide)).trans <| (StableHlo.after_of_writes_sub hostOps2 _ hostOps2_writes (r := main_arg6) (by decide)).trans <|
  (B4_of_ne m c main_arg6 (by decide)).trans <| (StableHlo.after_of_writes_sub hostOps1 _ hostOps1_writes (r := main_arg6) (by decide)).trans <|
  (B2_of_ne m c main_arg6 (by decide)).trans <| (StableHlo.after_of_writes_sub hostOps0 _ hostOps0_writes (r := main_arg6) (by decide)).trans rfl
theorem B10_main_arg7 (c : Dev nD) : B10 m c (Proc.devRef .tc main_arg7) = m ((c : Thread nD τ).loc main_arg7) :=
  (B10_of_ne m c main_arg7 (by decide)).trans <| (StableHlo.after_of_writes_sub hostOps4 _ hostOps4_writes (r := main_arg7) (by decide)).trans <|
  (B8_of_ne m c main_arg7 (by decide)).trans <| (StableHlo.after_of_writes_sub hostOps3 _ hostOps3_writes (r := main_arg7) (by decide)).trans <|
  (B6_of_ne m c main_arg7 (by decide)).trans <| (StableHlo.after_of_writes_sub hostOps2 _ hostOps2_writes (r := main_arg7) (by decide)).trans <|
  (B4_of_ne m c main_arg7 (by decide)).trans <| (StableHlo.after_of_writes_sub hostOps1 _ hostOps1_writes (r := main_arg7) (by decide)).trans <|
  (B2_of_ne m c main_arg7 (by decide)).trans <| (StableHlo.after_of_writes_sub hostOps0 _ hostOps0_writes (r := main_arg7) (by decide)).trans rfl
theorem B10_main_arg8 (c : Dev nD) : B10 m c (Proc.devRef .tc main_arg8) = m ((c : Thread nD τ).loc main_arg8) :=
  (B10_of_ne m c main_arg8 (by decide)).trans <| (StableHlo.after_of_writes_sub hostOps4 _ hostOps4_writes (r := main_arg8) (by decide)).trans <|
  (B8_of_ne m c main_arg8 (by decide)).trans <| (StableHlo.after_of_writes_sub hostOps3 _ hostOps3_writes (r := main_arg8) (by decide)).trans <|
  (B6_of_ne m c main_arg8 (by decide)).trans <| (StableHlo.after_of_writes_sub hostOps2 _ hostOps2_writes (r := main_arg8) (by decide)).trans <|
  (B4_of_ne m c main_arg8 (by decide)).trans <| (StableHlo.after_of_writes_sub hostOps1 _ hostOps1_writes (r := main_arg8) (by decide)).trans <|
  (B2_of_ne m c main_arg8 (by decide)).trans <| (StableHlo.after_of_writes_sub hostOps0 _ hostOps0_writes (r := main_arg8) (by decide)).trans rfl
theorem B10_main_arg9 (c : Dev nD) : B10 m c (Proc.devRef .tc main_arg9) = m ((c : Thread nD τ).loc main_arg9) :=
  (B10_of_ne m c main_arg9 (by decide)).trans <| (StableHlo.after_of_writes_sub hostOps4 _ hostOps4_writes (r := main_arg9) (by decide)).trans <|
  (B8_of_ne m c main_arg9 (by decide)).trans <| (StableHlo.after_of_writes_sub hostOps3 _ hostOps3_writes (r := main_arg9) (by decide)).trans <|
  (B6_of_ne m c main_arg9 (by decide)).trans <| (StableHlo.after_of_writes_sub hostOps2 _ hostOps2_writes (r := main_arg9) (by decide)).trans <|
  (B4_of_ne m c main_arg9 (by decide)).trans <| (StableHlo.after_of_writes_sub hostOps1 _ hostOps1_writes (r := main_arg9) (by decide)).trans <|
  (B2_of_ne m c main_arg9 (by decide)).trans <| (StableHlo.after_of_writes_sub hostOps0 _ hostOps0_writes (r := main_arg9) (by decide)).trans rfl
theorem B10_main_arg10 (c : Dev nD) : B10 m c (Proc.devRef .tc main_arg10) = m ((c : Thread nD τ).loc main_arg10) :=
  (B10_of_ne m c main_arg10 (by decide)).trans <| (StableHlo.after_of_writes_sub hostOps4 _ hostOps4_writes (r := main_arg10) (by decide)).trans <|
  (B8_of_ne m c main_arg10 (by decide)).trans <| (StableHlo.after_of_writes_sub hostOps3 _ hostOps3_writes (r := main_arg10) (by decide)).trans <|
  (B6_of_ne m c main_arg10 (by decide)).trans <| (StableHlo.after_of_writes_sub hostOps2 _ hostOps2_writes (r := main_arg10) (by decide)).trans <|
  (B4_of_ne m c main_arg10 (by decide)).trans <| (StableHlo.after_of_writes_sub hostOps1 _ hostOps1_writes (r := main_arg10) (by decide)).trans <|
  (B2_of_ne m c main_arg10 (by decide)).trans <| (StableHlo.after_of_writes_sub hostOps0 _ hostOps0_writes (r := main_arg10) (by decide)).trans rfl
theorem B10_main_arg11 (c : Dev nD) : B10 m c (Proc.devRef .tc main_arg11) = m ((c : Thread nD τ).loc main_arg11) :=
  (B10_of_ne m c main_arg11 (by decide)).trans <| (StableHlo.after_of_writes_sub hostOps4 _ hostOps4_writes (r := main_arg11) (by decide)).trans <|
  (B8_of_ne m c main_arg11 (by decide)).trans <| (StableHlo.after_of_writes_sub hostOps3 _ hostOps3_writes (r := main_arg11) (by decide)).trans <|
  (B6_of_ne m c main_arg11 (by decide)).trans <| (StableHlo.after_of_writes_sub hostOps2 _ hostOps2_writes (r := main_arg11) (by decide)).trans <|
  (B4_of_ne m c main_arg11 (by decide)).trans <| (StableHlo.after_of_writes_sub hostOps1 _ hostOps1_writes (r := main_arg11) (by decide)).trans <|
  (B2_of_ne m c main_arg11 (by decide)).trans <| (StableHlo.after_of_writes_sub hostOps0 _ hostOps0_writes (r := main_arg11) (by decide)).trans rfl
theorem B10_main_arg12 (c : Dev nD) : B10 m c (Proc.devRef .tc main_arg12) = m ((c : Thread nD τ).loc main_arg12) :=
  (B10_of_ne m c main_arg12 (by decide)).trans <| (StableHlo.after_of_writes_sub hostOps4 _ hostOps4_writes (r := main_arg12) (by decide)).trans <|
  (B8_of_ne m c main_arg12 (by decide)).trans <| (StableHlo.after_of_writes_sub hostOps3 _ hostOps3_writes (r := main_arg12) (by decide)).trans <|
  (B6_of_ne m c main_arg12 (by decide)).trans <| (StableHlo.after_of_writes_sub hostOps2 _ hostOps2_writes (r := main_arg12) (by decide)).trans <|
  (B4_of_ne m c main_arg12 (by decide)).trans <| (StableHlo.after_of_writes_sub hostOps1 _ hostOps1_writes (r := main_arg12) (by decide)).trans <|
  (B2_of_ne m c main_arg12 (by decide)).trans <| (StableHlo.after_of_writes_sub hostOps0 _ hostOps0_writes (r := main_arg12) (by decide)).trans rfl
theorem B10_main_arg13 (c : Dev nD) : B10 m c (Proc.devRef .tc main_arg13) = m ((c : Thread nD τ).loc main_arg13) :=
  (B10_of_ne m c main_arg13 (by decide)).trans <| (StableHlo.after_of_writes_sub hostOps4 _ hostOps4_writes (r := main_arg13) (by decide)).trans <|
  (B8_of_ne m c main_arg13 (by decide)).trans <| (StableHlo.after_of_writes_sub hostOps3 _ hostOps3_writes (r := main_arg13) (by decide)).trans <|
  (B6_of_ne m c main_arg13 (by decide)).trans <| (StableHlo.after_of_writes_sub hostOps2 _ hostOps2_writes (r := main_arg13) (by decide)).trans <|
  (B4_of_ne m c main_arg13 (by decide)).trans <| (StableHlo.after_of_writes_sub hostOps1 _ hostOps1_writes (r := main_arg13) (by decide)).trans <|
  (B2_of_ne m c main_arg13 (by decide)).trans <| (StableHlo.after_of_writes_sub hostOps0 _ hostOps0_writes (r := main_arg13) (by decide)).trans rfl

/-! ## The proof data family and what rides along -/

/-- Every region's proof data at its own entry contents. -/
def pdats : (p : Fin 5) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c

abbrev 𝒱n : Variants := Variants.none
/-- No core owes another anything. -/
abbrev Ln : GSem nD τ sig → Finset Unit := fun _ => ∅
abbrev lvn : GSem nD τ sig → Unit → ℕ := fun _ _ => 0
/-- Beside the buffers: the generator register at some state, and the core owing nothing. -/
abbrev Ride (c : Dev nD) : sProp 𝕄 := iprop((∃ r, prngReg c r) ∗ ∃ W, owes (c : Thread nD τ) (0 : CellTallies nD τ sig Unit) W)
/-- A host stretch as a segment over the unscoped buffers from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tlast (c : Dev nD) : sProp 𝕄 := iprop(StableHlo.held (c : Thread nD τ) (Pipeline.ucRefs τ sig) (B10 m c) ∗ ∃ r, prngReg c r)

end Cert.KernelIdeal.Hand

end
-- ==== Proof.KI.Share2.lean ====
/- Region 2 reads one array through two windows. On entry the array's full share is dealt to the two windows as its
   two halves, on exit the halves are joined again; every other array of the region is taken out of the unscoped
   buffers, and put back, whole. -/
import proofs.«168041_j41042707481000_1_alg».proof.Proof.KI.Vals
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays and the buffers behind them, one by one

At any entry contents `V`. The six windows name five buffers: windows 0 and 4 both read `main_v5`. -/

section Generic

variable (V : (c : Dev nD) → (b : Ref sig .tc) → Buf (Elt F) ((c : Thread nD τ).loc b))

/-- Every window's array is a whole buffer, so the region's arrays are points-tos of whole buffers, window `w`'s at
    the share the proof data hold it at. -/
theorem arrays2_whole (c : Dev nD) (G : (w : Fin cfg2.W) → Buf (Elt F) ((cfg2.win w).arr.view.loc (c : Thread nD τ))) :
    ((dat2 V c).arrays G : sProp 𝕄)
      = bigSep Finset.univ fun w : Fin 6 => (((c : Thread nD τ).loc (Pipeline.arrRef spec2 w)) ↦{(dat2 V c).share w} G w : sProp 𝕄) := by
  unfold Pipeline.Dat.arrays
  exact bigSep_congr fun w _ => by rw [(arr_whole2 w).set_eq_univ]

/-- The same, window by window: `main_v5` occurs twice, at the left half of the full share (window 0) and at the
    right half (window 4); the output (window 5) and the three other inputs are held at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v5) ↦{(fullShare : PosShare TreeShare).left} G 0)
          ∗ (((c : Thread nD τ).loc main_arg6) ↦{fullShare} G 1)
          ∗ (((c : Thread nD τ).loc main_v6) ↦{fullShare} G 2)
          ∗ (((c : Thread nD τ).loc main_v7) ↦{fullShare} G 3)
          ∗ (((c : Thread nD τ).loc main_v5) ↦{(fullShare : PosShare TreeShare).right} G 4)
          ∗ (((c : Thread nD τ).loc main_v8) ↦{fullShare} G 5)) := by
  rw [arrays2_whole, bigSep_W2]
  rfl

/-- The DISTINCT buffers behind the six windows' arrays are five, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v5) ↦{fullShare} W main_v5)
          ∗ (((c : Thread nD τ).loc main_arg6) ↦{fullShare} W main_arg6)
          ∗ (((c : Thread nD τ).loc main_v6) ↦{fullShare} W main_v6)
          ∗ (((c : Thread nD τ).loc main_v7) ↦{fullShare} W main_v7)
          ∗ (((c : Thread nD τ).loc main_v8) ↦{fullShare} W main_v8)) := by
  unfold Pipeline.arrBufs
  exact bigSep_eq_bigSepL_of_eq [main_v5, main_arg6, main_v6, main_v7, main_v8] (by decide) (by decide) _

/-- ENTRY at any contents `V`: the unscoped buffers are the buffers behind the windows' arrays and the rest; of the
    former, `main_v5`'s full share is the left half composed with the right half, one for each of its two windows,
    both at the same contents; the four others go to their windows whole. -/
theorem entry2_at (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs 2 winFacts₀2.arr_unscoped c (V c)]
  refine sep_mono ?_ .rfl
  rw [show (Pipeline.arrBufs (cfgs 2).spec c (V c) : sProp 𝕄) = _ from arrBufs2_eq c (V c), arrays2_eq]
  iintro ⟨H5, Ha6, H6, H7, H8⟩
  ihave Hs := (pointsTo_share (PosShare.mem_left_op_right fullShare)).1 $$ H5
  icases Hs with ⟨Hl, Hr⟩
  isplitl [Hl]; · iexact Hl
  isplitl [Ha6]; · iexact Ha6
  isplitl [H6]; · iexact H6
  isplitl [H7]; · iexact H7
  isplitl [Hr]; · iexact Hr
  iexact H8

/-- EXIT to any valuation `V'` that has every window's array at the contents `G` the window holds it at — so the
    two windows on `main_v5` hold it at one and the same contents — and agrees with `V` off the arrays: the two
    halves of `main_v5` compose to its full share, the four other arrays are whole already, and the rest is
    unchanged. -/
theorem exit2_at (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V c b) :
    iprop((dat2 V c).arrays G ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [Pipeline.unscopedBufs_split₀ cfgs 2 winFacts₀2.arr_unscoped c V']
  refine sep_mono ?_ (Entails.of_eq ?_)
  · rw [show (Pipeline.arrBufs (cfgs 2).spec c V' : sProp 𝕄) = _ from arrBufs2_eq c V', arrays2_eq,
      hG 0, hG 1, hG 2, hG 3, hG 4, hG 5]
    iintro ⟨Hl, Ha6, H6, H7, Hr, H8⟩
    isplitl [Hl Hr]
    · iapply (pointsTo_share (PosShare.mem_left_op_right fullShare)).2
      isplitl [Hl]; · iexact Hl
      iexact Hr
    isplitl [Ha6]; · iexact Ha6
    isplitl [H6]; · iexact H6
    isplitl [H7]; · iexact H7
    iexact H8
  · unfold Pipeline.unscopedRest
    exact bigSep_congr fun b hb => by rw [hrest b (Finset.mem_sdiff.mp hb).2]

end Generic

variable (m : (ℓ : Loc nD τ sig) → Buf (Elt F) ℓ) (ρ : Dev nD → PrngReg)

/-! ## Region 2's arrays: one array behind two windows -/

/-- ENTRY of region 2: the unscoped buffers at the entry contents are the region's arrays — the array read through
    windows 0 and 4 dealt to them as the two halves of its full share — and the unscoped rest. -/
theorem entry2 (c : Dev nD) :
    (StableHlo.held (c : Thread nD τ) (Pipeline.ucRefs τ sig) (B5 m c) : sProp 𝕄)
      ⊢ iprop((pdats m 2 c).arrays ((pdats m 2 c).arrAt · 0) ∗ Pipeline.unscopedRest (Ix := Unit) (Name := ℕ) (U := UR sig nD τ) (Lvl := ℕ) spec2 c (E5 m c)) := by
  rw [← Pipeline.unscopedBufs_held (Ix := Unit) (Name := ℕ) (U := UR sig nD τ) (Lvl := ℕ) c (B5 m c)]
  exact entry2_at (E5 m) c

/-- EXIT of region 2: the arrays at their final contents (the two halves joined again) and the unscoped rest are the
    unscoped buffers at the exit contents. -/
theorem exit2 (c : Dev nD) :
    iprop((pdats m 2 c).arrays ((pdats m 2 c).arrAt · cfg2.N) ∗ Pipeline.unscopedRest (Ix := Unit) (Name := ℕ) (U := UR sig nD τ) (Lvl := ℕ) spec2 c (E5 m c))
      ⊢ (StableHlo.held (c : Thread nD τ) (Pipeline.ucRefs τ sig) (B6 m c) : sProp 𝕄) := by
  rw [← Pipeline.unscopedBufs_held (Ix := Unit) (Name := ℕ) (U := UR sig nD τ) (Lvl := ℕ) c (B6 m c)]
  exact exit2_at (E5 m) c (E6 m c) ((dat2 (E5 m) c).arrAt · cfg2.N) (hF2 m c) (hrest2 m c)

end Cert.KernelIdeal.Hand

end
-- ==== Proof.KI.Run.lean ====
/- The run of the five-region program, from the launch to the return, under the five body obligations as hypotheses.
   Between two items of @main every unscoped buffer of the TensorCore is held at a named valuation: the launch memory,
   then each host stretch applied, then each region's output array replaced by what the region's write-backs leave.
   Each region is entered by taking its arrays out of those buffers and left by putting them back; region 2 reads one
   array through two windows, so there the array's full share is dealt to the two windows as its two halves on
   entry and the halves are joined again on exit. The post of the run says that every unscoped buffer ends at the
   last valuation: the argument arrays are read back through the valuations to the launch memory, and the result
   array is what the last region left. -/
import proofs.«168041_j41042707481000_1_alg».proof.Proof.KI.Share2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hB : Bodies F)
include hB

/-! ## The regions as segments -/

set_option backward.isDefEq.respectTransparency.types false in
/-- Region 0 as a segment: entered with every unscoped buffer at the boundary contents before it, left with them at
    the contents after it. Its arrays are taken out of the unscoped buffers and put back with the output replaced; the
    generator register goes into the region's invariant and comes back; nothing is owed; the kernel has no semaphore of
    its own. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (hB.hb0 (E1 m) c).loose
  hwaits := Pipeline.hwaits_of_owed_zero _ _ _ _ Ln lvn 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hB.hi0 (E1 m) c)
    unfold Pipeline.ΦA
    iintro ⟨Hp, -, Hr⟩
    isplitl [Hr]; · iexact Hr
    iexact Hp
  hout c := by
    refine (hB.ho0 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary contents before it, left with them at
    the contents after it. Its arrays are taken out of the unscoped buffers and put back with the output replaced; the
    generator register goes into the region's invariant and comes back; nothing is owed; the kernel has no semaphore of
    its own. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (hB.hb1 (E3 m) c).loose
  hwaits := Pipeline.hwaits_of_owed_zero _ _ _ _ Ln lvn 1 fun _ _ => rfl
  pre c := iprop(StableHlo.held (c : Thread nD τ) (Pipeline.ucRefs τ sig) (B3 m c) ∗ Ride c)
  post c := iprop(StableHlo.held (c : Thread nD τ) (Pipeline.ucRefs τ sig) (B4 m c) ∗ Ride c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the boundary contents before it, left with them at
    the contents after it. Its arrays are taken out of the unscoped buffers and put back with the output replaced; the
    generator register goes into the region's invariant and comes back; nothing is owed; the kernel has no semaphore of
    its own. -/
def reg2 : Pipeline.RegionSeg (pcfgs (F := F)) adm (pdats m) () defs₀ 𝒱n Ln lvn 2 where
  win := winFacts₀2
  block_pos := block_pos2
  stage_whole := stage_whole2
  K := PEmpty
  osem k := k.elim
  ho := Pipeline.OwnSemFacts.none _
  hbody c := (hB.hb2 (E5 m) c).loose
  hwaits := Pipeline.hwaits_of_owed_zero _ _ _ _ Ln lvn 2 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hB.hi2 (E5 m) c)
    unfold Pipeline.ΦA
    iintro ⟨Hp, -, Hr⟩
    isplitl [Hr]; · iexact Hr
    iexact Hp
  hout c := by
    refine (hB.ho2 (E5 m) c).trans ?_
    rw [Pipeline.ownSems0_none]; unfold Pipeline.ΦA
    iintro ⟨Hr, Hp⟩
    isplitl [Hp]; · iexact Hp
    isplitr; · iempintro
    iexact Hr
  hexit c := by
    have hjoin := exit2 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the boundary contents before it, left with them at
    the contents after it. Its arrays are taken out of the unscoped buffers and put back with the output replaced; the
    generator register goes into the region's invariant and comes back; nothing is owed; the kernel has no semaphore of
    its own. -/
def reg3 : Pipeline.RegionSeg (pcfgs (F := F)) adm (pdats m) () defs₀ 𝒱n Ln lvn 3 where
  win := launch3.win.to₀
  block_pos := launch3.block_pos
  stage_whole := launch3.stage_whole
  K := PEmpty
  osem k := k.elim
  ho := Pipeline.OwnSemFacts.none _
  hbody c := (hB.hb3 (E7 m) c).loose
  hwaits := Pipeline.hwaits_of_owed_zero _ _ _ _ Ln lvn 3 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the boundary contents before it, left with them at
    the contents after it. Its arrays are taken out of the unscoped buffers and put back with the output replaced; the
    generator register goes into the region's invariant and comes back; nothing is owed; the kernel has no semaphore of
    its own. -/
def reg4 : Pipeline.RegionSeg (pcfgs (F := F)) adm (pdats m) () defs₀ 𝒱n Ln lvn 4 where
  win := launch4.win.to₀
  block_pos := launch4.block_pos
  stage_whole := launch4.stage_whole
  K := PEmpty
  osem k := k.elim
  ho := Pipeline.OwnSemFacts.none _
  hbody c := (hB.hb4 (E9 m) c).loose
  hwaits := Pipeline.hwaits_of_owed_zero _ _ _ _ Ln lvn 4 fun _ _ => rfl
  pre c := iprop(StableHlo.held (c : Thread nD τ) (Pipeline.ucRefs τ sig) (B9 m c) ∗ Ride c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hB.hi4 (E9 m) c)
    unfold Pipeline.ΦA
    iintro ⟨Hp, -, Hr⟩
    isplitl [Hr]; · iexact Hr
    iexact Hp
  hout c := by
    refine (hB.ho4 (E9 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱n Ln lvn) :=
  [ .host (hostSeg hostOps0 hostOps0_sub hostOps0_fresh (B0 m)), .region (reg0 m hB),
    .host (hostSeg hostOps1 hostOps1_sub hostOps1_fresh (B2 m)), .region (reg1 m hB),
    .host (hostSeg hostOps2 hostOps2_sub hostOps2_fresh (B4 m)), .region (reg2 m hB),
    .host (hostSeg hostOps3 hostOps3_sub hostOps3_fresh (B6 m)), .region (reg3 m hB),
    .host (hostSeg hostOps4 hostOps4_sub hostOps4_fresh (B8 m)), .region (reg4 m hB) ]

theorem main_run (c : Dev nD) : main (F := F) c = Pipeline.Seg.run (segs m hB) := (main_chain c).trans (by chain_rfl)

set_option backward.isDefEq.respectTransparency.types false in
/-- THE RUN: from any memory with zero counters every weakly fair execution of @main terminates, nothing faulting, and
    every final memory holds every unscoped buffer of every TensorCore at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B10 m c b) :=
  Pipeline.θ_run_regions_kit (pcfgs (F := F)) adm (pdats m) () cellOf_inj emb₁ defs₀ 𝒱n Ln lvn m ρ main (segs m hB)
    (fun c Q => by rw [main_run m hB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h => h)

/-- THE RUN, read at the result and the arguments: every final memory holds the result array at what the last region
    left and every argument array as launched. -/
theorem run_frame : θ_run defs (onTc (τ := τ) (main (F := F))) ⟨m, fun _ => 0, ρ⟩
    (fun r => ∀ c : Dev nD,
      r.2.mem ((c : Thread nD τ).loc main_v14) = B10 m c (Proc.devRef .tc main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun r h c =>
    ⟨h c _ (mem_uc main_v14 (by decide)),
     (h c _ (mem_uc main_arg0 (by decide))).trans (B10_main_arg0 m c),
     (h c _ (mem_uc main_arg1 (by decide))).trans (B10_main_arg1 m c),
     (h c _ (mem_uc main_arg2 (by decide))).trans (B10_main_arg2 m c),
     (h c _ (mem_uc main_arg3 (by decide))).trans (B10_main_arg3 m c),
     (h c _ (mem_uc main_arg4 (by decide))).trans (B10_main_arg4 m c),
     (h c _ (mem_uc main_arg5 (by decide))).trans (B10_main_arg5 m c),
     (h c _ (mem_uc main_arg6 (by decide))).trans (B10_main_arg6 m c),
     (h c _ (mem_uc main_arg7 (by decide))).trans (B10_main_arg7 m c),
     (h c _ (mem_uc main_arg8 (by decide))).trans (B10_main_arg8 m c),
     (h c _ (mem_uc main_arg9 (by decide))).trans (B10_main_arg9 m c),
     (h c _ (mem_uc main_arg10 (by decide))).trans (B10_main_arg10 m c),
     (h c _ (mem_uc main_arg11 (by decide))).trans (B10_main_arg11 m c),
     (h c _ (mem_uc main_arg12 (by decide))).trans (B10_main_arg12 m c),
     (h c _ (mem_uc main_arg13 (by decide))).trans (B10_main_arg13 m c)⟩)
    (run_all m ρ hB)

end Cert.KernelIdeal.Hand

end
-- ==== Proof.KI.Body0.lean ====
/- Region 0 of the program is a matrix product accumulated over the last grid axis (8 x 8 x 6 points, the contraction
   axis last) into a scratch buffer, with an epilogue (scale, shift, clamp below at zero) stored to the output block at
   the last contraction step. Here: the body's effect at a grid point in each of its three control cases, over named
   contents; the closed forms of the two conditions over the grid; what each staging buffer holds when the body is
   called; the invariant that carries the scratch from point to point at the running sum; and from these the body
   obligation of the region's proof data, with the invariant's entry and exit. -/
import proofs.«168041_j41042707481000_1_alg».proof.Proof.KI.Dats
import proofs.«168041_j41042707481000_1_alg».proof.Proof.Gen.KernelIdeal.Launch
import proofs.«168041_j41042707481000_1_alg».proof.Proof.Gen.KernelIdeal.Skeleton
import proofs.«168041_j41042707481000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem z2 : (![0, 0] : Fin 2 → ℕ) = fun _ => 0 := by funext a; fin_cases a <;> rfl

/-- A store through the whole-shape rectangle at zero offsets, made last, is all that a later read of the buffer sees. -/
private theorem read_top0 {κ : Kind} {sp : Space} {S : Shape} {e : EltTy} (v : View sig κ sp S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through that rectangle reads the whole contents. -/
private theorem readAt_top0 {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz]

/-! ## The two branch conditions of the body, from the grid coordinates -/

/-- The first `if`: the last grid coordinate (the position along the contraction) is 0. -/
abbrev cond0_0 (i : grid0.Coords) : Prop :=
  (Scalar.cmpi .ne (Scalar.extui (Scalar.cmpi .eq (BitVec.ofNat 32 (i 2).val) 0#32)) 0#32) = 1#1
/-- The second `if`: that coordinate is 5, the last. -/
abbrev cond0_1 (i : grid0.Coords) : Prop := k0_cond2 i = 1#1

set_option maxHeartbeats 1000000 in
/-- The body at a point where the contraction starts (coordinate 0 of the last axis; not its last coordinate): the
    scratch, whatever it held, is set to zero and then to the first partial product added to zero; the four inputs and
    the output window are left as they were. -/
theorem runA0 (c : Dev nD) (i : grid0.Coords)
    (arg3 : Memref sig .tc .vmem S1024x512 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (hc0 : cond0_0 i) (hc1 : ¬cond0_1 i)
    (x0 : Vec F S1024x512 .f32) (x1 : Vec F S512x1024 .f32) (x2 x3 : Vec F S1x1024 .f32)
    (xi4 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xi4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare (k0_pay2 x1 x0 (k0_pay1 (F := F)))) -∗ K ⟨⟩))
      ⊢ wp frame (wpE (defs₀ (F := F)) Variants.none c none) E
          (cc0__mm1_kernel i arg3 harg3 arg4 harg4 arg5 harg5 arg6 harg6 arg7 harg7 arg8 harg8) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg3.eq_unread hf0; obtain rfl := harg4.eq_unread hf1
  obtain rfl := harg5.eq_unread hf2; obtain rfl := harg6.eq_unread hf3
  obtain rfl := harg7.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS0
  ipureintro
  sl_unfold_run_names
  rw [read_top0 _ _ z2, readAt_top0 _ _ z2, readAt_top0 _ _ z2, hf0, hf1, View.readCov_unit_zero _ z2]

set_option maxHeartbeats 1000000 in
/-- The body at a point inside the contraction (neither its first nor its last coordinate): the scratch holding `xs`
    ends holding `xs` plus this point's partial product; inputs and output window are left as they were. -/
theorem runB0 (c : Dev nD) (i : grid0.Coords)
    (arg3 : Memref sig .tc .vmem S1024x512 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (hc0 : ¬cond0_0 i) (hc1 : ¬cond0_1 i)
    (x0 : Vec F S1024x512 .f32) (x1 : Vec F S512x1024 .f32) (x2 x3 : Vec F S1x1024 .f32)
    (xi4 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xi4 ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare (k0_pay2 x1 x0 xs)) -∗ K ⟨⟩))
      ⊢ wp frame (wpE (defs₀ (F := F)) Variants.none c none) E
          (cc0__mm1_kernel i arg3 harg3 arg4 harg4 arg5 harg5 arg6 harg6 arg7 harg7 arg8 harg8) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS0
  ipureintro
  sl_unfold_run_names
  rw [read_top0 _ _ z2, readAt_top0 _ _ z2, readAt_top0 _ _ z2, readAt_top0 _ _ z2, hf0, hf1, hfs0]

set_option maxHeartbeats 1000000 in
/-- The body at a point where the contraction ends (its last coordinate; not its first): the scratch holding `xs` ends
    holding the completed sum, and the output window, whatever it held, ends holding the epilogue of that sum with the
    two row vectors; the inputs are left as they were. -/
theorem runC0 (c : Dev nD) (i : grid0.Coords)
    (arg3 : Memref sig .tc .vmem S1024x512 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (hc0 : ¬cond0_0 i) (hc1 : cond0_1 i)
    (x0 : Vec F S1024x512 .f32) (x1 : Vec F S512x1024 .f32) (x2 x3 : Vec F S1x1024 .f32)
    (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay3 (k0_pay2 x1 x0 xs) x2 x3)
            ∗ owns (c : Thread nD τ) arg8 fullShare (k0_pay2 x1 x0 xs)) -∗ K ⟨⟩))
      ⊢ wp frame (wpE (defs₀ (F := F)) Variants.none c none) E
          (cc0__mm1_kernel i arg3 harg3 arg4 harg4 arg5 harg5 arg6 harg6 arg7 harg7 arg8 harg8) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg3.eq_unread hf0; obtain rfl := harg4.eq_unread hf1
  obtain rfl := harg5.eq_unread hf2; obtain rfl := harg6.eq_unread hf3
  obtain rfl := harg8.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_top0 _ _ z2, View.readCov_unit_zero _ z2, readAt_top0 _ _ z2, readAt_top0 _ _ z2, readAt_top0 _ _ z2,
      readAt_top0 _ _ z2, readAt_top0 _ _ z2, hf0, hf1, hf2, hf3, hfs0]
  iexists _; isplitr
  swap; · iexact HS0
  ipureintro
  sl_unfold_run_names
  rw [read_top0 _ _ z2, readAt_top0 _ _ z2, readAt_top0 _ _ z2, readAt_top0 _ _ z2, hf0, hf1, hfs0]

/-! ## The running sum, point by point -/

/-- Where the contraction coordinate is 0 the running sum starts again: the product of the point's two blocks added
    to the zero block. -/
theorem acc0_first (c : Dev nD) (t : Fin cfg0.N) (h : t.val % 6 = 0) :
    acc0 V c t.val t.isLt = k0_pay2 (iblk0 V c 1 t) (iblk0 V c 0 t) (k0_pay1 (F := F)) := by
  obtain ⟨n, hn⟩ := t
  cases n with
  | zero => rfl
  | succ n => exact if_pos h

/-- Elsewhere it is the product of the point's two blocks added to the sum the point before left. -/
theorem acc0_next (c : Dev nD) (t : Fin cfg0.N) (h : t.val % 6 ≠ 0) :
    acc0 V c t.val t.isLt = k0_pay2 (iblk0 V c 1 t) (iblk0 V c 0 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The two conditions in closed form over the grid

The grid is row-major with the contraction axis last and of extent 6, so a point's contraction coordinate is its
number mod 6. -/

/-- The scratch is reset where the contraction coordinate is 0. -/
theorem hcond0_0 : ∀ t : Fin cfg0.N, cond0_0 (grid0.coords t) ↔ t.val % 6 = 0 :=
  (by decide +kernel : ∀ t : Fin grid0.N, cond0_0 (grid0.coords t) ↔ t.val % 6 = 0)
/-- The output block is stored where it is 5, the last. -/
theorem hcond0_1 : ∀ t : Fin cfg0.N, cond0_1 (grid0.coords t) ↔ t.val % 6 = 5 :=
  (by decide +kernel : ∀ t : Fin grid0.N, cond0_1 (grid0.coords t) ↔ t.val % 6 = 5)

/-! ## Where the output window is idle -/

/-- Away from the last contraction step the body stores nothing into the output block, -/
theorem idleAt0_4 : ∀ t : Fin cfg0.N, ¬cond0_1 (grid0.coords t) → cfg0.idle 4 (grid0.coords t) = true := by decide +kernel
/-- and the block is not written back there. -/
theorem noFlush0_4 : ∀ t : Fin cfg0.N, ¬cond0_1 (grid0.coords t) → (cfg0.win 4).flush t = false := by decide +kernel
/-- At the last contraction step the output block is stored. -/
theorem liveAt0_4 : ∀ t : Fin cfg0.N, cond0_1 (grid0.coords t) → cfg0.idle 4 (grid0.coords t) = false := by decide +kernel

/-! ## The staging buffers at a point, and what the proof data say of them -/

/-- The proof data's arrays are the region's entry contents. -/
theorem A0_eq (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each input's current buffer holds its block at every point, whether or not it was fetched there: the two matrix
    blocks are fetched at every point; the two rows' block index moves only with the output's column, so between
    fetches the buffer, which the body leaves alone, still holds this point's block. -/
theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A0_eq]
  · unfold Dat.fetched Dat.blockOf iblk0; rw [A0_eq]; rfl
theorem before0_1 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; unfold Dat.blockOf iblk0; rw [A0_eq]
  · unfold Dat.fetched Dat.blockOf iblk0; rw [A0_eq]; rfl
theorem before0_2 (c : Dev nD) (t : Fin cfg0.N) (d) : (dat0 V c).before 2 t d = iblk0 V c 2 t := by
  refine ((dat0 V c).before_in_eq_fetched 2 rfl (fun _ => rfl) (fun _ _ _ => rfl) (fun s => ?_) t d).trans ?_
  · rw [after0_2]; unfold Dat.blockOf iblk0; rw [A0_eq]
  · unfold Dat.fetched Dat.blockOf iblk0; rw [A0_eq]; rfl
theorem before0_3 (c : Dev nD) (t : Fin cfg0.N) (d) : (dat0 V c).before 3 t d = iblk0 V c 3 t := by
  refine ((dat0 V c).before_in_eq_fetched 3 rfl (fun _ => rfl) (fun _ _ _ => rfl) (fun s => ?_) t d).trans ?_
  · rw [after0_3]; unfold Dat.blockOf iblk0; rw [A0_eq]
  · unfold Dat.fetched Dat.blockOf iblk0; rw [A0_eq]; rfl

/-- The inputs are never idle: the body hands each buffer back at its block. -/
theorem leaves0_0 (c : Dev nD) (t : Fin cfg0.N) :
    (dat0 V c).leavesExact 0 t = owns (c : Thread nD τ) (st0_0 t) fullShare (iblk0 V c 0 t) := by
  unfold Dat.leavesExact; rw [after0_0]
theorem leaves0_1 (c : Dev nD) (t : Fin cfg0.N) :
    (dat0 V c).leavesExact 1 t = owns (c : Thread nD τ) (st0_1 t) fullShare (iblk0 V c 1 t) := by
  unfold Dat.leavesExact; rw [after0_1]
theorem leaves0_2 (c : Dev nD) (t : Fin cfg0.N) :
    (dat0 V c).leavesExact 2 t = owns (c : Thread nD τ) (st0_2 t) fullShare (iblk0 V c 2 t) := by
  unfold Dat.leavesExact; rw [after0_2]
theorem leaves0_3 (c : Dev nD) (t : Fin cfg0.N) :
    (dat0 V c).leavesExact 3 t = owns (c : Thread nD τ) (st0_3 t) fullShare (iblk0 V c 3 t) := by
  unfold Dat.leavesExact; rw [after0_3]

/-- At the last contraction step the output's buffer is handed back at the epilogue of the completed sum. -/
theorem leaves0_4_live (c : Dev nD) (t : Fin cfg0.N) (hc1 : cond0_1 (grid0.coords t)) :
    (dat0 V c).leavesExact 4 t = owns (c : Thread nD τ) (st0_4 t) fullShare (out0 V c t) := by
  unfold Dat.leavesExact; rw [liveAt0_4 t hc1, after0_4]

/-! ## The invariant's equations -/

/-- The region's entry invariant with the scratch split off the other scoped buffers and owned, as a whole buffer, at
    some contents. -/
theorem PhiA0_eq (c : Dev nD) :
    (Pipeline.ΦA spec0 c : sProp 𝕄)
      = iprop(iprop(iprop((∃ d, owns (c : Thread nD τ) (Memref.whole cc0_scratch0 : Memref sig .tc .vmem S1024x1024 .f32) fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [owns_whole]; try rfl

/-- Before the first point the invariant is the entry invariant. -/
theorem PhiS0_zero (c : Dev nD) (n : ℕ) (h : n ≤ cfg0.N) (hz : n = 0) : PhiS0 V c n h = Pipeline.ΦA spec0 c := by
  subst hz; rfl

/-- After point n: the scratch at that point's running sum. -/
theorem PhiS0_succ (c : Dev nD) (n : ℕ) (hn : n < cfg0.N) :
    PhiS0 V c (n + 1) hn = iprop(owns (c : Thread nD τ) (Memref.whole cc0_scratch0 : Memref sig .tc .vmem S1024x1024 .f32) fullShare (acc0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the scratch at the running sum the point before left. -/
theorem PhiS0_pos (c : Dev nD) (n : ℕ) (h : n ≤ cfg0.N) (hz : n ≠ 0) :
    PhiS0 V c n h = iprop(owns (c : Thread nD τ) (Memref.whole cc0_scratch0 : Memref sig .tc .vmem S1024x1024 .f32) fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

theorem Phi0_castSucc (c : Dev nD) (t : Fin cfg0.N) :
    (dat0 V c).Φ t.castSucc = PhiS0 V c t.val (Nat.le_of_lt t.isLt) := by
  dsimp only [dat0]; rfl

theorem Phi0_succ (c : Dev nD) (t : Fin cfg0.N) :
    (dat0 V c).Φ t.succ = PhiS0 V c (t.val + 1) t.isLt := by
  dsimp only [dat0]; rfl

/-! ## The body obligation, at a generic point -/

/-- What the body is called with at point t: the invariant, the core's (empty) debts, each window's current buffer
    at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The four inputs' buffers hold their blocks; the contraction coordinate (the point's number
    mod 6) says which of the three cases runs. The scratch comes in at the sum the point before left (at anything at
    the very first point; at a first contraction step its contents do not matter) and goes out at this point's sum;
    the output's buffer is stored only at the last contraction step, with the epilogue of the completed sum, and is
    otherwise handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ, PhiS0_succ, Phi0_castSucc]
  rw [leaves0_0, leaves0_1, leaves0_2, leaves0_3]
  have hN : t.val < 384 := lt_of_lt_of_eq t.isLt (show cfg0.N = 384 from N_0)
  by_cases h0 : t.val % 6 = 0
  · have h1 : ¬t.val % 6 = 5 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    by_cases hz : t.val = 0
    · rw [PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩⟩
      iapply (runA0 c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_pos V c _ _ hz]
      iintro ⟨⟨HS0, Hr, Hg⟩, Ho, ⟨%d0, H0⟩, ⟨%d1, H1⟩, ⟨%d2, H2⟩, ⟨%d3, H3⟩, ⟨%d4, H4⟩⟩
      iapply (runA0 c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    rw [PhiS0_pos V c _ _ hz, acc0_next V c t h0]
    by_cases h1 : t.val % 6 = 5
    · have hc1 : cond0_1 (grid0.coords t) := (hcond0_1 t).mpr h1
      rw [leaves0_4_live V c t hc1]
      unfold out0
      rw [acc0_next V c t h0]
      iintro ⟨⟨HS0, Hr, Hg⟩, Ho, ⟨%d0, H0⟩, ⟨%d1, H1⟩, ⟨%d2, H2⟩, ⟨%d3, H3⟩, ⟨%d4, H4⟩⟩
      iapply (runC0 c (grid0.coords t) _ _ _ _ _ _ _ _ _ _ _ _ hc0 hc1 (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨HS0, Hr, Hg⟩, Ho, ⟨%d0, H0⟩, ⟨%d1, H1⟩, ⟨%d2, H2⟩, ⟨%d3, H3⟩, ⟨%d4, H4⟩⟩
      iapply (runB0 c (grid0.coords t) _ _ _ _ _ _ _ _ _ _ _ _ hc0 hc1 (iblk0 V c 0 t) (iblk0 V c 1 t) (iblk0 V c 2 t) (iblk0 V c 3 t) ((dat0 V c).before 4 t d4) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The region's body obligation, at every point: the five windows written out, then the point lemma. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 (F := F) V c).Φ 0 := by
  rw [show (dat0 V c).Φ 0 = PhiS0 V c 0 (Nat.zero_le _) from by dsimp only [dat0]; rfl, PhiS0_zero V c 0 _ rfl]

/-- After any point the invariant gives the entry invariant back: the scratch's contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from by dsimp only [dat0], PhiS0_pos V c _ _ ht, PhiA0_eq]
  iintro ⟨HS0, Hr, Hg⟩
  isplitl [HS0 Hr]
  · isplitl [HS0]; · iexists _; iexact HS0
    iexact Hr
  iexact Hg

/-- The same after the last point. -/
theorem hout0 (c : Dev nD) : (dat0 (F := F) V c).Φ (Fin.last cfg0.N) ⊢ Pipeline.ΦA spec0 c :=
  Phi0_out V c _ (by rw [Fin.val_last]; have : cfg0.N = 384 := N_0; omega)

end Cert.KernelIdeal.Hand

end
-- ==== Proof.KI.Body1.lean ====
/- Region 1 is a row-wise normalisation: at each of the grid's 64 points it takes one block of 128 rows of 8192 numbers,
   subtracts each row's mean, divides by the square root of the row's variance plus a small constant, multiplies by the
   scale row, adds the shift row and rounds to sixteen bits. Here it is shown that the body, run at any point on the
   staging buffers the pipeline hands it, leaves what the proof data say: the three input buffers as they were, each
   at its array's block, and the output buffer at the normalised rows of those blocks. -/
import proofs.«168041_j41042707481000_1_alg».proof.Proof.KI.Dats
import proofs.«168041_j41042707481000_1_alg».proof.Proof.Gen.KernelIdeal.Launch
import proofs.«168041_j41042707481000_1_alg».proof.Proof.Gen.KernelIdeal.Skeleton
import proofs.«168041_j41042707481000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading and writing a whole buffer

Every access of the body goes through the rectangle that starts at the origin and has the buffer's own extents. -/

/-- The origin of a two-axis shape, as the constant function. -/
theorem origin2 : (![0, 0] : Fin 2 → Nat) = fun _ => 0 := funext fun a => by fin_cases a <;> rfl

/-- One piece on the whole-buffer rectangle covers every index. -/
theorem whole_covers (p : Vec F S128x8192 .bf16) (y : S128x8192.Idx) :
    ∃ pc ∈ ([⟨Rect.unit (s := S128x8192) ![0, 0] S128x8192.size inb_S128x8192_S128x8192_0_0, p⟩] :
      List (View.Piece (Elt F) S128x8192 .bf16)), y ∈ pc.1.set :=
  View.cover_of_tiled _ S128x8192.size (by rfl) y

/-! ## The body on four whole buffers -/

set_option maxHeartbeats 1000000 in
/-- Run on whole buffers holding the rows `x`, the scale `g`, the shift `b` and anything in the fourth, the body reads
    the first three, reads the fourth without using it, and overwrites the fourth with the normalised rows
    `k1_pay1 x g b`; the first three are unchanged. -/
theorem rows_normalised1 (c : Dev nD) (E : Set ℕ) (i : grid1.Coords)
    (a1 : Memref sig .tc .vmem S128x8192 .f32) (h1 : a1.IsWhole)
    (a2 : Memref sig .tc .vmem S1x8192 .f32) (h2 : a2.IsWhole)
    (a3 : Memref sig .tc .vmem S1x8192 .f32) (h3 : a3.IsWhole)
    (a4 : Memref sig .tc .vmem S128x8192 .bf16) (h4 : a4.IsWhole)
    (x : Vec F S128x8192 .f32) (g b : Vec F S1x8192 .f32) (K : PUnit → sProp 𝕄) :
    iprop(owns (c : Thread nD τ) a1 fullShare x ∗ owns (c : Thread nD τ) a2 fullShare g ∗ owns (c : Thread nD τ) a3 fullShare b
        ∗ (∃ d, owns (c : Thread nD τ) a4 fullShare d)
        ∗ (iprop(owns (c : Thread nD τ) a1 fullShare x ∗ owns (c : Thread nD τ) a2 fullShare g ∗ owns (c : Thread nD τ) a3 fullShare b
            ∗ owns (c : Thread nD τ) a4 fullShare (k1_pay1 x g b)) -∗ K ⟨⟩))
      ⊢ wp frame (wpE (defs₀ (F := F)) Variants.none c none) E (cc1__ln_kernel i a1 h1 a2 h2 a3 h3 a4 h4) K := by
  simp only [cc1__ln_kernel_eq_skeleton]; unfold cc1__ln_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- what one covering store leaves is its payload, and a load through the whole rectangle reads the contents
  rw [View.read_writes_eq_canon _ _ _ (whole_covers _), View.canon_unit_zero origin2]
  simp only [View.readAt_eq_ld, Rect.toLoadRect]
  rw [View.ld_unit_zero (S := S128x8192) origin2, View.ld_unit_zero (S := S1x8192) origin2,
    View.ld_unit_zero (S := S1x8192) origin2]

/-! ## What the buffers hold when the body is called

The rows' block is fetched at every point. The scale and the shift are fetched at the first point only; their block
index is the same at every point, and the body leaves their buffers alone, so they too hold their block throughout. -/

/-- The proof data's arrays are the arrays as the region finds them. -/
theorem arr1 (c : Dev nD) (w : Fin cfg1.W) : (dat1 V c).A w = V c (Pipeline.arrRef spec1 w) := by
  dsimp only [dat1]

/-- What the body leaves, window by window. -/
theorem left1_0 (c : Dev nD) (t : Fin cfg1.N) : (dat1 V c).after 0 t = iblk1 V c 0 t := by dsimp only [dat1]
theorem left1_1 (c : Dev nD) (t : Fin cfg1.N) : (dat1 V c).after 1 t = iblk1 V c 1 t := by dsimp only [dat1]
theorem left1_2 (c : Dev nD) (t : Fin cfg1.N) : (dat1 V c).after 2 t = iblk1 V c 2 t := by dsimp only [dat1]
theorem left1_3 (c : Dev nD) (t : Fin cfg1.N) :
    (dat1 V c).after 3 t = k1_pay1 (iblk1 V c 0 t) (iblk1 V c 1 t) (iblk1 V c 2 t) := by dsimp only [dat1]

/-- The rows' buffer holds the rows' block. -/
theorem held1_0 (c : Dev nD) (t : Fin cfg1.N) (d) : (dat1 V c).before 0 t d = iblk1 V c 0 t := by
  refine ((dat1 V c).before_in_eq_fetched 0 rfl (fun _ => rfl) (fun _ _ _ => rfl) (fun s => ?_) t d).trans ?_
  · rw [left1_0]; unfold Dat.blockOf iblk1; rw [arr1]
  · unfold Dat.fetched Dat.blockOf iblk1; rw [arr1]; rfl

/-- The scale's buffer holds the scale row, at the first point and at every later one. -/
theorem held1_1 (c : Dev nD) (t : Fin cfg1.N) (d) : (dat1 V c).before 1 t d = iblk1 V c 1 t := by
  refine ((dat1 V c).before_in_eq_fetched 1 rfl (fun _ => rfl) (fun _ _ _ => rfl) (fun s => ?_) t d).trans ?_
  · rw [left1_1]; unfold Dat.blockOf iblk1; rw [arr1]
  · unfold Dat.fetched Dat.blockOf iblk1; rw [arr1]; rfl

/-- The shift's buffer holds the shift row, likewise. -/
theorem held1_2 (c : Dev nD) (t : Fin cfg1.N) (d) : (dat1 V c).before 2 t d = iblk1 V c 2 t := by
  refine ((dat1 V c).before_in_eq_fetched 2 rfl (fun _ => rfl) (fun _ _ _ => rfl) (fun s => ?_) t d).trans ?_
  · rw [left1_2]; unfold Dat.blockOf iblk1; rw [arr1]
  · unfold Dat.fetched Dat.blockOf iblk1; rw [arr1]; rfl

/-! ## The body at a grid point -/

/-- At any point, from the region's invariant, the core's debt and the four current buffers at what they then hold,
    the body runs to the same invariant and debt, the three inputs' buffers at their blocks and the output's at the
    normalised rows of those blocks. The invariant and the debt are not touched. -/
theorem point1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  simp only [held1_0, held1_1, held1_2]
  rw [show (dat1 V c).Φ t.succ = (dat1 V c).Φ t.castSucc from rfl,
    show (dat1 V c).owesAt () t.succ = (dat1 V c).owesAt () t.castSucc from rfl,
    left1_0, left1_1, left1_2, left1_3]
  iintro ⟨HΦ, Ho, ⟨%d0, H0⟩, ⟨%d1, H1⟩, ⟨%d2, H2⟩, ⟨%d3, H3⟩⟩
  iapply (rows_normalised1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1: the point lemma at every point, the four windows written out. -/
theorem body_obligation1 (c : Dev nD) :
    BodyObligation (dat1 (F := F) V c) (defs₀ (F := F)) Variants.none () Set.univ := fun t => by
  rw [bigSep_W1, bigSep_W1]
  exact point1 V c t

end Cert.KernelIdeal.Hand

end
-- ==== Proof.KI.Body2.lean ====
/- Region 2 is the second matrix product: over a grid of 8 × 8 × 16 points, the last axis the contraction, it adds
   up in a scratch buffer the products of a block of x1 with a block of the binarised weights, and at the last
   contraction step stores the epilogue of the sum (scaled by a row, shifted by a row, clamped below at zero, plus the
   block of x1 at the output's block index) into the output block. Here it is shown that the body, run at any point on
   the staging buffers the pipeline hands it, leaves what the proof data say: the five input buffers as they were,
   each at its array's block; the scratch at the running sum of the point; and the output buffer, at a last contraction
   step, at the epilogue of the completed sum, elsewhere as found. -/
import proofs.«168041_j41042707481000_1_alg».proof.Proof.KI.Dats
import proofs.«168041_j41042707481000_1_alg».proof.Proof.Gen.KernelIdeal.Launch
import proofs.«168041_j41042707481000_1_alg».proof.Proof.Gen.KernelIdeal.Skeleton
import proofs.«168041_j41042707481000_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum, point by point -/

/-- Where the contraction coordinate is 0 the running sum starts again: the product of the point's two blocks added
    to the zero block. -/
theorem acc2_first (c : Dev nD) (t : Fin cfg2.N) (h : t.val % 16 = 0) :
    acc2 V c t.val t.isLt = k2_pay2 (iblk2 V c 1 t) (iblk2 V c 0 t) (k2_pay1 (F := F)) := by
  obtain ⟨n, hn⟩ := t
  cases n with
  | zero => rfl
  | succ n => exact if_pos h

/-- Elsewhere it is the product of the point's two blocks added to the sum the point before left. -/
theorem acc2_next (c : Dev nD) (t : Fin cfg2.N) (h : t.val % 16 ≠ 0) :
    acc2 V c t.val t.isLt = k2_pay2 (iblk2 V c 1 t) (iblk2 V c 0 t)
      (acc2 V c (t.val - 1) (Nat.lt_of_le_of_lt (Nat.sub_le _ _) t.isLt)) := by
  obtain ⟨n, hn⟩ := t
  cases n with
  | zero => exact absurd (Nat.zero_mod _) h
  | succ n => exact if_neg h

/-! ## The body's two branch conditions, in closed form over the grid -/

/-- The first branch (reset the scratch) is taken where the contraction coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The second branch (store the output block) is taken where the contraction coordinate is 15, the last. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the output window is idle -/

/-- Away from the last contraction step the body stores nothing into the output block, -/
theorem idleAt2_5 : ∀ t : Fin cfg2.N, ¬cond2_1 (grid2.coords t) → cfg2.idle 5 (grid2.coords t) = true := by decide +kernel
/-- and the block is not written back there. -/
theorem noFlush2_5 : ∀ t : Fin cfg2.N, ¬cond2_1 (grid2.coords t) → (cfg2.win 5).flush t = false := by decide +kernel
/-- At the last contraction step the output block is stored. -/
theorem liveAt2_5 : ∀ t : Fin cfg2.N, cond2_1 (grid2.coords t) → cfg2.idle 5 (grid2.coords t) = false := by decide +kernel

/-! ## Reading and writing a whole buffer

Every access of the body goes through the rectangle that starts at the origin and has the buffer's own extents. -/

/-- The origin of a two-axis shape, as the constant function. -/
private theorem org2 : (![0, 0] : Fin 2 → Nat) = fun _ => 0 := funext fun a => by fin_cases a <;> rfl

/-- A store through the whole-buffer rectangle, made last, is all a later read of the buffer sees. -/
private theorem read_top2 {κ : Kind} {sp : Space} {S : Shape} {e : EltTy} (v : View sig κ sp S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through that rectangle reads the whole contents. -/
private theorem readAt_top2 {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz]

/-! ## The body on whole staging buffers, case by case -/

set_option maxHeartbeats 1000000 in
/-- First contraction step: whatever the scratch held, it ends holding the product of the two blocks added to zero;
    the five inputs and the output block's buffer are handed back as found. -/
theorem run2_A (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .bf16) (x1 : Vec F S512x1024 .f32) (x2 : Vec F S1x1024 .f32) (x3 : Vec F S1x1024 .f32) (x4 : Vec F S1024x1024 .bf16) (xi5 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 x1 x0 (k2_pay1 (F := F)))) -∗ K ⟨⟩))
      ⊢ wp frame (wpE (defs₀ (F := F)) Variants.none c none) E (cc2__mm2_kernel i arg3 harg3 arg4 harg4 arg5 harg5 arg6 harg6 arg7 harg7 arg8 harg8 arg9 harg9) K := by
  simp only [cc2__mm2_kernel_eq_skeleton]; unfold cc2__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  sl_unfold_run_names
  rw [read_top2 _ _ org2, readAt_top2 _ _ org2, readAt_top2 _ _ org2, hf0, hf1, View.readCov_unit_zero _ org2]

set_option maxHeartbeats 1000000 in
/-- A middle contraction step: the scratch, holding the sum so far, ends holding the product of the two blocks added
    to it; everything else is handed back as found. -/
theorem run2_B (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .bf16) (x1 : Vec F S512x1024 .f32) (x2 : Vec F S1x1024 .f32) (x3 : Vec F S1x1024 .f32) (x4 : Vec F S1024x1024 .bf16) (xi5 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 x1 x0 xs)) -∗ K ⟨⟩))
      ⊢ wp frame (wpE (defs₀ (F := F)) Variants.none c none) E (cc2__mm2_kernel i arg3 harg3 arg4 harg4 arg5 harg5 arg6 harg6 arg7 harg7 arg8 harg8 arg9 harg9) K := by
  simp only [cc2__mm2_kernel_eq_skeleton]; unfold cc2__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  sl_unfold_run_names
  rw [read_top2 _ _ org2, readAt_top2 _ _ org2, readAt_top2 _ _ org2, readAt_top2 _ _ org2, hf0, hf1, hfs0]

set_option maxHeartbeats 1000000 in
/-- The last contraction step: the scratch ends holding the completed sum, and the output block's buffer, whatever it
    held, the epilogue of that sum with the scale row, the shift row and the residual block. -/
theorem run2_C (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .bf16) (x1 : Vec F S512x1024 .f32) (x2 : Vec F S1x1024 .f32) (x3 : Vec F S1x1024 .f32) (x4 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k2_pay3 (k2_pay2 x1 x0 xs) x2 x3 x4) ∗ owns (c : Thread nD τ) arg9 fullShare (k2_pay2 x1 x0 xs)) -∗ K ⟨⟩))
      ⊢ wp frame (wpE (defs₀ (F := F)) Variants.none c none) E (cc2__mm2_kernel i arg3 harg3 arg4 harg4 arg5 harg5 arg6 harg6 arg7 harg7 arg8 harg8 arg9 harg9) K := by
  simp only [cc2__mm2_kernel_eq_skeleton]; unfold cc2__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [read_top2 _ _ org2, View.readCov_unit_zero _ org2, readAt_top2 _ _ org2, readAt_top2 _ _ org2, readAt_top2 _ _ org2,
      readAt_top2 _ _ org2, readAt_top2 _ _ org2, readAt_top2 _ _ org2, hf0, hf1, hf2, hf3, hf4, hfs0]
  iexists _; isplitr
  swap; · iexact HS0
  ipureintro
  sl_unfold_run_names
  rw [read_top2 _ _ org2, readAt_top2 _ _ org2, readAt_top2 _ _ org2, readAt_top2 _ _ org2, hf0, hf1, hfs0]

/-! ## The staging buffers at a point, and what the proof data say of them -/

/-- Each window's current staging buffer at point `t`. -/
abbrev ms2_0 (t : Fin cfg2.N) : Memref sig .tc .vmem S1024x512 .bf16 := win2_0.stage (cfg2.slots t 0)
abbrev ms2_1 (t : Fin cfg2.N) : Memref sig .tc .vmem S512x1024 .f32 := win2_1.stage (cfg2.slots t 1)
abbrev ms2_2 (t : Fin cfg2.N) : Memref sig .tc .vmem S1x1024 .f32 := win2_2.stage (cfg2.slots t 2)
abbrev ms2_3 (t : Fin cfg2.N) : Memref sig .tc .vmem S1x1024 .f32 := win2_3.stage (cfg2.slots t 3)
abbrev ms2_4 (t : Fin cfg2.N) : Memref sig .tc .vmem S1024x1024 .bf16 := win2_4.stage (cfg2.slots t 4)
abbrev ms2_5 (t : Fin cfg2.N) : Memref sig .tc .vmem S1024x1024 .f32 := win2_5.stage (cfg2.slots t 5)

/-- The proof data's arrays are the region's entry contents. -/
theorem A2_eq (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

/-- Each input's current buffer holds its block at every point, whether or not it was fetched there: unfetched, its
    block index has not moved since the fetch. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A2_eq]; try rfl) t d).trans
    (by unfold Dat.fetched Dat.blockOf iblk2; rw [A2_eq]; try rfl)

/-- The inputs are never idle: the body hands each buffer back at its block. -/
theorem leaves2_0 (c : Dev nD) (t : Fin cfg2.N) :
    (dat2 V c).leavesExact 0 t = owns (c : Thread nD τ) (ms2_0 t) fullShare (iblk2 V c 0 t) := by
  unfold Dat.leavesExact; rw [after2_0]; try rfl
theorem leaves2_1 (c : Dev nD) (t : Fin cfg2.N) :
    (dat2 V c).leavesExact 1 t = owns (c : Thread nD τ) (ms2_1 t) fullShare (iblk2 V c 1 t) := by
  unfold Dat.leavesExact; rw [after2_1]; try rfl
theorem leaves2_2 (c : Dev nD) (t : Fin cfg2.N) :
    (dat2 V c).leavesExact 2 t = owns (c : Thread nD τ) (ms2_2 t) fullShare (iblk2 V c 2 t) := by
  unfold Dat.leavesExact; rw [after2_2]; try rfl
theorem leaves2_3 (c : Dev nD) (t : Fin cfg2.N) :
    (dat2 V c).leavesExact 3 t = owns (c : Thread nD τ) (ms2_3 t) fullShare (iblk2 V c 3 t) := by
  unfold Dat.leavesExact; rw [after2_3]; try rfl
theorem leaves2_4 (c : Dev nD) (t : Fin cfg2.N) :
    (dat2 V c).leavesExact 4 t = owns (c : Thread nD τ) (ms2_4 t) fullShare (iblk2 V c 4 t) := by
  unfold Dat.leavesExact; rw [after2_4]; try rfl

/-! ## The invariant's equations -/

/-- The region's entry invariant with the scratch split off the other scoped buffers and owned, as a whole buffer, at
    some contents. -/
theorem PhiA2_eq (c : Dev nD) :
    (Pipeline.ΦA spec2 c : sProp 𝕄)
      = iprop(iprop(iprop((∃ d, owns (c : Thread nD τ) (Memref.whole cc2_scratch0 : Memref sig .tc .vmem S1024x1024 .f32) fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [owns_whole]; try rfl

theorem PhiS2_zero (c : Dev nD) (n : ℕ) (h : n ≤ cfg2.N) (hz : n = 0) : PhiS2 V c n h = Pipeline.ΦA spec2 c := by
  subst hz; rfl

/-- After point `n`: the scratch at that point's running sum. -/
theorem PhiS2_succ (c : Dev nD) (n : ℕ) (hn : n < cfg2.N) :
    PhiS2 V c (n + 1) hn = iprop(owns (c : Thread nD τ) (Memref.whole cc2_scratch0 : Memref sig .tc .vmem S1024x1024 .f32) fullShare (acc2 V c n hn) ∗ Pipeline.scopedRestBut (Ix := Unit) (Name := ℕ) (U := UR sig nD τ) (Lvl := ℕ) (Val := Elt F) spec2 c [cc2_scratch0] ∗ (∃ r, prngReg c r)) := rfl

/-- Before a point that is not the first: the scratch at the running sum the point before left. -/
theorem PhiS2_pos (c : Dev nD) (n : ℕ) (h : n ≤ cfg2.N) (hz : n ≠ 0) :
    PhiS2 V c n h = iprop(owns (c : Thread nD τ) (Memref.whole cc2_scratch0 : Memref sig .tc .vmem S1024x1024 .f32) fullShare (acc2 V c (n - 1) (by omega)) ∗ Pipeline.scopedRestBut (Ix := Unit) (Name := ℕ) (U := UR sig nD τ) (Lvl := ℕ) (Val := Elt F) spec2 c [cc2_scratch0] ∗ (∃ r, prngReg c r)) := by
  cases n with
  | zero => exact absurd rfl hz
  | succ n => rfl

theorem Phi2_castSucc (c : Dev nD) (t : Fin cfg2.N) :
    (dat2 V c).Φ t.castSucc = PhiS2 V c t.val (Nat.le_of_lt t.isLt) := by
  dsimp only [dat2]; simp only [Fin.coe_castSucc]

theorem Phi2_succ (c : Dev nD) (t : Fin cfg2.N) :
    (dat2 V c).Φ t.succ = PhiS2 V c (t.val + 1) t.isLt := by
  dsimp only [dat2]; simp only [Fin.val_succ]

/-! ## The body obligation, at a generic point -/

/-- What the body is called with at point `t`: the invariant, the core's (empty) debts, each window's current buffer
    at what it then holds; -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The five inputs' buffers hold their blocks; the contraction coordinate (the point's number
    mod 16) says which of the three cases runs. The scratch comes in at the sum the point before left (at anything at
    the very first point; at a first contraction step its contents do not matter) and goes out at this point's sum;
    the output's buffer is stored only at the last contraction step, with the epilogue of the completed sum, and is
    otherwise handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [Phi2_succ, PhiS2_succ, Phi2_castSucc]
  rw [leaves2_0, leaves2_1, leaves2_2, leaves2_3, leaves2_4]
  have hN : t.val < 1024 := lt_of_lt_of_eq t.isLt (show cfg2.N = 1024 from N_2)
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_first V c t h0]
    by_cases hz : t.val = 0
    · rw [PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond2_0 (grid2.coords t) := fun h => h0 ((hcond2_0 t).mp h)
    rw [PhiS2_pos V c _ _ hz, acc2_next V c t h0]
    by_cases h1 : t.val % 16 = 15
    · have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      unfold out2
      rw [acc2_next V c t h0]
      iintro ⟨⟨HS0, Hr, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ hc0 hc1 (iblk2 V c 0 t) (iblk2 V c 1 t) (iblk2 V c 2 t) (iblk2 V c 3 t) (iblk2 V c 4 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨HS0, Hr, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The region's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from by dsimp only [dat2]; rfl, PhiS2_zero V c 0 _ rfl]
  try exact Idealize.SL.BI.Entails.refl _

/-- After any point but the first the invariant gives the entry invariant back: the scratch's contents are forgotten. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from by dsimp only [dat2], PhiS2_pos V c _ _ ht, PhiA2_eq]
  iintro ⟨HS0, Hr, Hg⟩
  isplitl [HS0 Hr]
  · isplitl [HS0]; · iexists _; iexact HS0
    iexact Hr
  iexact Hg

/-- The same after the last point. -/
theorem hout2 (c : Dev nD) : (dat2 V c).Φ (Fin.last cfg2.N) ⊢ Pipeline.ΦA spec2 c :=
  Phi2_out V c _ (by rw [Fin.val_last]; have : cfg2.N = 1024 := N_2; omega)

end Cert.KernelIdeal.Hand

end
-- ==== Proof.KI.Body3.lean ====
/- Region 3 is a row-wise normalisation: at each of the grid's 64 points it takes one block of 128 rows of 8192 numbers,
   subtracts each row's mean, divides by the square root of the row's variance plus a small constant, multiplies by the
   scale row, adds the shift row and rounds to sixteen bits. Here it is shown that the body, run at any point on the
   staging buffers the pipeline hands it, leaves what the proof data say: the three input buffers as they were, each
   at its array's block, and the output buffer at the normalised rows of those blocks. -/
import proofs.«168041_j41042707481000_1_alg».proof.Proof.KI.Dats
import proofs.«168041_j41042707481000_1_alg».proof.Proof.Gen.KernelIdeal.Launch
import proofs.«168041_j41042707481000_1_alg».proof.Proof.Gen.KernelIdeal.Skeleton
import proofs.«168041_j41042707481000_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading and writing a whole buffer

Every access of the body goes through the rectangle that starts at the origin and has the buffer's own extents. -/

/-- The origin of a two-axis shape, as the constant function. -/
theorem origin2_r3 : (![0, 0] : Fin 2 → Nat) = fun _ => 0 := funext fun a => by fin_cases a <;> rfl

/-- One piece on the whole-buffer rectangle covers every index. -/
theorem whole_covers_r3 (p : Vec F S128x8192 .bf16) (y : S128x8192.Idx) :
    ∃ pc ∈ ([⟨Rect.unit (s := S128x8192) ![0, 0] S128x8192.size inb_S128x8192_S128x8192_0_0, p⟩] :
      List (View.Piece (Elt F) S128x8192 .bf16)), y ∈ pc.1.set :=
  View.cover_of_tiled _ S128x8192.size (by rfl) y

/-! ## The body on four whole buffers -/

set_option maxHeartbeats 1000000 in
/-- Run on whole buffers holding the rows `x`, the scale `g`, the shift `b` and anything in the fourth, the body reads
    the first three, reads the fourth without using it, and overwrites the fourth with the normalised rows
    `k3_pay1 x g b`; the first three are unchanged. -/
theorem rows_normalised3 (c : Dev nD) (E : Set ℕ) (i : grid3.Coords)
    (a1 : Memref sig .tc .vmem S128x8192 .f32) (h1 : a1.IsWhole)
    (a2 : Memref sig .tc .vmem S1x8192 .f32) (h2 : a2.IsWhole)
    (a3 : Memref sig .tc .vmem S1x8192 .f32) (h3 : a3.IsWhole)
    (a4 : Memref sig .tc .vmem S128x8192 .bf16) (h4 : a4.IsWhole)
    (x : Vec F S128x8192 .f32) (g b : Vec F S1x8192 .f32) (K : PUnit → sProp 𝕄) :
    iprop(owns (c : Thread nD τ) a1 fullShare x ∗ owns (c : Thread nD τ) a2 fullShare g ∗ owns (c : Thread nD τ) a3 fullShare b
        ∗ (∃ d, owns (c : Thread nD τ) a4 fullShare d)
        ∗ (iprop(owns (c : Thread nD τ) a1 fullShare x ∗ owns (c : Thread nD τ) a2 fullShare g ∗ owns (c : Thread nD τ) a3 fullShare b
            ∗ owns (c : Thread nD τ) a4 fullShare (k3_pay1 x g b)) -∗ K ⟨⟩))
      ⊢ wp frame (wpE (defs₀ (F := F)) Variants.none c none) E (cc3__ln_kernel i a1 h1 a2 h2 a3 h3 a4 h4) K := by
  simp only [cc3__ln_kernel_eq_skeleton]; unfold cc3__ln_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- what one covering store leaves is its payload, and a load through the whole rectangle reads the contents
  rw [View.read_writes_eq_canon _ _ _ (whole_covers_r3 _), View.canon_unit_zero origin2_r3]
  simp only [View.readAt_eq_ld, Rect.toLoadRect]
  rw [View.ld_unit_zero (S := S128x8192) origin2_r3, View.ld_unit_zero (S := S1x8192) origin2_r3,
    View.ld_unit_zero (S := S1x8192) origin2_r3]

/-! ## What the buffers hold when the body is called

The rows' block is fetched at every point. The scale and the shift are fetched at the first point only; their block
index is the same at every point, and the body leaves their buffers alone, so they too hold their block throughout. -/

/-- The proof data's arrays are the arrays as the region finds them. -/
theorem arr3 (c : Dev nD) (w : Fin cfg3.W) : (dat3 V c).A w = V c (Pipeline.arrRef spec3 w) := by
  dsimp only [dat3]

/-- What the body leaves, window by window. -/
theorem left3_0 (c : Dev nD) (t : Fin cfg3.N) : (dat3 V c).after 0 t = iblk3 V c 0 t := by dsimp only [dat3]
theorem left3_1 (c : Dev nD) (t : Fin cfg3.N) : (dat3 V c).after 1 t = iblk3 V c 1 t := by dsimp only [dat3]
theorem left3_2 (c : Dev nD) (t : Fin cfg3.N) : (dat3 V c).after 2 t = iblk3 V c 2 t := by dsimp only [dat3]
theorem left3_3 (c : Dev nD) (t : Fin cfg3.N) :
    (dat3 V c).after 3 t = k3_pay1 (iblk3 V c 0 t) (iblk3 V c 1 t) (iblk3 V c 2 t) := by dsimp only [dat3]

/-- The rows' buffer holds the rows' block. -/
theorem held3_0 (c : Dev nD) (t : Fin cfg3.N) (d) : (dat3 V c).before 0 t d = iblk3 V c 0 t := by
  refine ((dat3 V c).before_in_eq_fetched 0 rfl (fun _ => rfl) (fun _ _ _ => rfl) (fun s => ?_) t d).trans ?_
  · rw [left3_0]; unfold Dat.blockOf iblk3; rw [arr3]
  · unfold Dat.fetched Dat.blockOf iblk3; rw [arr3]; rfl

/-- The scale's buffer holds the scale row, at the first point and at every later one. -/
theorem held3_1 (c : Dev nD) (t : Fin cfg3.N) (d) : (dat3 V c).before 1 t d = iblk3 V c 1 t := by
  refine ((dat3 V c).before_in_eq_fetched 1 rfl (fun _ => rfl) (fun _ _ _ => rfl) (fun s => ?_) t d).trans ?_
  · rw [left3_1]; unfold Dat.blockOf iblk3; rw [arr3]
  · unfold Dat.fetched Dat.blockOf iblk3; rw [arr3]; rfl

/-- The shift's buffer holds the shift row, likewise. -/
theorem held3_2 (c : Dev nD) (t : Fin cfg3.N) (d) : (dat3 V c).before 2 t d = iblk3 V c 2 t := by
  refine ((dat3 V c).before_in_eq_fetched 2 rfl (fun _ => rfl) (fun _ _ _ => rfl) (fun s => ?_) t d).trans ?_
  · rw [left3_2]; unfold Dat.blockOf iblk3; rw [arr3]
  · unfold Dat.fetched Dat.blockOf iblk3; rw [arr3]; rfl

/-! ## The body at a grid point -/

/-- At any point, from the region's invariant, the core's debt and the four current buffers at what they then hold,
    the body runs to the same invariant and debt, the three inputs' buffers at their blocks and the output's at the
    normalised rows of those blocks. The invariant and the debt are not touched. -/
theorem point3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t))) := by
  simp only [held3_0, held3_1, held3_2]
  rw [show (dat3 V c).Φ t.succ = (dat3 V c).Φ t.castSucc from rfl,
    show (dat3 V c).owesAt () t.succ = (dat3 V c).owesAt () t.castSucc from rfl,
    left3_0, left3_1, left3_2, left3_3]
  iintro ⟨HΦ, Ho, ⟨%d0, H0⟩, ⟨%d1, H1⟩, ⟨%d2, H2⟩, ⟨%d3, H3⟩⟩
  iapply (rows_normalised3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 3: the point lemma at every point, the four windows written out. -/
theorem body_obligation3 (c : Dev nD) :
    BodyObligation (dat3 (F := F) V c) (defs₀ (F := F)) Variants.none () Set.univ := fun t => by
  rw [bigSep_W3, bigSep_W3]
  exact point3 V c t

end Cert.KernelIdeal.Hand

end
-- ==== Proof.KI.Body4.lean ====
/- Region 4 is the head's matrix product: x2 · soft_bin(W3), scaled and shifted. Its grid has 8 × 16 points with the
   contraction axis last, so the sixteen points of one block of 1024 output rows are consecutive. At each point the body
   takes a 1024 × 512 block of the left factor and a 512 × 10 block of the weights and adds their product to a running
   sum of 1024 × 10 numbers kept in a scratch buffer; at the first of the sixteen points it first sets the sum to zero,
   and at the last it stores the sum, times the scale row plus the shift row, into the output's block. Here it is shown
   that the body, run at any point on the staging buffers the pipeline hands it, leaves what the proof data say: the four
   input buffers as they were, each at its array's block; the scratch at the running sum; the output's buffer as found at
   every point but the last of a contraction, and there at the epilogue of the full sum. The region's invariant, which
   carries the scratch from point to point, starts from the plain one and ends in it. -/
import proofs.«168041_j41042707481000_1_alg».proof.Proof.KI.Dats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum's two equations -/

theorem acc4_first (c : Dev nD) (t : Fin cfg4.N) (h : t.val % 16 = 0) :
    acc4 V c t.val t.isLt = k4_pay2 (iblk4 V c 1 t) (iblk4 V c 0 t) (k4_pay1 (F := F)) := by
  obtain ⟨n, hn⟩ := t
  cases n with
  | zero => rfl
  | succ n => exact if_pos h

theorem acc4_next (c : Dev nD) (t : Fin cfg4.N) (h : t.val % 16 ≠ 0) :
    acc4 V c t.val t.isLt = k4_pay2 (iblk4 V c 1 t) (iblk4 V c 0 t)
      (acc4 V c (t.val - 1) (Nat.lt_of_le_of_lt (Nat.sub_le _ _) t.isLt)) := by
  obtain ⟨n, hn⟩ := t
  cases n with
  | zero => exact absurd (Nat.zero_mod _) h
  | succ n => exact if_neg h

/-! ## The two conditions of the body, in closed form over the grid -/

abbrev cond4_0 (i : grid4.Coords) : Prop :=
  (Scalar.cmpi .ne (Scalar.extui (Scalar.cmpi .eq (BitVec.ofNat 32 (i 1).val) 0#32)) 0#32) = 1#1

theorem hcond4_0 : ∀ t : Fin cfg4.N, cond4_0 (grid4.coords t) ↔ t.val % 16 = 0 :=
  (by decide +kernel : ∀ t : Fin grid4.N, cond4_0 (grid4.coords t) ↔ t.val % 16 = 0)

abbrev cond4_1 (i : grid4.Coords) : Prop := k4_cond2 i = 1#1

theorem hcond4_1 : ∀ t : Fin cfg4.N, cond4_1 (grid4.coords t) ↔ t.val % 16 = 15 :=
  (by decide +kernel : ∀ t : Fin grid4.N, cond4_1 (grid4.coords t) ↔ t.val % 16 = 15)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev scM4 : Memref sig .tc .vmem S1024x10 .f32 := Memref.whole cc4_scratch0

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

/-- The origin of a two-axis shape, as the constant function. -/
theorem origin4 : (![0, 0] : Fin 2 → Nat) = fun _ => 0 := funext fun a => by fin_cases a <;> rfl

/-! ## The body on any whole buffers, case by case

Middle points of a contraction (neither the first nor the last step): the scratch holding `xs` ends at the
partial product added to `xs`; the output's buffer is not touched. -/
set_option maxHeartbeats 1000000 in
theorem run4_B (c : Dev nD) (i : grid4.Coords)
    (arg2 : Memref sig .tc .vmem S1024x512 .bf16) (harg2 : arg2.IsWhole)
    (arg3 : Memref sig .tc .vmem S512x10 .f32) (harg3 : arg3.IsWhole)
    (arg4 : Memref sig .tc .vmem S1x10 .f32) (harg4 : arg4.IsWhole)
    (arg5 : Memref sig .tc .vmem S1x10 .f32) (harg5 : arg5.IsWhole)
    (arg6 : Memref sig .tc .vmem S1024x10 .f32) (harg6 : arg6.IsWhole)
    (arg7 : Memref sig .tc .vmem S1024x10 .f32) (harg7 : arg7.IsWhole)
    (hc0 : ¬cond4_0 i) (hc1 : ¬cond4_1 i)
    (x0 : Vec F S1024x512 .bf16) (x1 : Vec F S512x10 .f32) (x2 x3 : Vec F S1x10 .f32) (xi4 xs : Vec F S1024x10 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k4_pay2 x1 x0 xs)) -∗ K ⟨⟩))
      ⊢ wp frame (wpE (defs₀ (F := F)) Variants.none c none) E (cc4__mm3_kernel i arg2 harg2 arg3 harg3 arg4 harg4 arg5 harg5 arg6 harg6 arg7 harg7) K := by
  simp only [cc4__mm3_kernel_eq_skeleton]; unfold cc4__mm3_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_singleton_self _, View.mem_set_unit_zero origin4 inb_S1024x10_S1024x10_0_0 y⟩),
    View.canon_unit_zero origin4]
  simp only [View.readAt_eq_ld, harg2.read_unread, harg3.read_unread, harg7.read_unread,
    View.ld_unit_zero (S := S512x10) origin4, View.ld_unit_zero (S := S1024x512) origin4, View.ld_unit_zero (S := S1024x10) origin4]

/-! First point of a contraction: the scratch, at anything, is zeroed, then holds the first partial product. -/
set_option maxHeartbeats 1000000 in
theorem run4_A (c : Dev nD) (i : grid4.Coords)
    (arg2 : Memref sig .tc .vmem S1024x512 .bf16) (harg2 : arg2.IsWhole)
    (arg3 : Memref sig .tc .vmem S512x10 .f32) (harg3 : arg3.IsWhole)
    (arg4 : Memref sig .tc .vmem S1x10 .f32) (harg4 : arg4.IsWhole)
    (arg5 : Memref sig .tc .vmem S1x10 .f32) (harg5 : arg5.IsWhole)
    (arg6 : Memref sig .tc .vmem S1024x10 .f32) (harg6 : arg6.IsWhole)
    (arg7 : Memref sig .tc .vmem S1024x10 .f32) (harg7 : arg7.IsWhole)
    (hc0 : cond4_0 i) (hc1 : ¬cond4_1 i)
    (x0 : Vec F S1024x512 .bf16) (x1 : Vec F S512x10 .f32) (x2 x3 : Vec F S1x10 .f32) (xi4 : Vec F S1024x10 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k4_pay2 x1 x0 (k4_pay1 (F := F)))) -∗ K ⟨⟩))
      ⊢ wp frame (wpE (defs₀ (F := F)) Variants.none c none) E (cc4__mm3_kernel i arg2 harg2 arg3 harg3 arg4 harg4 arg5 harg5 arg6 harg6 arg7 harg7) K := by
  simp only [cc4__mm3_kernel_eq_skeleton]; unfold cc4__mm3_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_cons_self, View.mem_set_unit_zero origin4 inb_S1024x10_S1024x10_0_0 y⟩)]
  sl_unfold_words
  rw [View.canon_cons_unit_zero (S := S1024x10) origin4]
  simp only [View.readAt_eq_ld, harg2.read_unread, harg3.read_unread, View.readCov_unit_zero (S := S1024x10) _ origin4,
    View.ld_unit_zero (S := S512x10) origin4, View.ld_unit_zero (S := S1024x512) origin4]

/-! Last point of a contraction: the scratch ends at the full sum; the output's buffer, at anything, at its epilogue. -/
set_option maxHeartbeats 1000000 in
theorem run4_C (c : Dev nD) (i : grid4.Coords)
    (arg2 : Memref sig .tc .vmem S1024x512 .bf16) (harg2 : arg2.IsWhole)
    (arg3 : Memref sig .tc .vmem S512x10 .f32) (harg3 : arg3.IsWhole)
    (arg4 : Memref sig .tc .vmem S1x10 .f32) (harg4 : arg4.IsWhole)
    (arg5 : Memref sig .tc .vmem S1x10 .f32) (harg5 : arg5.IsWhole)
    (arg6 : Memref sig .tc .vmem S1024x10 .f32) (harg6 : arg6.IsWhole)
    (arg7 : Memref sig .tc .vmem S1024x10 .f32) (harg7 : arg7.IsWhole)
    (hc0 : ¬cond4_0 i) (hc1 : cond4_1 i)
    (x0 : Vec F S1024x512 .bf16) (x1 : Vec F S512x10 .f32) (x2 x3 : Vec F S1x10 .f32) (xs : Vec F S1024x10 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k4_pay3 (k4_pay2 x1 x0 xs) x2 x3)
            ∗ owns (c : Thread nD τ) arg7 fullShare (k4_pay2 x1 x0 xs)) -∗ K ⟨⟩))
      ⊢ wp frame (wpE (defs₀ (F := F)) Variants.none c none) E (cc4__mm3_kernel i arg2 harg2 arg3 harg3 arg4 harg4 arg5 harg5 arg6 harg6 arg7 harg7) K := by
  simp only [cc4__mm3_kernel_eq_skeleton]; unfold cc4__mm3_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero origin4 inb_S1024x10_S1024x10_0_0 y⟩)]
    sl_unfold_words
    rw [View.canon_unit_zero (S := S1024x10) origin4, View.readCov_unit_zero (S := S1024x10) _ origin4]
    simp only [View.readAt_eq_ld, harg2.read_unread, harg3.read_unread, harg4.read_unread, harg5.read_unread, harg7.read_unread,
      View.ld_unit_zero (S := S512x10) origin4, View.ld_unit_zero (S := S1024x512) origin4, View.ld_unit_zero (S := S1024x10) origin4,
      View.ld_unit_zero (S := S1x10) origin4]
  iexists _; isplitr
  swap; · iexact HS
  ipureintro
  sl_unfold_words
  rw [View.read_writes_eq_canon _ _ _ (fun y => ⟨_, List.mem_singleton_self _, View.mem_set_unit_zero origin4 inb_S1024x10_S1024x10_0_0 y⟩),
    View.canon_unit_zero (S := S1024x10) origin4]
  simp only [View.readAt_eq_ld, harg2.read_unread, harg3.read_unread, harg7.read_unread,
    View.ld_unit_zero (S := S512x10) origin4, View.ld_unit_zero (S := S1024x512) origin4, View.ld_unit_zero (S := S1024x10) origin4]

/-! ## What the staging buffers hold when the body is called

The two factors' blocks are fetched at every point. The scale and the shift are fetched at the region's first point
only; their block index never moves and the body leaves their buffers alone, so they too hold their block throughout. -/

/-- The proof data's arrays are the arrays as the region finds them. -/
theorem arr4 (c : Dev nD) (w : Fin cfg4.W) : (dat4 V c).A w = V c (Pipeline.arrRef spec4 w) := by
  dsimp only [dat4]

/-- What the body leaves, window by window. -/
theorem left4_0 (c : Dev nD) (t : Fin cfg4.N) : (dat4 V c).after 0 t = iblk4 V c 0 t := by dsimp only [dat4]
theorem left4_1 (c : Dev nD) (t : Fin cfg4.N) : (dat4 V c).after 1 t = iblk4 V c 1 t := by dsimp only [dat4]
theorem left4_2 (c : Dev nD) (t : Fin cfg4.N) : (dat4 V c).after 2 t = iblk4 V c 2 t := by dsimp only [dat4]
theorem left4_3 (c : Dev nD) (t : Fin cfg4.N) : (dat4 V c).after 3 t = iblk4 V c 3 t := by dsimp only [dat4]
theorem left4_4 (c : Dev nD) (t : Fin cfg4.N) : (dat4 V c).after 4 t = out4 V c t := by dsimp only [dat4]

/-- The left factor's buffer holds its block. -/
theorem held4_0 (c : Dev nD) (t : Fin cfg4.N) (d) : (dat4 V c).before 0 t d = iblk4 V c 0 t := by
  refine ((dat4 V c).before_in_eq_fetched 0 rfl (fun _ => rfl) (fun _ _ _ => rfl) (fun s => ?_) t d).trans ?_
  · rw [left4_0]; unfold Dat.blockOf iblk4; rw [arr4]
  · unfold Dat.fetched Dat.blockOf iblk4; rw [arr4]; rfl

/-- The weights' buffer holds their block. -/
theorem held4_1 (c : Dev nD) (t : Fin cfg4.N) (d) : (dat4 V c).before 1 t d = iblk4 V c 1 t := by
  refine ((dat4 V c).before_in_eq_fetched 1 rfl (fun _ => rfl) (fun _ _ _ => rfl) (fun s => ?_) t d).trans ?_
  · rw [left4_1]; unfold Dat.blockOf iblk4; rw [arr4]
  · unfold Dat.fetched Dat.blockOf iblk4; rw [arr4]; rfl

/-- The scale's buffer holds the scale row, at the first point and at every later one. -/
theorem held4_2 (c : Dev nD) (t : Fin cfg4.N) (d) : (dat4 V c).before 2 t d = iblk4 V c 2 t := by
  refine ((dat4 V c).before_in_eq_fetched 2 rfl (fun _ => rfl) (fun _ _ _ => rfl) (fun s => ?_) t d).trans ?_
  · rw [left4_2]; unfold Dat.blockOf iblk4; rw [arr4]
  · unfold Dat.fetched Dat.blockOf iblk4; rw [arr4]; rfl

/-- The shift's buffer holds the shift row, likewise. -/
theorem held4_3 (c : Dev nD) (t : Fin cfg4.N) (d) : (dat4 V c).before 3 t d = iblk4 V c 3 t := by
  refine ((dat4 V c).before_in_eq_fetched 3 rfl (fun _ => rfl) (fun _ _ _ => rfl) (fun s => ?_) t d).trans ?_
  · rw [left4_3]; unfold Dat.blockOf iblk4; rw [arr4]
  · unfold Dat.fetched Dat.blockOf iblk4; rw [arr4]; rfl

/-- What the obligation asks of each input's buffer after the body: its block, still. -/
theorem leaves4_0 (c : Dev nD) (t : Fin cfg4.N) :
    (dat4 V c).leavesExact 0 t = owns (c : Thread nD τ) (st4_0 t) fullShare (iblk4 V c 0 t) := by
  rw [show (dat4 V c).leavesExact 0 t = owns (c : Thread nD τ) (st4_0 t) fullShare ((dat4 V c).after 0 t) from by
    unfold Dat.leavesExact; rw [liveAt4_0 t], left4_0]
theorem leaves4_1 (c : Dev nD) (t : Fin cfg4.N) :
    (dat4 V c).leavesExact 1 t = owns (c : Thread nD τ) (st4_1 t) fullShare (iblk4 V c 1 t) := by
  rw [show (dat4 V c).leavesExact 1 t = owns (c : Thread nD τ) (st4_1 t) fullShare ((dat4 V c).after 1 t) from by
    unfold Dat.leavesExact; rw [liveAt4_1 t], left4_1]
theorem leaves4_2 (c : Dev nD) (t : Fin cfg4.N) :
    (dat4 V c).leavesExact 2 t = owns (c : Thread nD τ) (st4_2 t) fullShare (iblk4 V c 2 t) := by
  rw [show (dat4 V c).leavesExact 2 t = owns (c : Thread nD τ) (st4_2 t) fullShare ((dat4 V c).after 2 t) from by
    unfold Dat.leavesExact; rw [liveAt4_2 t], left4_2]
theorem leaves4_3 (c : Dev nD) (t : Fin cfg4.N) :
    (dat4 V c).leavesExact 3 t = owns (c : Thread nD τ) (st4_3 t) fullShare (iblk4 V c 3 t) := by
  rw [show (dat4 V c).leavesExact 3 t = owns (c : Thread nD τ) (st4_3 t) fullShare ((dat4 V c).after 3 t) from by
    unfold Dat.leavesExact; rw [liveAt4_3 t], left4_3]

/-- At the last point of a contraction the output's buffer is asked at the epilogue of the full sum. -/
theorem leaves4_4 (c : Dev nD) (t : Fin cfg4.N) (h : cond4_1 (grid4.coords t)) :
    (dat4 V c).leavesExact 4 t = owns (c : Thread nD τ) (st4_4 t) fullShare
      (k4_pay3 (acc4 V c t.val t.isLt) (iblk4 V c 2 t) (iblk4 V c 3 t)) := by
  rw [show (dat4 V c).leavesExact 4 t = owns (c : Thread nD τ) (st4_4 t) fullShare ((dat4 V c).after 4 t) from by
    unfold Dat.leavesExact; rw [liveAt4_4 t h], left4_4]
  rfl

/-! ## The invariant, position by position -/

theorem PhiS4_zero (c : Dev nD) (n : ℕ) (h : n ≤ cfg4.N) (hz : n = 0) : PhiS4 V c n h = Pipeline.ΦA spec4 c := by
  subst hz; rfl

/-- After point `n`: the scratch at that point's running sum. -/
theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

/-- Before a point that is not the first: the scratch at what the point before left. -/
theorem PhiS4_pos (c : Dev nD) (n : ℕ) (h : n ≤ cfg4.N) (hz : n ≠ 0) :
    PhiS4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

/-! ## The body at a grid point -/

set_option maxHeartbeats 4000000 in
/-- At any point, from the region's invariant, the core's debt and the five current buffers at what they then hold, the
    body runs to the invariant at the next position, the same debt, the four inputs' buffers at their blocks, and the
    output's buffer as the obligation asks it. Three cases by the point's place in its contraction. At the first point
    the scratch, holding anything (before the region's first point) or the previous contraction's sum, is zeroed and
    then holds the first partial product; at a middle point it holds the sum so far and the partial product is added;
    in both the output's buffer is handed back as found. At the last point the product is added and the output's
    buffer takes the epilogue of the full sum. The debt and the rest of the invariant are not touched. -/
theorem sound_body4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d)))
      ⊢ wp frame (wpE (defs₀ (F := F)) Variants.none c none) Set.univ (bodyAt4 t) (fun _ =>
          iprop((dat4 V c).Φ t.succ ∗ (dat4 V c).owesAt () t.succ
            ∗ (dat4 V c).leavesExact 0 t ∗ (dat4 V c).leavesExact 1 t ∗ (dat4 V c).leavesExact 2 t
            ∗ (dat4 V c).leavesExact 3 t ∗ (dat4 V c).leavesExact 4 t)) := by
  simp only [held4_0, held4_1, held4_2, held4_3]
  rw [show (dat4 V c).owesAt () t.succ = (dat4 V c).owesAt () t.castSucc from rfl,
    show (dat4 V c).Φ t.succ = PhiS4 V c (t.val + 1) t.isLt from rfl, PhiS4_succ,
    show (dat4 V c).Φ t.castSucc = PhiS4 V c t.val (Nat.le_of_lt t.isLt) from rfl,
    leaves4_0, leaves4_1, leaves4_2, leaves4_3]
  have hN : t.val < 128 := lt_of_lt_of_eq t.isLt (show cfg4.N = 128 from N_4)
  by_cases h0 : t.val % 16 = 0
  · have hc0 : cond4_0 (grid4.coords t) := (hcond4_0 t).mpr h0
    have hc1 : ¬cond4_1 (grid4.coords t) := fun h => by have := (hcond4_1 t).mp h; omega
    rw [Dat.leavesExact_idle (dat4 V c) 4 t (idleAt4_4 t hc1) (noFlush4_4 t hc1), acc4_first V c t h0]
    by_cases hz : t.val = 0
    · rw [PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩⟩
      iapply (run4_A c (grid4.coords t) _ _ _ _ _ _ _ _ _ _ _ _ hc0 hc1 (iblk4 V c 0 t) (iblk4 V c 1 t) (iblk4 V c 2 t)
        (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS4_pos V c _ _ hz]
      iintro ⟨⟨HS, HR, Hg⟩, Ho, ⟨%d0, H0⟩, ⟨%d1, H1⟩, ⟨%d2, H2⟩, ⟨%d3, H3⟩, ⟨%d4, H4⟩⟩
      iapply (run4_A c (grid4.coords t) _ _ _ _ _ _ _ _ _ _ _ _ hc0 hc1 (iblk4 V c 0 t) (iblk4 V c 1 t) (iblk4 V c 2 t)
        (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond4_0 (grid4.coords t) := fun h => h0 ((hcond4_0 t).mp h)
    have hz : t.val ≠ 0 := fun e => h0 (by rw [e])
    rw [acc4_next V c t h0, PhiS4_pos V c _ _ hz]
    by_cases h1 : t.val % 16 = 15
    · have hc1 : cond4_1 (grid4.coords t) := (hcond4_1 t).mpr h1
      rw [leaves4_4 V c t hc1, acc4_next V c t h0]
      iintro ⟨⟨HS, HR, Hg⟩, Ho, ⟨%d0, H0⟩, ⟨%d1, H1⟩, ⟨%d2, H2⟩, ⟨%d3, H3⟩, ⟨%d4, H4⟩⟩
      iapply (run4_C c (grid4.coords t) _ _ _ _ _ _ _ _ _ _ _ _ hc0 hc1 (iblk4 V c 0 t) (iblk4 V c 1 t) (iblk4 V c 2 t)
        (iblk4 V c 3 t) (acc4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4 t hc1) (noFlush4_4 t hc1)]
      iintro ⟨⟨HS, HR, Hg⟩, Ho, ⟨%d0, H0⟩, ⟨%d1, H1⟩, ⟨%d2, H2⟩, ⟨%d3, H3⟩, ⟨%d4, H4⟩⟩
      iapply (run4_B c (grid4.coords t) _ _ _ _ _ _ _ _ _ _ _ _ hc0 hc1 (iblk4 V c 0 t) (iblk4 V c 1 t) (iblk4 V c 2 t)
        (iblk4 V c 3 t) ((dat4 V c).before 4 t d4) (acc4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The body obligation of region 4: the point lemma at every point, the five windows written out. -/
theorem body_obligation4 (c : Dev nD) :
    BodyObligation (dat4 (F := F) V c) (defs₀ (F := F)) Variants.none () Set.univ := fun t => by
  rw [bigSep_W4, bigSep_W4]
  exact sound_body4 V c t

/-! ## The invariant's two ends -/

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]

/-- After any point the invariant gives the plain one back: the scratch's named contents are forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS, HR, Hg⟩
  isplitl [HS HR]
  · isplitl [HS]
    · iexists _; iexact HS
    iexact HR
  iexact Hg

/-- The same after the last point. -/
theorem hout4 (c : Dev nD) : (dat4 (F := F) V c).Φ (Fin.last cfg4.N) ⊢ Pipeline.ΦA spec4 c :=
  Phi4_out V c _ (by rw [Fin.val_last]; have : cfg4.N = 128 := N_4; omega)

end Cert.KernelIdeal.Hand

end
-- ==== Proof.K.Dats.lean ====
/- The proof data of the program's five kernel regions, as definitions: for every region and grid point, what each
   window's staging buffer holds after the body, and (for the three matrix products, which keep a running sum in a
   scratch buffer across the points of the contraction axis) what that scratch holds between points. Stated at the
   region's entry contents `V`, a parameter: the run instantiates it region by region. The frame modules prove that
   the bodies do leave this; the value modules read the final arrays off it. -/
import proofs.«168041_j41042707481000_1_alg».proof.Proof.Gen.Kernel.Launch
import proofs.«168041_j41042707481000_1_alg».proof.Proof.Gen.Kernel.Skeleton
import proofs.«168041_j41042707481000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: x · soft_sign(W1), scaled, shifted, clamped below at zero -/

/-- Window `w`'s block of its array at grid point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at point `n`: along the contraction axis (the grid's last, so the points of one
    output block are consecutive) the partial products are added up, starting again from zero wherever that axis's
    coordinate is `0`. -/
def acc0 (c : Dev nD) : (n : ℕ) → n < cfg0.N → Vec F S1024x1024 .f32
  | 0, hn => k0_pay2 (iblk0 V c 1 ⟨0, hn⟩) (iblk0 V c 0 ⟨0, hn⟩) (k0_pay1 (F := F))
  | n + 1, hn =>
    if (n + 1) % 6 = 0 then k0_pay2 (iblk0 V c 1 ⟨n + 1, hn⟩) (iblk0 V c 0 ⟨n + 1, hn⟩) (k0_pay1 (F := F))
    else k0_pay2 (iblk0 V c 1 ⟨n + 1, hn⟩) (iblk0 V c 0 ⟨n + 1, hn⟩) (acc0 c n (Nat.lt_of_succ_lt hn))

/-- What the body stores into the output block at a point where the contraction is complete: the epilogue of the
    accumulator. -/
def out0 (c : Dev nD) (t : Fin cfg0.N) : Vec F S1024x1024 .f32 :=
  k0_pay3 (acc0 V c t.val t.isLt) (iblk0 V c 2 t) (iblk0 V c 3 t)

/-- The region's invariant before position `n`: before the first point the scratch holds anything; afterwards it holds
    the accumulator the point before left. The other scoped buffers and the generator register ride along. -/
def PhiS0 (c : Dev nD) : (n : ℕ) → n ≤ cfg0.N → sProp 𝕄
  | 0, _ => Pipeline.ΦA spec0 c
  | n + 1, hn => iprop(owns (c : Thread nD τ) (Memref.whole cc0_scratch0 : Memref sig .tc .vmem S1024x1024 .f32) fullShare (acc0 V c n hn)
      ∗ Pipeline.scopedRestBut (Ix := Unit) (Name := ℕ) (U := UR sig nD τ) (Lvl := ℕ) (Val := Elt F) spec0 c [cc0_scratch0]
      ∗ (∃ r, prngReg c r))

/-- The proof data: each input's staging buffer keeps its block; the output's holds the epilogue (consulted only
    where the block is written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q w := fullShare
  owed _ := 0

/-! ## Region 1: a row-wise normalisation, one block of rows per grid point -/

/-- Window `w`'s block of its array at grid point `t`, the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: each input's staging buffer keeps its block; the output's holds the normalised rows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

/-! ## Region 2: x1 · soft_bin(W2), scaled, shifted, clamped, plus x1 (the one array read through two windows) -/

/-- Window `w`'s block of its array at grid point `t`, the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `n`: along the contraction axis (the grid's last, so the points of one
    output block are consecutive) the partial products are added up, starting again from zero wherever that axis's
    coordinate is `0`. -/
def acc2 (c : Dev nD) : (n : ℕ) → n < cfg2.N → Vec F S1024x1024 .f32
  | 0, hn => k2_pay2 (iblk2 V c 1 ⟨0, hn⟩) (iblk2 V c 0 ⟨0, hn⟩) (k2_pay1 (F := F))
  | n + 1, hn =>
    if (n + 1) % 16 = 0 then k2_pay2 (iblk2 V c 1 ⟨n + 1, hn⟩) (iblk2 V c 0 ⟨n + 1, hn⟩) (k2_pay1 (F := F))
    else k2_pay2 (iblk2 V c 1 ⟨n + 1, hn⟩) (iblk2 V c 0 ⟨n + 1, hn⟩) (acc2 c n (Nat.lt_of_succ_lt hn))

/-- What the body stores into the output block at a point where the contraction is complete: the epilogue of the
    accumulator. -/
def out2 (c : Dev nD) (t : Fin cfg2.N) : Vec F S1024x1024 .f32 :=
  k2_pay3 (acc2 V c t.val t.isLt) (iblk2 V c 2 t) (iblk2 V c 3 t) (iblk2 V c 4 t)

/-- The region's invariant before position `n`: before the first point the scratch holds anything; afterwards it holds
    the accumulator the point before left. The other scoped buffers and the generator register ride along. -/
def PhiS2 (c : Dev nD) : (n : ℕ) → n ≤ cfg2.N → sProp 𝕄
  | 0, _ => Pipeline.ΦA spec2 c
  | n + 1, hn => iprop(owns (c : Thread nD τ) (Memref.whole cc2_scratch0 : Memref sig .tc .vmem S1024x1024 .f32) fullShare (acc2 V c n hn)
      ∗ Pipeline.scopedRestBut (Ix := Unit) (Name := ℕ) (U := UR sig nD τ) (Lvl := ℕ) (Val := Elt F) spec2 c [cc2_scratch0]
      ∗ (∃ r, prngReg c r))

/-- The proof data: each input's staging buffer keeps its block; the output's holds the epilogue (consulted only
    where the block is written back). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := PhiS2 V c t.val (Nat.le_of_lt_succ t.isLt)
  q w := match w with
    | ⟨0, _⟩ => (fullShare : PosShare TreeShare).left
    | ⟨1, _⟩ => fullShare
    | ⟨2, _⟩ => fullShare
    | ⟨3, _⟩ => fullShare
    | ⟨4, _⟩ => (fullShare : PosShare TreeShare).right
    | ⟨5, _⟩ => fullShare
  owed _ := 0

/-! ## Region 3: a row-wise normalisation, one block of rows per grid point -/

/-- Window `w`'s block of its array at grid point `t`, the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: each input's staging buffer keeps its block; the output's holds the normalised rows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

/-! ## Region 4: x2 · soft_bin(W3), scaled and shifted -/

/-- Window `w`'s block of its array at grid point `t`, the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at point `n`: along the contraction axis (the grid's last, so the points of one
    output block are consecutive) the partial products are added up, starting again from zero wherever that axis's
    coordinate is `0`. -/
def acc4 (c : Dev nD) : (n : ℕ) → n < cfg4.N → Vec F S1024x10 .f32
  | 0, hn => k4_pay2 (iblk4 V c 1 ⟨0, hn⟩) (iblk4 V c 0 ⟨0, hn⟩) (k4_pay1 (F := F))
  | n + 1, hn =>
    if (n + 1) % 16 = 0 then k4_pay2 (iblk4 V c 1 ⟨n + 1, hn⟩) (iblk4 V c 0 ⟨n + 1, hn⟩) (k4_pay1 (F := F))
    else k4_pay2 (iblk4 V c 1 ⟨n + 1, hn⟩) (iblk4 V c 0 ⟨n + 1, hn⟩) (acc4 c n (Nat.lt_of_succ_lt hn))

/-- What the body stores into the output block at a point where the contraction is complete: the epilogue of the
    accumulator. -/
def out4 (c : Dev nD) (t : Fin cfg4.N) : Vec F S1024x10 .f32 :=
  k4_pay3 (acc4 V c t.val t.isLt) (iblk4 V c 2 t) (iblk4 V c 3 t)

/-- The region's invariant before position `n`: before the first point the scratch holds anything; afterwards it holds
    the accumulator the point before left. The other scoped buffers and the generator register ride along. -/
def PhiS4 (c : Dev nD) : (n : ℕ) → n ≤ cfg4.N → sProp 𝕄
  | 0, _ => Pipeline.ΦA spec4 c
  | n + 1, hn => iprop(owns (c : Thread nD τ) (Memref.whole cc4_scratch0 : Memref sig .tc .vmem S1024x10 .f32) fullShare (acc4 V c n hn)
      ∗ Pipeline.scopedRestBut (Ix := Unit) (Name := ℕ) (U := UR sig nD τ) (Lvl := ℕ) (Val := Elt F) spec4 c [cc4_scratch0]
      ∗ (∃ r, prngReg c r))

/-- The proof data: each input's staging buffer keeps its block; the output's holds the epilogue (consulted only
    where the block is written back). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c t
  Φ t := PhiS4 V c t.val (Nat.le_of_lt_succ t.isLt)
  q w := fullShare
  owed _ := 0

end Cert.Kernel.Hand

end
-- ==== Proof.K.Vals.lean ====
/- The contents of every unscoped buffer of the TensorCore between two items of @main, as named valuations: the launch
   memory, then each host stretch applied, then each region's output array replaced by what the region's write-backs
   leave. With them: that no item writes an argument array, the family of the five regions' proof data at their own
   entry contents, and the five body obligations gathered as one hypothesis. -/
import proofs.«168041_j41042707481000_1_alg».proof.Proof.Gen.Kernel.Launch
import proofs.«168041_j41042707481000_1_alg».proof.Proof.Gen.Kernel.Skeleton
import proofs.«168041_j41042707481000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168041_j41042707481000_1_alg».proof.Proof.Gen.Kernel.Regions
import proofs.«168041_j41042707481000_1_alg».proof.Proof.K.Dats
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The five regions' body obligations (and, for the three with a carried accumulator, that the region's invariant
    starts from and ends in the plain one), at any entry contents. -/
structure Bodies (F : FTy → Type) [FloatOps F] : Prop where
  hb0 : ∀ (V : (c : Dev nD) → (b : Ref sig .tc) → Buf (Elt F) ((c : Thread nD τ).loc b)) (c : Dev nD), BodyObligation (dat0 (F := F) V c) (defs₀ (F := F)) Variants.none () Set.univ
  hi0 : ∀ (V : (c : Dev nD) → (b : Ref sig .tc) → Buf (Elt F) ((c : Thread nD τ).loc b)) (c : Dev nD), Pipeline.ΦA spec0 c ⊢ (dat0 (F := F) V c).Φ 0
  ho0 : ∀ (V : (c : Dev nD) → (b : Ref sig .tc) → Buf (Elt F) ((c : Thread nD τ).loc b)) (c : Dev nD), (dat0 (F := F) V c).Φ (Fin.last cfg0.N) ⊢ Pipeline.ΦA spec0 c
  hb1 : ∀ (V : (c : Dev nD) → (b : Ref sig .tc) → Buf (Elt F) ((c : Thread nD τ).loc b)) (c : Dev nD), BodyObligation (dat1 (F := F) V c) (defs₀ (F := F)) Variants.none () Set.univ
  hb2 : ∀ (V : (c : Dev nD) → (b : Ref sig .tc) → Buf (Elt F) ((c : Thread nD τ).loc b)) (c : Dev nD), BodyObligation (dat2 (F := F) V c) (defs₀ (F := F)) Variants.none () Set.univ
  hi2 : ∀ (V : (c : Dev nD) → (b : Ref sig .tc) → Buf (Elt F) ((c : Thread nD τ).loc b)) (c : Dev nD), Pipeline.ΦA spec2 c ⊢ (dat2 (F := F) V c).Φ 0
  ho2 : ∀ (V : (c : Dev nD) → (b : Ref sig .tc) → Buf (Elt F) ((c : Thread nD τ).loc b)) (c : Dev nD), (dat2 (F := F) V c).Φ (Fin.last cfg2.N) ⊢ Pipeline.ΦA spec2 c
  hb3 : ∀ (V : (c : Dev nD) → (b : Ref sig .tc) → Buf (Elt F) ((c : Thread nD τ).loc b)) (c : Dev nD), BodyObligation (dat3 (F := F) V c) (defs₀ (F := F)) Variants.none () Set.univ
  hb4 : ∀ (V : (c : Dev nD) → (b : Ref sig .tc) → Buf (Elt F) ((c : Thread nD τ).loc b)) (c : Dev nD), BodyObligation (dat4 (F := F) V c) (defs₀ (F := F)) Variants.none () Set.univ
  hi4 : ∀ (V : (c : Dev nD) → (b : Ref sig .tc) → Buf (Elt F) ((c : Thread nD τ).loc b)) (c : Dev nD), Pipeline.ΦA spec4 c ⊢ (dat4 (F := F) V c).Φ 0
  ho4 : ∀ (V : (c : Dev nD) → (b : Ref sig .tc) → Buf (Elt F) ((c : Thread nD τ).loc b)) (c : Dev nD), (dat4 (F := F) V c).Φ (Fin.last cfg4.N) ⊢ Pipeline.ΦA spec4 c

variable (m : (ℓ : Loc nD τ sig) → Buf (Elt F) ℓ) (ρ : Dev nD → PrngReg)

/-! ## The buffers' contents between @main's items -/

/-- Core `c`'s unscoped buffers at launch. -/
abbrev B0 : Dev nD → Valuation τ sig (Elt F) := fun c b => m (c, b)

/-- After the host stretch before region 0 (the region's entry). -/
abbrev B1 : Dev nD → Valuation τ sig (Elt F) := fun c => StableHlo.after hostOps0 (B0 m c)
/-- The same, read at the TensorCore's references: what region 0's proof data take. -/
abbrev E1 : (c : Dev nD) → (b : Ref sig .tc) → Buf (Elt F) ((c : Thread nD τ).loc b) := fun c b => B1 m c b
/-- At region 0's exit: its output array `main_v2` at what the write-backs leave, every other buffer as entered. -/
def B2 (c : Dev nD) : Valuation τ sig (Elt F) :=
  Function.update (B1 m c) (Proc.devRef .tc main_v2) ((dat0 (E1 m) c).arrAt 4 cfg0.N : Buf (Elt F) ((c : Thread nD τ).loc main_v2))
abbrev E2 : (c : Dev nD) → (b : Ref sig .tc) → Buf (Elt F) ((c : Thread nD τ).loc b) := fun c b => B2 m c b
theorem B2_out (c : Dev nD) : B2 m c (Proc.devRef .tc main_v2) = (dat0 (E1 m) c).arrAt 4 cfg0.N := by
  unfold B2; exact Function.update_self ..
theorem B2_of_ne (c : Dev nD) (b : Ref sig .tc) (hb : b ≠ main_v2) : B2 m c (Proc.devRef .tc b) = B1 m c (Proc.devRef .tc b) := by
  unfold B2; exact Function.update_of_ne (StableHlo.devRef_ne_of_ne hb) ..
/-- Each of region 0's arrays at its exit: an input as entered, the output as written back. -/
theorem hF0 (c : Dev nD) (w : Fin cfg0.W) : (dat0 (E1 m) c).arrAt w cfg0.N = E2 m c (Pipeline.arrRef spec0 w) :=
  match w with
  | ⟨0, _⟩ => ((dat0 (E1 m) c).arrAt_in 0 rfl _).trans (B2_of_ne m c main_arg0 (by decide)).symm
  | ⟨1, _⟩ => ((dat0 (E1 m) c).arrAt_in 1 rfl _).trans (B2_of_ne m c main_arg1 (by decide)).symm
  | ⟨2, _⟩ => ((dat0 (E1 m) c).arrAt_in 2 rfl _).trans (B2_of_ne m c main_v0 (by decide)).symm
  | ⟨3, _⟩ => ((dat0 (E1 m) c).arrAt_in 3 rfl _).trans (B2_of_ne m c main_v1 (by decide)).symm
  | ⟨4, _⟩ => (B2_out m c).symm
theorem hrest0 (c : Dev nD) : ∀ b, b ∉ Finset.univ.image (Pipeline.arrRef spec0) → E2 m c b = E1 m c b :=
  fun b hb => B2_of_ne m c b fun e => hb (Finset.mem_image.mpr ⟨4, Finset.mem_univ _, e.symm⟩)

/-- After the host stretch before region 1 (the region's entry). -/
abbrev B3 : Dev nD → Valuation τ sig (Elt F) := fun c => StableHlo.after hostOps1 (B2 m c)
/-- The same, read at the TensorCore's references: what region 1's proof data take. -/
abbrev E3 : (c : Dev nD) → (b : Ref sig .tc) → Buf (Elt F) ((c : Thread nD τ).loc b) := fun c b => B3 m c b
/-- At region 1's exit: its output array `main_v5` at what the write-backs leave, every other buffer as entered. -/
def B4 (c : Dev nD) : Valuation τ sig (Elt F) :=
  Function.update (B3 m c) (Proc.devRef .tc main_v5) ((dat1 (E3 m) c).arrAt 3 cfg1.N : Buf (Elt F) ((c : Thread nD τ).loc main_v5))
abbrev E4 : (c : Dev nD) → (b : Ref sig .tc) → Buf (Elt F) ((c : Thread nD τ).loc b) := fun c b => B4 m c b
theorem B4_out (c : Dev nD) : B4 m c (Proc.devRef .tc main_v5) = (dat1 (E3 m) c).arrAt 3 cfg1.N := by
  unfold B4; exact Function.update_self ..
theorem B4_of_ne (c : Dev nD) (b : Ref sig .tc) (hb : b ≠ main_v5) : B4 m c (Proc.devRef .tc b) = B3 m c (Proc.devRef .tc b) := by
  unfold B4; exact Function.update_of_ne (StableHlo.devRef_ne_of_ne hb) ..
/-- Each of region 1's arrays at its exit: an input as entered, the output as written back. -/
theorem hF1 (c : Dev nD) (w : Fin cfg1.W) : (dat1 (E3 m) c).arrAt w cfg1.N = E4 m c (Pipeline.arrRef spec1 w) :=
  match w with
  | ⟨0, _⟩ => ((dat1 (E3 m) c).arrAt_in 0 rfl _).trans (B4_of_ne m c main_v2 (by decide)).symm
  | ⟨1, _⟩ => ((dat1 (E3 m) c).arrAt_in 1 rfl _).trans (B4_of_ne m c main_v3 (by decide)).symm
  | ⟨2, _⟩ => ((dat1 (E3 m) c).arrAt_in 2 rfl _).trans (B4_of_ne m c main_v4 (by decide)).symm
  | ⟨3, _⟩ => (B4_out m c).symm
theorem hrest1 (c : Dev nD) : ∀ b, b ∉ Finset.univ.image (Pipeline.arrRef spec1) → E4 m c b = E3 m c b :=
  fun b hb => B4_of_ne m c b fun e => hb (Finset.mem_image.mpr ⟨3, Finset.mem_univ _, e.symm⟩)

/-- After the host stretch before region 2 (the region's entry). -/
abbrev B5 : Dev nD → Valuation τ sig (Elt F) := fun c => StableHlo.after hostOps2 (B4 m c)
/-- The same, read at the TensorCore's references: what region 2's proof data take. -/
abbrev E5 : (c : Dev nD) → (b : Ref sig .tc) → Buf (Elt F) ((c : Thread nD τ).loc b) := fun c b => B5 m c b
/-- At region 2's exit: its output array `main_v8` at what the write-backs leave, every other buffer as entered. -/
def B6 (c : Dev nD) : Valuation τ sig (Elt F) :=
  Function.update (B5 m c) (Proc.devRef .tc main_v8) ((dat2 (E5 m) c).arrAt 5 cfg2.N : Buf (Elt F) ((c : Thread nD τ).loc main_v8))
abbrev E6 : (c : Dev nD) → (b : Ref sig .tc) → Buf (Elt F) ((c : Thread nD τ).loc b) := fun c b => B6 m c b
theorem B6_out (c : Dev nD) : B6 m c (Proc.devRef .tc main_v8) = (dat2 (E5 m) c).arrAt 5 cfg2.N := by
  unfold B6; exact Function.update_self ..
theorem B6_of_ne (c : Dev nD) (b : Ref sig .tc) (hb : b ≠ main_v8) : B6 m c (Proc.devRef .tc b) = B5 m c (Proc.devRef .tc b) := by
  unfold B6; exact Function.update_of_ne (StableHlo.devRef_ne_of_ne hb) ..
/-- Each of region 2's arrays at its exit: an input as entered, the output as written back. -/
theorem hF2 (c : Dev nD) (w : Fin cfg2.W) : (dat2 (E5 m) c).arrAt w cfg2.N = E6 m c (Pipeline.arrRef spec2 w) :=
  match w with
  | ⟨0, _⟩ => ((dat2 (E5 m) c).arrAt_in 0 rfl _).trans (B6_of_ne m c main_v5 (by decide)).symm
  | ⟨1, _⟩ => ((dat2 (E5 m) c).arrAt_in 1 rfl _).trans (B6_of_ne m c main_arg6 (by decide)).symm
  | ⟨2, _⟩ => ((dat2 (E5 m) c).arrAt_in 2 rfl _).trans (B6_of_ne m c main_v6 (by decide)).symm
  | ⟨3, _⟩ => ((dat2 (E5 m) c).arrAt_in 3 rfl _).trans (B6_of_ne m c main_v7 (by decide)).symm
  | ⟨4, _⟩ => ((dat2 (E5 m) c).arrAt_in 4 rfl _).trans (B6_of_ne m c main_v5 (by decide)).symm
  | ⟨5, _⟩ => (B6_out m c).symm
theorem hrest2 (c : Dev nD) : ∀ b, b ∉ Finset.univ.image (Pipeline.arrRef spec2) → E6 m c b = E5 m c b :=
  fun b hb => B6_of_ne m c b fun e => hb (Finset.mem_image.mpr ⟨5, Finset.mem_univ _, e.symm⟩)

/-- After the host stretch before region 3 (the region's entry). -/
abbrev B7 : Dev nD → Valuation τ sig (Elt F) := fun c => StableHlo.after hostOps3 (B6 m c)
/-- The same, read at the TensorCore's references: what region 3's proof data take. -/
abbrev E7 : (c : Dev nD) → (b : Ref sig .tc) → Buf (Elt F) ((c : Thread nD τ).loc b) := fun c b => B7 m c b
/-- At region 3's exit: its output array `main_v11` at what the write-backs leave, every other buffer as entered. -/
def B8 (c : Dev nD) : Valuation τ sig (Elt F) :=
  Function.update (B7 m c) (Proc.devRef .tc main_v11) ((dat3 (E7 m) c).arrAt 3 cfg3.N : Buf (Elt F) ((c : Thread nD τ).loc main_v11))
abbrev E8 : (c : Dev nD) → (b : Ref sig .tc) → Buf (Elt F) ((c : Thread nD τ).loc b) := fun c b => B8 m c b
theorem B8_out (c : Dev nD) : B8 m c (Proc.devRef .tc main_v11) = (dat3 (E7 m) c).arrAt 3 cfg3.N := by
  unfold B8; exact Function.update_self ..
theorem B8_of_ne (c : Dev nD) (b : Ref sig .tc) (hb : b ≠ main_v11) : B8 m c (Proc.devRef .tc b) = B7 m c (Proc.devRef .tc b) := by
  unfold B8; exact Function.update_of_ne (StableHlo.devRef_ne_of_ne hb) ..
/-- Each of region 3's arrays at its exit: an input as entered, the output as written back. -/
theorem hF3 (c : Dev nD) (w : Fin cfg3.W) : (dat3 (E7 m) c).arrAt w cfg3.N = E8 m c (Pipeline.arrRef spec3 w) :=
  match w with
  | ⟨0, _⟩ => ((dat3 (E7 m) c).arrAt_in 0 rfl _).trans (B8_of_ne m c main_v8 (by decide)).symm
  | ⟨1, _⟩ => ((dat3 (E7 m) c).arrAt_in 1 rfl _).trans (B8_of_ne m c main_v9 (by decide)).symm
  | ⟨2, _⟩ => ((dat3 (E7 m) c).arrAt_in 2 rfl _).trans (B8_of_ne m c main_v10 (by decide)).symm
  | ⟨3, _⟩ => (B8_out m c).symm
theorem hrest3 (c : Dev nD) : ∀ b, b ∉ Finset.univ.image (Pipeline.arrRef spec3) → E8 m c b = E7 m c b :=
  fun b hb => B8_of_ne m c b fun e => hb (Finset.mem_image.mpr ⟨3, Finset.mem_univ _, e.symm⟩)

/-- After the host stretch before region 4 (the region's entry). -/
abbrev B9 : Dev nD → Valuation τ sig (Elt F) := fun c => StableHlo.after hostOps4 (B8 m c)
/-- The same, read at the TensorCore's references: what region 4's proof data take. -/
abbrev E9 : (c : Dev nD) → (b : Ref sig .tc) → Buf (Elt F) ((c : Thread nD τ).loc b) := fun c b => B9 m c b
/-- At region 4's exit: its output array `main_v14` at what the write-backs leave, every other buffer as entered. -/
def B10 (c : Dev nD) : Valuation τ sig (Elt F) :=
  Function.update (B9 m c) (Proc.devRef .tc main_v14) ((dat4 (E9 m) c).arrAt 4 cfg4.N : Buf (Elt F) ((c : Thread nD τ).loc main_v14))
abbrev E10 : (c : Dev nD) → (b : Ref sig .tc) → Buf (Elt F) ((c : Thread nD τ).loc b) := fun c b => B10 m c b
theorem B10_out (c : Dev nD) : B10 m c (Proc.devRef .tc main_v14) = (dat4 (E9 m) c).arrAt 4 cfg4.N := by
  unfold B10; exact Function.update_self ..
theorem B10_of_ne (c : Dev nD) (b : Ref sig .tc) (hb : b ≠ main_v14) : B10 m c (Proc.devRef .tc b) = B9 m c (Proc.devRef .tc b) := by
  unfold B10; exact Function.update_of_ne (StableHlo.devRef_ne_of_ne hb) ..
/-- Each of region 4's arrays at its exit: an input as entered, the output as written back. -/
theorem hF4 (c : Dev nD) (w : Fin cfg4.W) : (dat4 (E9 m) c).arrAt w cfg4.N = E10 m c (Pipeline.arrRef spec4 w) :=
  match w with
  | ⟨0, _⟩ => ((dat4 (E9 m) c).arrAt_in 0 rfl _).trans (B10_of_ne m c main_v11 (by decide)).symm
  | ⟨1, _⟩ => ((dat4 (E9 m) c).arrAt_in 1 rfl _).trans (B10_of_ne m c main_arg11 (by decide)).symm
  | ⟨2, _⟩ => ((dat4 (E9 m) c).arrAt_in 2 rfl _).trans (B10_of_ne m c main_v12 (by decide)).symm
  | ⟨3, _⟩ => ((dat4 (E9 m) c).arrAt_in 3 rfl _).trans (B10_of_ne m c main_v13 (by decide)).symm
  | ⟨4, _⟩ => (B10_out m c).symm
theorem hrest4 (c : Dev nD) : ∀ b, b ∉ Finset.univ.image (Pipeline.arrRef spec4) → E10 m c b = E9 m c b :=
  fun b hb => B10_of_ne m c b fun e => hb (Finset.mem_image.mpr ⟨4, Finset.mem_univ _, e.symm⟩)

/-! ## No item writes an argument -/

theorem B10_main_arg0 (c : Dev nD) : B10 m c (Proc.devRef .tc main_arg0) = m ((c : Thread nD τ).loc main_arg0) :=
  (B10_of_ne m c main_arg0 (by decide)).trans <| (StableHlo.after_of_writes_sub hostOps4 _ hostOps4_writes (r := main_arg0) (by decide)).trans <|
  (B8_of_ne m c main_arg0 (by decide)).trans <| (StableHlo.after_of_writes_sub hostOps3 _ hostOps3_writes (r := main_arg0) (by decide)).trans <|
  (B6_of_ne m c main_arg0 (by decide)).trans <| (StableHlo.after_of_writes_sub hostOps2 _ hostOps2_writes (r := main_arg0) (by decide)).trans <|
  (B4_of_ne m c main_arg0 (by decide)).trans <| (StableHlo.after_of_writes_sub hostOps1 _ hostOps1_writes (r := main_arg0) (by decide)).trans <|
  (B2_of_ne m c main_arg0 (by decide)).trans <| (StableHlo.after_of_writes_sub hostOps0 _ hostOps0_writes (r := main_arg0) (by decide)).trans rfl
theorem B10_main_arg1 (c : Dev nD) : B10 m c (Proc.devRef .tc main_arg1) = m ((c : Thread nD τ).loc main_arg1) :=
  (B10_of_ne m c main_arg1 (by decide)).trans <| (StableHlo.after_of_writes_sub hostOps4 _ hostOps4_writes (r := main_arg1) (by decide)).trans <|
  (B8_of_ne m c main_arg1 (by decide)).trans <| (StableHlo.after_of_writes_sub hostOps3 _ hostOps3_writes (r := main_arg1) (by decide)).trans <|
  (B6_of_ne m c main_arg1 (by decide)).trans <| (StableHlo.after_of_writes_sub hostOps2 _ hostOps2_writes (r := main_arg1) (by decide)).trans <|
  (B4_of_ne m c main_arg1 (by decide)).trans <| (StableHlo.after_of_writes_sub hostOps1 _ hostOps1_writes (r := main_arg1) (by decide)).trans <|
  (B2_of_ne m c main_arg1 (by decide)).trans <| (StableHlo.after_of_writes_sub hostOps0 _ hostOps0_writes (r := main_arg1) (by decide)).trans rfl
theorem B10_main_arg2 (c : Dev nD) : B10 m c (Proc.devRef .tc main_arg2) = m ((c : Thread nD τ).loc main_arg2) :=
  (B10_of_ne m c main_arg2 (by decide)).trans <| (StableHlo.after_of_writes_sub hostOps4 _ hostOps4_writes (r := main_arg2) (by decide)).trans <|
  (B8_of_ne m c main_arg2 (by decide)).trans <| (StableHlo.after_of_writes_sub hostOps3 _ hostOps3_writes (r := main_arg2) (by decide)).trans <|
  (B6_of_ne m c main_arg2 (by decide)).trans <| (StableHlo.after_of_writes_sub hostOps2 _ hostOps2_writes (r := main_arg2) (by decide)).trans <|
  (B4_of_ne m c main_arg2 (by decide)).trans <| (StableHlo.after_of_writes_sub hostOps1 _ hostOps1_writes (r := main_arg2) (by decide)).trans <|
  (B2_of_ne m c main_arg2 (by decide)).trans <| (StableHlo.after_of_writes_sub hostOps0 _ hostOps0_writes (r := main_arg2) (by decide)).trans rfl
theorem B10_main_arg3 (c : Dev nD) : B10 m c (Proc.devRef .tc main_arg3) = m ((c : Thread nD τ).loc main_arg3) :=
  (B10_of_ne m c main_arg3 (by decide)).trans <| (StableHlo.after_of_writes_sub hostOps4 _ hostOps4_writes (r := main_arg3) (by decide)).trans <|
  (B8_of_ne m c main_arg3 (by decide)).trans <| (StableHlo.after_of_writes_sub hostOps3 _ hostOps3_writes (r := main_arg3) (by decide)).trans <|
  (B6_of_ne m c main_arg3 (by decide)).trans <| (StableHlo.after_of_writes_sub hostOps2 _ hostOps2_writes (r := main_arg3) (by decide)).trans <|
  (B4_of_ne m c main_arg3 (by decide)).trans <| (StableHlo.after_of_writes_sub hostOps1 _ hostOps1_writes (r := main_arg3) (by decide)).trans <|
  (B2_of_ne m c main_arg3 (by decide)).trans <| (StableHlo.after_of_writes_sub hostOps0 _ hostOps0_writes (r := main_arg3) (by decide)).trans rfl
theorem B10_main_arg4 (c : Dev nD) : B10 m c (Proc.devRef .tc main_arg4) = m ((c : Thread nD τ).loc main_arg4) :=
  (B10_of_ne m c main_arg4 (by decide)).trans <| (StableHlo.after_of_writes_sub hostOps4 _ hostOps4_writes (r := main_arg4) (by decide)).trans <|
  (B8_of_ne m c main_arg4 (by decide)).trans <| (StableHlo.after_of_writes_sub hostOps3 _ hostOps3_writes (r := main_arg4) (by decide)).trans <|
  (B6_of_ne m c main_arg4 (by decide)).trans <| (StableHlo.after_of_writes_sub hostOps2 _ hostOps2_writes (r := main_arg4) (by decide)).trans <|
  (B4_of_ne m c main_arg4 (by decide)).trans <| (StableHlo.after_of_writes_sub hostOps1 _ hostOps1_writes (r := main_arg4) (by decide)).trans <|
  (B2_of_ne m c main_arg4 (by decide)).trans <| (StableHlo.after_of_writes_sub hostOps0 _ hostOps0_writes (r := main_arg4) (by decide)).trans rfl
theorem B10_main_arg5 (c : Dev nD) : B10 m c (Proc.devRef .tc main_arg5) = m ((c : Thread nD τ).loc main_arg5) :=
  (B10_of_ne m c main_arg5 (by decide)).trans <| (StableHlo.after_of_writes_sub hostOps4 _ hostOps4_writes (r := main_arg5) (by decide)).trans <|
  (B8_of_ne m c main_arg5 (by decide)).trans <| (StableHlo.after_of_writes_sub hostOps3 _ hostOps3_writes (r := main_arg5) (by decide)).trans <|
  (B6_of_ne m c main_arg5 (by decide)).trans <| (StableHlo.after_of_writes_sub hostOps2 _ hostOps2_writes (r := main_arg5) (by decide)).trans <|
  (B4_of_ne m c main_arg5 (by decide)).trans <| (StableHlo.after_of_writes_sub hostOps1 _ hostOps1_writes (r := main_arg5) (by decide)).trans <|
  (B2_of_ne m c main_arg5 (by decide)).trans <| (StableHlo.after_of_writes_sub hostOps0 _ hostOps0_writes (r := main_arg5) (by decide)).trans rfl
theorem B10_main_arg6 (c : Dev nD) : B10 m c (Proc.devRef .tc main_arg6) = m ((c : Thread nD τ).loc main_arg6) :=
  (B10_of_ne m c main_arg6 (by decide)).trans <| (StableHlo.after_of_writes_sub hostOps4 _ hostOps4_writes (r := main_arg6) (by decide)).trans <|
  (B8_of_ne m c main_arg6 (by decide)).trans <| (StableHlo.after_of_writes_sub hostOps3 _ hostOps3_writes (r := main_arg6) (by decide)).trans <|
  (B6_of_ne m c main_arg6 (by decide)).trans <| (StableHlo.after_of_writes_sub hostOps2 _ hostOps2_writes (r := main_arg6) (by decide)).trans <|
  (B4_of_ne m c main_arg6 (by decide)).trans <| (StableHlo.after_of_writes_sub hostOps1 _ hostOps1_writes (r := main_arg6) (by decide)).trans <|
  (B2_of_ne m c main_arg6 (by decide)).trans <| (StableHlo.after_of_writes_sub hostOps0 _ hostOps0_writes (r := main_arg6) (by decide)).trans rfl
theorem B10_main_arg7 (c : Dev nD) : B10 m c (Proc.devRef .tc main_arg7) = m ((c : Thread nD τ).loc main_arg7) :=
  (B10_of_ne m c main_arg7 (by decide)).trans <| (StableHlo.after_of_writes_sub hostOps4 _ hostOps4_writes (r := main_arg7) (by decide)).trans <|
  (B8_of_ne m c main_arg7 (by decide)).trans <| (StableHlo.after_of_writes_sub hostOps3 _ hostOps3_writes (r := main_arg7) (by decide)).trans <|
  (B6_of_ne m c main_arg7 (by decide)).trans <| (StableHlo.after_of_writes_sub hostOps2 _ hostOps2_writes (r := main_arg7) (by decide)).trans <|
  (B4_of_ne m c main_arg7 (by decide)).trans <| (StableHlo.after_of_writes_sub hostOps1 _ hostOps1_writes (r := main_arg7) (by decide)).trans <|
  (B2_of_ne m c main_arg7 (by decide)).trans <| (StableHlo.after_of_writes_sub hostOps0 _ hostOps0_writes (r := main_arg7) (by decide)).trans rfl
theorem B10_main_arg8 (c : Dev nD) : B10 m c (Proc.devRef .tc main_arg8) = m ((c : Thread nD τ).loc main_arg8) :=
  (B10_of_ne m c main_arg8 (by decide)).trans <| (StableHlo.after_of_writes_sub hostOps4 _ hostOps4_writes (r := main_arg8) (by decide)).trans <|
  (B8_of_ne m c main_arg8 (by decide)).trans <| (StableHlo.after_of_writes_sub hostOps3 _ hostOps3_writes (r := main_arg8) (by decide)).trans <|
  (B6_of_ne m c main_arg8 (by decide)).trans <| (StableHlo.after_of_writes_sub hostOps2 _ hostOps2_writes (r := main_arg8) (by decide)).trans <|
  (B4_of_ne m c main_arg8 (by decide)).trans <| (StableHlo.after_of_writes_sub hostOps1 _ hostOps1_writes (r := main_arg8) (by decide)).trans <|
  (B2_of_ne m c main_arg8 (by decide)).trans <| (StableHlo.after_of_writes_sub hostOps0 _ hostOps0_writes (r := main_arg8) (by decide)).trans rfl
theorem B10_main_arg9 (c : Dev nD) : B10 m c (Proc.devRef .tc main_arg9) = m ((c : Thread nD τ).loc main_arg9) :=
  (B10_of_ne m c main_arg9 (by decide)).trans <| (StableHlo.after_of_writes_sub hostOps4 _ hostOps4_writes (r := main_arg9) (by decide)).trans <|
  (B8_of_ne m c main_arg9 (by decide)).trans <| (StableHlo.after_of_writes_sub hostOps3 _ hostOps3_writes (r := main_arg9) (by decide)).trans <|
  (B6_of_ne m c main_arg9 (by decide)).trans <| (StableHlo.after_of_writes_sub hostOps2 _ hostOps2_writes (r := main_arg9) (by decide)).trans <|
  (B4_of_ne m c main_arg9 (by decide)).trans <| (StableHlo.after_of_writes_sub hostOps1 _ hostOps1_writes (r := main_arg9) (by decide)).trans <|
  (B2_of_ne m c main_arg9 (by decide)).trans <| (StableHlo.after_of_writes_sub hostOps0 _ hostOps0_writes (r := main_arg9) (by decide)).trans rfl
theorem B10_main_arg10 (c : Dev nD) : B10 m c (Proc.devRef .tc main_arg10) = m ((c : Thread nD τ).loc main_arg10) :=
  (B10_of_ne m c main_arg10 (by decide)).trans <| (StableHlo.after_of_writes_sub hostOps4 _ hostOps4_writes (r := main_arg10) (by decide)).trans <|
  (B8_of_ne m c main_arg10 (by decide)).trans <| (StableHlo.after_of_writes_sub hostOps3 _ hostOps3_writes (r := main_arg10) (by decide)).trans <|
  (B6_of_ne m c main_arg10 (by decide)).trans <| (StableHlo.after_of_writes_sub hostOps2 _ hostOps2_writes (r := main_arg10) (by decide)).trans <|
  (B4_of_ne m c main_arg10 (by decide)).trans <| (StableHlo.after_of_writes_sub hostOps1 _ hostOps1_writes (r := main_arg10) (by decide)).trans <|
  (B2_of_ne m c main_arg10 (by decide)).trans <| (StableHlo.after_of_writes_sub hostOps0 _ hostOps0_writes (r := main_arg10) (by decide)).trans rfl
theorem B10_main_arg11 (c : Dev nD) : B10 m c (Proc.devRef .tc main_arg11) = m ((c : Thread nD τ).loc main_arg11) :=
  (B10_of_ne m c main_arg11 (by decide)).trans <| (StableHlo.after_of_writes_sub hostOps4 _ hostOps4_writes (r := main_arg11) (by decide)).trans <|
  (B8_of_ne m c main_arg11 (by decide)).trans <| (StableHlo.after_of_writes_sub hostOps3 _ hostOps3_writes (r := main_arg11) (by decide)).trans <|
  (B6_of_ne m c main_arg11 (by decide)).trans <| (StableHlo.after_of_writes_sub hostOps2 _ hostOps2_writes (r := main_arg11) (by decide)).trans <|
  (B4_of_ne m c main_arg11 (by decide)).trans <| (StableHlo.after_of_writes_sub hostOps1 _ hostOps1_writes (r := main_arg11) (by decide)).trans <|
  (B2_of_ne m c main_arg11 (by decide)).trans <| (StableHlo.after_of_writes_sub hostOps0 _ hostOps0_writes (r := main_arg11) (by decide)).trans rfl
theorem B10_main_arg12 (c : Dev nD) : B10 m c (Proc.devRef .tc main_arg12) = m ((c : Thread nD τ).loc main_arg12) :=
  (B10_of_ne m c main_arg12 (by decide)).trans <| (StableHlo.after_of_writes_sub hostOps4 _ hostOps4_writes (r := main_arg12) (by decide)).trans <|
  (B8_of_ne m c main_arg12 (by decide)).trans <| (StableHlo.after_of_writes_sub hostOps3 _ hostOps3_writes (r := main_arg12) (by decide)).trans <|
  (B6_of_ne m c main_arg12 (by decide)).trans <| (StableHlo.after_of_writes_sub hostOps2 _ hostOps2_writes (r := main_arg12) (by decide)).trans <|
  (B4_of_ne m c main_arg12 (by decide)).trans <| (StableHlo.after_of_writes_sub hostOps1 _ hostOps1_writes (r := main_arg12) (by decide)).trans <|
  (B2_of_ne m c main_arg12 (by decide)).trans <| (StableHlo.after_of_writes_sub hostOps0 _ hostOps0_writes (r := main_arg12) (by decide)).trans rfl
theorem B10_main_arg13 (c : Dev nD) : B10 m c (Proc.devRef .tc main_arg13) = m ((c : Thread nD τ).loc main_arg13) :=
  (B10_of_ne m c main_arg13 (by decide)).trans <| (StableHlo.after_of_writes_sub hostOps4 _ hostOps4_writes (r := main_arg13) (by decide)).trans <|
  (B8_of_ne m c main_arg13 (by decide)).trans <| (StableHlo.after_of_writes_sub hostOps3 _ hostOps3_writes (r := main_arg13) (by decide)).trans <|
  (B6_of_ne m c main_arg13 (by decide)).trans <| (StableHlo.after_of_writes_sub hostOps2 _ hostOps2_writes (r := main_arg13) (by decide)).trans <|
  (B4_of_ne m c main_arg13 (by decide)).trans <| (StableHlo.after_of_writes_sub hostOps1 _ hostOps1_writes (r := main_arg13) (by decide)).trans <|
  (B2_of_ne m c main_arg13 (by decide)).trans <| (StableHlo.after_of_writes_sub hostOps0 _ hostOps0_writes (r := main_arg13) (by decide)).trans rfl

/-! ## The proof data family and what rides along -/

/-- Every region's proof data at its own entry contents. -/
def pdats : (p : Fin 5) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c

abbrev 𝒱n : Variants := Variants.none
/-- No core owes another anything. -/
abbrev Ln : GSem nD τ sig → Finset Unit := fun _ => ∅
abbrev lvn : GSem nD τ sig → Unit → ℕ := fun _ _ => 0
/-- Beside the buffers: the generator register at some state, and the core owing nothing. -/
abbrev Ride (c : Dev nD) : sProp 𝕄 := iprop((∃ r, prngReg c r) ∗ ∃ W, owes (c : Thread nD τ) (0 : CellTallies nD τ sig Unit) W)
/-- A host stretch as a segment over the unscoped buffers from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tlast (c : Dev nD) : sProp 𝕄 := iprop(StableHlo.held (c : Thread nD τ) (Pipeline.ucRefs τ sig) (B10 m c) ∗ ∃ r, prngReg c r)

end Cert.Kernel.Hand

end
-- ==== Proof.K.Share2.lean ====
/- Region 2 reads one array through two windows. On entry the array's full share is dealt to the two windows as its
   two halves, on exit the halves are joined again; every other array of the region is taken out of the unscoped
   buffers, and put back, whole. -/
import proofs.«168041_j41042707481000_1_alg».proof.Proof.K.Vals
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays and the buffers behind them, one by one

At any entry contents `V`. The six windows name five buffers: windows 0 and 4 both read `main_v5`. -/

section Generic

variable (V : (c : Dev nD) → (b : Ref sig .tc) → Buf (Elt F) ((c : Thread nD τ).loc b))

/-- Every window's array is a whole buffer, so the region's arrays are points-tos of whole buffers, window `w`'s at
    the share the proof data hold it at. -/
theorem arrays2_whole (c : Dev nD) (G : (w : Fin cfg2.W) → Buf (Elt F) ((cfg2.win w).arr.view.loc (c : Thread nD τ))) :
    ((dat2 V c).arrays G : sProp 𝕄)
      = bigSep Finset.univ fun w : Fin 6 => (((c : Thread nD τ).loc (Pipeline.arrRef spec2 w)) ↦{(dat2 V c).share w} G w : sProp 𝕄) := by
  unfold Pipeline.Dat.arrays
  exact bigSep_congr fun w _ => by rw [(arr_whole2 w).set_eq_univ]

/-- The same, window by window: `main_v5` occurs twice, at the left half of the full share (window 0) and at the
    right half (window 4); the output (window 5) and the three other inputs are held at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v5) ↦{(fullShare : PosShare TreeShare).left} G 0)
          ∗ (((c : Thread nD τ).loc main_arg6) ↦{fullShare} G 1)
          ∗ (((c : Thread nD τ).loc main_v6) ↦{fullShare} G 2)
          ∗ (((c : Thread nD τ).loc main_v7) ↦{fullShare} G 3)
          ∗ (((c : Thread nD τ).loc main_v5) ↦{(fullShare : PosShare TreeShare).right} G 4)
          ∗ (((c : Thread nD τ).loc main_v8) ↦{fullShare} G 5)) := by
  rw [arrays2_whole, bigSep_W2]
  rfl

/-- The DISTINCT buffers behind the six windows' arrays are five, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v5) ↦{fullShare} W main_v5)
          ∗ (((c : Thread nD τ).loc main_arg6) ↦{fullShare} W main_arg6)
          ∗ (((c : Thread nD τ).loc main_v6) ↦{fullShare} W main_v6)
          ∗ (((c : Thread nD τ).loc main_v7) ↦{fullShare} W main_v7)
          ∗ (((c : Thread nD τ).loc main_v8) ↦{fullShare} W main_v8)) := by
  unfold Pipeline.arrBufs
  exact bigSep_eq_bigSepL_of_eq [main_v5, main_arg6, main_v6, main_v7, main_v8] (by decide) (by decide) _

/-- ENTRY at any contents `V`: the unscoped buffers are the buffers behind the windows' arrays and the rest; of the
    former, `main_v5`'s full share is the left half composed with the right half, one for each of its two windows,
    both at the same contents; the four others go to their windows whole. -/
theorem entry2_at (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs 2 winFacts₀2.arr_unscoped c (V c)]
  refine sep_mono ?_ .rfl
  rw [show (Pipeline.arrBufs (cfgs 2).spec c (V c) : sProp 𝕄) = _ from arrBufs2_eq c (V c), arrays2_eq]
  iintro ⟨H5, Ha6, H6, H7, H8⟩
  ihave Hs := (pointsTo_share (PosShare.mem_left_op_right fullShare)).1 $$ H5
  icases Hs with ⟨Hl, Hr⟩
  isplitl [Hl]; · iexact Hl
  isplitl [Ha6]; · iexact Ha6
  isplitl [H6]; · iexact H6
  isplitl [H7]; · iexact H7
  isplitl [Hr]; · iexact Hr
  iexact H8

/-- EXIT to any valuation `V'` that has every window's array at the contents `G` the window holds it at — so the
    two windows on `main_v5` hold it at one and the same contents — and agrees with `V` off the arrays: the two
    halves of `main_v5` compose to its full share, the four other arrays are whole already, and the rest is
    unchanged. -/
theorem exit2_at (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V c b) :
    iprop((dat2 V c).arrays G ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [Pipeline.unscopedBufs_split₀ cfgs 2 winFacts₀2.arr_unscoped c V']
  refine sep_mono ?_ (Entails.of_eq ?_)
  · rw [show (Pipeline.arrBufs (cfgs 2).spec c V' : sProp 𝕄) = _ from arrBufs2_eq c V', arrays2_eq,
      hG 0, hG 1, hG 2, hG 3, hG 4, hG 5]
    iintro ⟨Hl, Ha6, H6, H7, Hr, H8⟩
    isplitl [Hl Hr]
    · iapply (pointsTo_share (PosShare.mem_left_op_right fullShare)).2
      isplitl [Hl]; · iexact Hl
      iexact Hr
    isplitl [Ha6]; · iexact Ha6
    isplitl [H6]; · iexact H6
    isplitl [H7]; · iexact H7
    iexact H8
  · unfold Pipeline.unscopedRest
    exact bigSep_congr fun b hb => by rw [hrest b (Finset.mem_sdiff.mp hb).2]

end Generic

variable (m : (ℓ : Loc nD τ sig) → Buf (Elt F) ℓ) (ρ : Dev nD → PrngReg)

/-! ## Region 2's arrays: one array behind two windows -/

/-- ENTRY of region 2: the unscoped buffers at the entry contents are the region's arrays — the array read through
    windows 0 and 4 dealt to them as the two halves of its full share — and the unscoped rest. -/
theorem entry2 (c : Dev nD) :
    (StableHlo.held (c : Thread nD τ) (Pipeline.ucRefs τ sig) (B5 m c) : sProp 𝕄)
      ⊢ iprop((pdats m 2 c).arrays ((pdats m 2 c).arrAt · 0) ∗ Pipeline.unscopedRest (Ix := Unit) (Name := ℕ) (U := UR sig nD τ) (Lvl := ℕ) spec2 c (E5 m c)) := by
  rw [← Pipeline.unscopedBufs_held (Ix := Unit) (Name := ℕ) (U := UR sig nD τ) (Lvl := ℕ) c (B5 m c)]
  exact entry2_at (E5 m) c

/-- EXIT of region 2: the arrays at their final contents (the two halves joined again) and the unscoped rest are the
    unscoped buffers at the exit contents. -/
theorem exit2 (c : Dev nD) :
    iprop((pdats m 2 c).arrays ((pdats m 2 c).arrAt · cfg2.N) ∗ Pipeline.unscopedRest (Ix := Unit) (Name := ℕ) (U := UR sig nD τ) (Lvl := ℕ) spec2 c (E5 m c))
      ⊢ (StableHlo.held (c : Thread nD τ) (Pipeline.ucRefs τ sig) (B6 m c) : sProp 𝕄) := by
  rw [← Pipeline.unscopedBufs_held (Ix := Unit) (Name := ℕ) (U := UR sig nD τ) (Lvl := ℕ) c (B6 m c)]
  exact exit2_at (E5 m) c (E6 m c) ((dat2 (E5 m) c).arrAt · cfg2.N) (hF2 m c) (hrest2 m c)

end Cert.Kernel.Hand

end
-- ==== Proof.K.Run.lean ====
/- The run of the five-region program, from the launch to the return, under the five body obligations as hypotheses.
   Between two items of @main every unscoped buffer of the TensorCore is held at a named valuation: the launch memory,
   then each host stretch applied, then each region's output array replaced by what the region's write-backs leave.
   Each region is entered by taking its arrays out of those buffers and left by putting them back; region 2 reads one
   array through two windows, so there the array's full share is dealt to the two windows as its two halves on
   entry and the halves are joined again on exit. The post of the run says that every unscoped buffer ends at the
   last valuation: the argument arrays are read back through the valuations to the launch memory, and the result
   array is what the last region left. -/
import proofs.«168041_j41042707481000_1_alg».proof.Proof.K.Share2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hB : Bodies F)
include hB

/-! ## The regions as segments -/

set_option backward.isDefEq.respectTransparency.types false in
/-- Region 0 as a segment: entered with every unscoped buffer at the boundary contents before it, left with them at
    the contents after it. Its arrays are taken out of the unscoped buffers and put back with the output replaced; the
    generator register goes into the region's invariant and comes back; nothing is owed; the kernel has no semaphore of
    its own. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (hB.hb0 (E1 m) c).loose
  hwaits := Pipeline.hwaits_of_owed_zero _ _ _ _ Ln lvn 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hB.hi0 (E1 m) c)
    unfold Pipeline.ΦA
    iintro ⟨Hp, -, Hr⟩
    isplitl [Hr]; · iexact Hr
    iexact Hp
  hout c := by
    refine (hB.ho0 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary contents before it, left with them at
    the contents after it. Its arrays are taken out of the unscoped buffers and put back with the output replaced; the
    generator register goes into the region's invariant and comes back; nothing is owed; the kernel has no semaphore of
    its own. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (hB.hb1 (E3 m) c).loose
  hwaits := Pipeline.hwaits_of_owed_zero _ _ _ _ Ln lvn 1 fun _ _ => rfl
  pre c := iprop(StableHlo.held (c : Thread nD τ) (Pipeline.ucRefs τ sig) (B3 m c) ∗ Ride c)
  post c := iprop(StableHlo.held (c : Thread nD τ) (Pipeline.ucRefs τ sig) (B4 m c) ∗ Ride c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the boundary contents before it, left with them at
    the contents after it. Its arrays are taken out of the unscoped buffers and put back with the output replaced; the
    generator register goes into the region's invariant and comes back; nothing is owed; the kernel has no semaphore of
    its own. -/
def reg2 : Pipeline.RegionSeg (pcfgs (F := F)) adm (pdats m) () defs₀ 𝒱n Ln lvn 2 where
  win := winFacts₀2
  block_pos := block_pos2
  stage_whole := stage_whole2
  K := PEmpty
  osem k := k.elim
  ho := Pipeline.OwnSemFacts.none _
  hbody c := (hB.hb2 (E5 m) c).loose
  hwaits := Pipeline.hwaits_of_owed_zero _ _ _ _ Ln lvn 2 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hB.hi2 (E5 m) c)
    unfold Pipeline.ΦA
    iintro ⟨Hp, -, Hr⟩
    isplitl [Hr]; · iexact Hr
    iexact Hp
  hout c := by
    refine (hB.ho2 (E5 m) c).trans ?_
    rw [Pipeline.ownSems0_none]; unfold Pipeline.ΦA
    iintro ⟨Hr, Hp⟩
    isplitl [Hp]; · iexact Hp
    isplitr; · iempintro
    iexact Hr
  hexit c := by
    have hjoin := exit2 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the boundary contents before it, left with them at
    the contents after it. Its arrays are taken out of the unscoped buffers and put back with the output replaced; the
    generator register goes into the region's invariant and comes back; nothing is owed; the kernel has no semaphore of
    its own. -/
def reg3 : Pipeline.RegionSeg (pcfgs (F := F)) adm (pdats m) () defs₀ 𝒱n Ln lvn 3 where
  win := launch3.win.to₀
  block_pos := launch3.block_pos
  stage_whole := launch3.stage_whole
  K := PEmpty
  osem k := k.elim
  ho := Pipeline.OwnSemFacts.none _
  hbody c := (hB.hb3 (E7 m) c).loose
  hwaits := Pipeline.hwaits_of_owed_zero _ _ _ _ Ln lvn 3 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the boundary contents before it, left with them at
    the contents after it. Its arrays are taken out of the unscoped buffers and put back with the output replaced; the
    generator register goes into the region's invariant and comes back; nothing is owed; the kernel has no semaphore of
    its own. -/
def reg4 : Pipeline.RegionSeg (pcfgs (F := F)) adm (pdats m) () defs₀ 𝒱n Ln lvn 4 where
  win := launch4.win.to₀
  block_pos := launch4.block_pos
  stage_whole := launch4.stage_whole
  K := PEmpty
  osem k := k.elim
  ho := Pipeline.OwnSemFacts.none _
  hbody c := (hB.hb4 (E9 m) c).loose
  hwaits := Pipeline.hwaits_of_owed_zero _ _ _ _ Ln lvn 4 fun _ _ => rfl
  pre c := iprop(StableHlo.held (c : Thread nD τ) (Pipeline.ucRefs τ sig) (B9 m c) ∗ Ride c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hB.hi4 (E9 m) c)
    unfold Pipeline.ΦA
    iintro ⟨Hp, -, Hr⟩
    isplitl [Hr]; · iexact Hr
    iexact Hp
  hout c := by
    refine (hB.ho4 (E9 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱n Ln lvn) :=
  [ .host (hostSeg hostOps0 hostOps0_sub hostOps0_fresh (B0 m)), .region (reg0 m hB),
    .host (hostSeg hostOps1 hostOps1_sub hostOps1_fresh (B2 m)), .region (reg1 m hB),
    .host (hostSeg hostOps2 hostOps2_sub hostOps2_fresh (B4 m)), .region (reg2 m hB),
    .host (hostSeg hostOps3 hostOps3_sub hostOps3_fresh (B6 m)), .region (reg3 m hB),
    .host (hostSeg hostOps4 hostOps4_sub hostOps4_fresh (B8 m)), .region (reg4 m hB) ]

theorem main_run (c : Dev nD) : main (F := F) c = Pipeline.Seg.run (segs m hB) := (main_chain c).trans (by chain_rfl)

set_option backward.isDefEq.respectTransparency.types false in
/-- THE RUN: from any memory with zero counters every weakly fair execution of @main terminates, nothing faulting, and
    every final memory holds every unscoped buffer of every TensorCore at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B10 m c b) :=
  Pipeline.θ_run_regions_kit (pcfgs (F := F)) adm (pdats m) () cellOf_inj emb₁ defs₀ 𝒱n Ln lvn m ρ main (segs m hB)
    (fun c Q => by rw [main_run m hB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h => h)

/-- THE RUN, read at the result and the arguments: every final memory holds the result array at what the last region
    left and every argument array as launched. -/
theorem run_frame : θ_run defs (onTc (τ := τ) (main (F := F))) ⟨m, fun _ => 0, ρ⟩
    (fun r => ∀ c : Dev nD,
      r.2.mem ((c : Thread nD τ).loc main_v14) = B10 m c (Proc.devRef .tc main_v14)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun r h c =>
    ⟨h c _ (mem_uc main_v14 (by decide)),
     (h c _ (mem_uc main_arg0 (by decide))).trans (B10_main_arg0 m c),
     (h c _ (mem_uc main_arg1 (by decide))).trans (B10_main_arg1 m c),
     (h c _ (mem_uc main_arg2 (by decide))).trans (B10_main_arg2 m c),
     (h c _ (mem_uc main_arg3 (by decide))).trans (B10_main_arg3 m c),
     (h c _ (mem_uc main_arg4 (by decide))).trans (B10_main_arg4 m c),
     (h c _ (mem_uc main_arg5 (by decide))).trans (B10_main_arg5 m c),
     (h c _ (mem_uc main_arg6 (by decide))).trans (B10_main_arg6 m c),
     (h c _ (mem_uc main_arg7 (by decide))).trans (B10_main_arg7 m c),
     (h c _ (mem_uc main_arg8 (by decide))).trans (B10_main_arg8 m c),
     (h c _ (mem_uc main_arg9 (by decide))).trans (B10_main_arg9 m c),
     (h c _ (mem_uc main_arg10 (by decide))).trans (B10_main_arg10 m c),
     (h c _ (mem_uc main_arg11 (by decide))).trans (B10_main_arg11 m c),
     (h c _ (mem_uc main_arg12 (by decide))).trans (B10_main_arg12 m c),
     (h c _ (mem_uc main_arg13 (by decide))).trans (B10_main_arg13 m c)⟩)
    (run_all m ρ hB)

end Cert.Kernel.Hand

end
-- ==== Proof.K.Body0.lean ====
/- Region 0 of the program is a matrix product accumulated over the last grid axis (8 x 8 x 6 points, the contraction
   axis last) into a scratch buffer, with an epilogue (scale, shift, clamp below at zero) stored to the output block at
   the last contraction step. Here: the body's effect at a grid point in each of its three control cases, over named
   contents; the closed forms of the two conditions over the grid; what each staging buffer holds when the body is
   called; the invariant that carries the scratch from point to point at the running sum; and from these the body
   obligation of the region's proof data, with the invariant's entry and exit. -/
import proofs.«168041_j41042707481000_1_alg».proof.Proof.K.Dats
import proofs.«168041_j41042707481000_1_alg».proof.Proof.Gen.Kernel.Launch
import proofs.«168041_j41042707481000_1_alg».proof.Proof.Gen.Kernel.Skeleton
import proofs.«168041_j41042707481000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem z2 : (![0, 0] : Fin 2 → ℕ) = fun _ => 0 := by funext a; fin_cases a <;> rfl

/-- A store through the whole-shape rectangle at zero offsets, made last, is all that a later read of the buffer sees. -/
private theorem read_top0 {κ : Kind} {sp : Space} {S : Shape} {e : EltTy} (v : View sig κ sp S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through that rectangle reads the whole contents. -/
private theorem readAt_top0 {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz]

/-! ## The two branch conditions of the body, from the grid coordinates -/

/-- The first `if`: the last grid coordinate (the position along the contraction) is 0. -/
abbrev cond0_0 (i : grid0.Coords) : Prop :=
  (Scalar.cmpi .ne (Scalar.extui (Scalar.cmpi .eq (BitVec.ofNat 32 (i 2).val) 0#32)) 0#32) = 1#1
/-- The second `if`: that coordinate is 5, the last. -/
abbrev cond0_1 (i : grid0.Coords) : Prop := k0_cond2 i = 1#1

set_option maxHeartbeats 1000000 in
/-- The body at a point where the contraction starts (coordinate 0 of the last axis; not its last coordinate): the
    scratch, whatever it held, is set to zero and then to the first partial product added to zero; the four inputs and
    the output window are left as they were. -/
theorem runA0 (c : Dev nD) (i : grid0.Coords)
    (arg3 : Memref sig .tc .vmem S1024x512 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (hc0 : cond0_0 i) (hc1 : ¬cond0_1 i)
    (x0 : Vec F S1024x512 .f32) (x1 : Vec F S512x1024 .f32) (x2 x3 : Vec F S1x1024 .f32)
    (xi4 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xi4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare (k0_pay2 x1 x0 (k0_pay1 (F := F)))) -∗ K ⟨⟩))
      ⊢ wp frame (wpE (defs₀ (F := F)) Variants.none c none) E
          (cc0__mm1_kernel i arg3 harg3 arg4 harg4 arg5 harg5 arg6 harg6 arg7 harg7 arg8 harg8) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg3.eq_unread hf0; obtain rfl := harg4.eq_unread hf1
  obtain rfl := harg5.eq_unread hf2; obtain rfl := harg6.eq_unread hf3
  obtain rfl := harg7.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS0
  ipureintro
  sl_unfold_run_names
  rw [read_top0 _ _ z2, readAt_top0 _ _ z2, readAt_top0 _ _ z2, hf0, hf1, View.readCov_unit_zero _ z2]

set_option maxHeartbeats 1000000 in
/-- The body at a point inside the contraction (neither its first nor its last coordinate): the scratch holding `xs`
    ends holding `xs` plus this point's partial product; inputs and output window are left as they were. -/
theorem runB0 (c : Dev nD) (i : grid0.Coords)
    (arg3 : Memref sig .tc .vmem S1024x512 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (hc0 : ¬cond0_0 i) (hc1 : ¬cond0_1 i)
    (x0 : Vec F S1024x512 .f32) (x1 : Vec F S512x1024 .f32) (x2 x3 : Vec F S1x1024 .f32)
    (xi4 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xi4 ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare (k0_pay2 x1 x0 xs)) -∗ K ⟨⟩))
      ⊢ wp frame (wpE (defs₀ (F := F)) Variants.none c none) E
          (cc0__mm1_kernel i arg3 harg3 arg4 harg4 arg5 harg5 arg6 harg6 arg7 harg7 arg8 harg8) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS0
  ipureintro
  sl_unfold_run_names
  rw [read_top0 _ _ z2, readAt_top0 _ _ z2, readAt_top0 _ _ z2, readAt_top0 _ _ z2, hf0, hf1, hfs0]

set_option maxHeartbeats 1000000 in
/-- The body at a point where the contraction ends (its last coordinate; not its first): the scratch holding `xs` ends
    holding the completed sum, and the output window, whatever it held, ends holding the epilogue of that sum with the
    two row vectors; the inputs are left as they were. -/
theorem runC0 (c : Dev nD) (i : grid0.Coords)
    (arg3 : Memref sig .tc .vmem S1024x512 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (hc0 : ¬cond0_0 i) (hc1 : cond0_1 i)
    (x0 : Vec F S1024x512 .f32) (x1 : Vec F S512x1024 .f32) (x2 x3 : Vec F S1x1024 .f32)
    (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay3 (k0_pay2 x1 x0 xs) x2 x3)
            ∗ owns (c : Thread nD τ) arg8 fullShare (k0_pay2 x1 x0 xs)) -∗ K ⟨⟩))
      ⊢ wp frame (wpE (defs₀ (F := F)) Variants.none c none) E
          (cc0__mm1_kernel i arg3 harg3 arg4 harg4 arg5 harg5 arg6 harg6 arg7 harg7 arg8 harg8) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg3.eq_unread hf0; obtain rfl := harg4.eq_unread hf1
  obtain rfl := harg5.eq_unread hf2; obtain rfl := harg6.eq_unread hf3
  obtain rfl := harg8.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [read_top0 _ _ z2, View.readCov_unit_zero _ z2, readAt_top0 _ _ z2, readAt_top0 _ _ z2, readAt_top0 _ _ z2,
      readAt_top0 _ _ z2, readAt_top0 _ _ z2, hf0, hf1, hf2, hf3, hfs0]
  iexists _; isplitr
  swap; · iexact HS0
  ipureintro
  sl_unfold_run_names
  rw [read_top0 _ _ z2, readAt_top0 _ _ z2, readAt_top0 _ _ z2, readAt_top0 _ _ z2, hf0, hf1, hfs0]

/-! ## The running sum, point by point -/

/-- Where the contraction coordinate is 0 the running sum starts again: the product of the point's two blocks added
    to the zero block. -/
theorem acc0_first (c : Dev nD) (t : Fin cfg0.N) (h : t.val % 6 = 0) :
    acc0 V c t.val t.isLt = k0_pay2 (iblk0 V c 1 t) (iblk0 V c 0 t) (k0_pay1 (F := F)) := by
  obtain ⟨n, hn⟩ := t
  cases n with
  | zero => rfl
  | succ n => exact if_pos h

/-- Elsewhere it is the product of the point's two blocks added to the sum the point before left. -/
theorem acc0_next (c : Dev nD) (t : Fin cfg0.N) (h : t.val % 6 ≠ 0) :
    acc0 V c t.val t.isLt = k0_pay2 (iblk0 V c 1 t) (iblk0 V c 0 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The two conditions in closed form over the grid

The grid is row-major with the contraction axis last and of extent 6, so a point's contraction coordinate is its
number mod 6. -/

/-- The scratch is reset where the contraction coordinate is 0. -/
theorem hcond0_0 : ∀ t : Fin cfg0.N, cond0_0 (grid0.coords t) ↔ t.val % 6 = 0 :=
  (by decide +kernel : ∀ t : Fin grid0.N, cond0_0 (grid0.coords t) ↔ t.val % 6 = 0)
/-- The output block is stored where it is 5, the last. -/
theorem hcond0_1 : ∀ t : Fin cfg0.N, cond0_1 (grid0.coords t) ↔ t.val % 6 = 5 :=
  (by decide +kernel : ∀ t : Fin grid0.N, cond0_1 (grid0.coords t) ↔ t.val % 6 = 5)

/-! ## Where the output window is idle -/

/-- Away from the last contraction step the body stores nothing into the output block, -/
theorem idleAt0_4 : ∀ t : Fin cfg0.N, ¬cond0_1 (grid0.coords t) → cfg0.idle 4 (grid0.coords t) = true := by decide +kernel
/-- and the block is not written back there. -/
theorem noFlush0_4 : ∀ t : Fin cfg0.N, ¬cond0_1 (grid0.coords t) → (cfg0.win 4).flush t = false := by decide +kernel
/-- At the last contraction step the output block is stored. -/
theorem liveAt0_4 : ∀ t : Fin cfg0.N, cond0_1 (grid0.coords t) → cfg0.idle 4 (grid0.coords t) = false := by decide +kernel

/-! ## The staging buffers at a point, and what the proof data say of them -/

/-- The proof data's arrays are the region's entry contents. -/
theorem A0_eq (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each input's current buffer holds its block at every point, whether or not it was fetched there: the two matrix
    blocks are fetched at every point; the two rows' block index moves only with the output's column, so between
    fetches the buffer, which the body leaves alone, still holds this point's block. -/
theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A0_eq]
  · unfold Dat.fetched Dat.blockOf iblk0; rw [A0_eq]; rfl
theorem before0_1 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; unfold Dat.blockOf iblk0; rw [A0_eq]
  · unfold Dat.fetched Dat.blockOf iblk0; rw [A0_eq]; rfl
theorem before0_2 (c : Dev nD) (t : Fin cfg0.N) (d) : (dat0 V c).before 2 t d = iblk0 V c 2 t := by
  refine ((dat0 V c).before_in_eq_fetched 2 rfl (fun _ => rfl) (fun _ _ _ => rfl) (fun s => ?_) t d).trans ?_
  · rw [after0_2]; unfold Dat.blockOf iblk0; rw [A0_eq]
  · unfold Dat.fetched Dat.blockOf iblk0; rw [A0_eq]; rfl
theorem before0_3 (c : Dev nD) (t : Fin cfg0.N) (d) : (dat0 V c).before 3 t d = iblk0 V c 3 t := by
  refine ((dat0 V c).before_in_eq_fetched 3 rfl (fun _ => rfl) (fun _ _ _ => rfl) (fun s => ?_) t d).trans ?_
  · rw [after0_3]; unfold Dat.blockOf iblk0; rw [A0_eq]
  · unfold Dat.fetched Dat.blockOf iblk0; rw [A0_eq]; rfl

/-- The inputs are never idle: the body hands each buffer back at its block. -/
theorem leaves0_0 (c : Dev nD) (t : Fin cfg0.N) :
    (dat0 V c).leavesExact 0 t = owns (c : Thread nD τ) (st0_0 t) fullShare (iblk0 V c 0 t) := by
  unfold Dat.leavesExact; rw [after0_0]
theorem leaves0_1 (c : Dev nD) (t : Fin cfg0.N) :
    (dat0 V c).leavesExact 1 t = owns (c : Thread nD τ) (st0_1 t) fullShare (iblk0 V c 1 t) := by
  unfold Dat.leavesExact; rw [after0_1]
theorem leaves0_2 (c : Dev nD) (t : Fin cfg0.N) :
    (dat0 V c).leavesExact 2 t = owns (c : Thread nD τ) (st0_2 t) fullShare (iblk0 V c 2 t) := by
  unfold Dat.leavesExact; rw [after0_2]
theorem leaves0_3 (c : Dev nD) (t : Fin cfg0.N) :
    (dat0 V c).leavesExact 3 t = owns (c : Thread nD τ) (st0_3 t) fullShare (iblk0 V c 3 t) := by
  unfold Dat.leavesExact; rw [after0_3]

/-- At the last contraction step the output's buffer is handed back at the epilogue of the completed sum. -/
theorem leaves0_4_live (c : Dev nD) (t : Fin cfg0.N) (hc1 : cond0_1 (grid0.coords t)) :
    (dat0 V c).leavesExact 4 t = owns (c : Thread nD τ) (st0_4 t) fullShare (out0 V c t) := by
  unfold Dat.leavesExact; rw [liveAt0_4 t hc1, after0_4]

/-! ## The invariant's equations -/

/-- The region's entry invariant with the scratch split off the other scoped buffers and owned, as a whole buffer, at
    some contents. -/
theorem PhiA0_eq (c : Dev nD) :
    (Pipeline.ΦA spec0 c : sProp 𝕄)
      = iprop(iprop(iprop((∃ d, owns (c : Thread nD τ) (Memref.whole cc0_scratch0 : Memref sig .tc .vmem S1024x1024 .f32) fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [owns_whole]; try rfl

/-- Before the first point the invariant is the entry invariant. -/
theorem PhiS0_zero (c : Dev nD) (n : ℕ) (h : n ≤ cfg0.N) (hz : n = 0) : PhiS0 V c n h = Pipeline.ΦA spec0 c := by
  subst hz; rfl

/-- After point n: the scratch at that point's running sum. -/
theorem PhiS0_succ (c : Dev nD) (n : ℕ) (hn : n < cfg0.N) :
    PhiS0 V c (n + 1) hn = iprop(owns (c : Thread nD τ) (Memref.whole cc0_scratch0 : Memref sig .tc .vmem S1024x1024 .f32) fullShare (acc0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the scratch at the running sum the point before left. -/
theorem PhiS0_pos (c : Dev nD) (n : ℕ) (h : n ≤ cfg0.N) (hz : n ≠ 0) :
    PhiS0 V c n h = iprop(owns (c : Thread nD τ) (Memref.whole cc0_scratch0 : Memref sig .tc .vmem S1024x1024 .f32) fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

theorem Phi0_castSucc (c : Dev nD) (t : Fin cfg0.N) :
    (dat0 V c).Φ t.castSucc = PhiS0 V c t.val (Nat.le_of_lt t.isLt) := by
  dsimp only [dat0]; rfl

theorem Phi0_succ (c : Dev nD) (t : Fin cfg0.N) :
    (dat0 V c).Φ t.succ = PhiS0 V c (t.val + 1) t.isLt := by
  dsimp only [dat0]; rfl

/-! ## The body obligation, at a generic point -/

/-- What the body is called with at point t: the invariant, the core's (empty) debts, each window's current buffer
    at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The four inputs' buffers hold their blocks; the contraction coordinate (the point's number
    mod 6) says which of the three cases runs. The scratch comes in at the sum the point before left (at anything at
    the very first point; at a first contraction step its contents do not matter) and goes out at this point's sum;
    the output's buffer is stored only at the last contraction step, with the epilogue of the completed sum, and is
    otherwise handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ, PhiS0_succ, Phi0_castSucc]
  rw [leaves0_0, leaves0_1, leaves0_2, leaves0_3]
  have hN : t.val < 384 := lt_of_lt_of_eq t.isLt (show cfg0.N = 384 from N_0)
  by_cases h0 : t.val % 6 = 0
  · have h1 : ¬t.val % 6 = 5 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [acc0_first V c t h0]
    by_cases hz : t.val = 0
    · rw [PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩⟩
      iapply (runA0 c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_pos V c _ _ hz]
      iintro ⟨⟨HS0, Hr, Hg⟩, Ho, ⟨%d0, H0⟩, ⟨%d1, H1⟩, ⟨%d2, H2⟩, ⟨%d3, H3⟩, ⟨%d4, H4⟩⟩
      iapply (runA0 c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    rw [PhiS0_pos V c _ _ hz, acc0_next V c t h0]
    by_cases h1 : t.val % 6 = 5
    · have hc1 : cond0_1 (grid0.coords t) := (hcond0_1 t).mpr h1
      rw [leaves0_4_live V c t hc1]
      unfold out0
      rw [acc0_next V c t h0]
      iintro ⟨⟨HS0, Hr, Hg⟩, Ho, ⟨%d0, H0⟩, ⟨%d1, H1⟩, ⟨%d2, H2⟩, ⟨%d3, H3⟩, ⟨%d4, H4⟩⟩
      iapply (runC0 c (grid0.coords t) _ _ _ _ _ _ _ _ _ _ _ _ hc0 hc1 (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨HS0, Hr, Hg⟩, Ho, ⟨%d0, H0⟩, ⟨%d1, H1⟩, ⟨%d2, H2⟩, ⟨%d3, H3⟩, ⟨%d4, H4⟩⟩
      iapply (runB0 c (grid0.coords t) _ _ _ _ _ _ _ _ _ _ _ _ hc0 hc1 (iblk0 V c 0 t) (iblk0 V c 1 t) (iblk0 V c 2 t) (iblk0 V c 3 t) ((dat0 V c).before 4 t d4) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The region's body obligation, at every point: the five windows written out, then the point lemma. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 (F := F) V c).Φ 0 := by
  rw [show (dat0 V c).Φ 0 = PhiS0 V c 0 (Nat.zero_le _) from by dsimp only [dat0]; rfl, PhiS0_zero V c 0 _ rfl]

/-- After any point the invariant gives the entry invariant back: the scratch's contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from by dsimp only [dat0], PhiS0_pos V c _ _ ht, PhiA0_eq]
  iintro ⟨HS0, Hr, Hg⟩
  isplitl [HS0 Hr]
  · isplitl [HS0]; · iexists _; iexact HS0
    iexact Hr
  iexact Hg

/-- The same after the last point. -/
theorem hout0 (c : Dev nD) : (dat0 (F := F) V c).Φ (Fin.last cfg0.N) ⊢ Pipeline.ΦA spec0 c :=
  Phi0_out V c _ (by rw [Fin.val_last]; have : cfg0.N = 384 := N_0; omega)

end Cert.Kernel.Hand

end
-- ==== Proof.K.Body1.lean ====
/- Region 1 is a row-wise normalisation: at each of the grid's 64 points it takes one block of 128 rows of 8192 numbers,
   subtracts each row's mean, divides by the square root of the row's variance plus a small constant, multiplies by the
   scale row, adds the shift row and rounds to sixteen bits. Here it is shown that the body, run at any point on the
   staging buffers the pipeline hands it, leaves what the proof data say: the three input buffers as they were, each
   at its array's block, and the output buffer at the normalised rows of those blocks. -/
import proofs.«168041_j41042707481000_1_alg».proof.Proof.K.Dats
import proofs.«168041_j41042707481000_1_alg».proof.Proof.Gen.Kernel.Launch
import proofs.«168041_j41042707481000_1_alg».proof.Proof.Gen.Kernel.Skeleton
import proofs.«168041_j41042707481000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading and writing a whole buffer

Every access of the body goes through the rectangle that starts at the origin and has the buffer's own extents. -/

/-- The origin of a two-axis shape, as the constant function. -/
theorem origin2 : (![0, 0] : Fin 2 → Nat) = fun _ => 0 := funext fun a => by fin_cases a <;> rfl

/-- One piece on the whole-buffer rectangle covers every index. -/
theorem whole_covers (p : Vec F S128x8192 .bf16) (y : S128x8192.Idx) :
    ∃ pc ∈ ([⟨Rect.unit (s := S128x8192) ![0, 0] S128x8192.size inb_S128x8192_S128x8192_0_0, p⟩] :
      List (View.Piece (Elt F) S128x8192 .bf16)), y ∈ pc.1.set :=
  View.cover_of_tiled _ S128x8192.size (by rfl) y

/-! ## The body on four whole buffers -/

set_option maxHeartbeats 1000000 in
/-- Run on whole buffers holding the rows `x`, the scale `g`, the shift `b` and anything in the fourth, the body reads
    the first three, reads the fourth without using it, and overwrites the fourth with the normalised rows
    `k1_pay1 x g b`; the first three are unchanged. -/
theorem rows_normalised1 (c : Dev nD) (E : Set ℕ) (i : grid1.Coords)
    (a1 : Memref sig .tc .vmem S128x8192 .f32) (h1 : a1.IsWhole)
    (a2 : Memref sig .tc .vmem S1x8192 .f32) (h2 : a2.IsWhole)
    (a3 : Memref sig .tc .vmem S1x8192 .f32) (h3 : a3.IsWhole)
    (a4 : Memref sig .tc .vmem S128x8192 .bf16) (h4 : a4.IsWhole)
    (x : Vec F S128x8192 .f32) (g b : Vec F S1x8192 .f32) (K : PUnit → sProp 𝕄) :
    iprop(owns (c : Thread nD τ) a1 fullShare x ∗ owns (c : Thread nD τ) a2 fullShare g ∗ owns (c : Thread nD τ) a3 fullShare b
        ∗ (∃ d, owns (c : Thread nD τ) a4 fullShare d)
        ∗ (iprop(owns (c : Thread nD τ) a1 fullShare x ∗ owns (c : Thread nD τ) a2 fullShare g ∗ owns (c : Thread nD τ) a3 fullShare b
            ∗ owns (c : Thread nD τ) a4 fullShare (k1_pay1 x g b)) -∗ K ⟨⟩))
      ⊢ wp frame (wpE (defs₀ (F := F)) Variants.none c none) E (cc1__ln_kernel i a1 h1 a2 h2 a3 h3 a4 h4) K := by
  simp only [cc1__ln_kernel_eq_skeleton]; unfold cc1__ln_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- what one covering store leaves is its payload, and a load through the whole rectangle reads the contents
  rw [View.read_writes_eq_canon _ _ _ (whole_covers _), View.canon_unit_zero origin2]
  simp only [View.readAt_eq_ld, Rect.toLoadRect]
  rw [View.ld_unit_zero (S := S128x8192) origin2, View.ld_unit_zero (S := S1x8192) origin2,
    View.ld_unit_zero (S := S1x8192) origin2]

/-! ## What the buffers hold when the body is called

The rows' block is fetched at every point. The scale and the shift are fetched at the first point only; their block
index is the same at every point, and the body leaves their buffers alone, so they too hold their block throughout. -/

/-- The proof data's arrays are the arrays as the region finds them. -/
theorem arr1 (c : Dev nD) (w : Fin cfg1.W) : (dat1 V c).A w = V c (Pipeline.arrRef spec1 w) := by
  dsimp only [dat1]

/-- What the body leaves, window by window. -/
theorem left1_0 (c : Dev nD) (t : Fin cfg1.N) : (dat1 V c).after 0 t = iblk1 V c 0 t := by dsimp only [dat1]
theorem left1_1 (c : Dev nD) (t : Fin cfg1.N) : (dat1 V c).after 1 t = iblk1 V c 1 t := by dsimp only [dat1]
theorem left1_2 (c : Dev nD) (t : Fin cfg1.N) : (dat1 V c).after 2 t = iblk1 V c 2 t := by dsimp only [dat1]
theorem left1_3 (c : Dev nD) (t : Fin cfg1.N) :
    (dat1 V c).after 3 t = k1_pay1 (iblk1 V c 0 t) (iblk1 V c 1 t) (iblk1 V c 2 t) := by dsimp only [dat1]

/-- The rows' buffer holds the rows' block. -/
theorem held1_0 (c : Dev nD) (t : Fin cfg1.N) (d) : (dat1 V c).before 0 t d = iblk1 V c 0 t := by
  refine ((dat1 V c).before_in_eq_fetched 0 rfl (fun _ => rfl) (fun _ _ _ => rfl) (fun s => ?_) t d).trans ?_
  · rw [left1_0]; unfold Dat.blockOf iblk1; rw [arr1]
  · unfold Dat.fetched Dat.blockOf iblk1; rw [arr1]; rfl

/-- The scale's buffer holds the scale row, at the first point and at every later one. -/
theorem held1_1 (c : Dev nD) (t : Fin cfg1.N) (d) : (dat1 V c).before 1 t d = iblk1 V c 1 t := by
  refine ((dat1 V c).before_in_eq_fetched 1 rfl (fun _ => rfl) (fun _ _ _ => rfl) (fun s => ?_) t d).trans ?_
  · rw [left1_1]; unfold Dat.blockOf iblk1; rw [arr1]
  · unfold Dat.fetched Dat.blockOf iblk1; rw [arr1]; rfl

/-- The shift's buffer holds the shift row, likewise. -/
theorem held1_2 (c : Dev nD) (t : Fin cfg1.N) (d) : (dat1 V c).before 2 t d = iblk1 V c 2 t := by
  refine ((dat1 V c).before_in_eq_fetched 2 rfl (fun _ => rfl) (fun _ _ _ => rfl) (fun s => ?_) t d).trans ?_
  · rw [left1_2]; unfold Dat.blockOf iblk1; rw [arr1]
  · unfold Dat.fetched Dat.blockOf iblk1; rw [arr1]; rfl

/-! ## The body at a grid point -/

/-- At any point, from the region's invariant, the core's debt and the four current buffers at what they then hold,
    the body runs to the same invariant and debt, the three inputs' buffers at their blocks and the output's at the
    normalised rows of those blocks. The invariant and the debt are not touched. -/
theorem point1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  simp only [held1_0, held1_1, held1_2]
  rw [show (dat1 V c).Φ t.succ = (dat1 V c).Φ t.castSucc from rfl,
    show (dat1 V c).owesAt () t.succ = (dat1 V c).owesAt () t.castSucc from rfl,
    left1_0, left1_1, left1_2, left1_3]
  iintro ⟨HΦ, Ho, ⟨%d0, H0⟩, ⟨%d1, H1⟩, ⟨%d2, H2⟩, ⟨%d3, H3⟩⟩
  iapply (rows_normalised1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1: the point lemma at every point, the four windows written out. -/
theorem body_obligation1 (c : Dev nD) :
    BodyObligation (dat1 (F := F) V c) (defs₀ (F := F)) Variants.none () Set.univ := fun t => by
  rw [bigSep_W1, bigSep_W1]
  exact point1 V c t

end Cert.Kernel.Hand

end
-- ==== Proof.K.Body2.lean ====
/- Region 2 is the second matrix product: over a grid of 8 × 8 × 16 points, the last axis the contraction, it adds
   up in a scratch buffer the products of a block of x1 with a block of the binarised weights, and at the last
   contraction step stores the epilogue of the sum (scaled by a row, shifted by a row, clamped below at zero, plus the
   block of x1 at the output's block index) into the output block. Here it is shown that the body, run at any point on
   the staging buffers the pipeline hands it, leaves what the proof data say: the five input buffers as they were,
   each at its array's block; the scratch at the running sum of the point; and the output buffer, at a last contraction
   step, at the epilogue of the completed sum, elsewhere as found. -/
import proofs.«168041_j41042707481000_1_alg».proof.Proof.K.Dats
import proofs.«168041_j41042707481000_1_alg».proof.Proof.Gen.Kernel.Launch
import proofs.«168041_j41042707481000_1_alg».proof.Proof.Gen.Kernel.Skeleton
import proofs.«168041_j41042707481000_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum, point by point -/

/-- Where the contraction coordinate is 0 the running sum starts again: the product of the point's two blocks added
    to the zero block. -/
theorem acc2_first (c : Dev nD) (t : Fin cfg2.N) (h : t.val % 16 = 0) :
    acc2 V c t.val t.isLt = k2_pay2 (iblk2 V c 1 t) (iblk2 V c 0 t) (k2_pay1 (F := F)) := by
  obtain ⟨n, hn⟩ := t
  cases n with
  | zero => rfl
  | succ n => exact if_pos h

/-- Elsewhere it is the product of the point's two blocks added to the sum the point before left. -/
theorem acc2_next (c : Dev nD) (t : Fin cfg2.N) (h : t.val % 16 ≠ 0) :
    acc2 V c t.val t.isLt = k2_pay2 (iblk2 V c 1 t) (iblk2 V c 0 t)
      (acc2 V c (t.val - 1) (Nat.lt_of_le_of_lt (Nat.sub_le _ _) t.isLt)) := by
  obtain ⟨n, hn⟩ := t
  cases n with
  | zero => exact absurd (Nat.zero_mod _) h
  | succ n => exact if_neg h

/-! ## The body's two branch conditions, in closed form over the grid -/

/-- The first branch (reset the scratch) is taken where the contraction coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The second branch (store the output block) is taken where the contraction coordinate is 15, the last. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the output window is idle -/

/-- Away from the last contraction step the body stores nothing into the output block, -/
theorem idleAt2_5 : ∀ t : Fin cfg2.N, ¬cond2_1 (grid2.coords t) → cfg2.idle 5 (grid2.coords t) = true := by decide +kernel
/-- and the block is not written back there. -/
theorem noFlush2_5 : ∀ t : Fin cfg2.N, ¬cond2_1 (grid2.coords t) → (cfg2.win 5).flush t = false := by decide +kernel
/-- At the last contraction step the output block is stored. -/
theorem liveAt2_5 : ∀ t : Fin cfg2.N, cond2_1 (grid2.coords t) → cfg2.idle 5 (grid2.coords t) = false := by decide +kernel

/-! ## Reading and writing a whole buffer

Every access of the body goes through the rectangle that starts at the origin and has the buffer's own extents. -/

/-- The origin of a two-axis shape, as the constant function. -/
private theorem org2 : (![0, 0] : Fin 2 → Nat) = fun _ => 0 := funext fun a => by fin_cases a <;> rfl

/-- A store through the whole-buffer rectangle, made last, is all a later read of the buffer sees. -/
private theorem read_top2 {κ : Kind} {sp : Space} {S : Shape} {e : EltTy} (v : View sig κ sp S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through that rectangle reads the whole contents. -/
private theorem readAt_top2 {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f := by
  rw [View.readAt_eq_ld, View.ld_unit_zero hz]

/-! ## The body on whole staging buffers, case by case -/

set_option maxHeartbeats 1000000 in
/-- First contraction step: whatever the scratch held, it ends holding the product of the two blocks added to zero;
    the five inputs and the output block's buffer are handed back as found. -/
theorem run2_A (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond2_0 i) (hc1 : ¬cond2_1 i)
    (x0 : Vec F S1024x512 .bf16) (x1 : Vec F S512x1024 .f32) (x2 : Vec F S1x1024 .f32) (x3 : Vec F S1x1024 .f32) (x4 : Vec F S1024x1024 .bf16) (xi5 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 x1 x0 (k2_pay1 (F := F)))) -∗ K ⟨⟩))
      ⊢ wp frame (wpE (defs₀ (F := F)) Variants.none c none) E (cc2__mm2_kernel i arg3 harg3 arg4 harg4 arg5 harg5 arg6 harg6 arg7 harg7 arg8 harg8 arg9 harg9) K := by
  simp only [cc2__mm2_kernel_eq_skeleton]; unfold cc2__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  sl_unfold_run_names
  rw [read_top2 _ _ org2, readAt_top2 _ _ org2, readAt_top2 _ _ org2, hf0, hf1, View.readCov_unit_zero _ org2]

set_option maxHeartbeats 1000000 in
/-- A middle contraction step: the scratch, holding the sum so far, ends holding the product of the two blocks added
    to it; everything else is handed back as found. -/
theorem run2_B (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : ¬cond2_1 i)
    (x0 : Vec F S1024x512 .bf16) (x1 : Vec F S512x1024 .f32) (x2 : Vec F S1x1024 .f32) (x3 : Vec F S1x1024 .f32) (x4 : Vec F S1024x1024 .bf16) (xi5 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 x1 x0 xs)) -∗ K ⟨⟩))
      ⊢ wp frame (wpE (defs₀ (F := F)) Variants.none c none) E (cc2__mm2_kernel i arg3 harg3 arg4 harg4 arg5 harg5 arg6 harg6 arg7 harg7 arg8 harg8 arg9 harg9) K := by
  simp only [cc2__mm2_kernel_eq_skeleton]; unfold cc2__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  sl_unfold_run_names
  rw [read_top2 _ _ org2, readAt_top2 _ _ org2, readAt_top2 _ _ org2, readAt_top2 _ _ org2, hf0, hf1, hfs0]

set_option maxHeartbeats 1000000 in
/-- The last contraction step: the scratch ends holding the completed sum, and the output block's buffer, whatever it
    held, the epilogue of that sum with the scale row, the shift row and the residual block. -/
theorem run2_C (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond2_0 i) (hc1 : cond2_1 i)
    (x0 : Vec F S1024x512 .bf16) (x1 : Vec F S512x1024 .f32) (x2 : Vec F S1x1024 .f32) (x3 : Vec F S1x1024 .f32) (x4 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k2_pay3 (k2_pay2 x1 x0 xs) x2 x3 x4) ∗ owns (c : Thread nD τ) arg9 fullShare (k2_pay2 x1 x0 xs)) -∗ K ⟨⟩))
      ⊢ wp frame (wpE (defs₀ (F := F)) Variants.none c none) E (cc2__mm2_kernel i arg3 harg3 arg4 harg4 arg5 harg5 arg6 harg6 arg7 harg7 arg8 harg8 arg9 harg9) K := by
  simp only [cc2__mm2_kernel_eq_skeleton]; unfold cc2__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [read_top2 _ _ org2, View.readCov_unit_zero _ org2, readAt_top2 _ _ org2, readAt_top2 _ _ org2, readAt_top2 _ _ org2,
      readAt_top2 _ _ org2, readAt_top2 _ _ org2, readAt_top2 _ _ org2, hf0, hf1, hf2, hf3, hf4, hfs0]
  iexists _; isplitr
  swap; · iexact HS0
  ipureintro
  sl_unfold_run_names
  rw [read_top2 _ _ org2, readAt_top2 _ _ org2, readAt_top2 _ _ org2, readAt_top2 _ _ org2, hf0, hf1, hfs0]

/-! ## The staging buffers at a point, and what the proof data say of them -/

/-- Each window's current staging buffer at point `t`. -/
abbrev ms2_0 (t : Fin cfg2.N) : Memref sig .tc .vmem S1024x512 .bf16 := win2_0.stage (cfg2.slots t 0)
abbrev ms2_1 (t : Fin cfg2.N) : Memref sig .tc .vmem S512x1024 .f32 := win2_1.stage (cfg2.slots t 1)
abbrev ms2_2 (t : Fin cfg2.N) : Memref sig .tc .vmem S1x1024 .f32 := win2_2.stage (cfg2.slots t 2)
abbrev ms2_3 (t : Fin cfg2.N) : Memref sig .tc .vmem S1x1024 .f32 := win2_3.stage (cfg2.slots t 3)
abbrev ms2_4 (t : Fin cfg2.N) : Memref sig .tc .vmem S1024x1024 .bf16 := win2_4.stage (cfg2.slots t 4)
abbrev ms2_5 (t : Fin cfg2.N) : Memref sig .tc .vmem S1024x1024 .f32 := win2_5.stage (cfg2.slots t 5)

/-- The proof data's arrays are the region's entry contents. -/
theorem A2_eq (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

/-- Each input's current buffer holds its block at every point, whether or not it was fetched there: unfetched, its
    block index has not moved since the fetch. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A2_eq]; try rfl) t d).trans
    (by unfold Dat.fetched Dat.blockOf iblk2; rw [A2_eq]; try rfl)

/-- The inputs are never idle: the body hands each buffer back at its block. -/
theorem leaves2_0 (c : Dev nD) (t : Fin cfg2.N) :
    (dat2 V c).leavesExact 0 t = owns (c : Thread nD τ) (ms2_0 t) fullShare (iblk2 V c 0 t) := by
  unfold Dat.leavesExact; rw [after2_0]; try rfl
theorem leaves2_1 (c : Dev nD) (t : Fin cfg2.N) :
    (dat2 V c).leavesExact 1 t = owns (c : Thread nD τ) (ms2_1 t) fullShare (iblk2 V c 1 t) := by
  unfold Dat.leavesExact; rw [after2_1]; try rfl
theorem leaves2_2 (c : Dev nD) (t : Fin cfg2.N) :
    (dat2 V c).leavesExact 2 t = owns (c : Thread nD τ) (ms2_2 t) fullShare (iblk2 V c 2 t) := by
  unfold Dat.leavesExact; rw [after2_2]; try rfl
theorem leaves2_3 (c : Dev nD) (t : Fin cfg2.N) :
    (dat2 V c).leavesExact 3 t = owns (c : Thread nD τ) (ms2_3 t) fullShare (iblk2 V c 3 t) := by
  unfold Dat.leavesExact; rw [after2_3]; try rfl
theorem leaves2_4 (c : Dev nD) (t : Fin cfg2.N) :
    (dat2 V c).leavesExact 4 t = owns (c : Thread nD τ) (ms2_4 t) fullShare (iblk2 V c 4 t) := by
  unfold Dat.leavesExact; rw [after2_4]; try rfl

/-! ## The invariant's equations -/

/-- The region's entry invariant with the scratch split off the other scoped buffers and owned, as a whole buffer, at
    some contents. -/
theorem PhiA2_eq (c : Dev nD) :
    (Pipeline.ΦA spec2 c : sProp 𝕄)
      = iprop(iprop(iprop((∃ d, owns (c : Thread nD τ) (Memref.whole cc2_scratch0 : Memref sig .tc .vmem S1024x1024 .f32) fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [owns_whole]; try rfl

theorem PhiS2_zero (c : Dev nD) (n : ℕ) (h : n ≤ cfg2.N) (hz : n = 0) : PhiS2 V c n h = Pipeline.ΦA spec2 c := by
  subst hz; rfl

/-- After point `n`: the scratch at that point's running sum. -/
theorem PhiS2_succ (c : Dev nD) (n : ℕ) (hn : n < cfg2.N) :
    PhiS2 V c (n + 1) hn = iprop(owns (c : Thread nD τ) (Memref.whole cc2_scratch0 : Memref sig .tc .vmem S1024x1024 .f32) fullShare (acc2 V c n hn) ∗ Pipeline.scopedRestBut (Ix := Unit) (Name := ℕ) (U := UR sig nD τ) (Lvl := ℕ) (Val := Elt F) spec2 c [cc2_scratch0] ∗ (∃ r, prngReg c r)) := rfl

/-- Before a point that is not the first: the scratch at the running sum the point before left. -/
theorem PhiS2_pos (c : Dev nD) (n : ℕ) (h : n ≤ cfg2.N) (hz : n ≠ 0) :
    PhiS2 V c n h = iprop(owns (c : Thread nD τ) (Memref.whole cc2_scratch0 : Memref sig .tc .vmem S1024x1024 .f32) fullShare (acc2 V c (n - 1) (by omega)) ∗ Pipeline.scopedRestBut (Ix := Unit) (Name := ℕ) (U := UR sig nD τ) (Lvl := ℕ) (Val := Elt F) spec2 c [cc2_scratch0] ∗ (∃ r, prngReg c r)) := by
  cases n with
  | zero => exact absurd rfl hz
  | succ n => rfl

theorem Phi2_castSucc (c : Dev nD) (t : Fin cfg2.N) :
    (dat2 V c).Φ t.castSucc = PhiS2 V c t.val (Nat.le_of_lt t.isLt) := by
  dsimp only [dat2]; simp only [Fin.coe_castSucc]

theorem Phi2_succ (c : Dev nD) (t : Fin cfg2.N) :
    (dat2 V c).Φ t.succ = PhiS2 V c (t.val + 1) t.isLt := by
  dsimp only [dat2]; simp only [Fin.val_succ]

/-! ## The body obligation, at a generic point -/

/-- What the body is called with at point `t`: the invariant, the core's (empty) debts, each window's current buffer
    at what it then holds; -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The five inputs' buffers hold their blocks; the contraction coordinate (the point's number
    mod 16) says which of the three cases runs. The scratch comes in at the sum the point before left (at anything at
    the very first point; at a first contraction step its contents do not matter) and goes out at this point's sum;
    the output's buffer is stored only at the last contraction step, with the epilogue of the completed sum, and is
    otherwise handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [Phi2_succ, PhiS2_succ, Phi2_castSucc]
  rw [leaves2_0, leaves2_1, leaves2_2, leaves2_3, leaves2_4]
  have hN : t.val < 1024 := lt_of_lt_of_eq t.isLt (show cfg2.N = 1024 from N_2)
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_first V c t h0]
    by_cases hz : t.val = 0
    · rw [PhiS2_zero V c _ _ hz, PhiA2_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_pos V c _ _ hz]
      iintro ⟨⟨HS0, Hr, Hg⟩, Ho, ⟨%d0, H0⟩, ⟨%d1, H1⟩, ⟨%d2, H2⟩, ⟨%d3, H3⟩, ⟨%d4, H4⟩, ⟨%d5, H5⟩⟩
      iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond2_0 (grid2.coords t) := fun h => h0 ((hcond2_0 t).mp h)
    rw [PhiS2_pos V c _ _ hz, acc2_next V c t h0]
    by_cases h1 : t.val % 16 = 15
    · have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      unfold out2
      rw [acc2_next V c t h0]
      iintro ⟨⟨HS0, Hr, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ hc0 hc1 (iblk2 V c 0 t) (iblk2 V c 1 t) (iblk2 V c 2 t) (iblk2 V c 3 t) (iblk2 V c 4 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨HS0, Hr, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · isplitl [HS0]; · iexact HS0
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The region's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from by dsimp only [dat2]; rfl, PhiS2_zero V c 0 _ rfl]
  try exact Idealize.SL.BI.Entails.refl _

/-- After any point but the first the invariant gives the entry invariant back: the scratch's contents are forgotten. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from by dsimp only [dat2], PhiS2_pos V c _ _ ht, PhiA2_eq]
  iintro ⟨HS0, Hr, Hg⟩
  isplitl [HS0 Hr]
  · isplitl [HS0]; · iexists _; iexact HS0
    iexact Hr
  iexact Hg

/-- The same after the last point. -/
theorem hout2 (c : Dev nD) : (dat2 V c).Φ (Fin.last cfg2.N) ⊢ Pipeline.ΦA spec2 c :=
  Phi2_out V c _ (by rw [Fin.val_last]; have : cfg2.N = 1024 := N_2; omega)

end Cert.Kernel.Hand

end
-- ==== Proof.K.Body3.lean ====
/- Region 3 is a row-wise normalisation: at each of the grid's 64 points it takes one block of 128 rows of 8192 numbers,
   subtracts each row's mean, divides by the square root of the row's variance plus a small constant, multiplies by the
   scale row, adds the shift row and rounds to sixteen bits. Here it is shown that the body, run at any point on the
   staging buffers the pipeline hands it, leaves what the proof data say: the three input buffers as they were, each
   at its array's block, and the output buffer at the normalised rows of those blocks. -/
import proofs.«168041_j41042707481000_1_alg».proof.Proof.K.Dats
import proofs.«168041_j41042707481000_1_alg».proof.Proof.Gen.Kernel.Launch
import proofs.«168041_j41042707481000_1_alg».proof.Proof.Gen.Kernel.Skeleton
import proofs.«168041_j41042707481000_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading and writing a whole buffer

Every access of the body goes through the rectangle that starts at the origin and has the buffer's own extents. -/

/-- The origin of a two-axis shape, as the constant function. -/
theorem origin2_r3 : (![0, 0] : Fin 2 → Nat) = fun _ => 0 := funext fun a => by fin_cases a <;> rfl

/-- One piece on the whole-buffer rectangle covers every index. -/
theorem whole_covers_r3 (p : Vec F S128x8192 .bf16) (y : S128x8192.Idx) :
    ∃ pc ∈ ([⟨Rect.unit (s := S128x8192) ![0, 0] S128x8192.size inb_S128x8192_S128x8192_0_0, p⟩] :
      List (View.Piece (Elt F) S128x8192 .bf16)), y ∈ pc.1.set :=
  View.cover_of_tiled _ S128x8192.size (by rfl) y

/-! ## The body on four whole buffers -/

set_option maxHeartbeats 1000000 in
/-- Run on whole buffers holding the rows `x`, the scale `g`, the shift `b` and anything in the fourth, the body reads
    the first three, reads the fourth without using it, and overwrites the fourth with the normalised rows
    `k3_pay1 x g b`; the first three are unchanged. -/
theorem rows_normalised3 (c : Dev nD) (E : Set ℕ) (i : grid3.Coords)
    (a1 : Memref sig .tc .vmem S128x8192 .f32) (h1 : a1.IsWhole)
    (a2 : Memref sig .tc .vmem S1x8192 .f32) (h2 : a2.IsWhole)
    (a3 : Memref sig .tc .vmem S1x8192 .f32) (h3 : a3.IsWhole)
    (a4 : Memref sig .tc .vmem S128x8192 .bf16) (h4 : a4.IsWhole)
    (x : Vec F S128x8192 .f32) (g b : Vec F S1x8192 .f32) (K : PUnit → sProp 𝕄) :
    iprop(owns (c : Thread nD τ) a1 fullShare x ∗ owns (c : Thread nD τ) a2 fullShare g ∗ owns (c : Thread nD τ) a3 fullShare b
        ∗ (∃ d, owns (c : Thread nD τ) a4 fullShare d)
        ∗ (iprop(owns (c : Thread nD τ) a1 fullShare x ∗ owns (c : Thread nD τ) a2 fullShare g ∗ owns (c : Thread nD τ) a3 fullShare b
            ∗ owns (c : Thread nD τ) a4 fullShare (k3_pay1 x g b)) -∗ K ⟨⟩))
      ⊢ wp frame (wpE (defs₀ (F := F)) Variants.none c none) E (cc3__ln_kernel i a1 h1 a2 h2 a3 h3 a4 h4) K := by
  simp only [cc3__ln_kernel_eq_skeleton]; unfold cc3__ln_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- what one covering store leaves is its payload, and a load through the whole rectangle reads the contents
  rw [View.read_writes_eq_canon _ _ _ (whole_covers_r3 _), View.canon_unit_zero origin2_r3]
  simp only [View.readAt_eq_ld, Rect.toLoadRect]
  rw [View.ld_unit_zero (S := S128x8192) origin2_r3, View.ld_unit_zero (S := S1x8192) origin2_r3,
    View.ld_unit_zero (S := S1x8192) origin2_r3]

/-! ## What the buffers hold when the body is called

The rows' block is fetched at every point. The scale and the shift are fetched at the first point only; their block
index is the same at every point, and the body leaves their buffers alone, so they too hold their block throughout. -/

/-- The proof data's arrays are the arrays as the region finds them. -/
theorem arr3 (c : Dev nD) (w : Fin cfg3.W) : (dat3 V c).A w = V c (Pipeline.arrRef spec3 w) := by
  dsimp only [dat3]

/-- What the body leaves, window by window. -/
theorem left3_0 (c : Dev nD) (t : Fin cfg3.N) : (dat3 V c).after 0 t = iblk3 V c 0 t := by dsimp only [dat3]
theorem left3_1 (c : Dev nD) (t : Fin cfg3.N) : (dat3 V c).after 1 t = iblk3 V c 1 t := by dsimp only [dat3]
theorem left3_2 (c : Dev nD) (t : Fin cfg3.N) : (dat3 V c).after 2 t = iblk3 V c 2 t := by dsimp only [dat3]
theorem left3_3 (c : Dev nD) (t : Fin cfg3.N) :
    (dat3 V c).after 3 t = k3_pay1 (iblk3 V c 0 t) (iblk3 V c 1 t) (iblk3 V c 2 t) := by dsimp only [dat3]

/-- The rows' buffer holds the rows' block. -/
theorem held3_0 (c : Dev nD) (t : Fin cfg3.N) (d) : (dat3 V c).before 0 t d = iblk3 V c 0 t := by
  refine ((dat3 V c).before_in_eq_fetched 0 rfl (fun _ => rfl) (fun _ _ _ => rfl) (fun s => ?_) t d).trans ?_
  · rw [left3_0]; unfold Dat.blockOf iblk3; rw [arr3]
  · unfold Dat.fetched Dat.blockOf iblk3; rw [arr3]; rfl

/-- The scale's buffer holds the scale row, at the first point and at every later one. -/
theorem held3_1 (c : Dev nD) (t : Fin cfg3.N) (d) : (dat3 V c).before 1 t d = iblk3 V c 1 t := by
  refine ((dat3 V c).before_in_eq_fetched 1 rfl (fun _ => rfl) (fun _ _ _ => rfl) (fun s => ?_) t d).trans ?_
  · rw [left3_1]; unfold Dat.blockOf iblk3; rw [arr3]
  · unfold Dat.fetched Dat.blockOf iblk3; rw [arr3]; rfl

/-- The shift's buffer holds the shift row, likewise. -/
theorem held3_2 (c : Dev nD) (t : Fin cfg3.N) (d) : (dat3 V c).before 2 t d = iblk3 V c 2 t := by
  refine ((dat3 V c).before_in_eq_fetched 2 rfl (fun _ => rfl) (fun _ _ _ => rfl) (fun s => ?_) t d).trans ?_
  · rw [left3_2]; unfold Dat.blockOf iblk3; rw [arr3]
  · unfold Dat.fetched Dat.blockOf iblk3; rw [arr3]; rfl

/-! ## The body at a grid point -/

/-- At any point, from the region's invariant, the core's debt and the four current buffers at what they then hold,
    the body runs to the same invariant and debt, the three inputs' buffers at their blocks and the output's at the
    normalised rows of those blocks. The invariant and the debt are not touched. -/
theorem point3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t))) := by
  simp only [held3_0, held3_1, held3_2]
  rw [show (dat3 V c).Φ t.succ = (dat3 V c).Φ t.castSucc from rfl,
    show (dat3 V c).owesAt () t.succ = (dat3 V c).owesAt () t.castSucc from rfl,
    left3_0, left3_1, left3_2, left3_3]
  iintro ⟨HΦ, Ho, ⟨%d0, H0⟩, ⟨%d1, H1⟩, ⟨%d2, H2⟩, ⟨%d3, H3⟩⟩
  iapply (rows_normalised3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 3: the point lemma at every point, the four windows written out. -/
theorem body_obligation3 (c : Dev nD) :
    BodyObligation (dat3 (F := F) V c) (defs₀ (F := F)) Variants.none () Set.univ := fun t => by
  rw [bigSep_W3, bigSep_W3]
  exact point3 V c t

end Cert.Kernel.Hand

end
-- ==== Proof.K.Body4.lean ====
/- Region 4 is the head's matrix product: x2 · soft_bin(W3), scaled and shifted. Its grid has 8 × 16 points with the
   contraction axis last, so the sixteen points of one block of 1024 output rows are consecutive. At each point the body
   takes a 1024 × 512 block of the left factor and a 512 × 10 block of the weights and adds their product to a running
   sum of 1024 × 10 numbers kept in a scratch buffer; at the first of the sixteen points it first sets the sum to zero,
   and at the last it stores the sum, times the scale row plus the shift row, into the output's block. Here it is shown
   that the body, run at any point on the staging buffers the pipeline hands it, leaves what the proof data say: the four
   input buffers as they were, each at its array's block; the scratch at the running sum; the output's buffer as found at
   every point but the last of a contraction, and there at the epilogue of the full sum. The region's invariant, which
   carries the scratch from point to point, starts from the plain one and ends in it. -/
import proofs.«168041_j41042707481000_1_alg».proof.Proof.K.Dats
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum's two equations -/

theorem acc4_first (c : Dev nD) (t : Fin cfg4.N) (h : t.val % 16 = 0) :
    acc4 V c t.val t.isLt = k4_pay2 (iblk4 V c 1 t) (iblk4 V c 0 t) (k4_pay1 (F := F)) := by
  obtain ⟨n, hn⟩ := t
  cases n with
  | zero => rfl
  | succ n => exact if_pos h

theorem acc4_next (c : Dev nD) (t : Fin cfg4.N) (h : t.val % 16 ≠ 0) :
    acc4 V c t.val t.isLt = k4_pay2 (iblk4 V c 1 t) (iblk4 V c 0 t)
      (acc4 V c (t.val - 1) (Nat.lt_of_le_of_lt (Nat.sub_le _ _) t.isLt)) := by
  obtain ⟨n, hn⟩ := t
  cases n with
  | zero => exact absurd (Nat.zero_mod _) h
  | succ n => exact if_neg h

/-! ## The two conditions of the body, in closed form over the grid -/

abbrev cond4_0 (i : grid4.Coords) : Prop :=
  (Scalar.cmpi .ne (Scalar.extui (Scalar.cmpi .eq (BitVec.ofNat 32 (i 1).val) 0#32)) 0#32) = 1#1

theorem hcond4_0 : ∀ t : Fin cfg4.N, cond4_0 (grid4.coords t) ↔ t.val % 16 = 0 :=
  (by decide +kernel : ∀ t : Fin grid4.N, cond4_0 (grid4.coords t) ↔ t.val % 16 = 0)

abbrev cond4_1 (i : grid4.Coords) : Prop := k4_cond2 i = 1#1

theorem hcond4_1 : ∀ t : Fin cfg4.N, cond4_1 (grid4.coords t) ↔ t.val % 16 = 15 :=
  (by decide +kernel : ∀ t : Fin grid4.N, cond4_1 (grid4.coords t) ↔ t.val % 16 = 15)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev scM4 : Memref sig .tc .vmem S1024x10 .f32 := Memref.whole cc4_scratch0

theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

/-- The origin of a two-axis shape, as the constant function. -/
theorem origin4 : (![0, 0] : Fin 2 → Nat) = fun _ => 0 := funext fun a => by fin_cases a <;> rfl

/-! ## The body on any whole buffers, case by case

Middle points of a contraction (neither the first nor the last step): the scratch holding `xs` ends at the
partial product added to `xs`; the output's buffer is not touched. -/
set_option maxHeartbeats 1000000 in
theorem run4_B (c : Dev nD) (i : grid4.Coords)
    (arg2 : Memref sig .tc .vmem S1024x512 .bf16) (harg2 : arg2.IsWhole)
    (arg3 : Memref sig .tc .vmem S512x10 .f32) (harg3 : arg3.IsWhole)
    (arg4 : Memref sig .tc .vmem S1x10 .f32) (harg4 : arg4.IsWhole)
    (arg5 : Memref sig .tc .vmem S1x10 .f32) (harg5 : arg5.IsWhole)
    (arg6 : Memref sig .tc .vmem S1024x10 .f32) (harg6 : arg6.IsWhole)
    (arg7 : Memref sig .tc .vmem S1024x10 .f32) (harg7 : arg7.IsWhole)
    (hc0 : ¬cond4_0 i) (hc1 : ¬cond4_1 i)
    (x0 : Vec F S1024x512 .bf16) (x1 : Vec F S512x10 .f32) (x2 x3 : Vec F S1x10 .f32) (xi4 xs : Vec F S1024x10 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k4_pay2 x1 x0 xs)) -∗ K ⟨⟩))
      ⊢ wp frame (wpE (defs₀ (F := F)) Variants.none c none) E (cc4__mm3_kernel i arg2 harg2 arg3 harg3 arg4 harg4 arg5 harg5 arg6 harg6 arg7 harg7) K := by
  simp only [cc4__mm3_kernel_eq_skeleton]; unfold cc4__mm3_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_singleton_self _, View.mem_set_unit_zero origin4 inb_S1024x10_S1024x10_0_0 y⟩),
    View.canon_unit_zero origin4]
  simp only [View.readAt_eq_ld, harg2.read_unread, harg3.read_unread, harg7.read_unread,
    View.ld_unit_zero (S := S512x10) origin4, View.ld_unit_zero (S := S1024x512) origin4, View.ld_unit_zero (S := S1024x10) origin4]

/-! First point of a contraction: the scratch, at anything, is zeroed, then holds the first partial product. -/
set_option maxHeartbeats 1000000 in
theorem run4_A (c : Dev nD) (i : grid4.Coords)
    (arg2 : Memref sig .tc .vmem S1024x512 .bf16) (harg2 : arg2.IsWhole)
    (arg3 : Memref sig .tc .vmem S512x10 .f32) (harg3 : arg3.IsWhole)
    (arg4 : Memref sig .tc .vmem S1x10 .f32) (harg4 : arg4.IsWhole)
    (arg5 : Memref sig .tc .vmem S1x10 .f32) (harg5 : arg5.IsWhole)
    (arg6 : Memref sig .tc .vmem S1024x10 .f32) (harg6 : arg6.IsWhole)
    (arg7 : Memref sig .tc .vmem S1024x10 .f32) (harg7 : arg7.IsWhole)
    (hc0 : cond4_0 i) (hc1 : ¬cond4_1 i)
    (x0 : Vec F S1024x512 .bf16) (x1 : Vec F S512x10 .f32) (x2 x3 : Vec F S1x10 .f32) (xi4 : Vec F S1024x10 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k4_pay2 x1 x0 (k4_pay1 (F := F)))) -∗ K ⟨⟩))
      ⊢ wp frame (wpE (defs₀ (F := F)) Variants.none c none) E (cc4__mm3_kernel i arg2 harg2 arg3 harg3 arg4 harg4 arg5 harg5 arg6 harg6 arg7 harg7) K := by
  simp only [cc4__mm3_kernel_eq_skeleton]; unfold cc4__mm3_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_cons_self, View.mem_set_unit_zero origin4 inb_S1024x10_S1024x10_0_0 y⟩)]
  sl_unfold_words
  rw [View.canon_cons_unit_zero (S := S1024x10) origin4]
  simp only [View.readAt_eq_ld, harg2.read_unread, harg3.read_unread, View.readCov_unit_zero (S := S1024x10) _ origin4,
    View.ld_unit_zero (S := S512x10) origin4, View.ld_unit_zero (S := S1024x512) origin4]

/-! Last point of a contraction: the scratch ends at the full sum; the output's buffer, at anything, at its epilogue. -/
set_option maxHeartbeats 1000000 in
theorem run4_C (c : Dev nD) (i : grid4.Coords)
    (arg2 : Memref sig .tc .vmem S1024x512 .bf16) (harg2 : arg2.IsWhole)
    (arg3 : Memref sig .tc .vmem S512x10 .f32) (harg3 : arg3.IsWhole)
    (arg4 : Memref sig .tc .vmem S1x10 .f32) (harg4 : arg4.IsWhole)
    (arg5 : Memref sig .tc .vmem S1x10 .f32) (harg5 : arg5.IsWhole)
    (arg6 : Memref sig .tc .vmem S1024x10 .f32) (harg6 : arg6.IsWhole)
    (arg7 : Memref sig .tc .vmem S1024x10 .f32) (harg7 : arg7.IsWhole)
    (hc0 : ¬cond4_0 i) (hc1 : cond4_1 i)
    (x0 : Vec F S1024x512 .bf16) (x1 : Vec F S512x10 .f32) (x2 x3 : Vec F S1x10 .f32) (xs : Vec F S1024x10 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k4_pay3 (k4_pay2 x1 x0 xs) x2 x3)
            ∗ owns (c : Thread nD τ) arg7 fullShare (k4_pay2 x1 x0 xs)) -∗ K ⟨⟩))
      ⊢ wp frame (wpE (defs₀ (F := F)) Variants.none c none) E (cc4__mm3_kernel i arg2 harg2 arg3 harg3 arg4 harg4 arg5 harg5 arg6 harg6 arg7 harg7) K := by
  simp only [cc4__mm3_kernel_eq_skeleton]; unfold cc4__mm3_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero origin4 inb_S1024x10_S1024x10_0_0 y⟩)]
    sl_unfold_words
    rw [View.canon_unit_zero (S := S1024x10) origin4, View.readCov_unit_zero (S := S1024x10) _ origin4]
    simp only [View.readAt_eq_ld, harg2.read_unread, harg3.read_unread, harg4.read_unread, harg5.read_unread, harg7.read_unread,
      View.ld_unit_zero (S := S512x10) origin4, View.ld_unit_zero (S := S1024x512) origin4, View.ld_unit_zero (S := S1024x10) origin4,
      View.ld_unit_zero (S := S1x10) origin4]
  iexists _; isplitr
  swap; · iexact HS
  ipureintro
  sl_unfold_words
  rw [View.read_writes_eq_canon _ _ _ (fun y => ⟨_, List.mem_singleton_self _, View.mem_set_unit_zero origin4 inb_S1024x10_S1024x10_0_0 y⟩),
    View.canon_unit_zero (S := S1024x10) origin4]
  simp only [View.readAt_eq_ld, harg2.read_unread, harg3.read_unread, harg7.read_unread,
    View.ld_unit_zero (S := S512x10) origin4, View.ld_unit_zero (S := S1024x512) origin4, View.ld_unit_zero (S := S1024x10) origin4]

/-! ## What the staging buffers hold when the body is called

The two factors' blocks are fetched at every point. The scale and the shift are fetched at the region's first point
only; their block index never moves and the body leaves their buffers alone, so they too hold their block throughout. -/

/-- The proof data's arrays are the arrays as the region finds them. -/
theorem arr4 (c : Dev nD) (w : Fin cfg4.W) : (dat4 V c).A w = V c (Pipeline.arrRef spec4 w) := by
  dsimp only [dat4]

/-- What the body leaves, window by window. -/
theorem left4_0 (c : Dev nD) (t : Fin cfg4.N) : (dat4 V c).after 0 t = iblk4 V c 0 t := by dsimp only [dat4]
theorem left4_1 (c : Dev nD) (t : Fin cfg4.N) : (dat4 V c).after 1 t = iblk4 V c 1 t := by dsimp only [dat4]
theorem left4_2 (c : Dev nD) (t : Fin cfg4.N) : (dat4 V c).after 2 t = iblk4 V c 2 t := by dsimp only [dat4]
theorem left4_3 (c : Dev nD) (t : Fin cfg4.N) : (dat4 V c).after 3 t = iblk4 V c 3 t := by dsimp only [dat4]
theorem left4_4 (c : Dev nD) (t : Fin cfg4.N) : (dat4 V c).after 4 t = out4 V c t := by dsimp only [dat4]

/-- The left factor's buffer holds its block. -/
theorem held4_0 (c : Dev nD) (t : Fin cfg4.N) (d) : (dat4 V c).before 0 t d = iblk4 V c 0 t := by
  refine ((dat4 V c).before_in_eq_fetched 0 rfl (fun _ => rfl) (fun _ _ _ => rfl) (fun s => ?_) t d).trans ?_
  · rw [left4_0]; unfold Dat.blockOf iblk4; rw [arr4]
  · unfold Dat.fetched Dat.blockOf iblk4; rw [arr4]; rfl

/-- The weights' buffer holds their block. -/
theorem held4_1 (c : Dev nD) (t : Fin cfg4.N) (d) : (dat4 V c).before 1 t d = iblk4 V c 1 t := by
  refine ((dat4 V c).before_in_eq_fetched 1 rfl (fun _ => rfl) (fun _ _ _ => rfl) (fun s => ?_) t d).trans ?_
  · rw [left4_1]; unfold Dat.blockOf iblk4; rw [arr4]
  · unfold Dat.fetched Dat.blockOf iblk4; rw [arr4]; rfl

/-- The scale's buffer holds the scale row, at the first point and at every later one. -/
theorem held4_2 (c : Dev nD) (t : Fin cfg4.N) (d) : (dat4 V c).before 2 t d = iblk4 V c 2 t := by
  refine ((dat4 V c).before_in_eq_fetched 2 rfl (fun _ => rfl) (fun _ _ _ => rfl) (fun s => ?_) t d).trans ?_
  · rw [left4_2]; unfold Dat.blockOf iblk4; rw [arr4]
  · unfold Dat.fetched Dat.blockOf iblk4; rw [arr4]; rfl

/-- The shift's buffer holds the shift row, likewise. -/
theorem held4_3 (c : Dev nD) (t : Fin cfg4.N) (d) : (dat4 V c).before 3 t d = iblk4 V c 3 t := by
  refine ((dat4 V c).before_in_eq_fetched 3 rfl (fun _ => rfl) (fun _ _ _ => rfl) (fun s => ?_) t d).trans ?_
  · rw [left4_3]; unfold Dat.blockOf iblk4; rw [arr4]
  · unfold Dat.fetched Dat.blockOf iblk4; rw [arr4]; rfl

/-- What the obligation asks of each input's buffer after the body: its block, still. -/
theorem leaves4_0 (c : Dev nD) (t : Fin cfg4.N) :
    (dat4 V c).leavesExact 0 t = owns (c : Thread nD τ) (st4_0 t) fullShare (iblk4 V c 0 t) := by
  rw [show (dat4 V c).leavesExact 0 t = owns (c : Thread nD τ) (st4_0 t) fullShare ((dat4 V c).after 0 t) from by
    unfold Dat.leavesExact; rw [liveAt4_0 t], left4_0]
theorem leaves4_1 (c : Dev nD) (t : Fin cfg4.N) :
    (dat4 V c).leavesExact 1 t = owns (c : Thread nD τ) (st4_1 t) fullShare (iblk4 V c 1 t) := by
  rw [show (dat4 V c).leavesExact 1 t = owns (c : Thread nD τ) (st4_1 t) fullShare ((dat4 V c).after 1 t) from by
    unfold Dat.leavesExact; rw [liveAt4_1 t], left4_1]
theorem leaves4_2 (c : Dev nD) (t : Fin cfg4.N) :
    (dat4 V c).leavesExact 2 t = owns (c : Thread nD τ) (st4_2 t) fullShare (iblk4 V c 2 t) := by
  rw [show (dat4 V c).leavesExact 2 t = owns (c : Thread nD τ) (st4_2 t) fullShare ((dat4 V c).after 2 t) from by
    unfold Dat.leavesExact; rw [liveAt4_2 t], left4_2]
theorem leaves4_3 (c : Dev nD) (t : Fin cfg4.N) :
    (dat4 V c).leavesExact 3 t = owns (c : Thread nD τ) (st4_3 t) fullShare (iblk4 V c 3 t) := by
  rw [show (dat4 V c).leavesExact 3 t = owns (c : Thread nD τ) (st4_3 t) fullShare ((dat4 V c).after 3 t) from by
    unfold Dat.leavesExact; rw [liveAt4_3 t], left4_3]

/-- At the last point of a contraction the output's buffer is asked at the epilogue of the full sum. -/
theorem leaves4_4 (c : Dev nD) (t : Fin cfg4.N) (h : cond4_1 (grid4.coords t)) :
    (dat4 V c).leavesExact 4 t = owns (c : Thread nD τ) (st4_4 t) fullShare
      (k4_pay3 (acc4 V c t.val t.isLt) (iblk4 V c 2 t) (iblk4 V c 3 t)) := by
  rw [show (dat4 V c).leavesExact 4 t = owns (c : Thread nD τ) (st4_4 t) fullShare ((dat4 V c).after 4 t) from by
    unfold Dat.leavesExact; rw [liveAt4_4 t h], left4_4]
  rfl

/-! ## The invariant, position by position -/

theorem PhiS4_zero (c : Dev nD) (n : ℕ) (h : n ≤ cfg4.N) (hz : n = 0) : PhiS4 V c n h = Pipeline.ΦA spec4 c := by
  subst hz; rfl

/-- After point `n`: the scratch at that point's running sum. -/
theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

/-- Before a point that is not the first: the scratch at what the point before left. -/
theorem PhiS4_pos (c : Dev nD) (n : ℕ) (h : n ≤ cfg4.N) (hz : n ≠ 0) :
    PhiS4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

/-! ## The body at a grid point -/

set_option maxHeartbeats 4000000 in
/-- At any point, from the region's invariant, the core's debt and the five current buffers at what they then hold, the
    body runs to the invariant at the next position, the same debt, the four inputs' buffers at their blocks, and the
    output's buffer as the obligation asks it. Three cases by the point's place in its contraction. At the first point
    the scratch, holding anything (before the region's first point) or the previous contraction's sum, is zeroed and
    then holds the first partial product; at a middle point it holds the sum so far and the partial product is added;
    in both the output's buffer is handed back as found. At the last point the product is added and the output's
    buffer takes the epilogue of the full sum. The debt and the rest of the invariant are not touched. -/
theorem sound_body4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d)))
      ⊢ wp frame (wpE (defs₀ (F := F)) Variants.none c none) Set.univ (bodyAt4 t) (fun _ =>
          iprop((dat4 V c).Φ t.succ ∗ (dat4 V c).owesAt () t.succ
            ∗ (dat4 V c).leavesExact 0 t ∗ (dat4 V c).leavesExact 1 t ∗ (dat4 V c).leavesExact 2 t
            ∗ (dat4 V c).leavesExact 3 t ∗ (dat4 V c).leavesExact 4 t)) := by
  simp only [held4_0, held4_1, held4_2, held4_3]
  rw [show (dat4 V c).owesAt () t.succ = (dat4 V c).owesAt () t.castSucc from rfl,
    show (dat4 V c).Φ t.succ = PhiS4 V c (t.val + 1) t.isLt from rfl, PhiS4_succ,
    show (dat4 V c).Φ t.castSucc = PhiS4 V c t.val (Nat.le_of_lt t.isLt) from rfl,
    leaves4_0, leaves4_1, leaves4_2, leaves4_3]
  have hN : t.val < 128 := lt_of_lt_of_eq t.isLt (show cfg4.N = 128 from N_4)
  by_cases h0 : t.val % 16 = 0
  · have hc0 : cond4_0 (grid4.coords t) := (hcond4_0 t).mpr h0
    have hc1 : ¬cond4_1 (grid4.coords t) := fun h => by have := (hcond4_1 t).mp h; omega
    rw [Dat.leavesExact_idle (dat4 V c) 4 t (idleAt4_4 t hc1) (noFlush4_4 t hc1), acc4_first V c t h0]
    by_cases hz : t.val = 0
    · rw [PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩⟩
      iapply (run4_A c (grid4.coords t) _ _ _ _ _ _ _ _ _ _ _ _ hc0 hc1 (iblk4 V c 0 t) (iblk4 V c 1 t) (iblk4 V c 2 t)
        (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS4_pos V c _ _ hz]
      iintro ⟨⟨HS, HR, Hg⟩, Ho, ⟨%d0, H0⟩, ⟨%d1, H1⟩, ⟨%d2, H2⟩, ⟨%d3, H3⟩, ⟨%d4, H4⟩⟩
      iapply (run4_A c (grid4.coords t) _ _ _ _ _ _ _ _ _ _ _ _ hc0 hc1 (iblk4 V c 0 t) (iblk4 V c 1 t) (iblk4 V c 2 t)
        (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond4_0 (grid4.coords t) := fun h => h0 ((hcond4_0 t).mp h)
    have hz : t.val ≠ 0 := fun e => h0 (by rw [e])
    rw [acc4_next V c t h0, PhiS4_pos V c _ _ hz]
    by_cases h1 : t.val % 16 = 15
    · have hc1 : cond4_1 (grid4.coords t) := (hcond4_1 t).mpr h1
      rw [leaves4_4 V c t hc1, acc4_next V c t h0]
      iintro ⟨⟨HS, HR, Hg⟩, Ho, ⟨%d0, H0⟩, ⟨%d1, H1⟩, ⟨%d2, H2⟩, ⟨%d3, H3⟩, ⟨%d4, H4⟩⟩
      iapply (run4_C c (grid4.coords t) _ _ _ _ _ _ _ _ _ _ _ _ hc0 hc1 (iblk4 V c 0 t) (iblk4 V c 1 t) (iblk4 V c 2 t)
        (iblk4 V c 3 t) (acc4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4 t hc1) (noFlush4_4 t hc1)]
      iintro ⟨⟨HS, HR, Hg⟩, Ho, ⟨%d0, H0⟩, ⟨%d1, H1⟩, ⟨%d2, H2⟩, ⟨%d3, H3⟩, ⟨%d4, H4⟩⟩
      iapply (run4_B c (grid4.coords t) _ _ _ _ _ _ _ _ _ _ _ _ hc0 hc1 (iblk4 V c 0 t) (iblk4 V c 1 t) (iblk4 V c 2 t)
        (iblk4 V c 3 t) ((dat4 V c).before 4 t d4) (acc4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The body obligation of region 4: the point lemma at every point, the five windows written out. -/
theorem body_obligation4 (c : Dev nD) :
    BodyObligation (dat4 (F := F) V c) (defs₀ (F := F)) Variants.none () Set.univ := fun t => by
  rw [bigSep_W4, bigSep_W4]
  exact sound_body4 V c t

/-! ## The invariant's two ends -/

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]

/-- After any point the invariant gives the plain one back: the scratch's named contents are forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS, HR, Hg⟩
  isplitl [HS HR]
  · isplitl [HS]
    · iexists _; iexact HS
    iexact HR
  iexact Hg

/-- The same after the last point. -/
theorem hout4 (c : Dev nD) : (dat4 (F := F) V c).Φ (Fin.last cfg4.N) ⊢ Pipeline.ΦA spec4 c :=
  Phi4_out V c _ (by rw [Fin.val_last]; have : cfg4.N = 128 := N_4; omega)

end Cert.Kernel.Hand

end
-- ==== Proof.Spec.lean ====
/- What both programs compute, as functions on extended-real arrays, index by index.
   A weight `w` is first pushed towards a two-valued weight: with `σ(w) = logistic(100·w / 0.075)`, the signed form
   is `0.05·w + 0.95·(2·σ(w) − 1)` and the unsigned form `0.05·w + 0.95·σ(w)` (the decimal constants are the f32
   words the programs print, kept as words and never evaluated). A layer is then a matrix product against the
   transformed weights, a per-column scale and shift, and for the first two layers a clamp below at zero; layers
   are joined by a row-wise normalisation `(x − mean) · rsqrt(var + ε) · g + b` over rows of length 8192, the
   second one applied to the clamped product PLUS its own input. -/
import Idealize.ShloMosaic.PureOps.Ideal
import Idealize.ShloMosaic.Lib.ValueIdx

noncomputable section

namespace Cert.Spec

open Idealize.ShloMosaic Idealize.ShloMosaic.ValueIdx

/-- An extended-real matrix of `r` rows and `q` columns. -/
abbrev Mat (r q : Nat) : Type := (⟨2, ![r, q]⟩ : Shape).Idx → EReal

/-- The steep sigmoid of a weight: the logistic function of `100·w / 0.075`. -/
def sig (w : EReal) : EReal :=
  Ideal.logistic (Ideal.div (w * Ideal.ofBits .f32 0x42C80000#32) (Ideal.ofBits .f32 0x3D99999A#32))

/-- A weight pushed towards `±1`: `0.05·w + 0.95·(2·σ(w) − 1)`. -/
def softSign (w : EReal) : EReal :=
  Ideal.ofBits .f32 0x3D4CCCCD#32 * w
    + Ideal.ofBits .f32 0x3F733333#32 * (sig w * Ideal.ofBits .f32 0x40000000#32 - Ideal.ofBits .f32 0x3F800000#32)

/-- A weight pushed towards `0` or `1`: `0.05·w + 0.95·σ(w)`. -/
def softBin (w : EReal) : EReal :=
  Ideal.ofBits .f32 0x3D4CCCCD#32 * w + Ideal.ofBits .f32 0x3F733333#32 * sig w

/-- Entry `(r, q)` of `x · f(W)`, scaled by `s q` and shifted by `b q`: the sum runs over the whole contraction axis. -/
def denseAt (f : EReal → EReal) {B K N : Nat} (x : Mat B K) (W : Mat K N) (s b : Mat 1 N) (r : Fin B) (q : Fin N) : EReal :=
  (∑ k : Fin K, x (ix2 r k) * f (W (ix2 k q))) * s (ix2 0 q) + b (ix2 0 q)

/-- The first layer: the signed weights, clamped below at zero. -/
def layer1 {B K N : Nat} (x : Mat B K) (W : Mat K N) (s b : Mat 1 N) : Mat B N :=
  fun i => max (denseAt softSign x W s b (i 0) (i 1)) (Ideal.ofBits .f32 0x00000000#32)

/-- The second layer: the unsigned weights, clamped below at zero, plus the layer's own input. -/
def layer2 {B N : Nat} (x : Mat B N) (W : Mat N N) (s b : Mat 1 N) : Mat B N :=
  fun i => max (denseAt softBin x W s b (i 0) (i 1)) (Ideal.ofBits .f32 0x00000000#32) + x i

/-- The head: the unsigned weights, no clamp. -/
def layer3 {B K N : Nat} (x : Mat B K) (W : Mat K N) (s b : Mat 1 N) : Mat B N :=
  fun i => denseAt softBin x W s b (i 0) (i 1)

/-- The mean of row `r`: its sum divided by the word of `8192`. -/
def rowMean {B N : Nat} (x : Mat B N) (r : Fin B) : EReal :=
  Ideal.div (∑ k : Fin N, x (ix2 r k)) (Ideal.ofBits .f32 0x46000000#32)

/-- The variance of row `r`: the mean of the squared deviations from the row's mean. -/
def rowVar {B N : Nat} (x : Mat B N) (r : Fin B) : EReal :=
  Ideal.div (∑ k : Fin N, (x (ix2 r k) - rowMean x r) * (x (ix2 r k) - rowMean x r)) (Ideal.ofBits .f32 0x46000000#32)

/-- Row-wise normalisation: `(x − mean) · rsqrt(var + ε) · g + b`, `ε` the word of `1e-12`. -/
def lnorm {B N : Nat} (x : Mat B N) (g b : Mat 1 N) : Mat B N :=
  fun i => (x i - rowMean x (i 0)) * Ideal.rsqrt (rowVar x (i 0) + Ideal.ofBits .f32 0x2B8CBCCC#32) * g (ix2 0 (i 1)) + b (ix2 0 (i 1))

/-- A vector of length `n` seen as a one-row matrix (what a reshape to `1 × n` holds). -/
def asRow {n : Nat} (v : (⟨1, ![n]⟩ : Shape).Idx → EReal) : Mat 1 n := fun i => v (ix1 (i 1))

/-- The whole network, from the fourteen argument arrays. -/
def net (x : Mat 8192 3072) (W1 : Mat 3072 8192) (b1 s1 g1 be1 : (⟨1, ![8192]⟩ : Shape).Idx → EReal)
    (W2 : Mat 8192 8192) (b2 s2 g2 be2 : (⟨1, ![8192]⟩ : Shape).Idx → EReal)
    (W3 : Mat 8192 10) (b3 s3 : (⟨1, ![10]⟩ : Shape).Idx → EReal) : Mat 8192 10 :=
  let x1 := lnorm (layer1 x W1 (asRow s1) (asRow b1)) (asRow g1) (asRow be1)
  let x2 := lnorm (layer2 x1 W2 (asRow s2) (asRow b2)) (asRow g2) (asRow be2)
  layer3 x2 W3 (asRow s3) (asRow b3)

end Cert.Spec

end
-- ==== Proof.Val.Iface.lean ====
/- What each of the five kernel regions leaves in its output array, as a function of the arrays the region finds, at the
   extended reals: the three matrix-product regions leave the specification's layers, the two normalisation regions the
   row-wise normalisation. The five equations are gathered as one hypothesis, so that the composition of the regions
   into the whole network and the proofs of the five equations do not depend on each other. -/
import proofs.«168041_j41042707481000_1_alg».proof.Proof.KI.Dats
import proofs.«168041_j41042707481000_1_alg».proof.Proof.Spec

noncomputable section

namespace Cert.KernelIdeal.Val

open Cert.KernelIdeal Cert.KernelIdeal.Gen Cert.KernelIdeal.Hand
open Idealize.ShloMosaic Idealize.ShloMosaic.TcCoe Idealize.SL.Sem

/-- The contents of a core's TensorCore buffers as a region finds them. -/
abbrev Ent : Type := (c : Dev nD) → (b : Ref sig .tc) → Buf (Elt Ideal) ((c : Thread nD τ).loc b)

/-- Region 0 leaves the first layer of its four arrays (input, weights, scale row, shift row). -/
def Leaves0 : Prop := ∀ (V : Ent) (c : Dev nD),
  ((dat0 (F := Ideal) V c).arrAt 4 cfg0.N : Buf (Elt Ideal) ((c : Thread nD τ).loc main_v2))
    = Cert.Spec.layer1 (V c main_arg0) (V c main_arg1) (V c main_v0) (V c main_v1)

/-- Region 1 leaves the row-wise normalisation of its first array with gain and shift rows. -/
def Leaves1 : Prop := ∀ (V : Ent) (c : Dev nD),
  ((dat1 (F := Ideal) V c).arrAt 3 cfg1.N : Buf (Elt Ideal) ((c : Thread nD τ).loc main_v5))
    = Cert.Spec.lnorm (V c main_v2) (V c main_v3) (V c main_v4)

/-- Region 2 leaves the second layer: the array read through two windows is both the product's input and the term added
    at the end. -/
def Leaves2 : Prop := ∀ (V : Ent) (c : Dev nD),
  ((dat2 (F := Ideal) V c).arrAt 5 cfg2.N : Buf (Elt Ideal) ((c : Thread nD τ).loc main_v8))
    = Cert.Spec.layer2 (V c main_v5) (V c main_arg6) (V c main_v6) (V c main_v7)

/-- Region 3 leaves the row-wise normalisation of its first array with gain and shift rows. -/
def Leaves3 : Prop := ∀ (V : Ent) (c : Dev nD),
  ((dat3 (F := Ideal) V c).arrAt 3 cfg3.N : Buf (Elt Ideal) ((c : Thread nD τ).loc main_v11))
    = Cert.Spec.lnorm (V c main_v8) (V c main_v9) (V c main_v10)

/-- Region 4 leaves the head layer of its four arrays. -/
def Leaves4 : Prop := ∀ (V : Ent) (c : Dev nD),
  ((dat4 (F := Ideal) V c).arrAt 4 cfg4.N : Buf (Elt Ideal) ((c : Thread nD τ).loc main_v14))
    = Cert.Spec.layer3 (V c main_v11) (V c main_arg11) (V c main_v12) (V c main_v13)

/-- The five equations together. -/
structure Values : Prop where
  kv0 : Leaves0
  kv1 : Leaves1
  kv2 : Leaves2
  kv3 : Leaves3
  kv4 : Leaves4

end Cert.KernelIdeal.Val

end
-- ==== Proof.Val.Net.lean ====
/- The five regions composed into the whole network, at the extended reals. Read backwards from the last region's
   output array: each region's output is the specification's layer (or row-wise normalisation) of the arrays the region
   finds; each of those arrays is either the previous region's output, an argument array nobody has written, or a
   vector argument reshaped to one row by the host stretch just before the region. Unfolding stage by stage down to the
   launch memory gives the specification's network of the fourteen argument arrays. -/
import proofs.«168041_j41042707481000_1_alg».proof.Proof.KI.Vals
import proofs.«168041_j41042707481000_1_alg».proof.Proof.Val.Iface
import proofs.«168041_j41042707481000_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-! ## A vector reshaped to one row -/

/-- A vector of \`n\` entries reshaped to \`1 × n\` is the vector seen as a row: entry \`(0, q)\` is the vector's entry \`q\`
    (both have row-major position \`q\`). -/
theorem cast_row_eq {n : ℕ} (v : (⟨1, ![n]⟩ : Shape).Idx → EReal) (h : (⟨1, ![n]⟩ : Shape).ShapeCasts ⟨2, ![1, n]⟩) :
    shapeCast ⟨2, ![1, n]⟩ v h = Cert.Spec.asRow v := by
  funext j
  refine shapeCast_apply v h j (ix1 (j 1)) ?_
  rw [Shape.rowMajor_val_two, Shape.rowMajor_val_one]
  have h0 : (j 0).val = 0 := by have := idx2_lt0 j; omega
  show (j 1).val = (j 0).val * n + (j 1).val
  rw [h0]; omega

section Stages

variable (m : (ℓ : Loc nD τ sig) → Buf (Elt Ideal) ℓ)

/-! ## A buffer nobody has written is as launched

One statement per stage, for any reference outside the host stretches' written lists and different from the regions'
output arrays so far. -/

theorem B1_keep (c : Dev nD) (r : Ref sig .tc) (h0 : r ∉ hostOps0_W) :
    B1 m c (Proc.devRef .tc r) = m ((c : Thread nD τ).loc r) :=
  (StableHlo.after_of_writes_sub hostOps0 _ hostOps0_writes (r := r) h0).trans rfl

theorem B2_keep (c : Dev nD) (r : Ref sig .tc) (h0 : r ∉ hostOps0_W) (o0 : r ≠ main_v2) :
    B2 m c (Proc.devRef .tc r) = m ((c : Thread nD τ).loc r) :=
  (B2_of_ne m c r o0).trans (B1_keep m c r h0)

theorem B3_keep (c : Dev nD) (r : Ref sig .tc) (h0 : r ∉ hostOps0_W) (o0 : r ≠ main_v2) (h1 : r ∉ hostOps1_W) :
    B3 m c (Proc.devRef .tc r) = m ((c : Thread nD τ).loc r) :=
  (StableHlo.after_of_writes_sub hostOps1 _ hostOps1_writes (r := r) h1).trans (B2_keep m c r h0 o0)

theorem B4_keep (c : Dev nD) (r : Ref sig .tc) (h0 : r ∉ hostOps0_W) (o0 : r ≠ main_v2) (h1 : r ∉ hostOps1_W)
    (o1 : r ≠ main_v5) : B4 m c (Proc.devRef .tc r) = m ((c : Thread nD τ).loc r) :=
  (B4_of_ne m c r o1).trans (B3_keep m c r h0 o0 h1)

theorem B5_keep (c : Dev nD) (r : Ref sig .tc) (h0 : r ∉ hostOps0_W) (o0 : r ≠ main_v2) (h1 : r ∉ hostOps1_W)
    (o1 : r ≠ main_v5) (h2 : r ∉ hostOps2_W) : B5 m c (Proc.devRef .tc r) = m ((c : Thread nD τ).loc r) :=
  (StableHlo.after_of_writes_sub hostOps2 _ hostOps2_writes (r := r) h2).trans (B4_keep m c r h0 o0 h1 o1)

theorem B6_keep (c : Dev nD) (r : Ref sig .tc) (h0 : r ∉ hostOps0_W) (o0 : r ≠ main_v2) (h1 : r ∉ hostOps1_W)
    (o1 : r ≠ main_v5) (h2 : r ∉ hostOps2_W) (o2 : r ≠ main_v8) :
    B6 m c (Proc.devRef .tc r) = m ((c : Thread nD τ).loc r) :=
  (B6_of_ne m c r o2).trans (B5_keep m c r h0 o0 h1 o1 h2)

theorem B7_keep (c : Dev nD) (r : Ref sig .tc) (h0 : r ∉ hostOps0_W) (o0 : r ≠ main_v2) (h1 : r ∉ hostOps1_W)
    (o1 : r ≠ main_v5) (h2 : r ∉ hostOps2_W) (o2 : r ≠ main_v8) (h3 : r ∉ hostOps3_W) :
    B7 m c (Proc.devRef .tc r) = m ((c : Thread nD τ).loc r) :=
  (StableHlo.after_of_writes_sub hostOps3 _ hostOps3_writes (r := r) h3).trans (B6_keep m c r h0 o0 h1 o1 h2 o2)

theorem B8_keep (c : Dev nD) (r : Ref sig .tc) (h0 : r ∉ hostOps0_W) (o0 : r ≠ main_v2) (h1 : r ∉ hostOps1_W)
    (o1 : r ≠ main_v5) (h2 : r ∉ hostOps2_W) (o2 : r ≠ main_v8) (h3 : r ∉ hostOps3_W) (o3 : r ≠ main_v11) :
    B8 m c (Proc.devRef .tc r) = m ((c : Thread nD τ).loc r) :=
  (B8_of_ne m c r o3).trans (B7_keep m c r h0 o0 h1 o1 h2 o2 h3)

theorem B9_keep (c : Dev nD) (r : Ref sig .tc) (h0 : r ∉ hostOps0_W) (o0 : r ≠ main_v2) (h1 : r ∉ hostOps1_W)
    (o1 : r ≠ main_v5) (h2 : r ∉ hostOps2_W) (o2 : r ≠ main_v8) (h3 : r ∉ hostOps3_W) (o3 : r ≠ main_v11)
    (h4 : r ∉ hostOps4_W) : B9 m c (Proc.devRef .tc r) = m ((c : Thread nD τ).loc r) :=
  (StableHlo.after_of_writes_sub hostOps4 _ hostOps4_writes (r := r) h4).trans (B8_keep m c r h0 o0 h1 o1 h2 o2 h3 o3)

/-! ## Region 0: the first layer -/

/-- The scale row region 0 finds: the argument vector \`s1\` as a row. -/
theorem E1_v0 (c : Dev nD) :
    E1 m c main_v0 = (Cert.Spec.asRow (m ((c : Thread nD τ).loc main_arg3)) : Cert.Spec.Mat 1 8192) := by
  show StableHlo.after hostOps0 _ (Proc.devRef .tc main_v0) = _
  after_results
  exact cast_row_eq _ _

/-- The shift row region 0 finds: the argument vector \`b1\` as a row. -/
theorem E1_v1 (c : Dev nD) :
    E1 m c main_v1 = (Cert.Spec.asRow (m ((c : Thread nD τ).loc main_arg2)) : Cert.Spec.Mat 1 8192) := by
  show StableHlo.after hostOps0 _ (Proc.devRef .tc main_v1) = _
  after_results
  exact cast_row_eq _ _

theorem E1_arg0 (c : Dev nD) : E1 m c main_arg0 = m ((c : Thread nD τ).loc main_arg0) :=
  B1_keep m c main_arg0 (by decide)

theorem E1_arg1 (c : Dev nD) : E1 m c main_arg1 = m ((c : Thread nD τ).loc main_arg1) :=
  B1_keep m c main_arg1 (by decide)

/-- Region 0 leaves the first layer of the launch memory's \`x\`, \`W1\`, \`s1\`, \`b1\`. -/
theorem out0 (hV : Values) (c : Dev nD) :
    B2 m c (Proc.devRef .tc main_v2)
      = (Cert.Spec.layer1 (m ((c : Thread nD τ).loc main_arg0)) (m ((c : Thread nD τ).loc main_arg1))
          (Cert.Spec.asRow (m ((c : Thread nD τ).loc main_arg3))) (Cert.Spec.asRow (m ((c : Thread nD τ).loc main_arg2)))
          : Cert.Spec.Mat 8192 8192) := by
  refine (B2_out m c).trans ((hV.kv0 (E1 m) c).trans ?_)
  rw [E1_v0 m c, E1_v1 m c, E1_arg0 m c, E1_arg1 m c]

/-! ## Region 1: the first normalisation -/

/-- The gain row region 1 finds: the argument vector \`g1\` as a row. -/
theorem E3_v3 (c : Dev nD) :
    E3 m c main_v3 = (Cert.Spec.asRow (m ((c : Thread nD τ).loc main_arg4)) : Cert.Spec.Mat 1 8192) := by
  show StableHlo.after hostOps1 _ (Proc.devRef .tc main_v3) = _
  after_results
  exact (cast_row_eq _ _).trans
    (congrArg (Cert.Spec.asRow (n := 8192)) (B2_keep m c main_arg4 (by decide) (by decide)))

/-- The shift row region 1 finds: the argument vector \`be1\` as a row. -/
theorem E3_v4 (c : Dev nD) :
    E3 m c main_v4 = (Cert.Spec.asRow (m ((c : Thread nD τ).loc main_arg5)) : Cert.Spec.Mat 1 8192) := by
  show StableHlo.after hostOps1 _ (Proc.devRef .tc main_v4) = _
  after_results
  exact (cast_row_eq _ _).trans
    (congrArg (Cert.Spec.asRow (n := 8192)) (B2_keep m c main_arg5 (by decide) (by decide)))

/-- The array region 1 normalises is region 0's output. -/
theorem E3_v2 (c : Dev nD) : E3 m c main_v2 = B2 m c (Proc.devRef .tc main_v2) :=
  StableHlo.after_of_writes_sub hostOps1 _ hostOps1_writes (r := main_v2) (by decide)

/-- Region 1 leaves the normalised first layer. -/
theorem out1 (hV : Values) (c : Dev nD) :
    B4 m c (Proc.devRef .tc main_v5)
      = (Cert.Spec.lnorm
          (Cert.Spec.layer1 (m ((c : Thread nD τ).loc main_arg0)) (m ((c : Thread nD τ).loc main_arg1))
            (Cert.Spec.asRow (m ((c : Thread nD τ).loc main_arg3))) (Cert.Spec.asRow (m ((c : Thread nD τ).loc main_arg2))))
          (Cert.Spec.asRow (m ((c : Thread nD τ).loc main_arg4))) (Cert.Spec.asRow (m ((c : Thread nD τ).loc main_arg5)))
          : Cert.Spec.Mat 8192 8192) := by
  refine (B4_out m c).trans ((hV.kv1 (E3 m) c).trans ?_)
  rw [E3_v2 m c, out0 m hV c, E3_v3 m c, E3_v4 m c]

/-! ## Region 2: the second layer -/

/-- The scale row region 2 finds: the argument vector \`s2\` as a row. -/
theorem E5_v6 (c : Dev nD) :
    E5 m c main_v6 = (Cert.Spec.asRow (m ((c : Thread nD τ).loc main_arg8)) : Cert.Spec.Mat 1 8192) := by
  show StableHlo.after hostOps2 _ (Proc.devRef .tc main_v6) = _
  after_results
  exact (cast_row_eq _ _).trans
    (congrArg (Cert.Spec.asRow (n := 8192)) (B4_keep m c main_arg8 (by decide) (by decide) (by decide) (by decide)))

/-- The shift row region 2 finds: the argument vector \`b2\` as a row. -/
theorem E5_v7 (c : Dev nD) :
    E5 m c main_v7 = (Cert.Spec.asRow (m ((c : Thread nD τ).loc main_arg7)) : Cert.Spec.Mat 1 8192) := by
  show StableHlo.after hostOps2 _ (Proc.devRef .tc main_v7) = _
  after_results
  exact (cast_row_eq _ _).trans
    (congrArg (Cert.Spec.asRow (n := 8192)) (B4_keep m c main_arg7 (by decide) (by decide) (by decide) (by decide)))

/-- The weights region 2 finds are the launch memory's \`W2\`. -/
theorem E5_arg6 (c : Dev nD) : E5 m c main_arg6 = m ((c : Thread nD τ).loc main_arg6) :=
  B5_keep m c main_arg6 (by decide) (by decide) (by decide) (by decide) (by decide)

/-- The array region 2 reads (as the product's input and as the term added) is region 1's output. -/
theorem E5_v5 (c : Dev nD) : E5 m c main_v5 = B4 m c (Proc.devRef .tc main_v5) :=
  StableHlo.after_of_writes_sub hostOps2 _ hostOps2_writes (r := main_v5) (by decide)

/-- Region 2 leaves the second layer of the normalised first layer. -/
theorem out2 (hV : Values) (c : Dev nD) :
    B6 m c (Proc.devRef .tc main_v8)
      = (Cert.Spec.layer2
          (Cert.Spec.lnorm
            (Cert.Spec.layer1 (m ((c : Thread nD τ).loc main_arg0)) (m ((c : Thread nD τ).loc main_arg1))
              (Cert.Spec.asRow (m ((c : Thread nD τ).loc main_arg3))) (Cert.Spec.asRow (m ((c : Thread nD τ).loc main_arg2))))
            (Cert.Spec.asRow (m ((c : Thread nD τ).loc main_arg4))) (Cert.Spec.asRow (m ((c : Thread nD τ).loc main_arg5))))
          (m ((c : Thread nD τ).loc main_arg6))
          (Cert.Spec.asRow (m ((c : Thread nD τ).loc main_arg8))) (Cert.Spec.asRow (m ((c : Thread nD τ).loc main_arg7)))
          : Cert.Spec.Mat 8192 8192) := by
  refine (B6_out m c).trans ((hV.kv2 (E5 m) c).trans ?_)
  rw [E5_v5 m c, out1 m hV c, E5_arg6 m c, E5_v6 m c, E5_v7 m c]

/-! ## Region 3: the second normalisation -/

/-- The gain row region 3 finds: the argument vector \`g2\` as a row. -/
theorem E7_v9 (c : Dev nD) :
    E7 m c main_v9 = (Cert.Spec.asRow (m ((c : Thread nD τ).loc main_arg9)) : Cert.Spec.Mat 1 8192) := by
  show StableHlo.after hostOps3 _ (Proc.devRef .tc main_v9) = _
  after_results
  exact (cast_row_eq _ _).trans
    (congrArg (Cert.Spec.asRow (n := 8192))
      (B6_keep m c main_arg9 (by decide) (by decide) (by decide) (by decide) (by decide) (by decide)))

/-- The shift row region 3 finds: the argument vector \`be2\` as a row. -/
theorem E7_v10 (c : Dev nD) :
    E7 m c main_v10 = (Cert.Spec.asRow (m ((c : Thread nD τ).loc main_arg10)) : Cert.Spec.Mat 1 8192) := by
  show StableHlo.after hostOps3 _ (Proc.devRef .tc main_v10) = _
  after_results
  exact (cast_row_eq _ _).trans
    (congrArg (Cert.Spec.asRow (n := 8192))
      (B6_keep m c main_arg10 (by decide) (by decide) (by decide) (by decide) (by decide) (by decide)))

/-- The array region 3 normalises is region 2's output. -/
theorem E7_v8 (c : Dev nD) : E7 m c main_v8 = B6 m c (Proc.devRef .tc main_v8) :=
  StableHlo.after_of_writes_sub hostOps3 _ hostOps3_writes (r := main_v8) (by decide)

/-- Region 3 leaves the normalised second layer. -/
theorem out3 (hV : Values) (c : Dev nD) :
    B8 m c (Proc.devRef .tc main_v11)
      = (Cert.Spec.lnorm
          (Cert.Spec.layer2
            (Cert.Spec.lnorm
              (Cert.Spec.layer1 (m ((c : Thread nD τ).loc main_arg0)) (m ((c : Thread nD τ).loc main_arg1))
                (Cert.Spec.asRow (m ((c : Thread nD τ).loc main_arg3))) (Cert.Spec.asRow (m ((c : Thread nD τ).loc main_arg2))))
              (Cert.Spec.asRow (m ((c : Thread nD τ).loc main_arg4))) (Cert.Spec.asRow (m ((c : Thread nD τ).loc main_arg5))))
            (m ((c : Thread nD τ).loc main_arg6))
            (Cert.Spec.asRow (m ((c : Thread nD τ).loc main_arg8))) (Cert.Spec.asRow (m ((c : Thread nD τ).loc main_arg7))))
          (Cert.Spec.asRow (m ((c : Thread nD τ).loc main_arg9))) (Cert.Spec.asRow (m ((c : Thread nD τ).loc main_arg10)))
          : Cert.Spec.Mat 8192 8192) := by
  refine (B8_out m c).trans ((hV.kv3 (E7 m) c).trans ?_)
  rw [E7_v8 m c, out2 m hV c, E7_v9 m c, E7_v10 m c]

/-! ## Region 4: the head -/

/-- The scale row region 4 finds: the argument vector \`s3\` as a row. -/
theorem E9_v12 (c : Dev nD) :
    E9 m c main_v12 = (Cert.Spec.asRow (m ((c : Thread nD τ).loc main_arg13)) : Cert.Spec.Mat 1 10) := by
  show StableHlo.after hostOps4 _ (Proc.devRef .tc main_v12) = _
  after_results
  exact (cast_row_eq _ _).trans
    (congrArg (Cert.Spec.asRow (n := 10))
      (B8_keep m c main_arg13 (by decide) (by decide) (by decide) (by decide) (by decide) (by decide) (by decide) (by decide)))

/-- The shift row region 4 finds: the argument vector \`b3\` as a row. -/
theorem E9_v13 (c : Dev nD) :
    E9 m c main_v13 = (Cert.Spec.asRow (m ((c : Thread nD τ).loc main_arg12)) : Cert.Spec.Mat 1 10) := by
  show StableHlo.after hostOps4 _ (Proc.devRef .tc main_v13) = _
  after_results
  exact (cast_row_eq _ _).trans
    (congrArg (Cert.Spec.asRow (n := 10))
      (B8_keep m c main_arg12 (by decide) (by decide) (by decide) (by decide) (by decide) (by decide) (by decide) (by decide)))

/-- The weights region 4 finds are the launch memory's \`W3\`. -/
theorem E9_arg11 (c : Dev nD) : E9 m c main_arg11 = m ((c : Thread nD τ).loc main_arg11) :=
  B9_keep m c main_arg11 (by decide) (by decide) (by decide) (by decide) (by decide) (by decide) (by decide) (by decide)
    (by decide)

/-- The array region 4 multiplies is region 3's output. -/
theorem E9_v11 (c : Dev nD) : E9 m c main_v11 = B8 m c (Proc.devRef .tc main_v11) :=
  StableHlo.after_of_writes_sub hostOps4 _ hostOps4_writes (r := main_v11) (by decide)

end Stages

/-! ## The whole network -/

/-- What the last region leaves in the result array is the specification's network of the fourteen argument arrays as
    launched. -/
theorem result_eq (hV : Values) (m : (ℓ : Loc nD τ sig) → Buf (Elt Ideal) ℓ) (c : Dev nD) :
    Hand.B10 m c (Proc.devRef .tc main_v14)
      = Cert.Spec.net (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) := by
  refine (B10_out m c).trans ((hV.kv4 (E9 m) c).trans ?_)
  rw [E9_v11 m c, out3 m hV c, E9_arg11 m c, E9_v12 m c, E9_v13 m c]
  rfl

end Cert.KernelIdeal.Val

end
-- ==== Proof.Val.BlockSum.lean ====
/- Summing a range of naturals block by block. A range of `b·(m+1)` terms is the range of the first `b·m` terms followed
   by one more block of `b` terms, the block's terms named by their position `k < b` inside it; so a sum that grows by one
   block per step reaches, after `m` steps, the sum over the first `b·m` terms. A sum over `Fin K` is the sum over the
   range `K` of the same terms continued by zero. Stated in any commutative additive monoid (the extended reals are one). -/
import Mathlib.Algebra.BigOperators.Fin
import Mathlib.Algebra.BigOperators.Group.Finset.Basic

namespace Cert.BlockSum

open Finset

variable {M : Type*} [AddCommMonoid M]

/-- One more block: the sum over the first `b·(m+1)` terms is the sum over the first `b·m` plus the sum of the next block,
    whose `k`-th term is term `b·m + k`. -/
theorem sum_range_block_succ (f : ℕ → M) (b m : ℕ) :
    ∑ k ∈ range (b * (m + 1)), f k = ∑ k ∈ range (b * m), f k + ∑ k : Fin b, f (b * m + k.val) := by
  rw [Nat.mul_succ, Finset.sum_range_add]
  exact congrArg (∑ k ∈ range (b * m), f k + ·) (Finset.sum_range fun x => f (b * m + x))

/-- The first block alone. -/
theorem sum_range_block_one (f : ℕ → M) (b : ℕ) :
    ∑ k ∈ range (b * (0 + 1)), f k = ∑ k : Fin b, f (b * 0 + k.val) := by
  rw [sum_range_block_succ, Nat.mul_zero, Finset.range_zero, Finset.sum_empty, zero_add]

/-- A sum over `Fin K` as a sum over the range `K`, for a function on the naturals that agrees with the terms below `K`. -/
theorem sum_fin_eq_range (K : ℕ) (g : Fin K → M) (f : ℕ → M) (h : ∀ k : Fin K, f k.val = g k) :
    ∑ k : Fin K, g k = ∑ k ∈ range K, f k := by
  rw [Finset.sum_range]
  exact Finset.sum_congr rfl fun k _ => (h k).symm

end Cert.BlockSum
-- ==== Proof.Val.KV0.lean ====
/- Region 0, the first matrix product: after all 384 grid points the output array is the specification's first layer
   `max((x · softSign(W)) · s + b, 0-word)` of the four arrays the region finds.

   The grid is 8 × 8 × 6, its points row-major with the contraction axis fastest: point `n` has block row `n / 48`,
   block column `n / 6 % 8` and contraction block `n % 6`.
   * A matrix is read at natural-number coordinates, zero outside its bounds (`atN`), so that every index fact is
     arithmetic on ℕ; the general term of the contraction for row `r` and column `c` is
     `term r c k = x(r, k) · softSign(W(k, c))`.
   * The payloads at an entry: the reset payload is `0`; one accumulate step at `(p, q)` is the old entry plus
     `∑ k < 512, xblk(p, k) · softSign(wblk(k, q))` (the block product into the zero splat is the bare sum, the
     narrowing casts are identities on extended reals); the epilogue is `max(acc · s(0, q) + b(0, q), 0-word)`.
   * The blocks at point `n`: the x-block's entry `(p, k)` is x at `(1024·(n/48) + p, 512·(n%6) + k)`, the W-block's entry
     `(k, q)` is W at `(512·(n%6) + k, 1024·(n/6%8) + q)`, the scale and shift blocks' entry `(0, q)` are s, b at
     `(0, 1024·(n/6%8) + q)`; the index maps are decided once over the 384 points.
   * The invariant, by induction on `n`: the accumulator after point `n` at `(p, q)` is
       `∑ k < 512·(n%6 + 1), term (1024·(n/48) + p) (1024·(n/6%8) + q) k`:
     where `n % 6 = 0` the sum restarts with the first block of 512 terms; otherwise `n / 48` and `n / 6 % 8` are those of
     `n − 1` and the range grows by one block of 512 terms.
   * Where `n % 6 = 5` the range is all of 3072, the sum over the range is the specification's sum over `Fin 3072`, and the
     written-back block's entry `(p, q)` is the first layer at `(1024·(n/48) + p, 1024·(n/6%8) + q)`.
   * Entry `(r, q)` of the output array lies in the block written back at point `48·(r/1024) + 6·(q/1024) + 5`; the blocks
     written back cover the array, so the array after the region is the first layer. -/
import proofs.«168041_j41042707481000_1_alg».proof.Proof.Val.Iface
import proofs.«168041_j41042707481000_1_alg».proof.Proof.Val.BlockSum
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

namespace Dense0

/-! ## The block product's operand indices -/

/-- The left operand's row is the output's row, whatever the contraction index. -/
theorem mm_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- The left operand's column is the contraction index. -/
theorem mm_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The right operand's row is the contraction index. -/
theorem mm_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- The right operand's column is the output's column. -/
theorem mm_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A block product into the zero splat, at an entry: the sum over the block's 512 contraction indices. -/
theorem mm_apply (l : FVec Ideal S1024x512 .bf16) (r : FVec Ideal S512x1024 .bf16) (p q : Fin 1024) :
    FloatOps.matmul dot_S1024x512_S512x1024_S1024x1024_1_0_0_1_n_n none l r (constant (F := Ideal) S1024x1024 .f32 0x00000000#32) (ix2 p q)
      = ∑ k : Fin 512, l (ix2 p k) * r (ix2 k q) := by
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact mm_lhs_0 _ _
    | ⟨1, _⟩ => exact (mm_lhs_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (mm_rhs_0 _ _).trans hk
    | ⟨1, _⟩ => exact mm_rhs_1 _ _)
  rw [el, er]

/-! ## The payloads at an entry -/

/-- One accumulate step at an entry: the old entry plus the block's 512 products of an input entry with a transformed weight. -/
theorem pay2_apply (w : FVec Ideal S512x1024 .f32) (x : FVec Ideal S1024x512 .f32) (a : FVec Ideal S1024x1024 .f32) (p q : Fin 1024) :
    k0_pay2 (F := Ideal) w x a (ix2 p q) = a (ix2 p q) + ∑ k : Fin 512, x (ix2 p k) * Cert.Spec.softSign (w (ix2 k q)) := by
  unfold k0_pay2
  simp only [shapeCast_self]
  rw [addf_apply]
  refine congrArg (a (ix2 p q) + ·) ?_
  refine (mm_apply _ _ p q).trans ?_
  rfl

/-- The reset payload is zero at every entry. -/
theorem pay1_apply (j : S1024x1024.Idx) : (k0_pay1 (F := Ideal)) j = 0 := by
  unfold k0_pay1
  simp only [shapeCast_self]
  exact Ideal.ofBits_zero_f32

/-- The epilogue at an entry: the accumulator scaled and shifted by the column's entries of the two rows, clamped below at the zero word. -/
theorem pay3_apply (a : FVec Ideal S1024x1024 .f32) (s b : FVec Ideal S1x1024 .f32) (p q : Fin 1024) :
    k0_pay3 (F := Ideal) a s b (ix2 p q) = max (a (ix2 p q) * s (ix2 0 q) + b (ix2 0 q)) (Ideal.ofBits .f32 0x00000000#32) := by
  unfold k0_pay3
  simp only [shapeCast_self]
  rw [maximumf_apply, addf_apply, mulf_apply]
  have hk : ∀ a : Fin S1x1024.rank, ((ix2 (0 : Fin 1) q : S1x1024.Idx) a).val
      = if S1x1024.size a = 1 then 0 else ((ix2 p q : S1024x1024.Idx) ⟨a.val + (S1024x1024.rank - S1x1024.rank), by have h2 : a.val < 2 := a.isLt; show a.val + (2 - 2) < 2; omega⟩).val := fun a => by
    match a with
    | ⟨0, _⟩ => rfl
    | ⟨1, _⟩ => rfl
  rw [broadcastTo_apply s _ (ix2 p q) (ix2 0 q) hk, broadcastTo_apply b _ (ix2 p q) (ix2 0 q) hk]
  rfl

/-! ## The blocks at a grid point -/

/-- A matrix read at natural-number coordinates, zero outside its bounds. -/
def atN {R C : ℕ} (A : Cert.Spec.Mat R C) (r k : ℕ) : EReal :=
  if h : r < R ∧ k < C then A (ix2 ⟨r, h.1⟩ ⟨k, h.2⟩) else 0

theorem atN_of_lt {R C : ℕ} (A : Cert.Spec.Mat R C) (r : Fin R) (k : Fin C) : atN A r.val k.val = A (ix2 r k) := by
  unfold atN
  rw [dif_pos ⟨r.isLt, k.isLt⟩]

/-- The printed index maps over the 384 grid points: point `t` has block row `t / 48`, block column `t / 6 % 8` and
    contraction block `t % 6`. -/
theorem idx_facts : ∀ t : Fin cfg0.N,
    win0_0.index t (0 : Fin 2) = t.val / 48 ∧ win0_0.index t (1 : Fin 2) = t.val % 6
    ∧ win0_1.index t (0 : Fin 2) = t.val % 6 ∧ win0_1.index t (1 : Fin 2) = t.val / 6 % 8
    ∧ win0_2.index t (0 : Fin 2) = 0 ∧ win0_2.index t (1 : Fin 2) = t.val / 6 % 8
    ∧ win0_3.index t (0 : Fin 2) = 0 ∧ win0_3.index t (1 : Fin 2) = t.val / 6 % 8
    ∧ win0_4.index t (0 : Fin 2) = t.val / 48 ∧ win0_4.index t (1 : Fin 2) = t.val / 6 % 8 :=
  (by decide +kernel : ∀ t : Fin grid0.N, _)

variable (V : (c : Dev nD) → (b : Ref sig .tc) → Buf (Elt Ideal) ((c : Thread nD τ).loc b))

/-- The input block at point `t`, entry `(p, k)`. -/
theorem xblk_apply (c : Dev nD) (t : Fin cfg0.N) (p : Fin 1024) (k : Fin 512) :
    (iblk0 (F := Ideal) V c 0 t : FVec Ideal S1024x512 .f32) (ix2 p k)
      = atN (V c main_arg0) (1024 * (t.val / 48) + p.val) (512 * (t.val % 6) + k.val) := by
  obtain ⟨e0, e1, -⟩ := idx_facts t
  have ht : t.val < 384 := t.isLt
  have hp := p.isLt
  have hk := k.isLt
  have hr : 1024 * (t.val / 48) + p.val < 8192 := by omega
  have hc : 512 * (t.val % 6) + k.val < 3072 := by omega
  refine Eq.trans ?_ (atN_of_lt (V c main_arg0) ⟨_, hr⟩ ⟨_, hc⟩).symm
  show V c main_arg0 (((cfg0.win 0).blk t).view.emb (ix2 p k)) = _
  refine congrArg (V c main_arg0) (funext fun a => Fin.ext ?_)
  match a with
  | ⟨0, _⟩ => show win0_0.index t (0 : Fin 2) * 1024 + 1 * p.val = 1024 * (t.val / 48) + p.val; omega
  | ⟨1, _⟩ => show win0_0.index t (1 : Fin 2) * 512 + 1 * k.val = 512 * (t.val % 6) + k.val; omega

/-- The weight block at point `t`, entry `(k, q)`. -/
theorem wblk_apply (c : Dev nD) (t : Fin cfg0.N) (k : Fin 512) (q : Fin 1024) :
    (iblk0 (F := Ideal) V c 1 t : FVec Ideal S512x1024 .f32) (ix2 k q)
      = atN (V c main_arg1) (512 * (t.val % 6) + k.val) (1024 * (t.val / 6 % 8) + q.val) := by
  obtain ⟨-, -, e2, e3, -⟩ := idx_facts t
  have ht : t.val < 384 := t.isLt
  have hq := q.isLt
  have hk := k.isLt
  have hr : 512 * (t.val % 6) + k.val < 3072 := by omega
  have hc : 1024 * (t.val / 6 % 8) + q.val < 8192 := by omega
  refine Eq.trans ?_ (atN_of_lt (V c main_arg1) ⟨_, hr⟩ ⟨_, hc⟩).symm
  show V c main_arg1 (((cfg0.win 1).blk t).view.emb (ix2 k q)) = _
  refine congrArg (V c main_arg1) (funext fun a => Fin.ext ?_)
  match a with
  | ⟨0, _⟩ => show win0_1.index t (0 : Fin 2) * 512 + 1 * k.val = 512 * (t.val % 6) + k.val; omega
  | ⟨1, _⟩ => show win0_1.index t (1 : Fin 2) * 1024 + 1 * q.val = 1024 * (t.val / 6 % 8) + q.val; omega

/-- The scale block at point `t`, entry `(0, q)`. -/
theorem sblk_apply (c : Dev nD) (t : Fin cfg0.N) (q : Fin 1024) :
    (iblk0 (F := Ideal) V c 2 t : FVec Ideal S1x1024 .f32) (ix2 0 q)
      = atN (V c main_v0) 0 (1024 * (t.val / 6 % 8) + q.val) := by
  obtain ⟨-, -, -, -, e4, e5, -⟩ := idx_facts t
  have ht : t.val < 384 := t.isLt
  have hq := q.isLt
  have hc : 1024 * (t.val / 6 % 8) + q.val < 8192 := by omega
  refine Eq.trans ?_ (atN_of_lt (V c main_v0) ⟨0, Nat.one_pos⟩ ⟨_, hc⟩).symm
  show V c main_v0 (((cfg0.win 2).blk t).view.emb (ix2 0 q)) = _
  refine congrArg (V c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 6 % 8) + q.val; omega

/-- The shift block at point `t`, entry `(0, q)`. -/
theorem bblk_apply (c : Dev nD) (t : Fin cfg0.N) (q : Fin 1024) :
    (iblk0 (F := Ideal) V c 3 t : FVec Ideal S1x1024 .f32) (ix2 0 q)
      = atN (V c main_v1) 0 (1024 * (t.val / 6 % 8) + q.val) := by
  obtain ⟨-, -, -, -, -, -, e6, e7, -⟩ := idx_facts t
  have ht : t.val < 384 := t.isLt
  have hq := q.isLt
  have hc : 1024 * (t.val / 6 % 8) + q.val < 8192 := by omega
  refine Eq.trans ?_ (atN_of_lt (V c main_v1) ⟨0, Nat.one_pos⟩ ⟨_, hc⟩).symm
  show V c main_v1 (((cfg0.win 3).blk t).view.emb (ix2 0 q)) = _
  refine congrArg (V c main_v1) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val / 6 % 8) + q.val; omega

/-! ## The accumulator across the contraction axis -/

/-- The general term of the contraction, at natural-number coordinates: the input entry `(r, k)` times the transformed
    weight entry `(k, c)`. -/
def term (x : Cert.Spec.Mat 8192 3072) (W : Cert.Spec.Mat 3072 8192) (r c k : ℕ) : EReal :=
  atN x r k * Cert.Spec.softSign (atN W k c)

/-- One accumulate step at point `t`, entry `(p, q)`: the old entry plus the terms of contraction block `t % 6`. -/
theorem step_apply (c : Dev nD) (t : Fin cfg0.N) (a : FVec Ideal S1024x1024 .f32) (p q : Fin 1024) :
    k0_pay2 (F := Ideal) (iblk0 V c 1 t) (iblk0 V c 0 t) a (ix2 p q)
      = a (ix2 p q) + ∑ k : Fin 512, term (V c main_arg0) (V c main_arg1) (1024 * (t.val / 48) + p.val) (1024 * (t.val / 6 % 8) + q.val) (512 * (t.val % 6) + k.val) := by
  refine (pay2_apply _ _ a p q).trans ?_
  refine congrArg (a (ix2 p q) + ·) (Finset.sum_congr rfl fun k _ => ?_)
  exact congrArg₂ (· * ·) (xblk_apply V c t p k) (congrArg Cert.Spec.softSign (wblk_apply V c t k q))

/-- THE INVARIANT: the accumulator after point `n`, at entry `(p, q)`, is the sum of the first `512·(n % 6 + 1)` terms of
    the contraction for row `1024·(n / 48) + p` and column `1024·(n / 6 % 8) + q`. -/
theorem acc0_apply (c : Dev nD) : ∀ (n : ℕ) (hn : n < cfg0.N) (p q : Fin 1024),
    acc0 (F := Ideal) V c n hn (ix2 p q)
      = ∑ k ∈ Finset.range (512 * (n % 6 + 1)),
          term (V c main_arg0) (V c main_arg1) (1024 * (n / 48) + p.val) (1024 * (n / 6 % 8) + q.val) k
  | 0, hn, p, q => by
    show k0_pay2 (F := Ideal) (iblk0 V c 1 ⟨0, hn⟩) (iblk0 V c 0 ⟨0, hn⟩) (k0_pay1 (F := Ideal)) (ix2 p q) = _
    refine (step_apply V c ⟨0, hn⟩ _ p q).trans ?_
    rw [pay1_apply, zero_add]
    exact (Cert.BlockSum.sum_range_block_one _ 512).symm
  | n + 1, hn, p, q => by
    have e : acc0 (F := Ideal) V c (n + 1) hn
        = if (n + 1) % 6 = 0 then k0_pay2 (iblk0 V c 1 ⟨n + 1, hn⟩) (iblk0 V c 0 ⟨n + 1, hn⟩) (k0_pay1 (F := Ideal))
          else k0_pay2 (iblk0 V c 1 ⟨n + 1, hn⟩) (iblk0 V c 0 ⟨n + 1, hn⟩) (acc0 V c n (Nat.lt_of_succ_lt hn)) := rfl
    by_cases h6 : (n + 1) % 6 = 0
    · rw [if_pos h6] at e
      refine (congrFun e (ix2 p q)).trans ?_
      refine (step_apply V c ⟨n + 1, hn⟩ _ p q).trans ?_
      rw [pay1_apply, zero_add]
      show ∑ k : Fin 512, term (V c main_arg0) (V c main_arg1) (1024 * ((n + 1) / 48) + p.val) (1024 * ((n + 1) / 6 % 8) + q.val) (512 * ((n + 1) % 6) + k.val) = _
      rw [h6]
      exact (Cert.BlockSum.sum_range_block_one _ 512).symm
    · rw [if_neg h6] at e
      refine (congrFun e (ix2 p q)).trans ?_
      refine (step_apply V c ⟨n + 1, hn⟩ _ p q).trans ?_
      rw [acc0_apply c n (Nat.lt_of_succ_lt hn) p q]
      have h1 : (n + 1) / 48 = n / 48 := by omega
      have h2 : (n + 1) / 6 % 8 = n / 6 % 8 := by omega
      have h3 : (n + 1) % 6 = n % 6 + 1 := by omega
      show _ + ∑ k : Fin 512, term (V c main_arg0) (V c main_arg1) (1024 * ((n + 1) / 48) + p.val) (1024 * ((n + 1) / 6 % 8) + q.val) (512 * ((n + 1) % 6) + k.val)
        = ∑ k ∈ Finset.range (512 * ((n + 1) % 6 + 1)), term (V c main_arg0) (V c main_arg1) (1024 * ((n + 1) / 48) + p.val) (1024 * ((n + 1) / 6 % 8) + q.val) k
      rw [h1, h2, h3]
      exact (Cert.BlockSum.sum_range_block_succ _ 512 (n % 6 + 1)).symm

/-! ## From the finished blocks to the array -/

/-- The whole contraction: over the range of all `3072` terms the sum is the specification's sum over `Fin 3072`. -/
theorem total_eq (x : Cert.Spec.Mat 8192 3072) (W : Cert.Spec.Mat 3072 8192) (r q : Fin 8192) :
    ∑ k ∈ Finset.range 3072, term x W r.val q.val k = ∑ k : Fin 3072, x (ix2 r k) * Cert.Spec.softSign (W (ix2 k q)) :=
  (Cert.BlockSum.sum_fin_eq_range 3072 _ _ fun k => by
    unfold term
    rw [atN_of_lt x r k, atN_of_lt W k q]).symm

/-- A finished block's entry is the first layer's entry: where the contraction block is the last one (`n % 6 = 5`) the
    accumulated range is all of `3072`, and the epilogue scales, shifts and clamps as the specification does. -/
theorem entry_eq (x : Cert.Spec.Mat 8192 3072) (W : Cert.Spec.Mat 3072 8192) (s b : Cert.Spec.Mat 1 8192)
    (n : ℕ) (h5 : n % 6 = 5) (p q : Fin 1024) (i : S8192x8192.Idx)
    (h0 : (i 0).val = 1024 * (n / 48) + p.val) (h1 : (i 1).val = 1024 * (n / 6 % 8) + q.val) :
    max ((∑ k ∈ Finset.range (512 * (n % 6 + 1)), term x W (1024 * (n / 48) + p.val) (1024 * (n / 6 % 8) + q.val) k)
          * atN s 0 (1024 * (n / 6 % 8) + q.val) + atN b 0 (1024 * (n / 6 % 8) + q.val)) (Ideal.ofBits .f32 0x00000000#32)
      = Cert.Spec.layer1 x W s b i := by
  rw [h5, ← h0, ← h1]
  show max ((∑ k ∈ Finset.range 3072, term x W (i 0).val (i 1).val k) * atN s (0 : Fin 1).val (i 1).val + atN b (0 : Fin 1).val (i 1).val) _ = _
  refine (congrArg₂ max (congrArg₂ (· + ·) (congrArg₂ (· * ·) (total_eq x W (i 0) (i 1)) (atN_of_lt s 0 (i 1))) (atN_of_lt b 0 (i 1))) rfl).trans ?_
  rfl

/-- WHAT A FINISHING POINT WRITES BACK is its block of the first layer of the four arrays the region finds. -/
theorem flushed_eq (c : Dev nD) (t : Fin cfg0.N) (hf : (cfg0.win 4).flush t = true) :
    (dat0 (F := Ideal) V c).flushed 4 t
      = ((cfg0.win 4).blk t).view.read (Elt Ideal) (Cert.Spec.layer1 (V c main_arg0) (V c main_arg1) (V c main_v0) (V c main_v1)) := by
  have h5 : t.val % 6 = 5 := (flush0_4 t).mp hf
  obtain ⟨-, -, -, -, -, -, -, -, e8, e9⟩ := idx_facts t
  refine funext fun (j : S1024x1024.Idx) => ?_
  obtain ⟨p, q, rfl⟩ : ∃ (p q : Fin 1024), j = ix2 p q := ⟨j 0, j 1, eq_ix2 j⟩
  show out0 (F := Ideal) V c t (ix2 p q)
    = Cert.Spec.layer1 (V c main_arg0) (V c main_arg1) (V c main_v0) (V c main_v1) (((cfg0.win 4).blk t).view.emb (ix2 p q))
  have h0 : ((((cfg0.win 4).blk t).view.emb (ix2 p q)) 0).val = 1024 * (t.val / 48) + p.val := by
    show win0_4.index t (0 : Fin 2) * 1024 + 1 * p.val = _; omega
  have h1 : ((((cfg0.win 4).blk t).view.emb (ix2 p q)) 1).val = 1024 * (t.val / 6 % 8) + q.val := by
    show win0_4.index t (1 : Fin 2) * 1024 + 1 * q.val = _; omega
  refine Eq.trans ?_ (entry_eq (V c main_arg0) (V c main_arg1) (V c main_v0) (V c main_v1) t.val h5 p q _ h0 h1)
  show k0_pay3 (F := Ideal) (acc0 V c t.val t.isLt) (iblk0 V c 2 t) (iblk0 V c 3 t) (ix2 p q) = _
  refine (pay3_apply _ _ _ p q).trans ?_
  rw [acc0_apply V c t.val t.isLt p q]
  exact congrArg₂ max (congrArg₂ (· + ·) (congrArg (_ * ·) (sblk_apply V c t q)) (bblk_apply V c t q)) rfl

/-- An index of the output array is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]
  exact Iff.rfl

/-- The output block's indices at point `n`. -/
theorem idx_out (n : ℕ) (hn : n < cfg0.N) :
    win0_4.index ⟨n, hn⟩ (0 : Fin 2) = n / 48 ∧ win0_4.index ⟨n, hn⟩ (1 : Fin 2) = n / 6 % 8 :=
  ⟨(idx_facts ⟨n, hn⟩).2.2.2.2.2.2.2.2.1, (idx_facts ⟨n, hn⟩).2.2.2.2.2.2.2.2.2⟩

/-- THE COVER: entry `(r, q)` of the output array lies in the block written back by the point
    `48·(r / 1024) + 6·(q / 1024) + 5`. -/
theorem cover (i : S8192x8192.Idx) :
    ∃ t : Fin cfg0.N, (cfg0.win 4).flush t = true ∧ i ∈ ((cfg0.win 4).blk t).view.set := by
  have h0 : (i 0).val < 8192 := (i 0).isLt
  have h1 : (i 1).val < 8192 := (i 1).isLt
  have ht : 48 * ((i 0).val / 1024) + 6 * ((i 1).val / 1024) + 5 < cfg0.N := by
    show _ < 384; omega
  obtain ⟨e0, e1⟩ := idx_out _ ht
  refine ⟨⟨_, ht⟩, (flush0_4 _).mpr (by show (48 * ((i 0).val / 1024) + 6 * ((i 1).val / 1024) + 5) % 6 = 5; omega), ?_⟩
  rw [mem_blk]
  intro a
  match a with
  | ⟨0, _⟩ =>
    show win0_4.index ⟨_, ht⟩ (0 : Fin 2) * 1024 ≤ (i 0).val ∧ (i 0).val < win0_4.index ⟨_, ht⟩ (0 : Fin 2) * 1024 + 1024
    rw [e0]; omega
  | ⟨1, _⟩ =>
    show win0_4.index ⟨_, ht⟩ (1 : Fin 2) * 1024 ≤ (i 1).val ∧ (i 1).val < win0_4.index ⟨_, ht⟩ (1 : Fin 2) * 1024 + 1024
    rw [e1]; omega

end Dense0

/-- Region 0 leaves the first layer of the four arrays it finds. -/
theorem kv0 : Leaves0 := fun V c =>
  (dat0 (F := Ideal) V c).arrAt_eq_of_cover 4
    (Cert.Spec.layer1 (V c main_arg0) (V c main_arg1) (V c main_v0) (V c main_v1))
    (fun t hf => Dense0.flushed_eq V c t hf) Dense0.cover

end Cert.KernelIdeal.Val

end
-- ==== Proof.Val.KV1.lean ====
/- Region 1 of the program: a row-wise normalisation. The grid has 64 points; point `t` reads the block of rows
   `128·t … 128·t + 127` (all 8192 lanes) of the input array and the whole gain and shift rows, and writes back the
   block of the same rows of the output array. A row's mean and variance read only that row, so the block that point
   `t` writes is the block of the normalisation of the WHOLE array; the 64 blocks cover the output array. -/
import proofs.«168041_j41042707481000_1_alg».proof.Proof.Val.Iface
import Idealize.ShloMosaic.PureOps.Ideal.Laws
import Idealize.ShloMosaic.Lib.ValueLayout
import Idealize.ShloMosaic.Lib.Pipeline.Value

noncomputable section
namespace Cert.KernelIdeal.Val
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

namespace Norm1

/-! ## Layout steps at an index -/

/-- A column of `a` entries repeated along `b` lanes reads, at `(p, q)`, the column's entry `p`. -/
theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of `a` entries seen as a column reads, at `(p, u)`, the vector's entry `p`. -/
theorem cast_col_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- The sum along the lanes of a block of 128 rows, at row `p`, is the sum of that row's 8192 entries. -/
theorem laneSum_apply (v : FVec Ideal S128x8192 .f32) (h : S128x8192.Reduces [1] S128) (hφ : FKind.Formats .f32)
    (hacc : (0x00000000#32 : BitVec 32) = FKind.add.neutral .f32 hφ) (p : Fin 128) :
    multiReduction .add [1] S128 v 0x00000000#32 h hφ hacc (ix1 p) = ∑ k : Fin 8192, v (ix2 p k) := by
  refine (Ideal.multiReduction_add_single v _ h hφ hacc (ix1 p)).trans ?_
  show ∑ k : Fin 8192, v (h.lift (ix1 p) k) = ∑ k : Fin 8192, v (ix2 p k)
  refine Finset.sum_congr rfl fun k _ => congrArg v ?_
  funext a
  apply Fin.ext
  match a with
  | ⟨0, _⟩ => rfl
  | ⟨1, _⟩ => rfl

/-! ## The body's arithmetic on one block of 128 rows

The body's payload is cut into the columns it builds on the way: the row sums, the row means, the deviations from the
mean, the row variances and the reciprocal roots. Each is read at an index against the specification's row functions. -/

/-- The column of row sums of a block: the lane sum, seen as a column. -/
def sumCol (v : FVec Ideal S128x8192 .f32) : FVec Ideal S128x1 .f32 :=
  shapeCast S128x1 (multiReduction (F := Ideal) .add [1] S128 v 0x00000000#32 reduces_S128x8192_S128 (.inl rfl) rfl) shapeCasts_S128_S128x1

/-- The column of row means: the row sums divided by the word of 8192. -/
def meanCol (v : FVec Ideal S128x8192 .f32) : FVec Ideal S128x1 .f32 :=
  divf (sumCol v) (broadcast S128x1 (Scalar.ofBits .f32 0x46000000#32))

/-- The deviations: every entry minus its row's mean. -/
def devs (v : FVec Ideal S128x8192 .f32) : FVec Ideal S128x8192 .f32 :=
  subf v (broadcastTo S128x8192 (meanCol v) broadcasts_S128x1_S128x8192)

/-- The column of row variances: the row sums of the squared deviations divided by the word of 8192. -/
def varCol (v : FVec Ideal S128x8192 .f32) : FVec Ideal S128x1 .f32 :=
  divf (sumCol (mulf (devs v) (devs v))) (broadcast S128x1 (Scalar.ofBits .f32 0x46000000#32))

/-- The column of reciprocal roots of variance plus ε. -/
def scaleCol (v : FVec Ideal S128x8192 .f32) : FVec Ideal S128x1 .f32 :=
  rsqrt (addf (varCol v) (broadcast S128x1 (Scalar.ofBits .f32 0x2B8CBCCC#32)))

/-- The payload is those columns put together: deviation times reciprocal root, times the gain row, plus the shift row
    (the layout casts of a shape to itself and the narrowing at the end are still in place). -/
theorem pay_cols (x : Vec Ideal S128x8192 .f32) (g b : Vec Ideal S1x8192 .f32) :
    k1_pay1 x g b
      = truncf .bf16 (addf (mulf (mulf (devs (shapeCast S128x8192 x shapeCasts_S128x8192_S128x8192))
            (broadcastTo S128x8192 (scaleCol (shapeCast S128x8192 x shapeCasts_S128x8192_S128x8192)) broadcasts_S128x1_S128x8192))
          (broadcastTo S128x8192 (shapeCast S1x8192 g shapeCasts_S1x8192_S1x8192) broadcasts_S1x8192_S128x8192))
        (broadcastTo S128x8192 (shapeCast S1x8192 b shapeCasts_S1x8192_S1x8192) broadcasts_S1x8192_S128x8192)) bitsLt_bf16_f32 := rfl

/-- A row sum, read in the column, is the sum of the row's 8192 entries. -/
theorem sumCol_apply (v : FVec Ideal S128x8192 .f32) (p : Fin 128) (u : Fin 1) :
    sumCol v (ix2 p u) = ∑ k : Fin 8192, v (ix2 p k) :=
  (cast_col_apply _ shapeCasts_S128_S128x1 p u).trans (laneSum_apply v reduces_S128x8192_S128 (.inl rfl) rfl p)

/-- The mean column holds the specification's row mean. -/
theorem meanCol_apply (v : FVec Ideal S128x8192 .f32) (p : Fin 128) (u : Fin 1) :
    meanCol v (ix2 p u) = Cert.Spec.rowMean (B := 128) (N := 8192) v p :=
  congrArg (fun s => Ideal.div s (Ideal.ofBits .f32 0x46000000#32)) (sumCol_apply v p u)

/-- A deviation is the entry minus the specification's row mean. -/
theorem devs_apply (v : FVec Ideal S128x8192 .f32) (p : Fin 128) (q : Fin 8192) :
    devs v (ix2 p q) = v (ix2 p q) - Cert.Spec.rowMean (B := 128) (N := 8192) v p :=
  congrArg (fun m => v (ix2 p q) - m)
    ((bcast_col_apply (meanCol v) broadcasts_S128x1_S128x8192 p q).trans (meanCol_apply v p 0))

/-- The variance column holds the specification's row variance. -/
theorem varCol_apply (v : FVec Ideal S128x8192 .f32) (p : Fin 128) (u : Fin 1) :
    varCol v (ix2 p u) = Cert.Spec.rowVar (B := 128) (N := 8192) v p := by
  refine (congrArg (fun s => Ideal.div s (Ideal.ofBits .f32 0x46000000#32)) (sumCol_apply (mulf (devs v) (devs v)) p u)).trans ?_
  refine congrArg (fun s => Ideal.div s (Ideal.ofBits .f32 0x46000000#32)) ?_
  refine Finset.sum_congr rfl fun k _ => ?_
  show devs v (ix2 p k) * devs v (ix2 p k) = _
  rw [devs_apply]

/-- The reciprocal-root column holds the reciprocal root of the specification's row variance plus ε. -/
theorem scaleCol_apply (v : FVec Ideal S128x8192 .f32) (p : Fin 128) (u : Fin 1) :
    scaleCol v (ix2 p u) = Ideal.rsqrt (Cert.Spec.rowVar (B := 128) (N := 8192) v p + Ideal.ofBits .f32 0x2B8CBCCC#32) :=
  congrArg (fun s => Ideal.rsqrt (s + Ideal.ofBits .f32 0x2B8CBCCC#32)) (varCol_apply v p u)

/-- On a block of 128 rows the body computes the row-wise normalisation of that block: each row minus its mean, times the
    reciprocal square root of its variance plus ε, scaled and shifted lane by lane. -/
theorem pay_eq (x : Vec Ideal S128x8192 .f32) (g b : Vec Ideal S1x8192 .f32) :
    k1_pay1 x g b = Cert.Spec.lnorm x g b := by
  rw [pay_cols, shapeCast_self x, shapeCast_self g, shapeCast_self b]
  funext j
  obtain ⟨p, q, rfl⟩ : ∃ (p : Fin 128) (q : Fin 8192), j = ix2 p q := ⟨j 0, j 1, eq_ix2 j⟩
  show devs x (ix2 p q) * broadcastTo S128x8192 (scaleCol x) broadcasts_S128x1_S128x8192 (ix2 p q)
        * broadcastTo S128x8192 g broadcasts_S1x8192_S128x8192 (ix2 p q)
      + broadcastTo S128x8192 b broadcasts_S1x8192_S128x8192 (ix2 p q) = _
  rw [devs_apply, bcast_col_apply, scaleCol_apply, broadcastTo_1b_ab_apply, broadcastTo_1b_ab_apply]
  rfl

/-! ## The blocks of the three input arrays

Point `t` of the grid reads block `(t, 0)` of the array of rows, that is its rows `128·t … 128·t + 127`, and block
`(0, 0)` of the gain row and of the shift row, that is all of them; it writes back block `(t, 0)` of the output array. -/

section Blocks
variable (V : Ent) (c : Dev nD)

/-- The array of rows as the region finds it. -/
abbrev rowsArr : Vec Ideal S8192x8192 .f32 := V c main_v2
/-- The gain row as the region finds it. -/
abbrev gainArr : Vec Ideal S1x8192 .f32 := V c main_v3
/-- The shift row as the region finds it. -/
abbrev shiftArr : Vec Ideal S1x8192 .f32 := V c main_v4

/-- The block of rows point `t` reads. -/
abbrev rowsBlk (t : Fin cfg1.N) : Vec Ideal S128x8192 .f32 := iblk1 (F := Ideal) V c 0 t
/-- The gain row as point `t` reads it. -/
abbrev gainBlk (t : Fin cfg1.N) : Vec Ideal S1x8192 .f32 := iblk1 (F := Ideal) V c 1 t
/-- The shift row as point `t` reads it. -/
abbrev shiftBlk (t : Fin cfg1.N) : Vec Ideal S1x8192 .f32 := iblk1 (F := Ideal) V c 2 t

/-- The printed index maps, decided once over the 64 points: the rows' window and the output's window are at block
    `(t, 0)`, the gain's and the shift's at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, q)` of the block of rows at point `t` is entry `(128·t + p, q)` of the array of rows. -/
theorem rowsBlk_apply (t : Fin cfg1.N) (p : Fin 128) (q : Fin 8192) (k : S8192x8192.Idx)
    (hk0 : (k 0).val = 128 * t.val + p.val) (hk1 : (k 1).val = q.val) :
    rowsBlk V c t (ix2 p q) = rowsArr V c k := by
  obtain ⟨e0, e1, -⟩ := idx_facts t
  show V c main_v2 (((cfg1.win 0).blk t).view.emb (ix2 p q)) = V c main_v2 k
  refine congrArg (V c main_v2) (funext fun a => Fin.ext ?_)
  match a with
  | ⟨0, _⟩ => show win1_0.index t (0 : Fin 2) * 128 + 1 * p.val = (k 0).val; omega
  | ⟨1, _⟩ => show win1_0.index t (1 : Fin 2) * 8192 + 1 * q.val = (k 1).val; omega

/-- At every point the gain row read is the whole gain row. -/
theorem gainBlk_apply (t : Fin cfg1.N) (q : Fin 8192) :
    gainBlk V c t (ix2 (0 : Fin 1) q) = gainArr V c (ix2 (0 : Fin 1) q) := by
  obtain ⟨-, -, e0, e1, -⟩ := idx_facts t
  show V c main_v3 (((cfg1.win 1).blk t).view.emb (ix2 (0 : Fin 1) q)) = V c main_v3 (ix2 (0 : Fin 1) q)
  refine congrArg (V c main_v3) (funext fun a => Fin.ext ?_)
  match a with
  | ⟨0, _⟩ => show win1_1.index t (0 : Fin 2) * 1 + 1 * 0 = 0; omega
  | ⟨1, _⟩ => show win1_1.index t (1 : Fin 2) * 8192 + 1 * q.val = q.val; omega

/-- At every point the shift row read is the whole shift row. -/
theorem shiftBlk_apply (t : Fin cfg1.N) (q : Fin 8192) :
    shiftBlk V c t (ix2 (0 : Fin 1) q) = shiftArr V c (ix2 (0 : Fin 1) q) := by
  obtain ⟨-, -, -, -, e0, e1, -⟩ := idx_facts t
  show V c main_v4 (((cfg1.win 2).blk t).view.emb (ix2 (0 : Fin 1) q)) = V c main_v4 (ix2 (0 : Fin 1) q)
  refine congrArg (V c main_v4) (funext fun a => Fin.ext ?_)
  match a with
  | ⟨0, _⟩ => show win1_2.index t (0 : Fin 2) * 1 + 1 * 0 = 0; omega
  | ⟨1, _⟩ => show win1_2.index t (1 : Fin 2) * 8192 + 1 * q.val = q.val; omega

end Blocks

/-! ## A block of the normalisation is the normalisation of the block

A row's mean and variance are sums over that row only. So if `x` holds rows `128·n … 128·n + 127` of `X`, the
normalisation of `x` at `(p, q)` is the normalisation of `X` at `(128·n + p, q)`. -/

theorem lnorm_rows {n : ℕ} (X : Cert.Spec.Mat 8192 8192) (G B : Cert.Spec.Mat 1 8192)
    (x : Cert.Spec.Mat 128 8192) (g b : Cert.Spec.Mat 1 8192)
    (hx : ∀ (p : Fin 128) (q : Fin 8192) (k : S8192x8192.Idx),
      (k 0).val = 128 * n + p.val → (k 1).val = q.val → x (ix2 p q) = X k)
    (hg : ∀ q : Fin 8192, g (ix2 (0 : Fin 1) q) = G (ix2 (0 : Fin 1) q))
    (hb : ∀ q : Fin 8192, b (ix2 (0 : Fin 1) q) = B (ix2 (0 : Fin 1) q))
    (j : S128x8192.Idx) (i : S8192x8192.Idx)
    (hi0 : (i 0).val = 128 * n + (j 0).val) (hi1 : (i 1).val = (j 1).val) :
    Cert.Spec.lnorm x g b j = Cert.Spec.lnorm X G B i := by
  have hq : j 1 = i 1 := Fin.ext hi1.symm
  have hmean : Cert.Spec.rowMean x (j 0) = Cert.Spec.rowMean X (i 0) :=
    congrArg (fun s => Ideal.div s (Ideal.ofBits .f32 0x46000000#32))
      (Finset.sum_congr rfl fun k _ => hx (j 0) k (ix2 (i 0) k) hi0 rfl)
  have hvar : Cert.Spec.rowVar x (j 0) = Cert.Spec.rowVar X (i 0) := by
    unfold Cert.Spec.rowVar
    rw [hmean]
    refine congrArg (fun s => Ideal.div s (Ideal.ofBits .f32 0x46000000#32)) (Finset.sum_congr rfl fun k _ => ?_)
    rw [hx (j 0) k (ix2 (i 0) k) hi0 rfl]
  have hxj : x j = X i := (congrArg x (eq_ix2 j)).trans (hx (j 0) (j 1) i hi0 hi1)
  show (x j - Cert.Spec.rowMean x (j 0)) * Ideal.rsqrt (Cert.Spec.rowVar x (j 0) + Ideal.ofBits .f32 0x2B8CBCCC#32)
        * g (ix2 0 (j 1)) + b (ix2 0 (j 1))
      = (X i - Cert.Spec.rowMean X (i 0)) * Ideal.rsqrt (Cert.Spec.rowVar X (i 0) + Ideal.ofBits .f32 0x2B8CBCCC#32)
        * G (ix2 0 (i 1)) + B (ix2 0 (i 1))
  rw [hxj, hmean, hvar, hq]
  exact congrArg₂ (fun u v => (X i - Cert.Spec.rowMean X (i 0))
    * Ideal.rsqrt (Cert.Spec.rowVar X (i 0) + Ideal.ofBits .f32 0x2B8CBCCC#32) * u + v) (hg (i 1)) (hb (i 1))

/-! ## From the blocks to the array -/

section Array
variable (V : Ent) (c : Dev nD)

/-- What point `t` writes back is block `t` of the normalisation of the whole array of rows. -/
theorem flushed_eq (t : Fin cfg1.N) :
    (dat1 (F := Ideal) V c).flushed 3 t
      = ((cfg1.win 3).blk t).view.read (Elt Ideal)
          (Cert.Spec.lnorm (rowsArr V c) (gainArr V c) (shiftArr V c)) := by
  obtain ⟨-, -, -, -, -, -, e0, e1⟩ := idx_facts t
  show (cfg1.win 3).cut (grid1.coords t) (k1_pay1 (rowsBlk V c t) (gainBlk V c t) (shiftBlk V c t)) = _
  rw [pay_eq]
  funext j
  show Cert.Spec.lnorm (rowsBlk V c t) (gainBlk V c t) (shiftBlk V c t) j
      = Cert.Spec.lnorm (rowsArr V c) (gainArr V c) (shiftArr V c) (((cfg1.win 3).blk t).view.emb j)
  refine lnorm_rows (n := t.val) (rowsArr V c) (gainArr V c) (shiftArr V c) (rowsBlk V c t) (gainBlk V c t) (shiftBlk V c t)
    (rowsBlk_apply V c t) (gainBlk_apply V c t) (shiftBlk_apply V c t) j _ ?_ ?_
  · show win1_3.index t (0 : Fin 2) * 128 + 1 * (j 0).val = 128 * t.val + (j 0).val; omega
  · show win1_3.index t (1 : Fin 2) * 8192 + 1 * (j 1).val = (j 1).val; omega

/-- An index of the output array is in point `t`'s block iff each coordinate is in the block's range on its axis. -/
theorem mem_blk (t : Fin cfg1.N) (i : S8192x8192.Idx) :
    i ∈ ((cfg1.win 3).blk t).view.set ↔ ∀ a : Fin 2, win1_3.index t a * S128x8192.size a ≤ (i a).val
      ∧ (i a).val < win1_3.index t a * S128x8192.size a + S128x8192.size a := by
  show i ∈ ((View.whole main_v5).slice (win1_3.rect t)).set ↔ _
  rw [View.set_slice_whole, Rect.mem_set_unit]
  exact Iff.rfl

/-- Row `r` of the output array lies in the block written back at point `r / 128`. -/
theorem covered (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  have hN : cfg1.N = 64 := N_1
  have ht : (i 0).val / 128 < cfg1.N := by rw [hN]; omega
  obtain ⟨-, -, -, -, -, -, e0, e1⟩ := idx_facts ⟨(i 0).val / 128, ht⟩
  refine ⟨⟨(i 0).val / 128, ht⟩, flush1_3 _, ?_⟩
  rw [mem_blk]
  intro a
  match a with
  | ⟨0, _⟩ =>
    show win1_3.index ⟨(i 0).val / 128, ht⟩ (0 : Fin 2) * 128 ≤ (i 0).val
      ∧ (i 0).val < win1_3.index ⟨(i 0).val / 128, ht⟩ (0 : Fin 2) * 128 + 128
    rw [e0]; show (i 0).val / 128 * 128 ≤ (i 0).val ∧ (i 0).val < (i 0).val / 128 * 128 + 128; omega
  | ⟨1, _⟩ =>
    show win1_3.index ⟨(i 0).val / 128, ht⟩ (1 : Fin 2) * 8192 ≤ (i 1).val
      ∧ (i 1).val < win1_3.index ⟨(i 0).val / 128, ht⟩ (1 : Fin 2) * 8192 + 8192
    rw [e1]; omega

end Array

end Norm1

/-- Region 1 leaves the row-wise normalisation of the array of rows with the gain and shift rows: every block written
    back is the block of that one function, and the blocks cover the output array. -/
theorem kv1 : Leaves1 := fun V c =>
  (dat1 (F := Ideal) V c).arrAt_eq_of_cover 3 (Cert.Spec.lnorm (V c main_v2) (V c main_v3) (V c main_v4))
    (fun t _ => Norm1.flushed_eq V c t) Norm1.covered

end Cert.KernelIdeal.Val
end
-- ==== Proof.Val.KV2.lean ====
/- Region 2 of the network: the second matrix product with its residual. The grid is 8 × 8 × 16, the contraction
   axis fastest, so point t = (i·8 + j)·16 + k reads block (i, k) of the input, block (k, j) of the weights, block j of
   the scale and shift rows and block (i, j) of the input again (the residual), and adds the 1024 × 512 · 512 × 1024
   product of the first two, the weights pushed towards 0 or 1 first, to a running sum that starts from zero at k = 0.
   At k = 15 the sum over all sixteen blocks of 512, which is the sum over the whole contraction axis of length 8192,
   is scaled, shifted, clamped below at zero, added to the residual block and written to block (i, j) of the output.
   The sixty-four output blocks tile the output array, so it ends holding the specification's second layer. -/
import proofs.«168041_j41042707481000_1_alg».proof.Proof.Val.Iface
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

namespace Dense2

theorem lhs2_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs2_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs2_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs2_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

theorem mm2_apply (x : FVec Ideal S1024x512 .bf16) (w : FVec Ideal S512x1024 .bf16) (p q : Fin 1024) :
    matmul (F := Ideal) dot_S1024x512_S512x1024_S1024x1024_1_0_0_1_n_n none x w (constant (F := Ideal) S1024x1024 .f32 0x00000000#32) (ix2 p q)
      = ∑ k : Fin 512, x (ix2 p k) * w (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs2_0 _ _
    | ⟨1, _⟩ => exact (lhs2_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-! ## The body's three payloads read at an index -/

/-- The value the running sum restarts from is zero everywhere. -/
theorem pay1_apply (p q : Fin 1024) : k2_pay1 (F := Ideal) (ix2 p q) = 0 := by
  unfold k2_pay1
  rw [shapeCast_self]
  exact Ideal.ofBits_zero_f32

/-- One step of the running sum: the old value plus the product of the input block with the weight block, each weight
    pushed towards 0 or 1 first. -/
theorem pay2_apply (w : Vec Ideal S512x1024 .f32) (x : Vec Ideal S1024x512 .bf16) (a : Vec Ideal S1024x1024 .f32) (p q : Fin 1024) :
    k2_pay2 (F := Ideal) w x a (ix2 p q) = a (ix2 p q) + ∑ k : Fin 512, x (ix2 p k) * Cert.Spec.softBin (w (ix2 k q)) := by
  unfold k2_pay2
  rw [shapeCast_self, shapeCast_self]
  refine (addf_apply _ _ _).trans ?_
  refine congrArg (a (ix2 p q) + ·) ?_
  refine (mm2_apply _ _ p q).trans ?_
  refine Finset.sum_congr rfl fun k _ => ?_
  rfl

/-- The epilogue: the finished sum scaled and shifted column by column, clamped below at zero, plus the residual. -/
theorem pay3_apply (a : Vec Ideal S1024x1024 .f32) (s b : Vec Ideal S1x1024 .f32) (r : Vec Ideal S1024x1024 .bf16) (p q : Fin 1024) :
    k2_pay3 (F := Ideal) a s b r (ix2 p q)
      = max (a (ix2 p q) * s (ix2 0 q) + b (ix2 0 q)) (Ideal.ofBits .f32 0x00000000#32) + r (ix2 p q) := by
  unfold k2_pay3
  rw [shapeCast_self, shapeCast_self, shapeCast_self]
  have hs : broadcastTo S1024x1024 s broadcasts_S1x1024_S1024x1024 (ix2 p q) = s (ix2 0 q) :=
    broadcastTo_apply s broadcasts_S1x1024_S1024x1024 (ix2 p q) (ix2 0 q) (fun a => by
      match a with
      | ⟨0, _⟩ => rfl
      | ⟨1, _⟩ => rfl)
  have hb : broadcastTo S1024x1024 b broadcasts_S1x1024_S1024x1024 (ix2 p q) = b (ix2 0 q) :=
    broadcastTo_apply b broadcasts_S1x1024_S1024x1024 (ix2 p q) (ix2 0 q) (fun a => by
      match a with
      | ⟨0, _⟩ => rfl
      | ⟨1, _⟩ => rfl)
  show max (a (ix2 p q) * broadcastTo S1024x1024 s broadcasts_S1x1024_S1024x1024 (ix2 p q)
      + broadcastTo S1024x1024 b broadcasts_S1x1024_S1024x1024 (ix2 p q)) (Ideal.ofBits .f32 0x00000000#32) + r (ix2 p q) = _
  rw [hs, hb]

/-! ## The blocks against the arrays -/

/-- An entry of a matrix named by natural-number coordinates (zero outside the matrix, a value never used). -/
def at2 {r q : Nat} (A : Cert.Spec.Mat r q) (a b : Nat) : EReal :=
  if h : a < r ∧ b < q then A (ix2 ⟨a, h.1⟩ ⟨b, h.2⟩) else 0

/-- At the coordinates of an index it is the entry at that index. -/
theorem at2_eq {r q : Nat} (A : Cert.Spec.Mat r q) (i : (⟨2, ![r, q]⟩ : Shape).Idx) (a b : Nat)
    (ha : a = (i 0).val) (hb : b = (i 1).val) : at2 A a b = A i := by
  subst ha hb
  unfold at2
  rw [dif_pos ⟨(i 0).isLt, (i 1).isLt⟩]
  exact congrArg A (eq_ix2 i).symm

/-- The six index maps over the grid: point t = (i·8 + j)·16 + k has i = t / 128, j = t / 16 % 8, k = t % 16. -/
theorem idx_facts : ∀ t : Fin cfg2.N,
    win2_0.index t (0 : Fin 2) = t.val / 128 ∧ win2_0.index t (1 : Fin 2) = t.val % 16
    ∧ win2_1.index t (0 : Fin 2) = t.val % 16 ∧ win2_1.index t (1 : Fin 2) = t.val / 16 % 8
    ∧ win2_2.index t (0 : Fin 2) = 0 ∧ win2_2.index t (1 : Fin 2) = t.val / 16 % 8
    ∧ win2_3.index t (0 : Fin 2) = 0 ∧ win2_3.index t (1 : Fin 2) = t.val / 16 % 8
    ∧ win2_4.index t (0 : Fin 2) = t.val / 128 ∧ win2_4.index t (1 : Fin 2) = t.val / 16 % 8
    ∧ win2_5.index t (0 : Fin 2) = t.val / 128 ∧ win2_5.index t (1 : Fin 2) = t.val / 16 % 8 :=
  (by decide +kernel : ∀ t : Fin grid2.N, _)

variable (V : Ent)

/-- The input of the layer (also its residual), the weights, the scale row and the shift row, as the region finds them. -/
abbrev xin (c : Dev nD) : Cert.Spec.Mat 8192 8192 := V c main_v5
abbrev wgt (c : Dev nD) : Cert.Spec.Mat 8192 8192 := V c main_arg6
abbrev scl (c : Dev nD) : Cert.Spec.Mat 1 8192 := V c main_v6
abbrev sft (c : Dev nD) : Cert.Spec.Mat 1 8192 := V c main_v7

/-- The five input blocks at a grid point. -/
abbrev xblk (c : Dev nD) (t : Fin cfg2.N) : Vec Ideal S1024x512 .bf16 := iblk2 (F := Ideal) V c 0 t
abbrev wblk (c : Dev nD) (t : Fin cfg2.N) : Vec Ideal S512x1024 .f32 := iblk2 (F := Ideal) V c 1 t
abbrev sblk (c : Dev nD) (t : Fin cfg2.N) : Vec Ideal S1x1024 .f32 := iblk2 (F := Ideal) V c 2 t
abbrev bblk (c : Dev nD) (t : Fin cfg2.N) : Vec Ideal S1x1024 .f32 := iblk2 (F := Ideal) V c 3 t
abbrev rblk (c : Dev nD) (t : Fin cfg2.N) : Vec Ideal S1024x1024 .bf16 := iblk2 (F := Ideal) V c 4 t

/-- The input block at point t is rows i·1024 …, columns k·512 … of the input. -/
theorem xblk_apply (c : Dev nD) (t : Fin cfg2.N) (p : Fin 1024) (k : Fin 512) :
    xblk V c t (ix2 p k) = at2 (xin V c) (t.val / 128 * 1024 + p.val) (t.val % 16 * 512 + k.val) := by
  obtain ⟨e0, e1, -⟩ := idx_facts t
  show V c main_v5 (((cfg2.win 0).blk t).view.emb (ix2 p k)) = _
  refine (at2_eq _ _ _ _ ?_ ?_).symm
  · show _ = win2_0.index t (0 : Fin 2) * 1024 + 1 * p.val
    rw [e0]; omega
  · show _ = win2_0.index t (1 : Fin 2) * 512 + 1 * k.val
    rw [e1]; omega

/-- The weight block at point t is rows k·512 …, columns j·1024 … of the weights. -/
theorem wblk_apply (c : Dev nD) (t : Fin cfg2.N) (k : Fin 512) (q : Fin 1024) :
    wblk V c t (ix2 k q) = at2 (wgt V c) (t.val % 16 * 512 + k.val) (t.val / 16 % 8 * 1024 + q.val) := by
  obtain ⟨-, -, e0, e1, -⟩ := idx_facts t
  show V c main_arg6 (((cfg2.win 1).blk t).view.emb (ix2 k q)) = _
  refine (at2_eq _ _ _ _ ?_ ?_).symm
  · show _ = win2_1.index t (0 : Fin 2) * 512 + 1 * k.val
    rw [e0]; omega
  · show _ = win2_1.index t (1 : Fin 2) * 1024 + 1 * q.val
    rw [e1]; omega

/-- The scale block at point t is columns j·1024 … of the scale row. -/
theorem sblk_apply (c : Dev nD) (t : Fin cfg2.N) (q : Fin 1024) :
    sblk V c t (ix2 0 q) = at2 (scl V c) 0 (t.val / 16 % 8 * 1024 + q.val) := by
  obtain ⟨-, -, -, -, e0, e1, -⟩ := idx_facts t
  show V c main_v6 (((cfg2.win 2).blk t).view.emb (ix2 0 q)) = _
  refine (at2_eq _ _ _ _ ?_ ?_).symm
  · show _ = win2_2.index t (0 : Fin 2) * 1 + 1 * 0
    rw [e0]
  · show _ = win2_2.index t (1 : Fin 2) * 1024 + 1 * q.val
    rw [e1]; omega

/-- The shift block at point t is columns j·1024 … of the shift row. -/
theorem bblk_apply (c : Dev nD) (t : Fin cfg2.N) (q : Fin 1024) :
    bblk V c t (ix2 0 q) = at2 (sft V c) 0 (t.val / 16 % 8 * 1024 + q.val) := by
  obtain ⟨-, -, -, -, -, -, e0, e1, -⟩ := idx_facts t
  show V c main_v7 (((cfg2.win 3).blk t).view.emb (ix2 0 q)) = _
  refine (at2_eq _ _ _ _ ?_ ?_).symm
  · show _ = win2_3.index t (0 : Fin 2) * 1 + 1 * 0
    rw [e0]
  · show _ = win2_3.index t (1 : Fin 2) * 1024 + 1 * q.val
    rw [e1]; omega

/-- The residual block at point t is rows i·1024 …, columns j·1024 … of the input. -/
theorem rblk_apply (c : Dev nD) (t : Fin cfg2.N) (p q : Fin 1024) :
    rblk V c t (ix2 p q) = at2 (xin V c) (t.val / 128 * 1024 + p.val) (t.val / 16 % 8 * 1024 + q.val) := by
  obtain ⟨-, -, -, -, -, -, -, -, e0, e1, -⟩ := idx_facts t
  show V c main_v5 (((cfg2.win 4).blk t).view.emb (ix2 p q)) = _
  refine (at2_eq _ _ _ _ ?_ ?_).symm
  · show _ = win2_4.index t (0 : Fin 2) * 1024 + 1 * p.val
    rw [e0]; omega
  · show _ = win2_4.index t (1 : Fin 2) * 1024 + 1 * q.val
    rw [e1]; omega

/-! ## Sixteen blocks of 512 are the contraction axis of length 8192 -/

/-- A sum over a · b consecutive naturals, taken in a blocks of b. -/
theorem sum_range_blocks (f : ℕ → EReal) (b : ℕ) : ∀ a : ℕ,
    ∑ k ∈ Finset.range (a * b), f k = ∑ s ∈ Finset.range a, ∑ m ∈ Finset.range b, f (s * b + m)
  | 0 => by rw [Nat.zero_mul, Finset.sum_range_zero, Finset.sum_range_zero]
  | a + 1 => by
    rw [Nat.succ_mul, Finset.sum_range_add, sum_range_blocks f b a, Finset.sum_range_succ]

/-- A sum over the contraction axis, taken in its sixteen blocks of 512. -/
theorem sum_8192 (f : ℕ → EReal) :
    ∑ k : Fin 8192, f k.val = ∑ s ∈ Finset.range 16, ∑ m : Fin 512, f (s * 512 + m.val) :=
  (Fin.sum_univ_eq_sum_range f 8192).trans ((sum_range_blocks f 512 16).trans
    (Finset.sum_congr rfl fun s _ => (Fin.sum_univ_eq_sum_range (fun m => f (s * 512 + m)) 512).symm))

/-! ## The running sum -/

/-- What the s-th block of the contraction axis contributes to entry (p, q) of the output block of point n. -/
def part (c : Dev nD) (n : ℕ) (p q : Fin 1024) (s : ℕ) : EReal :=
  ∑ k : Fin 512, at2 (xin V c) (n / 128 * 1024 + p.val) (s * 512 + k.val)
    * Cert.Spec.softBin (at2 (wgt V c) (s * 512 + k.val) (n / 16 % 8 * 1024 + q.val))

/-- It depends on the point only through the output block's indices. -/
theorem part_congr (c : Dev nD) (n n' : ℕ) (p q : Fin 1024) (s : ℕ) (h : n / 16 = n' / 16) :
    part V c n p q s = part V c n' p q s := by
  have h0 : n / 128 = n' / 128 := by omega
  unfold part
  rw [h, h0]

/-- One step at point t adds that point's block of the contraction axis. -/
theorem step_apply (c : Dev nD) (t : Fin cfg2.N) (a : Vec Ideal S1024x1024 .f32) (p q : Fin 1024) :
    k2_pay2 (F := Ideal) (wblk V c t) (xblk V c t) a (ix2 p q) = a (ix2 p q) + part V c t.val p q (t.val % 16) := by
  refine (pay2_apply _ _ _ p q).trans ?_
  refine congrArg (a (ix2 p q) + ·) ?_
  refine Finset.sum_congr rfl fun k _ => ?_
  exact congrArg₂ (fun u v => u * Cert.Spec.softBin v) (xblk_apply V c t p k) (wblk_apply V c t k q)

/-- After point n the running sum holds the contributions of the blocks 0 … n % 16 of the contraction axis. -/
theorem acc_apply (c : Dev nD) : ∀ (n : ℕ) (hn : n < cfg2.N) (p q : Fin 1024),
    acc2 (F := Ideal) V c n hn (ix2 p q) = ∑ s ∈ Finset.range (n % 16 + 1), part V c n p q s
  | 0, hn, p, q => by
    show k2_pay2 (F := Ideal) (wblk V c ⟨0, hn⟩) (xblk V c ⟨0, hn⟩) (k2_pay1 (F := Ideal)) (ix2 p q) = _
    refine (step_apply V c ⟨0, hn⟩ _ p q).trans ?_
    rw [pay1_apply, zero_add]
    show part V c 0 p q (0 % 16) = ∑ s ∈ Finset.range (0 % 16 + 1), part V c 0 p q s
    rw [Nat.zero_mod, Nat.zero_add, Finset.sum_range_one]
  | n + 1, hn, p, q => by
    by_cases h : (n + 1) % 16 = 0
    · have e : acc2 (F := Ideal) V c (n + 1) hn
          = k2_pay2 (F := Ideal) (wblk V c ⟨n + 1, hn⟩) (xblk V c ⟨n + 1, hn⟩) (k2_pay1 (F := Ideal)) := if_pos h
      rw [e]
      refine (step_apply V c ⟨n + 1, hn⟩ _ p q).trans ?_
      rw [pay1_apply, zero_add]
      show part V c (n + 1) p q ((n + 1) % 16) = ∑ s ∈ Finset.range ((n + 1) % 16 + 1), part V c (n + 1) p q s
      rw [h, Nat.zero_add, Finset.sum_range_one]
    · have e : acc2 (F := Ideal) V c (n + 1) hn
          = k2_pay2 (F := Ideal) (wblk V c ⟨n + 1, hn⟩) (xblk V c ⟨n + 1, hn⟩) (acc2 (F := Ideal) V c n (Nat.lt_of_succ_lt hn)) := if_neg h
      rw [e]
      refine (step_apply V c ⟨n + 1, hn⟩ _ p q).trans ?_
      rw [acc_apply c n (Nat.lt_of_succ_lt hn) p q]
      show _ + part V c (n + 1) p q ((n + 1) % 16) = ∑ s ∈ Finset.range ((n + 1) % 16 + 1), part V c (n + 1) p q s
      have h1 : (n + 1) % 16 = n % 16 + 1 := by omega
      rw [h1, Finset.sum_range_succ _ (n % 16 + 1)]
      refine congrArg (· + part V c (n + 1) p q (n % 16 + 1)) ?_
      refine Finset.sum_congr rfl fun s _ => ?_
      exact part_congr V c n (n + 1) p q s (by omega)

/-! ## What a point with k = 15 writes back, and the whole array -/

/-- The second layer of the arrays the region finds. -/
abbrev layerOut (c : Dev nD) : Cert.Spec.Mat 8192 8192 :=
  Cert.Spec.layer2 (xin V c) (wgt V c) (scl V c) (sft V c)

/-- At a point with k = 15 the epilogue of the finished sum is the second layer at the output block's index. -/
theorem out_apply (c : Dev nD) (t : Fin cfg2.N) (ht : t.val % 16 = 15) (p q : Fin 1024) (i : S8192x8192.Idx)
    (h0 : (i 0).val = t.val / 128 * 1024 + p.val) (h1 : (i 1).val = t.val / 16 % 8 * 1024 + q.val) :
    out2 (F := Ideal) V c t (ix2 p q) = layerOut V c i := by
  show k2_pay3 (F := Ideal) (acc2 (F := Ideal) V c t.val t.isLt) (sblk V c t) (bblk V c t) (rblk V c t) (ix2 p q) = _
  refine (pay3_apply _ _ _ _ p q).trans ?_
  rw [acc_apply V c t.val t.isLt p q, sblk_apply V c t q, bblk_apply V c t q, rblk_apply V c t p q, ht]
  have hs : at2 (scl V c) 0 (t.val / 16 % 8 * 1024 + q.val) = scl V c (ix2 0 (i 1)) := at2_eq _ _ _ _ rfl h1.symm
  have hb : at2 (sft V c) 0 (t.val / 16 % 8 * 1024 + q.val) = sft V c (ix2 0 (i 1)) := at2_eq _ _ _ _ rfl h1.symm
  have hr : at2 (xin V c) (t.val / 128 * 1024 + p.val) (t.val / 16 % 8 * 1024 + q.val) = xin V c i :=
    at2_eq _ _ _ _ h0.symm h1.symm
  have hsum : ∑ s ∈ Finset.range (15 + 1), part V c t.val p q s
      = ∑ k : Fin 8192, xin V c (ix2 (i 0) k) * Cert.Spec.softBin (wgt V c (ix2 k (i 1))) := by
    refine Eq.trans ?_ (Eq.trans (sum_8192 (fun k => at2 (xin V c) (i 0).val k
      * Cert.Spec.softBin (at2 (wgt V c) k (i 1).val))).symm ?_)
    · refine Finset.sum_congr rfl fun s _ => ?_
      unfold part
      rw [h0, h1]
    · refine Finset.sum_congr rfl fun k _ => ?_
      exact congrArg₂ (fun u v => u * Cert.Spec.softBin v) (at2_eq (xin V c) (ix2 (i 0) k) _ _ rfl rfl)
        (at2_eq (wgt V c) (ix2 k (i 1)) _ _ rfl rfl)
  rw [hsum, hs, hb, hr]
  rfl

/-- The same at an index of the block, the array's index being the block's embedding of it. -/
theorem out_emb (c : Dev nD) (t : Fin cfg2.N) (ht : t.val % 16 = 15) (j : S1024x1024.Idx) :
    out2 (F := Ideal) V c t j = layerOut V c (((cfg2.win 5).blk t).view.emb j) := by
  obtain ⟨-, -, -, -, -, -, -, -, -, -, e0, e1⟩ := idx_facts t
  obtain ⟨p, q, rfl⟩ : ∃ (p q : Fin 1024), j = ix2 p q := ⟨j 0, j 1, eq_ix2 j⟩
  refine out_apply V c t ht p q _ ?_ ?_
  · show win2_5.index t (0 : Fin 2) * 1024 + 1 * p.val = _
    rw [e0]; omega
  · show win2_5.index t (1 : Fin 2) * 1024 + 1 * q.val = _
    rw [e1]; omega

/-- What a point that writes back writes is its block of the second layer. -/
theorem flushed_eq (c : Dev nD) (t : Fin cfg2.N) (hf : (cfg2.win 5).flush t = true) :
    (dat2 (F := Ideal) V c).flushed 5 t = ((cfg2.win 5).blk t).view.read (Elt Ideal) (layerOut V c) :=
  funext fun j => out_emb V c t ((flush2_5 t).mp hf) j

/-- An index of the output array is in point t's block iff each coordinate is in the block's range on its axis. -/
theorem mem_blk (t : Fin cfg2.N) (i : S8192x8192.Idx) :
    i ∈ ((cfg2.win 5).blk t).view.set ↔ ∀ a : Fin 2, win2_5.index t a * S1024x1024.size a ≤ (i a).val
      ∧ (i a).val < win2_5.index t a * S1024x1024.size a + S1024x1024.size a := by
  show i ∈ ((View.whole main_v8).slice (win2_5.rect t)).set ↔ _
  rw [View.set_slice_whole, Rect.mem_set_unit]
  exact Iff.rfl

/-- Every index of the output array is in the block of the last contraction point of its block row and column. -/
theorem cover (i : S8192x8192.Idx) :
    ∃ t : Fin cfg2.N, (cfg2.win 5).flush t = true ∧ i ∈ ((cfg2.win 5).blk t).view.set := by
  have hi0 : (i 0).val < 8192 := (i 0).isLt
  have hi1 : (i 1).val < 8192 := (i 1).isLt
  have hN : cfg2.N = 1024 := N_2
  obtain ⟨t, ht⟩ : ∃ t : Fin cfg2.N, t.val = ((i 0).val / 1024 * 8 + (i 1).val / 1024) * 16 + 15 :=
    ⟨⟨((i 0).val / 1024 * 8 + (i 1).val / 1024) * 16 + 15, by rw [hN]; omega⟩, rfl⟩
  obtain ⟨-, -, -, -, -, -, -, -, -, -, e0, e1⟩ := idx_facts t
  refine ⟨t, (flush2_5 t).mpr (by rw [ht]; omega), ?_⟩
  rw [mem_blk]
  intro a
  match a with
  | ⟨0, _⟩ =>
    show win2_5.index t (0 : Fin 2) * 1024 ≤ (i 0).val ∧ (i 0).val < win2_5.index t (0 : Fin 2) * 1024 + 1024
    rw [e0, ht]; omega
  | ⟨1, _⟩ =>
    show win2_5.index t (1 : Fin 2) * 1024 ≤ (i 1).val ∧ (i 1).val < win2_5.index t (1 : Fin 2) * 1024 + 1024
    rw [e1, ht]; omega

end Dense2

/-- Region 2 leaves the second layer of the arrays it finds. -/
theorem kv2 : Leaves2 := fun V c =>
  (dat2 (F := Ideal) V c).arrAt_eq_of_cover 5 (Dense2.layerOut V c) (fun t hf => Dense2.flushed_eq V c t hf) Dense2.cover

end Cert.KernelIdeal.Val

end
-- ==== Proof.Val.KV3.lean ====
/- Region 3 of the program: a row-wise normalisation. The grid has 64 points; point `t` reads the block of rows
   `128·t … 128·t + 127` (all 8192 lanes) of the input array and the whole gain and shift rows, and writes back the
   block of the same rows of the output array. A row's mean and variance read only that row, so the block that point
   `t` writes is the block of the normalisation of the WHOLE array; the 64 blocks cover the output array. -/
import proofs.«168041_j41042707481000_1_alg».proof.Proof.Val.Iface
import Idealize.ShloMosaic.PureOps.Ideal.Laws
import Idealize.ShloMosaic.Lib.ValueLayout
import Idealize.ShloMosaic.Lib.Pipeline.Value

noncomputable section
namespace Cert.KernelIdeal.Val
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

namespace Norm3

/-! ## Layout steps at an index -/

/-- A column of `a` entries repeated along `b` lanes reads, at `(p, q)`, the column's entry `p`. -/
theorem bcast_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of `a` entries seen as a column reads, at `(p, u)`, the vector's entry `p`. -/
theorem cast_col_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- The sum along the lanes of a block of 128 rows, at row `p`, is the sum of that row's 8192 entries. -/
theorem laneSum_apply (v : FVec Ideal S128x8192 .f32) (h : S128x8192.Reduces [1] S128) (hφ : FKind.Formats .f32)
    (hacc : (0x00000000#32 : BitVec 32) = FKind.add.neutral .f32 hφ) (p : Fin 128) :
    multiReduction .add [1] S128 v 0x00000000#32 h hφ hacc (ix1 p) = ∑ k : Fin 8192, v (ix2 p k) := by
  refine (Ideal.multiReduction_add_single v _ h hφ hacc (ix1 p)).trans ?_
  show ∑ k : Fin 8192, v (h.lift (ix1 p) k) = ∑ k : Fin 8192, v (ix2 p k)
  refine Finset.sum_congr rfl fun k _ => congrArg v ?_
  funext a
  apply Fin.ext
  match a with
  | ⟨0, _⟩ => rfl
  | ⟨1, _⟩ => rfl

/-! ## The body's arithmetic on one block of 128 rows

The body's payload is cut into the columns it builds on the way: the row sums, the row means, the deviations from the
mean, the row variances and the reciprocal roots. Each is read at an index against the specification's row functions. -/

/-- The column of row sums of a block: the lane sum, seen as a column. -/
def sumCol (v : FVec Ideal S128x8192 .f32) : FVec Ideal S128x1 .f32 :=
  shapeCast S128x1 (multiReduction (F := Ideal) .add [1] S128 v 0x00000000#32 reduces_S128x8192_S128 (.inl rfl) rfl) shapeCasts_S128_S128x1

/-- The column of row means: the row sums divided by the word of 8192. -/
def meanCol (v : FVec Ideal S128x8192 .f32) : FVec Ideal S128x1 .f32 :=
  divf (sumCol v) (broadcast S128x1 (Scalar.ofBits .f32 0x46000000#32))

/-- The deviations: every entry minus its row's mean. -/
def devs (v : FVec Ideal S128x8192 .f32) : FVec Ideal S128x8192 .f32 :=
  subf v (broadcastTo S128x8192 (meanCol v) broadcasts_S128x1_S128x8192)

/-- The column of row variances: the row sums of the squared deviations divided by the word of 8192. -/
def varCol (v : FVec Ideal S128x8192 .f32) : FVec Ideal S128x1 .f32 :=
  divf (sumCol (mulf (devs v) (devs v))) (broadcast S128x1 (Scalar.ofBits .f32 0x46000000#32))

/-- The column of reciprocal roots of variance plus ε. -/
def scaleCol (v : FVec Ideal S128x8192 .f32) : FVec Ideal S128x1 .f32 :=
  rsqrt (addf (varCol v) (broadcast S128x1 (Scalar.ofBits .f32 0x2B8CBCCC#32)))

/-- The payload is those columns put together: deviation times reciprocal root, times the gain row, plus the shift row
    (the layout casts of a shape to itself and the narrowing at the end are still in place). -/
theorem pay_cols (x : Vec Ideal S128x8192 .f32) (g b : Vec Ideal S1x8192 .f32) :
    k3_pay1 x g b
      = truncf .bf16 (addf (mulf (mulf (devs (shapeCast S128x8192 x shapeCasts_S128x8192_S128x8192))
            (broadcastTo S128x8192 (scaleCol (shapeCast S128x8192 x shapeCasts_S128x8192_S128x8192)) broadcasts_S128x1_S128x8192))
          (broadcastTo S128x8192 (shapeCast S1x8192 g shapeCasts_S1x8192_S1x8192) broadcasts_S1x8192_S128x8192))
        (broadcastTo S128x8192 (shapeCast S1x8192 b shapeCasts_S1x8192_S1x8192) broadcasts_S1x8192_S128x8192)) bitsLt_bf16_f32 := rfl

/-- A row sum, read in the column, is the sum of the row's 8192 entries. -/
theorem sumCol_apply (v : FVec Ideal S128x8192 .f32) (p : Fin 128) (u : Fin 1) :
    sumCol v (ix2 p u) = ∑ k : Fin 8192, v (ix2 p k) :=
  (cast_col_apply _ shapeCasts_S128_S128x1 p u).trans (laneSum_apply v reduces_S128x8192_S128 (.inl rfl) rfl p)

/-- The mean column holds the specification's row mean. -/
theorem meanCol_apply (v : FVec Ideal S128x8192 .f32) (p : Fin 128) (u : Fin 1) :
    meanCol v (ix2 p u) = Cert.Spec.rowMean (B := 128) (N := 8192) v p :=
  congrArg (fun s => Ideal.div s (Ideal.ofBits .f32 0x46000000#32)) (sumCol_apply v p u)

/-- A deviation is the entry minus the specification's row mean. -/
theorem devs_apply (v : FVec Ideal S128x8192 .f32) (p : Fin 128) (q : Fin 8192) :
    devs v (ix2 p q) = v (ix2 p q) - Cert.Spec.rowMean (B := 128) (N := 8192) v p :=
  congrArg (fun m => v (ix2 p q) - m)
    ((bcast_col_apply (meanCol v) broadcasts_S128x1_S128x8192 p q).trans (meanCol_apply v p 0))

/-- The variance column holds the specification's row variance. -/
theorem varCol_apply (v : FVec Ideal S128x8192 .f32) (p : Fin 128) (u : Fin 1) :
    varCol v (ix2 p u) = Cert.Spec.rowVar (B := 128) (N := 8192) v p := by
  refine (congrArg (fun s => Ideal.div s (Ideal.ofBits .f32 0x46000000#32)) (sumCol_apply (mulf (devs v) (devs v)) p u)).trans ?_
  refine congrArg (fun s => Ideal.div s (Ideal.ofBits .f32 0x46000000#32)) ?_
  refine Finset.sum_congr rfl fun k _ => ?_
  show devs v (ix2 p k) * devs v (ix2 p k) = _
  rw [devs_apply]

/-- The reciprocal-root column holds the reciprocal root of the specification's row variance plus ε. -/
theorem scaleCol_apply (v : FVec Ideal S128x8192 .f32) (p : Fin 128) (u : Fin 1) :
    scaleCol v (ix2 p u) = Ideal.rsqrt (Cert.Spec.rowVar (B := 128) (N := 8192) v p + Ideal.ofBits .f32 0x2B8CBCCC#32) :=
  congrArg (fun s => Ideal.rsqrt (s + Ideal.ofBits .f32 0x2B8CBCCC#32)) (varCol_apply v p u)

/-- On a block of 128 rows the body computes the row-wise normalisation of that block: each row minus its mean, times the
    reciprocal square root of its variance plus ε, scaled and shifted lane by lane. -/
theorem pay_eq (x : Vec Ideal S128x8192 .f32) (g b : Vec Ideal S1x8192 .f32) :
    k3_pay1 x g b = Cert.Spec.lnorm x g b := by
  rw [pay_cols, shapeCast_self x, shapeCast_self g, shapeCast_self b]
  funext j
  obtain ⟨p, q, rfl⟩ : ∃ (p : Fin 128) (q : Fin 8192), j = ix2 p q := ⟨j 0, j 1, eq_ix2 j⟩
  show devs x (ix2 p q) * broadcastTo S128x8192 (scaleCol x) broadcasts_S128x1_S128x8192 (ix2 p q)
        * broadcastTo S128x8192 g broadcasts_S1x8192_S128x8192 (ix2 p q)
      + broadcastTo S128x8192 b broadcasts_S1x8192_S128x8192 (ix2 p q) = _
  rw [devs_apply, bcast_col_apply, scaleCol_apply, broadcastTo_1b_ab_apply, broadcastTo_1b_ab_apply]
  rfl

/-! ## The blocks of the three input arrays

Point `t` of the grid reads block `(t, 0)` of the array of rows, that is its rows `128·t … 128·t + 127`, and block
`(0, 0)` of the gain row and of the shift row, that is all of them; it writes back block `(t, 0)` of the output array. -/

section Blocks
variable (V : Ent) (c : Dev nD)

/-- The array of rows as the region finds it. -/
abbrev rowsArr : Vec Ideal S8192x8192 .f32 := V c main_v8
/-- The gain row as the region finds it. -/
abbrev gainArr : Vec Ideal S1x8192 .f32 := V c main_v9
/-- The shift row as the region finds it. -/
abbrev shiftArr : Vec Ideal S1x8192 .f32 := V c main_v10

/-- The block of rows point `t` reads. -/
abbrev rowsBlk (t : Fin cfg3.N) : Vec Ideal S128x8192 .f32 := iblk3 (F := Ideal) V c 0 t
/-- The gain row as point `t` reads it. -/
abbrev gainBlk (t : Fin cfg3.N) : Vec Ideal S1x8192 .f32 := iblk3 (F := Ideal) V c 1 t
/-- The shift row as point `t` reads it. -/
abbrev shiftBlk (t : Fin cfg3.N) : Vec Ideal S1x8192 .f32 := iblk3 (F := Ideal) V c 2 t

/-- The printed index maps, decided once over the 64 points: the rows' window and the output's window are at block
    `(t, 0)`, the gain's and the shift's at block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry `(p, q)` of the block of rows at point `t` is entry `(128·t + p, q)` of the array of rows. -/
theorem rowsBlk_apply (t : Fin cfg3.N) (p : Fin 128) (q : Fin 8192) (k : S8192x8192.Idx)
    (hk0 : (k 0).val = 128 * t.val + p.val) (hk1 : (k 1).val = q.val) :
    rowsBlk V c t (ix2 p q) = rowsArr V c k := by
  obtain ⟨e0, e1, -⟩ := idx_facts t
  show V c main_v8 (((cfg3.win 0).blk t).view.emb (ix2 p q)) = V c main_v8 k
  refine congrArg (V c main_v8) (funext fun a => Fin.ext ?_)
  match a with
  | ⟨0, _⟩ => show win3_0.index t (0 : Fin 2) * 128 + 1 * p.val = (k 0).val; omega
  | ⟨1, _⟩ => show win3_0.index t (1 : Fin 2) * 8192 + 1 * q.val = (k 1).val; omega

/-- At every point the gain row read is the whole gain row. -/
theorem gainBlk_apply (t : Fin cfg3.N) (q : Fin 8192) :
    gainBlk V c t (ix2 (0 : Fin 1) q) = gainArr V c (ix2 (0 : Fin 1) q) := by
  obtain ⟨-, -, e0, e1, -⟩ := idx_facts t
  show V c main_v9 (((cfg3.win 1).blk t).view.emb (ix2 (0 : Fin 1) q)) = V c main_v9 (ix2 (0 : Fin 1) q)
  refine congrArg (V c main_v9) (funext fun a => Fin.ext ?_)
  match a with
  | ⟨0, _⟩ => show win3_1.index t (0 : Fin 2) * 1 + 1 * 0 = 0; omega
  | ⟨1, _⟩ => show win3_1.index t (1 : Fin 2) * 8192 + 1 * q.val = q.val; omega

/-- At every point the shift row read is the whole shift row. -/
theorem shiftBlk_apply (t : Fin cfg3.N) (q : Fin 8192) :
    shiftBlk V c t (ix2 (0 : Fin 1) q) = shiftArr V c (ix2 (0 : Fin 1) q) := by
  obtain ⟨-, -, -, -, e0, e1, -⟩ := idx_facts t
  show V c main_v10 (((cfg3.win 2).blk t).view.emb (ix2 (0 : Fin 1) q)) = V c main_v10 (ix2 (0 : Fin 1) q)
  refine congrArg (V c main_v10) (funext fun a => Fin.ext ?_)
  match a with
  | ⟨0, _⟩ => show win3_2.index t (0 : Fin 2) * 1 + 1 * 0 = 0; omega
  | ⟨1, _⟩ => show win3_2.index t (1 : Fin 2) * 8192 + 1 * q.val = q.val; omega

end Blocks

/-! ## A block of the normalisation is the normalisation of the block

A row's mean and variance are sums over that row only. So if `x` holds rows `128·n … 128·n + 127` of `X`, the
normalisation of `x` at `(p, q)` is the normalisation of `X` at `(128·n + p, q)`. -/

theorem lnorm_rows {n : ℕ} (X : Cert.Spec.Mat 8192 8192) (G B : Cert.Spec.Mat 1 8192)
    (x : Cert.Spec.Mat 128 8192) (g b : Cert.Spec.Mat 1 8192)
    (hx : ∀ (p : Fin 128) (q : Fin 8192) (k : S8192x8192.Idx),
      (k 0).val = 128 * n + p.val → (k 1).val = q.val → x (ix2 p q) = X k)
    (hg : ∀ q : Fin 8192, g (ix2 (0 : Fin 1) q) = G (ix2 (0 : Fin 1) q))
    (hb : ∀ q : Fin 8192, b (ix2 (0 : Fin 1) q) = B (ix2 (0 : Fin 1) q))
    (j : S128x8192.Idx) (i : S8192x8192.Idx)
    (hi0 : (i 0).val = 128 * n + (j 0).val) (hi1 : (i 1).val = (j 1).val) :
    Cert.Spec.lnorm x g b j = Cert.Spec.lnorm X G B i := by
  have hq : j 1 = i 1 := Fin.ext hi1.symm
  have hmean : Cert.Spec.rowMean x (j 0) = Cert.Spec.rowMean X (i 0) :=
    congrArg (fun s => Ideal.div s (Ideal.ofBits .f32 0x46000000#32))
      (Finset.sum_congr rfl fun k _ => hx (j 0) k (ix2 (i 0) k) hi0 rfl)
  have hvar : Cert.Spec.rowVar x (j 0) = Cert.Spec.rowVar X (i 0) := by
    unfold Cert.Spec.rowVar
    rw [hmean]
    refine congrArg (fun s => Ideal.div s (Ideal.ofBits .f32 0x46000000#32)) (Finset.sum_congr rfl fun k _ => ?_)
    rw [hx (j 0) k (ix2 (i 0) k) hi0 rfl]
  have hxj : x j = X i := (congrArg x (eq_ix2 j)).trans (hx (j 0) (j 1) i hi0 hi1)
  show (x j - Cert.Spec.rowMean x (j 0)) * Ideal.rsqrt (Cert.Spec.rowVar x (j 0) + Ideal.ofBits .f32 0x2B8CBCCC#32)
        * g (ix2 0 (j 1)) + b (ix2 0 (j 1))
      = (X i - Cert.Spec.rowMean X (i 0)) * Ideal.rsqrt (Cert.Spec.rowVar X (i 0) + Ideal.ofBits .f32 0x2B8CBCCC#32)
        * G (ix2 0 (i 1)) + B (ix2 0 (i 1))
  rw [hxj, hmean, hvar, hq]
  exact congrArg₂ (fun u v => (X i - Cert.Spec.rowMean X (i 0))
    * Ideal.rsqrt (Cert.Spec.rowVar X (i 0) + Ideal.ofBits .f32 0x2B8CBCCC#32) * u + v) (hg (i 1)) (hb (i 1))

/-! ## From the blocks to the array -/

section Array
variable (V : Ent) (c : Dev nD)

/-- What point `t` writes back is block `t` of the normalisation of the whole array of rows. -/
theorem flushed_eq (t : Fin cfg3.N) :
    (dat3 (F := Ideal) V c).flushed 3 t
      = ((cfg3.win 3).blk t).view.read (Elt Ideal)
          (Cert.Spec.lnorm (rowsArr V c) (gainArr V c) (shiftArr V c)) := by
  obtain ⟨-, -, -, -, -, -, e0, e1⟩ := idx_facts t
  show (cfg3.win 3).cut (grid3.coords t) (k3_pay1 (rowsBlk V c t) (gainBlk V c t) (shiftBlk V c t)) = _
  rw [pay_eq]
  funext j
  show Cert.Spec.lnorm (rowsBlk V c t) (gainBlk V c t) (shiftBlk V c t) j
      = Cert.Spec.lnorm (rowsArr V c) (gainArr V c) (shiftArr V c) (((cfg3.win 3).blk t).view.emb j)
  refine lnorm_rows (n := t.val) (rowsArr V c) (gainArr V c) (shiftArr V c) (rowsBlk V c t) (gainBlk V c t) (shiftBlk V c t)
    (rowsBlk_apply V c t) (gainBlk_apply V c t) (shiftBlk_apply V c t) j _ ?_ ?_
  · show win3_3.index t (0 : Fin 2) * 128 + 1 * (j 0).val = 128 * t.val + (j 0).val; omega
  · show win3_3.index t (1 : Fin 2) * 8192 + 1 * (j 1).val = (j 1).val; omega

/-- An index of the output array is in point `t`'s block iff each coordinate is in the block's range on its axis. -/
theorem mem_blk (t : Fin cfg3.N) (i : S8192x8192.Idx) :
    i ∈ ((cfg3.win 3).blk t).view.set ↔ ∀ a : Fin 2, win3_3.index t a * S128x8192.size a ≤ (i a).val
      ∧ (i a).val < win3_3.index t a * S128x8192.size a + S128x8192.size a := by
  show i ∈ ((View.whole main_v11).slice (win3_3.rect t)).set ↔ _
  rw [View.set_slice_whole, Rect.mem_set_unit]
  exact Iff.rfl

/-- Row `r` of the output array lies in the block written back at point `r / 128`. -/
theorem covered (i : S8192x8192.Idx) :
    ∃ t : Fin cfg3.N, (cfg3.win 3).flush t = true ∧ i ∈ ((cfg3.win 3).blk t).view.set := by
  have hi0 : (i 0).val < 8192 := (i 0).isLt
  have hi1 : (i 1).val < 8192 := (i 1).isLt
  have hN : cfg3.N = 64 := N_3
  have ht : (i 0).val / 128 < cfg3.N := by rw [hN]; omega
  obtain ⟨-, -, -, -, -, -, e0, e1⟩ := idx_facts ⟨(i 0).val / 128, ht⟩
  refine ⟨⟨(i 0).val / 128, ht⟩, flush3_3 _, ?_⟩
  rw [mem_blk]
  intro a
  match a with
  | ⟨0, _⟩ =>
    show win3_3.index ⟨(i 0).val / 128, ht⟩ (0 : Fin 2) * 128 ≤ (i 0).val
      ∧ (i 0).val < win3_3.index ⟨(i 0).val / 128, ht⟩ (0 : Fin 2) * 128 + 128
    rw [e0]; show (i 0).val / 128 * 128 ≤ (i 0).val ∧ (i 0).val < (i 0).val / 128 * 128 + 128; omega
  | ⟨1, _⟩ =>
    show win3_3.index ⟨(i 0).val / 128, ht⟩ (1 : Fin 2) * 8192 ≤ (i 1).val
      ∧ (i 1).val < win3_3.index ⟨(i 0).val / 128, ht⟩ (1 : Fin 2) * 8192 + 8192
    rw [e1]; omega

end Array

end Norm3

/-- Region 3 leaves the row-wise normalisation of the array of rows with the gain and shift rows: every block written
    back is the block of that one function, and the blocks cover the output array. -/
theorem kv3 : Leaves3 := fun V c =>
  (dat3 (F := Ideal) V c).arrAt_eq_of_cover 3 (Cert.Spec.lnorm (V c main_v8) (V c main_v9) (V c main_v10))
    (fun t _ => Norm3.flushed_eq V c t) Norm3.covered

end Cert.KernelIdeal.Val
end
-- ==== Proof.Val.KV4.lean ====
/- Region 4, the head's matrix product: after its 128 grid points the output array is the specification's head layer of
   the four arrays the region finds — x · softBin(W), scaled and shifted column by column — at the extended reals.
   The grid is 8 × 16 with the contraction axis fastest: point t has block row t / 16 and contraction block t % 16.
   * The body's payloads at an entry (p, q): the restart payload is 0; a step adds ∑ k < 512, xblk(p, k) · softBin(wblk(k, q))
     to the old entry (the product into the zero block is the bare sum; the format changes are identities); the epilogue
     is acc(p, q) · s(0, q) + b(0, q).
   * The x-block of point t at (p, k) is x at (1024·(t/16) + p, 512·(t%16) + k); the w-block at (k, q) is W at
     (512·(t%16) + k, q); the scale and shift blocks are the rows themselves. The index maps are decided once over the grid.
   * The accumulator after point t is the sum of the addends of the points 16·(t/16), …, t (a fold that restarts where
     t % 16 = 0). Where t % 16 = 15 the sixteen blocks of 512 make up the whole axis of 8192 (the pairs (s, k) ↦ k + 512·s
     enumerate it), so the stored entry (p, q) is the head layer at (1024·(t/16) + p, q).
   * Row r of the output lies in the block written back at point 16·(r/1024) + 15: the written-back blocks cover the array. -/
import proofs.«168041_j41042707481000_1_alg».proof.Proof.Val.Iface
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

namespace Dense4

/-! ## The block product at an index -/

theorem lhs4_0 (i : S1024x10.Idx) (q : dot_S1024x512_S512x10_S1024x10_1_0_0_1_n_n.contr.Idx) :
    (dot_S1024x512_S512x10_S1024x10_1_0_0_1_n_n.lhsIdx i q 0).val = (i 0).val := by
  unfold DotDims.lhsIdx
  rw [dif_neg (show ¬(0 : Fin S1024x512.rank) ∈ dot_S1024x512_S512x10_S1024x10_1_0_0_1_n_n.lhsBatch by decide), dif_pos (show (0 : Fin S1024x512.rank) ∈ dot_S1024x512_S512x10_S1024x10_1_0_0_1_n_n.lhsNonContracting by decide)]
  rfl
theorem lhs4_1 (i : S1024x10.Idx) (q : dot_S1024x512_S512x10_S1024x10_1_0_0_1_n_n.contr.Idx) :
    (dot_S1024x512_S512x10_S1024x10_1_0_0_1_n_n.lhsIdx i q 1).val = (q ⟨0, by decide⟩).val :=
  dot_S1024x512_S512x10_S1024x10_1_0_0_1_n_n.lhsIdx_val_of_single rfl i q
theorem rhs4_0 (i : S1024x10.Idx) (q : dot_S1024x512_S512x10_S1024x10_1_0_0_1_n_n.contr.Idx) :
    (dot_S1024x512_S512x10_S1024x10_1_0_0_1_n_n.rhsIdx i q 0).val = (q ⟨0, by decide⟩).val :=
  dot_S1024x512_S512x10_S1024x10_1_0_0_1_n_n.rhsIdx_val_of_single rfl i q
theorem rhs4_1 (i : S1024x10.Idx) (q : dot_S1024x512_S512x10_S1024x10_1_0_0_1_n_n.contr.Idx) :
    (dot_S1024x512_S512x10_S1024x10_1_0_0_1_n_n.rhsIdx i q 1).val = (i 1).val := by
  unfold DotDims.rhsIdx
  rw [dif_neg (show ¬(1 : Fin S512x10.rank) ∈ dot_S1024x512_S512x10_S1024x10_1_0_0_1_n_n.rhsBatch by decide), dif_pos (show (1 : Fin S512x10.rank) ∈ dot_S1024x512_S512x10_S1024x10_1_0_0_1_n_n.rhsNonContracting by decide)]
  rfl

/-- A 1024×512 block times a 512×10 block into the zero block, at entry `(p, q)`: the sum over the 512 shared indices. -/
theorem mm4_apply (x : FVec Ideal S1024x512 .bf16) (w : FVec Ideal S512x10 .bf16) (p : Fin 1024) (q : Fin 10) :
    matmul (F := Ideal) dot_S1024x512_S512x10_S1024x10_1_0_0_1_n_n none x w (constant (F := Ideal) S1024x10 .f32 0x00000000#32) (ix2 p q)
      = ∑ k : Fin 512, x (ix2 p k) * w (ix2 k q) := by
  simp only [matmul]
  rw [Ideal.matmul_constant_zero_apply, ← Equiv.sum_comp (contrEquiv1 dot_S1024x512_S512x10_S1024x10_1_0_0_1_n_n 512 rfl rfl).symm]
  refine Finset.sum_congr rfl fun k _ => ?_
  have hk := contrEquiv1_symm_val dot_S1024x512_S512x10_S1024x10_1_0_0_1_n_n 512 rfl rfl k
  have el : dot_S1024x512_S512x10_S1024x10_1_0_0_1_n_n.lhsIdx (ix2 p q) ((contrEquiv1 dot_S1024x512_S512x10_S1024x10_1_0_0_1_n_n 512 rfl rfl).symm k) = ix2 p k := funext fun a => Fin.ext (by
    match a with
    | ⟨0, _⟩ => exact lhs4_0 _ _
    | ⟨1, _⟩ => exact (lhs4_1 _ _).trans hk)
  have er : dot_S1024x512_S512x10_S1024x10_1_0_0_1_n_n.rhsIdx (ix2 p q) ((contrEquiv1 dot_S1024x512_S512x10_S1024x10_1_0_0_1_n_n 512 rfl rfl).symm k) = ix2 k q := funext fun a => Fin.ext (by
    match a with
    | ⟨0, _⟩ => exact (rhs4_0 _ _).trans hk
    | ⟨1, _⟩ => exact rhs4_1 _ _)
  rw [el, er]

/-! ## The body's three payloads at an index -/

/-- The restart payload is zero everywhere. -/
theorem pay1_apply (i : S1024x10.Idx) : k4_pay1 (F := Ideal) i = 0 := by
  unfold k4_pay1
  show Ideal.ofBits .f32 0x00000000#32 = 0
  exact Ideal.ofBits_zero_f32

/-- One accumulation step at entry `(p, q)`: the old entry plus the row of the x-block against the column of the
    transformed w-block. -/
theorem pay2_apply (wb : Vec Ideal S512x10 .f32) (xb : Vec Ideal S1024x512 .bf16) (acc : Vec Ideal S1024x10 .f32)
    (p : Fin 1024) (q : Fin 10) :
    k4_pay2 wb xb acc (ix2 p q) = acc (ix2 p q) + ∑ k : Fin 512, xb (ix2 p k) * Cert.Spec.softBin (wb (ix2 k q)) := by
  unfold k4_pay2
  simp only [shapeCast_self]
  show acc (ix2 p q) + matmul (F := Ideal) dot_S1024x512_S512x10_S1024x10_1_0_0_1_n_n none xb _ (constant (F := Ideal) S1024x10 .f32 0x00000000#32) (ix2 p q) = _
  rw [mm4_apply]
  rfl

/-- A row of 10 entries repeated down 1024 rows reads, at `(p, q)`, the row's entry `q`. -/
theorem bcast_row_apply (v : Vec Ideal S1x10 .f32) (p : Fin 1024) (q : Fin 10) :
    broadcastTo S1024x10 v broadcasts_S1x10_S1024x10 (ix2 p q) = v (ix2 (0 : Fin 1) q) := by
  refine broadcastTo_apply v _ (ix2 p q) (ix2 (0 : Fin 1) q) fun ax => ?_
  match ax with
  | ⟨0, _⟩ => rfl
  | ⟨1, _⟩ => rfl

/-- The epilogue at entry `(p, q)`: the accumulated entry times the column's scale plus the column's shift. -/
theorem pay3_apply (acc : Vec Ideal S1024x10 .f32) (s b : Vec Ideal S1x10 .f32) (p : Fin 1024) (q : Fin 10) :
    k4_pay3 acc s b (ix2 p q) = acc (ix2 p q) * s (ix2 0 q) + b (ix2 0 q) := by
  unfold k4_pay3
  simp only [shapeCast_self]
  show acc (ix2 p q) * broadcastTo S1024x10 s broadcasts_S1x10_S1024x10 (ix2 p q)
      + broadcastTo S1024x10 b broadcasts_S1x10_S1024x10 (ix2 p q) = _
  rw [bcast_row_apply, bcast_row_apply]
/-! ## The region's arrays and the blocks its windows read

Grid point `t` (of 128, the contraction axis fastest) has block row `t / 16` and contraction block `t % 16`. -/

variable (V : Ent) (c : Dev nD)

/-- The product's left array, 8192 × 8192. -/
abbrev xA : Cert.Spec.Mat 8192 8192 := V c main_v11
/-- The weights, 8192 × 10. -/
abbrev wA : Cert.Spec.Mat 8192 10 := V c main_arg11
/-- The scale row. -/
abbrev sA : Cert.Spec.Mat 1 10 := V c main_v12
/-- The shift row. -/
abbrev bA : Cert.Spec.Mat 1 10 := V c main_v13

/-- The x-block of point `t`, 1024 × 512. -/
abbrev xB (t : Fin cfg4.N) : Vec Ideal S1024x512 .bf16 := iblk4 (F := Ideal) V c 0 t
/-- The w-block of point `t`, 512 × 10. -/
abbrev wB (t : Fin cfg4.N) : Vec Ideal S512x10 .f32 := iblk4 (F := Ideal) V c 1 t
/-- The scale block of point `t`. -/
abbrev sB (t : Fin cfg4.N) : Vec Ideal S1x10 .f32 := iblk4 (F := Ideal) V c 2 t
/-- The shift block of point `t`. -/
abbrev bB (t : Fin cfg4.N) : Vec Ideal S1x10 .f32 := iblk4 (F := Ideal) V c 3 t

/-- The five index maps, decided once over the 128 grid points. -/
theorem idx_facts4 : ∀ t : Fin cfg4.N,
    win4_0.index t (0 : Fin 2) = t.val / 16 ∧ win4_0.index t (1 : Fin 2) = t.val % 16
    ∧ win4_1.index t (0 : Fin 2) = t.val % 16 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val / 16 ∧ win4_4.index t (1 : Fin 2) = 0 :=
  (by decide +kernel : ∀ t : Fin grid4.N, _)

/-- The x-block at point `t`, entry `(p, k)`, is x at `(1024·(t/16) + p, 512·(t%16) + k)`. -/
theorem blk0_apply (t : Fin cfg4.N) (p : Fin 1024) (k : Fin 512) (r kk : Fin 8192)
    (hr : r.val = t.val / 16 * 1024 + p.val) (hk : kk.val = t.val % 16 * 512 + k.val) :
    xB V c t (ix2 p k) = xA V c (ix2 r kk) := by
  obtain ⟨e0, e1, -⟩ := idx_facts4 t
  show V c main_v11 (((cfg4.win 0).blk t).view.emb (ix2 p k)) = V c main_v11 (ix2 r kk)
  refine congrArg (V c main_v11) ?_
  funext a; apply Fin.ext
  match a with
  | ⟨0, _⟩ => show win4_0.index t (0 : Fin 2) * 1024 + 1 * p.val = r.val; omega
  | ⟨1, _⟩ => show win4_0.index t (1 : Fin 2) * 512 + 1 * k.val = kk.val; omega

/-- The w-block at point `t`, entry `(k, q)`, is W at `(512·(t%16) + k, q)`. -/
theorem blk1_apply (t : Fin cfg4.N) (k : Fin 512) (q : Fin 10) (kk : Fin 8192)
    (hk : kk.val = t.val % 16 * 512 + k.val) :
    wB V c t (ix2 k q) = wA V c (ix2 kk q) := by
  obtain ⟨-, -, e0, e1, -⟩ := idx_facts4 t
  show V c main_arg11 (((cfg4.win 1).blk t).view.emb (ix2 k q)) = V c main_arg11 (ix2 kk q)
  refine congrArg (V c main_arg11) ?_
  funext a; apply Fin.ext
  match a with
  | ⟨0, _⟩ => show win4_1.index t (0 : Fin 2) * 512 + 1 * k.val = kk.val; omega
  | ⟨1, _⟩ => show win4_1.index t (1 : Fin 2) * 10 + 1 * q.val = q.val; omega

/-- The scale block is the scale row at every point. -/
theorem blk2_apply (t : Fin cfg4.N) (q : Fin 10) :
    sB V c t (ix2 (0 : Fin 1) q) = sA V c (ix2 0 q) := by
  obtain ⟨-, -, -, -, e0, e1, -⟩ := idx_facts4 t
  show V c main_v12 (((cfg4.win 2).blk t).view.emb (ix2 (0 : Fin 1) q)) = V c main_v12 (ix2 0 q)
  refine congrArg (V c main_v12) ?_
  funext a; apply Fin.ext
  match a with
  | ⟨0, _⟩ => show win4_2.index t (0 : Fin 2) * 1 + 1 * 0 = 0; omega
  | ⟨1, _⟩ => show win4_2.index t (1 : Fin 2) * 10 + 1 * q.val = q.val; omega

/-- The shift block is the shift row at every point. -/
theorem blk3_apply (t : Fin cfg4.N) (q : Fin 10) :
    bB V c t (ix2 (0 : Fin 1) q) = bA V c (ix2 0 q) := by
  obtain ⟨-, -, -, -, -, -, e0, e1, -⟩ := idx_facts4 t
  show V c main_v13 (((cfg4.win 3).blk t).view.emb (ix2 (0 : Fin 1) q)) = V c main_v13 (ix2 0 q)
  refine congrArg (V c main_v13) ?_
  funext a; apply Fin.ext
  match a with
  | ⟨0, _⟩ => show win4_3.index t (0 : Fin 2) * 1 + 1 * 0 = 0; omega
  | ⟨1, _⟩ => show win4_3.index t (1 : Fin 2) * 10 + 1 * q.val = q.val; omega

/-! ## The accumulator along the contraction axis -/

/-- What point `n` adds at entry `i`: the row of its x-block against the column of its transformed w-block (zero past
    the grid, where it is never used). -/
def addend (n : ℕ) (i : S1024x10.Idx) : EReal :=
  if h : n < cfg4.N then
    ∑ k : Fin 512, xB V c ⟨n, h⟩ (ix2 (i 0) k) * Cert.Spec.softBin (wB V c ⟨n, h⟩ (ix2 k (i 1)))
  else 0

/-- Where the contraction block is `0` the accumulator restarts from zero. -/
theorem acc4_restart (n : ℕ) (h : n < cfg4.N) (hm : n % 16 = 0) :
    acc4 (F := Ideal) V c n h = k4_pay2 (iblk4 V c 1 ⟨n, h⟩) (iblk4 V c 0 ⟨n, h⟩) (k4_pay1 (F := Ideal)) := by
  match n, h, hm with
  | 0, _, _ => rfl
  | n + 1, h, hm => rw [acc4, if_pos hm]

/-- Elsewhere it steps from what the point before left. -/
theorem acc4_step (n : ℕ) (h : n + 1 < cfg4.N) (hm : ¬(n + 1) % 16 = 0) :
    acc4 (F := Ideal) V c (n + 1) h
      = k4_pay2 (iblk4 V c 1 ⟨n + 1, h⟩) (iblk4 V c 0 ⟨n + 1, h⟩) (acc4 V c n (Nat.lt_of_succ_lt h)) := by
  rw [acc4, if_neg hm]

/-- After point `t` the accumulator holds, at every entry, the sum of the addends of the points of `t`'s run so far:
    `16·(t/16), …, t`. -/
theorem acc4_apply (t : ℕ) (ht : t < cfg4.N) (i : S1024x10.Idx) :
    acc4 (F := Ideal) V c t ht i = ∑ s ∈ Finset.range (t % 16 + 1), addend V c (16 * (t / 16) + s) i := by
  have h' : 16 * (t / 16) + t % 16 < cfg4.N := by rw [Nat.div_add_mod]; exact ht
  rw [Pipeline.eq_accAt_of_mod (acc4 (F := Ideal) V c) 16
    (fun n h => k4_pay2 (iblk4 V c 1 ⟨n, h⟩) (iblk4 V c 0 ⟨n, h⟩) (k4_pay1 (F := Ideal)))
    (fun n h a => k4_pay2 (iblk4 V c 1 ⟨n, h⟩) (iblk4 V c 0 ⟨n, h⟩) a)
    (acc4_restart V c) (acc4_step V c) (by decide) t ht h']
  refine (Pipeline.accAt_add_apply (ι := S1024x10.Idx) (β := EReal) _ _ (fun _ => 0) (addend V c) (16 * (t / 16)) (t % 16)
    ?_ ?_ (t % 16) le_rfl h' i).trans (zero_add _)
  · intro h j
    obtain ⟨p, q, rfl⟩ : ∃ (p : Fin 1024) (q : Fin 10), j = ix2 p q := ⟨j 0, j 1, eq_ix2 j⟩
    refine (pay2_apply _ _ _ p q).trans ?_
    rw [pay1_apply]
    unfold addend
    rw [dif_pos h]
  · intro n h a j _ _
    obtain ⟨p, q, rfl⟩ : ∃ (p : Fin 1024) (q : Fin 10), j = ix2 p q := ⟨j 0, j 1, eq_ix2 j⟩
    refine (pay2_apply _ _ _ p q).trans ?_
    unfold addend
    rw [dif_pos h]

/-! ## What a point that completes a contraction writes back -/

/-- The region's output as one function of its four arrays. -/
abbrev G4 : Cert.Spec.Mat 8192 10 := Cert.Spec.layer3 (xA V c) (wA V c) (sA V c) (bA V c)

/-- The sixteen blocks of 512 of a run make up the whole contraction axis: the run's addends at entry `(p, q)` sum to
    row `r` of x against column `q` of the transformed weights, `r = 1024·(t/16) + p`. -/
theorem run_sum (t : Fin cfg4.N) (p : Fin 1024) (q : Fin 10) (r : Fin 8192) (hr : r.val = t.val / 16 * 1024 + p.val) :
    ∑ s ∈ Finset.range 16, addend V c (16 * (t.val / 16) + s) (ix2 p q)
      = ∑ kk : Fin 8192, xA V c (ix2 r kk) * Cert.Spec.softBin (wA V c (ix2 kk q)) := by
  have ht : t.val < 128 := lt_of_lt_of_eq t.isLt N_4
  rw [Finset.sum_range, ← Equiv.sum_comp (finProdFinEquiv : Fin 16 × Fin 512 ≃ Fin 8192), Fintype.sum_prod_type]
  refine Finset.sum_congr rfl fun s _ => ?_
  have hs : s.val < 16 := s.isLt
  have hn : 16 * (t.val / 16) + s.val < cfg4.N := lt_of_lt_of_eq (by omega) N_4.symm
  unfold addend
  rw [dif_pos hn]
  refine Finset.sum_congr rfl fun k _ => ?_
  have hk : k.val < 512 := k.isLt
  have hv : ((finProdFinEquiv : Fin 16 × Fin 512 ≃ Fin 8192) (s, k)).val = k.val + 512 * s.val := rfl
  rw [blk0_apply V c ⟨16 * (t.val / 16) + s.val, hn⟩ p k r _ (by show r.val = (16 * (t.val / 16) + s.val) / 16 * 1024 + p.val; omega)
      (by show _ = (16 * (t.val / 16) + s.val) % 16 * 512 + k.val; rw [hv]; omega),
    blk1_apply V c ⟨16 * (t.val / 16) + s.val, hn⟩ k q _ (by show _ = (16 * (t.val / 16) + s.val) % 16 * 512 + k.val; rw [hv]; omega)]

/-- At a point whose contraction block is the last, the stored block's entry `(p, q)` is the head layer at
    `(1024·(t/16) + p, q)`. -/
theorem out4_apply (t : Fin cfg4.N) (hm : t.val % 16 = 15) (p : Fin 1024) (q : Fin 10) (r : Fin 8192)
    (hr : r.val = t.val / 16 * 1024 + p.val) :
    out4 (F := Ideal) V c t (ix2 p q) = G4 V c (ix2 r q) := by
  unfold out4
  refine (pay3_apply _ _ _ p q).trans ?_
  show acc4 (F := Ideal) V c t.val t.isLt (ix2 p q) * sB V c t (ix2 (0 : Fin 1) q) + bB V c t (ix2 (0 : Fin 1) q)
    = (∑ kk : Fin 8192, xA V c (ix2 r kk) * Cert.Spec.softBin (wA V c (ix2 kk q))) * sA V c (ix2 0 q) + bA V c (ix2 0 q)
  rw [blk2_apply, blk3_apply, acc4_apply, hm, run_sum V c t p q r hr]

/-- What point `t` writes back is block `t` of the head layer of the four arrays. -/
theorem flushed4_eq (t : Fin cfg4.N) (hf : (cfg4.win 4).flush t = true) :
    (dat4 (F := Ideal) V c).flushed 4 t = ((cfg4.win 4).blk t).view.read (Elt Ideal) (G4 V c) := by
  have hm : t.val % 16 = 15 := (flush4_4 t).mp hf
  have ht : t.val < 128 := lt_of_lt_of_eq t.isLt N_4
  obtain ⟨-, -, -, -, -, -, -, -, e0, e1⟩ := idx_facts4 t
  funext j
  have hj0 : (j 0).val < 1024 := (j 0).isLt
  have hj1 : (j 1).val < 10 := (j 1).isLt
  have hemb : ((cfg4.win 4).blk t).view.emb j
      = ix2 (⟨t.val / 16 * 1024 + (j 0).val, by omega⟩ : Fin 8192) (⟨(j 1).val, hj1⟩ : Fin 10) := by
    funext a; apply Fin.ext
    match a with
    | ⟨0, _⟩ => show win4_4.index t (0 : Fin 2) * 1024 + 1 * (j 0).val = t.val / 16 * 1024 + (j 0).val; omega
    | ⟨1, _⟩ => show win4_4.index t (1 : Fin 2) * 10 + 1 * (j 1).val = (j 1).val; omega
  show out4 (F := Ideal) V c t j = G4 V c (((cfg4.win 4).blk t).view.emb j)
  rw [hemb]
  have ej : j = ix2 (⟨(j 0).val, hj0⟩ : Fin 1024) (⟨(j 1).val, hj1⟩ : Fin 10) := by
    funext a
    match a with
    | ⟨0, _⟩ => rfl
    | ⟨1, _⟩ => rfl
  exact (congrArg (out4 (F := Ideal) V c t) ej).trans
    (out4_apply V c t hm ⟨(j 0).val, hj0⟩ ⟨(j 1).val, hj1⟩ ⟨t.val / 16 * 1024 + (j 0).val, by omega⟩ rfl)

/-! ## The written-back blocks cover the output array -/

/-- An index of the output array is in point `t`'s block iff each coordinate is in the block's range on its axis. -/
theorem mem_blk4 (t : Fin cfg4.N) (i : S8192x10.Idx) :
    i ∈ ((cfg4.win 4).blk t).view.set ↔ ∀ a : Fin 2, win4_4.index t a * S1024x10.size a ≤ (i a).val ∧ (i a).val < win4_4.index t a * S1024x10.size a + S1024x10.size a := by
  show i ∈ ((View.whole main_v14).slice (win4_4.rect t)).set ↔ _
  rw [View.set_slice_whole, Rect.mem_set_unit]
  exact Iff.rfl

/-- Row `r` of the output lies in the block written back at the last point of block row `r / 1024`'s run. -/
theorem cover4 (i : S8192x10.Idx) :
    ∃ t : Fin cfg4.N, (cfg4.win 4).flush t = true ∧ i ∈ ((cfg4.win 4).blk t).view.set := by
  have hi0 : (i 0).val < 8192 := (i 0).isLt
  have hi1 : (i 1).val < 10 := (i 1).isLt
  have hn : 16 * ((i 0).val / 1024) + 15 < cfg4.N := lt_of_lt_of_eq (by omega) N_4.symm
  refine ⟨⟨16 * ((i 0).val / 1024) + 15, hn⟩, (flush4_4 _).mpr (by show (16 * ((i 0).val / 1024) + 15) % 16 = 15; omega), ?_⟩
  obtain ⟨-, -, -, -, -, -, -, -, e0, e1⟩ := idx_facts4 ⟨16 * ((i 0).val / 1024) + 15, hn⟩
  have e0' : win4_4.index ⟨16 * ((i 0).val / 1024) + 15, hn⟩ (0 : Fin 2) = (16 * ((i 0).val / 1024) + 15) / 16 := e0
  rw [mem_blk4]
  intro a
  match a with
  | ⟨0, _⟩ =>
    show win4_4.index ⟨16 * ((i 0).val / 1024) + 15, hn⟩ (0 : Fin 2) * 1024 ≤ (i 0).val
      ∧ (i 0).val < win4_4.index ⟨16 * ((i 0).val / 1024) + 15, hn⟩ (0 : Fin 2) * 1024 + 1024
    omega
  | ⟨1, _⟩ =>
    show win4_4.index ⟨16 * ((i 0).val / 1024) + 15, hn⟩ (1 : Fin 2) * 10 ≤ (i 1).val
      ∧ (i 1).val < win4_4.index ⟨16 * ((i 0).val / 1024) + 15, hn⟩ (1 : Fin 2) * 10 + 10
    omega

end Dense4

/-! ## The region's output array -/

/-- Region 4 leaves the head layer of its four arrays. -/
theorem kv4 : Leaves4 := fun V c =>
  (dat4 (F := Ideal) V c).arrAt_eq_of_cover 4 (Dense4.G4 V c) (Dense4.flushed4_eq V c) Dense4.cover4

end Cert.KernelIdeal.Val

end
-- ==== Proof.Ref.RefDense.lean ====
/- The reference program's three matrix-product stages, each read index by index and identified with the
   specification's layer: the weight array is first transformed entry by entry (a scaled copy plus a steep sigmoid of
   the weight), the product is a sum over the whole contraction axis, and a per-column scale and shift (and, for the
   first two layers, a clamp below at zero) follow; the second layer then adds its own input, entry by entry. -/
import proofs.«168041_j41042707481000_1_alg».proof.Proof.Gen.ReferenceIdeal.Read
import proofs.«168041_j41042707481000_1_alg».proof.Proof.Spec

noncomputable section

namespace Cert.ReferenceIdeal.RefValue

open Cert.ReferenceIdeal Cert.ReferenceIdeal.Read Idealize.ShloMosaic Idealize.ShloMosaic.ValueIdx

/-- The word of `1.0` denotes the unit of the extended reals. -/
theorem word_one : Ideal.ofBits .f32 0x3F800000#32 = 1 := by
  simp [Ideal.ofBits, Ideal.ieee, -EReal.coe_mul]; norm_num

/-- The sigmoid as the reference spells it, `1 / (1 + exp (−t))` with both units written as the word of `1.0`,
    is the logistic function of `t`. -/
theorem spelled_logistic (t : EReal) :
    Ideal.div (Ideal.ofBits .f32 0x3F800000#32) (Ideal.ofBits .f32 0x3F800000#32 + Ideal.exp (-t)) = Ideal.logistic t := by
  rw [word_one]; rfl

/-- First layer: an entry of the transformed weight array is the signed soft weight of the same entry of `W1`. -/
theorem weight1_apply (x1 : (⟨S3072x8192, .f32⟩ : BufTy).Contents (Elt Ideal)) (j : S3072x8192.Idx) :
    val_main_v18 (F := Ideal) x1 j = Cert.Spec.softSign (x1 j) := by
  rw [val_main_v18_apply, val_main_v1_apply, val_main_v17_apply, val_main_v15_apply, val_main_v13_apply,
    val_main_v11_apply, val_main_v9_apply, val_main_v7_apply, val_main_v6_apply, val_main_v5_apply, val_main_v3_apply,
    val_main_v0_apply, val_main_v2_apply, val_main_v4_apply, val_main_v8_apply, val_main_v10_apply, val_main_v12_apply,
    val_main_v14_apply, val_main_v16_apply, val_main_cst_apply, val_main_cst_0_apply, val_main_cst_1_apply,
    val_main_cst_2_apply, val_main_cst_3_apply, val_main_cst_4_apply, val_main_cst_5_apply, val_main_cst_6_apply]
  simp only [Ideal.ofBits_def, Ideal.addf_def, Ideal.subf_def, Ideal.mulf_def, Ideal.hostDivf_def, Ideal.hostNegf_def,
    Ideal.negf_def, Ideal.hostUnary_exp_def, spelled_logistic]
  rfl

/-- The first layer of the reference: at an index, the product of the input row with the transformed weight column,
    scaled by the column's entry of `s1`, shifted by the column's entry of `b1`, and clamped below at the zero word. -/
theorem ref_v26 (x0 : (⟨S8192x3072, .f32⟩ : BufTy).Contents (Elt Ideal)) (x1 : (⟨S3072x8192, .f32⟩ : BufTy).Contents (Elt Ideal))
    (x2 x3 : (⟨S8192, .f32⟩ : BufTy).Contents (Elt Ideal)) :
    val_main_v26 (F := Ideal) x0 x1 x2 x3 = Cert.Spec.layer1 x0 x1 (Cert.Spec.asRow x3) (Cert.Spec.asRow x2) := by
  funext i
  -- the operands' indices, by coordinates: row of the input, column of the weights, column of the scale and shift
  have hl : ∀ k : Fin 3072, lidx_main_v19 i k = ix2 (n0 := 8192) (n1 := 3072) (i 0) k := fun k =>
    funext fun a => Fin.ext (by match a with | ⟨0, _⟩ => rfl | ⟨1, _⟩ => rfl)
  have hr : ∀ k : Fin 3072, ridx_main_v19 i k = ix2 (n0 := 3072) (n1 := 8192) k (i 1) := fun k =>
    funext fun a => Fin.ext (by match a with | ⟨0, _⟩ => rfl | ⟨1, _⟩ => rfl)
  have hs : idx_main_v20 (idx_main_v21 i) = ix1 (n := 8192) (i 1) :=
    funext fun a => Fin.ext (by match a with | ⟨0, _⟩ => rfl)
  have hb : idx_main_v23 (idx_main_v24 i) = ix1 (n := 8192) (i 1) :=
    funext fun a => Fin.ext (by match a with | ⟨0, _⟩ => rfl)
  rw [val_main_v26_apply, val_main_v25_apply, val_main_v22_apply, val_main_v19_apply, val_main_v21_apply,
    val_main_v20_apply, val_main_v24_apply, val_main_v23_apply, val_main_call0_v0_apply, val_main_call0_cst_apply]
  simp only [hl, hr, hs, hb, weight1_apply, Ideal.ofBits_def, Ideal.addf_def, Ideal.mulf_def, Ideal.maximumf_def]
  rfl

/-- Second layer: an entry of the transformed weight array is the unsigned soft weight of the same entry of `W2`. -/
theorem weight2_apply (x6 : (⟨S8192x8192, .f32⟩ : BufTy).Contents (Elt Ideal)) (j : S8192x8192.Idx) :
    val_main_v65 (F := Ideal) x6 j = Cert.Spec.softBin (x6 j) := by
  rw [val_main_v65_apply, val_main_v52_apply, val_main_v64_apply, val_main_v62_apply, val_main_v60_apply,
    val_main_v58_apply, val_main_v57_apply, val_main_v56_apply, val_main_v54_apply, val_main_v51_apply,
    val_main_v53_apply, val_main_v55_apply, val_main_v59_apply, val_main_v61_apply, val_main_v63_apply,
    val_main_cst_12_apply, val_main_cst_13_apply, val_main_cst_14_apply, val_main_cst_15_apply,
    val_main_cst_16_apply, val_main_cst_17_apply]
  simp only [Ideal.ofBits_def, Ideal.addf_def, Ideal.mulf_def, Ideal.hostDivf_def, Ideal.hostNegf_def,
    Ideal.negf_def, Ideal.hostUnary_exp_def, spelled_logistic]
  rfl

/-- The second layer of the reference: at an index, the product of the normalised row with the transformed weight
    column, scaled by the column's entry of `s2`, shifted by the column's entry of `b2`, clamped below at the zero
    word, plus the same entry of the layer's own input (the first normalisation's output). -/
theorem ref_v74 (x0 : (⟨S8192x3072, .f32⟩ : BufTy).Contents (Elt Ideal)) (x1 : (⟨S3072x8192, .f32⟩ : BufTy).Contents (Elt Ideal))
    (x2 x3 x4 x5 : (⟨S8192, .f32⟩ : BufTy).Contents (Elt Ideal)) (x6 : (⟨S8192x8192, .f32⟩ : BufTy).Contents (Elt Ideal))
    (x7 x8 : (⟨S8192, .f32⟩ : BufTy).Contents (Elt Ideal)) :
    val_main_v74 (F := Ideal) x0 x1 x2 x3 x4 x5 x6 x7 x8
      = Cert.Spec.layer2 (val_main_v50 (F := Ideal) x0 x1 x2 x3 x4 x5) x6 (Cert.Spec.asRow x8) (Cert.Spec.asRow x7) := by
  funext i
  -- the operands' indices, by coordinates: row of the input, column of the weights, column of the scale and shift
  have hl : ∀ k : Fin 8192, lidx_main_v66 i k = ix2 (n0 := 8192) (n1 := 8192) (i 0) k := fun k =>
    funext fun a => Fin.ext (by match a with | ⟨0, _⟩ => rfl | ⟨1, _⟩ => rfl)
  have hr : ∀ k : Fin 8192, ridx_main_v66 i k = ix2 (n0 := 8192) (n1 := 8192) k (i 1) := fun k =>
    funext fun a => Fin.ext (by match a with | ⟨0, _⟩ => rfl | ⟨1, _⟩ => rfl)
  have hs : idx_main_v67 (idx_main_v68 i) = ix1 (n := 8192) (i 1) :=
    funext fun a => Fin.ext (by match a with | ⟨0, _⟩ => rfl)
  have hb : idx_main_v70 (idx_main_v71 i) = ix1 (n := 8192) (i 1) :=
    funext fun a => Fin.ext (by match a with | ⟨0, _⟩ => rfl)
  rw [val_main_v74_apply, val_main_v73_apply, val_main_v72_apply, val_main_v69_apply, val_main_v66_apply,
    val_main_v68_apply, val_main_v67_apply, val_main_v71_apply, val_main_v70_apply, val_main_call1_v0_apply,
    val_main_call1_cst_apply]
  simp only [hl, hr, hs, hb, weight2_apply]
  generalize val_main_v50 (F := Ideal) x0 x1 x2 x3 x4 x5 = y
  simp only [Ideal.ofBits_def, Ideal.addf_def, Ideal.mulf_def, Ideal.maximumf_def]
  rfl

/-- The head: an entry of the transformed weight array is the unsigned soft weight of the same entry of `W3`. -/
theorem weight3_apply (x11 : (⟨S8192x10, .f32⟩ : BufTy).Contents (Elt Ideal)) (j : S8192x10.Idx) :
    val_main_v113 (F := Ideal) x11 j = Cert.Spec.softBin (x11 j) := by
  rw [val_main_v113_apply, val_main_v100_apply, val_main_v112_apply, val_main_v110_apply, val_main_v108_apply,
    val_main_v106_apply, val_main_v105_apply, val_main_v104_apply, val_main_v102_apply, val_main_v99_apply,
    val_main_v101_apply, val_main_v103_apply, val_main_v107_apply, val_main_v109_apply, val_main_v111_apply,
    val_main_cst_23_apply, val_main_cst_24_apply, val_main_cst_25_apply, val_main_cst_26_apply,
    val_main_cst_27_apply, val_main_cst_28_apply]
  simp only [Ideal.ofBits_def, Ideal.addf_def, Ideal.mulf_def, Ideal.hostDivf_def, Ideal.hostNegf_def,
    Ideal.negf_def, Ideal.hostUnary_exp_def, spelled_logistic]
  rfl

/-- The head of the reference: at an index, the product of the twice-normalised row with the transformed weight
    column, scaled by the column's entry of `s3` and shifted by the column's entry of `b3`; nothing is clamped. -/
theorem ref_v120 (x0 : (⟨S8192x3072, .f32⟩ : BufTy).Contents (Elt Ideal)) (x1 : (⟨S3072x8192, .f32⟩ : BufTy).Contents (Elt Ideal))
    (x2 x3 x4 x5 : (⟨S8192, .f32⟩ : BufTy).Contents (Elt Ideal)) (x6 : (⟨S8192x8192, .f32⟩ : BufTy).Contents (Elt Ideal))
    (x7 x8 x9 x10 : (⟨S8192, .f32⟩ : BufTy).Contents (Elt Ideal)) (x11 : (⟨S8192x10, .f32⟩ : BufTy).Contents (Elt Ideal))
    (x12 x13 : (⟨S10, .f32⟩ : BufTy).Contents (Elt Ideal)) :
    val_main_v120 (F := Ideal) x0 x1 x2 x3 x4 x5 x6 x7 x8 x9 x10 x11 x12 x13
      = Cert.Spec.layer3 (val_main_v98 (F := Ideal) x0 x1 x2 x3 x4 x5 x6 x7 x8 x9 x10) x11 (Cert.Spec.asRow x13) (Cert.Spec.asRow x12) := by
  funext i
  -- the operands' indices, by coordinates: row of the input, column of the weights, column of the scale and shift
  have hl : ∀ k : Fin 8192, lidx_main_v114 i k = ix2 (n0 := 8192) (n1 := 8192) (i 0) k := fun k =>
    funext fun a => Fin.ext (by match a with | ⟨0, _⟩ => rfl | ⟨1, _⟩ => rfl)
  have hr : ∀ k : Fin 8192, ridx_main_v114 i k = ix2 (n0 := 8192) (n1 := 10) k (i 1) := fun k =>
    funext fun a => Fin.ext (by match a with | ⟨0, _⟩ => rfl | ⟨1, _⟩ => rfl)
  have hs : idx_main_v115 (idx_main_v116 i) = ix1 (n := 10) (i 1) :=
    funext fun a => Fin.ext (by match a with | ⟨0, _⟩ => rfl)
  have hb : idx_main_v118 (idx_main_v119 i) = ix1 (n := 10) (i 1) :=
    funext fun a => Fin.ext (by match a with | ⟨0, _⟩ => rfl)
  rw [val_main_v120_apply, val_main_v117_apply, val_main_v114_apply, val_main_v116_apply, val_main_v115_apply,
    val_main_v119_apply, val_main_v118_apply]
  simp only [hl, hr, hs, hb, weight3_apply]
  generalize val_main_v98 (F := Ideal) x0 x1 x2 x3 x4 x5 x6 x7 x8 x9 x10 = y
  simp only [Ideal.addf_def, Ideal.mulf_def]
  rfl

end Cert.ReferenceIdeal.RefValue

end
-- ==== Proof.Ref.RefNorm.lean ====
/- The two row-wise normalisations of the reference program, index by index.
   Each stage takes the previous stage's 8192 × 8192 array, forms every row's mean (the row's sum over the word of
   8192), the mean of the squared deviations from it, and writes
   (entry − mean) · rsqrt(variance + ε) · gain + shift, gain and shift being vectors laid along a row.
   The row sums start from the zero word, which adds nothing; the quotient by the word of 8192 is the ideal
   division; a broadcast of a column of row statistics reads the statistic of the entry's own row. -/
import proofs.«168041_j41042707481000_1_alg».proof.Proof.Gen.ReferenceIdeal.Read
import proofs.«168041_j41042707481000_1_alg».proof.Proof.Spec

noncomputable section

namespace Cert.ReferenceIdeal.RefValue

open Cert.ReferenceIdeal Cert.ReferenceIdeal.Read
open Idealize.ShloMosaic Idealize.ShloMosaic.ValueIdx

/-! ## The first normalisation: operations 27 to 50 over the first layer's clamped product -/

/-- The column of row means: entry `(r, 0)` is the mean of row `r` of the clamped product. -/
theorem mean_first (x0 : (⟨S8192x3072, .f32⟩ : BufTy).Contents (Elt Ideal)) (x1 : (⟨S3072x8192, .f32⟩ : BufTy).Contents (Elt Ideal))
    (x2 x3 : (⟨S8192, .f32⟩ : BufTy).Contents (Elt Ideal)) (r : Fin 8192) (z : Fin 1) :
    val_main_v30 (F := Ideal) x0 x1 x2 x3 (ix2 r z) = Cert.Spec.rowMean (val_main_v26 (F := Ideal) x0 x1 x2 x3) r := by
  rw [val_main_v30_apply, val_main_v28_apply, val_main_v27_apply, val_main_v29_apply, val_main_cst_7_apply,
    val_main_cst_8_apply]
  generalize val_main_v26 (F := Ideal) x0 x1 x2 x3 = y
  simp only [Ideal.hostDivf_def, Ideal.ofBits_def, Ideal.ofBits_zero_f32, zero_add]
  unfold Cert.Spec.rowMean
  refine congrArg (fun s => Ideal.div s _) (Finset.sum_congr rfl fun k _ => congrArg y ?_)
  exact funext fun a => Fin.ext (by match a with | ⟨0, _⟩ => rfl | ⟨1, _⟩ => rfl)

/-- The column of row variances: entry `(r, 0)` is the mean squared deviation of row `r` from its mean. -/
theorem var_first (x0 : (⟨S8192x3072, .f32⟩ : BufTy).Contents (Elt Ideal)) (x1 : (⟨S3072x8192, .f32⟩ : BufTy).Contents (Elt Ideal))
    (x2 x3 : (⟨S8192, .f32⟩ : BufTy).Contents (Elt Ideal)) (r : Fin 8192) (z : Fin 1) :
    val_main_v37 (F := Ideal) x0 x1 x2 x3 (ix2 r z) = Cert.Spec.rowVar (val_main_v26 (F := Ideal) x0 x1 x2 x3) r := by
  rw [val_main_v37_apply, val_main_v35_apply, val_main_v34_apply, val_main_v36_apply, val_main_cst_9_apply,
    val_main_cst_10_apply]
  have hterm : ∀ k : Fin 8192, val_main_v33 (F := Ideal) x0 x1 x2 x3 (idx_main_v34 (idx_main_v35 (ix2 r z)) k)
      = (val_main_v26 (F := Ideal) x0 x1 x2 x3 (ix2 r k) - Cert.Spec.rowMean (val_main_v26 (F := Ideal) x0 x1 x2 x3) r)
        * (val_main_v26 (F := Ideal) x0 x1 x2 x3 (ix2 r k) - Cert.Spec.rowMean (val_main_v26 (F := Ideal) x0 x1 x2 x3) r) := by
    intro k
    have e : idx_main_v34 (idx_main_v35 (ix2 r z)) k = ix2 r k :=
      funext fun a => Fin.ext (by match a with | ⟨0, _⟩ => rfl | ⟨1, _⟩ => rfl)
    have e' : idx_main_v31 (ix2 r k) = ix2 r (0 : Fin 1) :=
      funext fun a => Fin.ext (by match a with | ⟨0, _⟩ => rfl | ⟨1, _⟩ => rfl)
    rw [e, val_main_v33_apply, val_main_v32_apply, val_main_v31_apply, e', mean_first]
    rfl
  simp only [hterm]
  generalize val_main_v26 (F := Ideal) x0 x1 x2 x3 = y
  simp only [Ideal.hostDivf_def, Ideal.ofBits_def, Ideal.ofBits_zero_f32, zero_add]
  rfl

/-- THE FIRST NORMALISATION is the row-wise normalisation of the first layer's clamped product, with gain `x4` and
    shift `x5` read along the row. -/
theorem ref_v50 (x0 : (⟨S8192x3072, .f32⟩ : BufTy).Contents (Elt Ideal)) (x1 : (⟨S3072x8192, .f32⟩ : BufTy).Contents (Elt Ideal))
    (x2 x3 x4 x5 : (⟨S8192, .f32⟩ : BufTy).Contents (Elt Ideal)) :
    val_main_v50 (F := Ideal) x0 x1 x2 x3 x4 x5
      = Cert.Spec.lnorm (val_main_v26 (F := Ideal) x0 x1 x2 x3) (Cert.Spec.asRow x4) (Cert.Spec.asRow x5) := by
  funext i
  obtain ⟨p, q, rfl⟩ : ∃ (p q : Fin 8192), i = ix2 p q := ⟨i 0, i 1, eq_ix2 i⟩
  have e38 : idx_main_v38 (ix2 p q) = ix2 p (0 : Fin 1) :=
    funext fun a => Fin.ext (by match a with | ⟨0, _⟩ => rfl | ⟨1, _⟩ => rfl)
  have e43 : idx_main_v43 (ix2 p q) = ix2 p (0 : Fin 1) :=
    funext fun a => Fin.ext (by match a with | ⟨0, _⟩ => rfl | ⟨1, _⟩ => rfl)
  have e45 : idx_main_v45 (idx_main_v46 (ix2 p q)) = ix1 q :=
    funext fun a => Fin.ext (by match a with | ⟨0, _⟩ => rfl)
  have e48 : idx_main_v48 (idx_main_v49 (ix2 p q)) = ix1 q :=
    funext fun a => Fin.ext (by match a with | ⟨0, _⟩ => rfl)
  rw [val_main_v50_apply, val_main_v47_apply, val_main_v49_apply, val_main_v48_apply, val_main_v44_apply,
    val_main_v46_apply, val_main_v45_apply, val_main_v39_apply, val_main_v43_apply, val_main_v42_apply,
    val_main_v41_apply, val_main_v40_apply, val_main_cst_11_apply, val_main_v38_apply, e38, e43, e45, e48,
    mean_first, var_first]
  generalize val_main_v26 (F := Ideal) x0 x1 x2 x3 = y
  simp only [Ideal.addf_def, Ideal.mulf_def, Ideal.subf_def, Ideal.hostUnary_rsqrt_def, Ideal.ofBits_def]
  rfl

/-! ## The second normalisation: operations 75 to 98 over the second layer's clamped product plus its input -/

/-- The column of row means of the second layer's output: entry `(r, 0)` is the mean of row `r`. -/
theorem mean_second (x0 : (⟨S8192x3072, .f32⟩ : BufTy).Contents (Elt Ideal)) (x1 : (⟨S3072x8192, .f32⟩ : BufTy).Contents (Elt Ideal))
    (x2 x3 x4 x5 : (⟨S8192, .f32⟩ : BufTy).Contents (Elt Ideal)) (x6 : (⟨S8192x8192, .f32⟩ : BufTy).Contents (Elt Ideal))
    (x7 x8 : (⟨S8192, .f32⟩ : BufTy).Contents (Elt Ideal)) (r : Fin 8192) (z : Fin 1) :
    val_main_v78 (F := Ideal) x0 x1 x2 x3 x4 x5 x6 x7 x8 (ix2 r z) = Cert.Spec.rowMean (val_main_v74 (F := Ideal) x0 x1 x2 x3 x4 x5 x6 x7 x8) r := by
  rw [val_main_v78_apply, val_main_v76_apply, val_main_v75_apply, val_main_v77_apply, val_main_cst_18_apply,
    val_main_cst_19_apply]
  generalize val_main_v74 (F := Ideal) x0 x1 x2 x3 x4 x5 x6 x7 x8 = y
  simp only [Ideal.hostDivf_def, Ideal.ofBits_def, Ideal.ofBits_zero_f32, zero_add]
  unfold Cert.Spec.rowMean
  refine congrArg (fun s => Ideal.div s _) (Finset.sum_congr rfl fun k _ => congrArg y ?_)
  exact funext fun a => Fin.ext (by match a with | ⟨0, _⟩ => rfl | ⟨1, _⟩ => rfl)

/-- The column of row variances of the second layer's output: entry `(r, 0)` is the mean squared deviation of row
    `r` from its mean. -/
theorem var_second (x0 : (⟨S8192x3072, .f32⟩ : BufTy).Contents (Elt Ideal)) (x1 : (⟨S3072x8192, .f32⟩ : BufTy).Contents (Elt Ideal))
    (x2 x3 x4 x5 : (⟨S8192, .f32⟩ : BufTy).Contents (Elt Ideal)) (x6 : (⟨S8192x8192, .f32⟩ : BufTy).Contents (Elt Ideal))
    (x7 x8 : (⟨S8192, .f32⟩ : BufTy).Contents (Elt Ideal)) (r : Fin 8192) (z : Fin 1) :
    val_main_v85 (F := Ideal) x0 x1 x2 x3 x4 x5 x6 x7 x8 (ix2 r z) = Cert.Spec.rowVar (val_main_v74 (F := Ideal) x0 x1 x2 x3 x4 x5 x6 x7 x8) r := by
  rw [val_main_v85_apply, val_main_v83_apply, val_main_v82_apply, val_main_v84_apply, val_main_cst_20_apply,
    val_main_cst_21_apply]
  have hterm : ∀ k : Fin 8192, val_main_v81 (F := Ideal) x0 x1 x2 x3 x4 x5 x6 x7 x8 (idx_main_v82 (idx_main_v83 (ix2 r z)) k)
      = (val_main_v74 (F := Ideal) x0 x1 x2 x3 x4 x5 x6 x7 x8 (ix2 r k) - Cert.Spec.rowMean (val_main_v74 (F := Ideal) x0 x1 x2 x3 x4 x5 x6 x7 x8) r)
        * (val_main_v74 (F := Ideal) x0 x1 x2 x3 x4 x5 x6 x7 x8 (ix2 r k) - Cert.Spec.rowMean (val_main_v74 (F := Ideal) x0 x1 x2 x3 x4 x5 x6 x7 x8) r) := by
    intro k
    have e : idx_main_v82 (idx_main_v83 (ix2 r z)) k = ix2 r k :=
      funext fun a => Fin.ext (by match a with | ⟨0, _⟩ => rfl | ⟨1, _⟩ => rfl)
    have e' : idx_main_v79 (ix2 r k) = ix2 r (0 : Fin 1) :=
      funext fun a => Fin.ext (by match a with | ⟨0, _⟩ => rfl | ⟨1, _⟩ => rfl)
    rw [e, val_main_v81_apply, val_main_v80_apply, val_main_v79_apply, e', mean_second]
    rfl
  simp only [hterm]
  generalize val_main_v74 (F := Ideal) x0 x1 x2 x3 x4 x5 x6 x7 x8 = y
  simp only [Ideal.hostDivf_def, Ideal.ofBits_def, Ideal.ofBits_zero_f32, zero_add]
  rfl

/-- THE SECOND NORMALISATION is the row-wise normalisation of the second layer's output (clamped product plus the
    layer's input), with gain `x9` and shift `x10` read along the row. -/
theorem ref_v98 (x0 : (⟨S8192x3072, .f32⟩ : BufTy).Contents (Elt Ideal)) (x1 : (⟨S3072x8192, .f32⟩ : BufTy).Contents (Elt Ideal))
    (x2 x3 x4 x5 : (⟨S8192, .f32⟩ : BufTy).Contents (Elt Ideal)) (x6 : (⟨S8192x8192, .f32⟩ : BufTy).Contents (Elt Ideal))
    (x7 x8 : (⟨S8192, .f32⟩ : BufTy).Contents (Elt Ideal))
    (x9 x10 : (⟨S8192, .f32⟩ : BufTy).Contents (Elt Ideal)) :
    val_main_v98 (F := Ideal) x0 x1 x2 x3 x4 x5 x6 x7 x8 x9 x10
      = Cert.Spec.lnorm (val_main_v74 (F := Ideal) x0 x1 x2 x3 x4 x5 x6 x7 x8) (Cert.Spec.asRow x9) (Cert.Spec.asRow x10) := by
  funext i
  obtain ⟨p, q, rfl⟩ : ∃ (p q : Fin 8192), i = ix2 p q := ⟨i 0, i 1, eq_ix2 i⟩
  have e86 : idx_main_v86 (ix2 p q) = ix2 p (0 : Fin 1) :=
    funext fun a => Fin.ext (by match a with | ⟨0, _⟩ => rfl | ⟨1, _⟩ => rfl)
  have e91 : idx_main_v91 (ix2 p q) = ix2 p (0 : Fin 1) :=
    funext fun a => Fin.ext (by match a with | ⟨0, _⟩ => rfl | ⟨1, _⟩ => rfl)
  have e93 : idx_main_v93 (idx_main_v94 (ix2 p q)) = ix1 q :=
    funext fun a => Fin.ext (by match a with | ⟨0, _⟩ => rfl)
  have e96 : idx_main_v96 (idx_main_v97 (ix2 p q)) = ix1 q :=
    funext fun a => Fin.ext (by match a with | ⟨0, _⟩ => rfl)
  rw [val_main_v98_apply, val_main_v95_apply, val_main_v97_apply, val_main_v96_apply, val_main_v92_apply,
    val_main_v94_apply, val_main_v93_apply, val_main_v87_apply, val_main_v91_apply, val_main_v90_apply,
    val_main_v89_apply, val_main_v88_apply, val_main_cst_22_apply, val_main_v86_apply, e86, e91, e93, e96,
    mean_second, var_second]
  generalize val_main_v74 (F := Ideal) x0 x1 x2 x3 x4 x5 x6 x7 x8 = y
  simp only [Ideal.addf_def, Ideal.mulf_def, Ideal.subf_def, Ideal.hostUnary_rsqrt_def, Ideal.ofBits_def]
  rfl

end Cert.ReferenceIdeal.RefValue

end
-- ==== Proof.Ref.RefNet.lean ====
/- The reference program's result is the specification's network of the fourteen argument arrays: its five stages —
   first layer, normalisation, second layer with its residual, normalisation, head — are the specification's, and the
   network is their composition. -/
import proofs.«168041_j41042707481000_1_alg».proof.Proof.Ref.RefDense
import proofs.«168041_j41042707481000_1_alg».proof.Proof.Ref.RefNorm

noncomputable section

namespace Cert.ReferenceIdeal.RefValue

open Cert.ReferenceIdeal Cert.ReferenceIdeal.Read Idealize.ShloMosaic Idealize.ShloMosaic.ValueIdx

/-- The last stage of the reference is the whole network. -/
theorem ref_net (x0 : (⟨S8192x3072, .f32⟩ : BufTy).Contents (Elt Ideal)) (x1 : (⟨S3072x8192, .f32⟩ : BufTy).Contents (Elt Ideal))
    (x2 x3 x4 x5 : (⟨S8192, .f32⟩ : BufTy).Contents (Elt Ideal)) (x6 : (⟨S8192x8192, .f32⟩ : BufTy).Contents (Elt Ideal))
    (x7 x8 x9 x10 : (⟨S8192, .f32⟩ : BufTy).Contents (Elt Ideal)) (x11 : (⟨S8192x10, .f32⟩ : BufTy).Contents (Elt Ideal))
    (x12 x13 : (⟨S10, .f32⟩ : BufTy).Contents (Elt Ideal)) :
    val_main_v120 (F := Ideal) x0 x1 x2 x3 x4 x5 x6 x7 x8 x9 x10 x11 x12 x13
      = Cert.Spec.net x0 x1 x2 x3 x4 x5 x6 x7 x8 x9 x10 x11 x12 x13 := by
  rw [ref_v120, ref_v98, ref_v74, ref_v50, ref_v26]
  rfl

end Cert.ReferenceIdeal.RefValue

end
-- ==== Proof.lean ====
/- The kernel is a three-layer network: a matrix product against weights pushed towards two values by a steep sigmoid,
   scaled and shifted column by column and clamped below at zero; a row-wise normalisation; a second such layer that
   adds its own input back; a second normalisation; and a head without a clamp. It runs as five pipelined regions
   (the three products accumulate block products along the contraction axis in a scratch buffer), the reference as one
   straight line of whole-array operations. Both programs are run to their ends, each region's output array is read as
   the specification's layer of the arrays the region finds, the regions compose to the specification's network of the
   fourteen argument arrays, and the reference's last stage is the same network: on the extended reals a sum may be
   taken block by block, so no finiteness of the inputs is used. The ideal pass rewrote nothing, so the word-level
   program's frame is the idealized program's frame read at the word-level instance. -/
import proofs.«168041_j41042707481000_1_alg».proof.Defs
import proofs.«168041_j41042707481000_1_alg».proof.Proof.Gen.Kernel
import proofs.«168041_j41042707481000_1_alg».proof.Proof.Gen.Kernel.Skeleton
import proofs.«168041_j41042707481000_1_alg».proof.Proof.Gen.Kernel.Launch
import proofs.«168041_j41042707481000_1_alg».proof.Proof.Gen.Kernel.Regions
import proofs.«168041_j41042707481000_1_alg».proof.Proof.Gen.Kernel.Points
import proofs.«168041_j41042707481000_1_alg».proof.Proof.Gen.KernelIdeal
import proofs.«168041_j41042707481000_1_alg».proof.Proof.Gen.KernelIdeal.Skeleton
import proofs.«168041_j41042707481000_1_alg».proof.Proof.Gen.KernelIdeal.Launch
import proofs.«168041_j41042707481000_1_alg».proof.Proof.Gen.KernelIdeal.Regions
import proofs.«168041_j41042707481000_1_alg».proof.Proof.Gen.KernelIdeal.Points
import proofs.«168041_j41042707481000_1_alg».proof.Proof.Gen.ReferenceIdeal
import proofs.«168041_j41042707481000_1_alg».proof.Proof.Gen.Pre_finite_inputs
import Idealize.ShloMosaic.Adequacy
import Idealize.ShloMosaic.Init
import proofs.«168041_j41042707481000_1_alg».proof.Proof.KI.Run
import proofs.«168041_j41042707481000_1_alg».proof.Proof.KI.Body0
import proofs.«168041_j41042707481000_1_alg».proof.Proof.KI.Body1
import proofs.«168041_j41042707481000_1_alg».proof.Proof.KI.Body2
import proofs.«168041_j41042707481000_1_alg».proof.Proof.KI.Body3
import proofs.«168041_j41042707481000_1_alg».proof.Proof.KI.Body4
import proofs.«168041_j41042707481000_1_alg».proof.Proof.K.Run
import proofs.«168041_j41042707481000_1_alg».proof.Proof.K.Body0
import proofs.«168041_j41042707481000_1_alg».proof.Proof.K.Body1
import proofs.«168041_j41042707481000_1_alg».proof.Proof.K.Body2
import proofs.«168041_j41042707481000_1_alg».proof.Proof.K.Body3
import proofs.«168041_j41042707481000_1_alg».proof.Proof.K.Body4
import proofs.«168041_j41042707481000_1_alg».proof.Proof.Val.Net
import proofs.«168041_j41042707481000_1_alg».proof.Proof.Val.KV0
import proofs.«168041_j41042707481000_1_alg».proof.Proof.Val.KV1
import proofs.«168041_j41042707481000_1_alg».proof.Proof.Val.KV2
import proofs.«168041_j41042707481000_1_alg».proof.Proof.Val.KV3
import proofs.«168041_j41042707481000_1_alg».proof.Proof.Val.KV4
import proofs.«168041_j41042707481000_1_alg».proof.Proof.Ref.RefNet

noncomputable section

namespace Cert.Proof

open Idealize.ShloMosaic Idealize.SL.Sem

/-- The five regions' bodies of the idealized program leave what the proof data say, at any float instance. -/
theorem bodiesIdeal (F : FTy → Type) [FloatOps F] : Cert.KernelIdeal.Hand.Bodies F :=
  ⟨fun V c => Cert.KernelIdeal.Hand.body_obligation0 V c, fun V c => Cert.KernelIdeal.Hand.hin0 V c, fun V c => Cert.KernelIdeal.Hand.hout0 V c,
   fun V c => Cert.KernelIdeal.Hand.body_obligation1 V c,
   fun V c => Cert.KernelIdeal.Hand.body_obligation2 V c, fun V c => Cert.KernelIdeal.Hand.hin2 V c, fun V c => Cert.KernelIdeal.Hand.hout2 V c,
   fun V c => Cert.KernelIdeal.Hand.body_obligation3 V c,
   fun V c => Cert.KernelIdeal.Hand.body_obligation4 V c, fun V c => Cert.KernelIdeal.Hand.hin4 V c, fun V c => Cert.KernelIdeal.Hand.hout4 V c⟩

/-- The same for the word-level program. -/
theorem bodiesWord (F : FTy → Type) [FloatOps F] : Cert.Kernel.Hand.Bodies F :=
  ⟨fun V c => Cert.Kernel.Hand.body_obligation0 V c, fun V c => Cert.Kernel.Hand.hin0 V c, fun V c => Cert.Kernel.Hand.hout0 V c,
   fun V c => Cert.Kernel.Hand.body_obligation1 V c,
   fun V c => Cert.Kernel.Hand.body_obligation2 V c, fun V c => Cert.Kernel.Hand.hin2 V c, fun V c => Cert.Kernel.Hand.hout2 V c,
   fun V c => Cert.Kernel.Hand.body_obligation3 V c,
   fun V c => Cert.Kernel.Hand.body_obligation4 V c, fun V c => Cert.Kernel.Hand.hin4 V c, fun V c => Cert.Kernel.Hand.hout4 V c⟩

/-- Each region's output array is the specification's layer of the arrays the region finds. -/
theorem values : Cert.KernelIdeal.Val.Values :=
  ⟨Cert.KernelIdeal.Val.kv0, Cert.KernelIdeal.Val.kv1, Cert.KernelIdeal.Val.kv2, Cert.KernelIdeal.Val.kv3, Cert.KernelIdeal.Val.kv4⟩

/-- The word-level program runs to its end and leaves its arguments alone. -/
theorem frameWord : Cert.frame_Kernel (hKernel := Cert.Kernel.Gen.facts) (hPre_finite_inputs := Cert.Pre_finite_inputs.Gen.facts) :=
  fun m g _ => (θ_run Cert.Kernel.defs _ _).mono (fun _ h c => (h c).2) (Cert.Kernel.Hand.run_frame m g (bodiesWord Bits))

/-- The idealized program runs to its end and leaves its arguments alone. -/
theorem frameIdeal : Cert.frame_KernelIdeal (hKernelIdeal := Cert.KernelIdeal.Gen.facts) (hPre_finite_inputs := Cert.Pre_finite_inputs.Gen.facts) :=
  fun m g _ => (θ_run Cert.KernelIdeal.defs _ _).mono (fun _ h c => (h c).2) (Cert.KernelIdeal.Hand.run_frame m g (bodiesIdeal Ideal))

/-- The reference runs to its end and leaves its arguments alone: its run with the result dropped. -/
theorem frameRef : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- From memories agreeing on the arguments both programs end with the specification's network of the arguments. -/
theorem sameResult : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Val.result_eq values m c), (h c).2⟩)
      (Cert.KernelIdeal.Hand.run_frame m g (bodiesIdeal Ideal))
  · refine (θ_run Cert.ReferenceIdeal.defs _ _).mono (fun _ h c => ⟨(h c).1.trans ?_, (h c).2⟩)
      (Cert.ReferenceIdeal.Value.run (F := Ideal) m' g')
    obtain ⟨h0, h1, h2, h3, h4, h5, h6, h7, h8, h9, h10, h11, h12, h13⟩ := hagree c
    rw [Cert.ReferenceIdeal.Read.val_main_v120_eq, Cert.ReferenceIdeal.RefValue.ref_net, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frameWord, frameIdeal, frameRef, trivial, sameResult⟩

end Cert.Proof

end
